-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v46)) (v2 : (c : Dev Cert.KernelIdeal.nD) → Buf (Elt Ideal) ((c.tc : Thread Cert.KernelIdeal.nD Cert.KernelIdeal.τ).loc Cert.KernelIdeal.main_arg2)) (v3 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_v37) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x3 : Shape := ⟨2, ![20000, 3]⟩
abbrev S320000 : Shape := ⟨1, ![320000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x3 : S_.BroadcastsInDim S20000x3 (![] : Fin 0 → Fin S20000x3.rank)
  reducesTo_S20000x3_S_d0_1 : S20000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S320000 : S_.BroadcastsInDim S320000 (![] : Fin 0 → Fin S320000.rank)
  reducesTo_S320000_S_d0 : S320000.ReducesTo [0] S_

variable [Facts]

def fn_part8 {F : FTy → Type} [FloatOps F] (main_arg4 : IVec S320000 32) (main_arg5 : IVec S320000 32) (main_v133 : IVec S_ 1) (main_v135 : IVec S320000 1) (main_c_53 : IVec S_ 32) : IVec S_ 1 :=
  let main_v136 : IVec S320000 32 := broadcastInDim S320000 ![] bcast_S_S320000 main_c_53
  let main_v137 : IVec S320000 1 := cmpi .slt main_arg4 main_v136
  let main_v138 : IVec S320000 1 := andi main_v135 main_v137
  let main_c_54 : IVec S_ 1 := constantI S_ 1 1#1
  let main_v139 : IVec S_ 1 := (fun x v => Host.reduce IntOp.andi x v reducesTo_S320000_S_d0 h_S_) main_v138 main_c_54
  let main_v140 : IVec S_ 1 := andi main_v133 main_v139
  let main_c_55 : IVec S_ 32 := constantI S_ 32 0#32
  let main_v141 : IVec S320000 32 := broadcastInDim S320000 ![] bcast_S_S320000 main_c_55
  let main_v142 : IVec S320000 1 := cmpi .sge main_arg5 main_v141
  let main_c_56 : IVec S_ 32 := constantI S_ 32 20000#32
  let main_v143 : IVec S320000 32 := broadcastInDim S320000 ![] bcast_S_S320000 main_c_56
  let main_v144 : IVec S320000 1 := cmpi .slt main_arg5 main_v143
  let main_v145 : IVec S320000 1 := andi main_v142 main_v144
  let main_c_57 : IVec S_ 1 := constantI S_ 1 1#1
  let main_v146 : IVec S_ 1 := (fun x v => Host.reduce IntOp.andi x v reducesTo_S320000_S_d0 h_S_) main_v145 main_c_57
  let main_v147 : IVec S_ 1 := andi main_v140 main_v146
  main_v147

def fn_part7 {F : FTy → Type} [FloatOps F] (main_arg4 : IVec S320000 32) (main_arg5 : IVec S320000 32) (main_arg27 : FVec F S128x128 .f32) (main_arg28 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x128 .f32 := Host.absf main_arg27
  let main_cst_48 : FVec F S_ .f32 := constant S_ .f32 0x7F800000#32
  let main_v125 : FVec F S128x128 .f32 := broadcastInDim S128x128 ![] bcast_S_S128x128 main_cst_48
  let main_v126 : IVec S128x128 1 := cmpf .olt main_v124 main_v125
  let main_c_49 : IVec S_ 1 := constantI S_ 1 1#1
  let main_v127 : IVec S_ 1 := (fun x v => Host.reduce IntOp.andi x v reducesTo_S128x128_S_d0_1 h_S_) main_v126 main_c_49
  let main_v128 : IVec S_ 1 := andi main_v123 main_v127
  let main_v129 : FVec F S128 .f32 := Host.absf main_arg28
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_c_52 : IVec S_ 32 := constantI S_ 32 0#32
  let main_v134 : IVec S320000 32 := broadcastInDim S320000 ![] bcast_S_S320000 main_c_52
  let main_v135 : IVec S320000 1 := cmpi .sge main_arg4 main_v134
  let main_c_53 : IVec S_ 32 := constantI S_ 32 20000#32
  fn_part8 (F := F) main_arg4 main_arg5 main_v133 main_v135 main_c_53

def fn_part6 {F : FTy → Type} [FloatOps F] (main_arg4 : IVec S320000 32) (main_arg5 : IVec S320000 32) (main_arg23 : FVec F S128x128 .f32) (main_arg24 : FVec F S128 .f32) (main_arg25 : FVec F S256x128 .f32) (main_arg26 : FVec F S128 .f32) (main_arg27 : FVec F S128x128 .f32) (main_arg28 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x128 .f32 := Host.absf main_arg23
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S256x128 .f32 := Host.absf main_arg25
  let main_cst_44 : FVec F S_ .f32 := constant S_ .f32 0x7F800000#32
  let main_v115 : FVec F S256x128 .f32 := broadcastInDim S256x128 ![] bcast_S_S256x128 main_cst_44
  let main_v116 : IVec S256x128 1 := cmpf .olt main_v114 main_v115
  let main_c_45 : IVec S_ 1 := constantI S_ 1 1#1
  let main_v117 : IVec S_ 1 := (fun x v => Host.reduce IntOp.andi x v reducesTo_S256x128_S_d0_1 h_S_) main_v116 main_c_45
  let main_v118 : IVec S_ 1 := andi main_v113 main_v117
  let main_v119 : FVec F S128 .f32 := Host.absf main_arg26
  fn_part7 (F := F) main_arg4 main_arg5 main_arg27 main_arg28 main_v118 main_v119

def fn_part5 {F : FTy → Type} [FloatOps F] (main_arg4 : IVec S320000 32) (main_arg5 : IVec S320000 32) (main_arg20 : FVec F S128x1 .f32) (main_arg21 : FVec F S256x128 .f32) (main_arg22 : FVec F S128 .f32) (main_arg23 : FVec F S128x128 .f32) (main_arg24 : FVec F S128 .f32) (main_arg25 : FVec F S256x128 .f32) (main_arg26 : FVec F S128 .f32) (main_arg27 : FVec F S128x128 .f32) (main_arg28 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x1 .f32 := Host.absf main_arg20
  let main_cst_34 : FVec F S_ .f32 := constant S_ .f32 0x7F800000#32
  let main_v90 : FVec F S128x1 .f32 := broadcastInDim S128x1 ![] bcast_S_S128x1 main_cst_34
  let main_v91 : IVec S128x1 1 := cmpf .olt main_v89 main_v90
  let main_c_35 : IVec S_ 1 := constantI S_ 1 1#1
  let main_v92 : IVec S_ 1 := (fun x v => Host.reduce IntOp.andi x v reducesTo_S128x1_S_d0_1 h_S_) main_v91 main_c_35
  let main_v93 : IVec S_ 1 := andi main_v88 main_v92
  let main_v94 : FVec F S256x128 .f32 := Host.absf main_arg21
  let main_cst_36 : FVec F S_ .f32 := constant S_ .f32 0x7F800000#32
  let main_v95 : FVec F S256x128 .f32 := broadcastInDim S256x128 ![] bcast_S_S256x128 main_cst_36
  let main_v96 : IVec S256x128 1 := cmpf .olt main_v94 main_v95
  let main_c_37 : IVec S_ 1 := constantI S_ 1 1#1
  let main_v97 : IVec S_ 1 := (fun x v => Host.reduce IntOp.andi x v reducesTo_S256x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg4 main_arg5 main_arg23 main_arg24 main_arg25 main_arg26 main_arg27 main_arg28 main_v98 main_v101 main_c_39

def fn_part4 {F : FTy → Type} [FloatOps F] (main_arg4 : IVec S320000 32) (main_arg5 : IVec S320000 32) (main_arg16 : FVec F S128x1 .f32) (main_arg17 : FVec F S1 .f32) (main_arg18 : FVec F S128x128 .f32) (main_arg19 : FVec F S128 .f32) (main_arg20 : FVec F S128x1 .f32) (main_arg21 : FVec F S256x128 .f32) (main_arg22 : FVec F S128 .f32) (main_arg23 : FVec F S128x128 .f32) (main_arg24 : FVec F S128 .f32) (main_arg25 : FVec F S256x128 .f32) (main_arg26 : FVec F S128 .f32) (main_arg27 : FVec F S128x128 .f32) (main_arg28 : FVec F S128 .f32) (main_v63 : IVec S_ 1) (main_v67 : IVec S_ 1) : IVec S_ 1 :=
  let main_v68 : IVec S_ 1 := andi main_v63 main_v67
  let main_v69 : FVec F S128x1 .f32 := Host.absf main_arg16
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg4 main_arg5 main_arg20 main_arg21 main_arg22 main_arg23 main_arg24 main_arg25 main_arg26 main_arg27 main_arg28 main_v83 main_v84 main_cst_32

def fn_part3 {F : FTy → Type} [FloatOps F] (main_arg4 : IVec S320000 32) (main_arg5 : IVec S320000 32) (main_arg13 : FVec F S128 .f32) (main_arg14 : FVec F S128x1 .f32) (main_arg15 : FVec F S1 .f32) (main_arg16 : FVec F S128x1 .f32) (main_arg17 : FVec F S1 .f32) (main_arg18 : FVec F S128x128 .f32) (main_arg19 : FVec F S128 .f32) (main_arg20 : FVec F S128x1 .f32) (main_arg21 : FVec F S256x128 .f32) (main_arg22 : FVec F S128 .f32) (main_arg23 : FVec F S128x128 .f32) (main_arg24 : FVec F S128 .f32) (main_arg25 : FVec F S256x128 .f32) (main_arg26 : FVec F S128 .f32) (main_arg27 : FVec F S128x128 .f32) (main_arg28 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg14
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg4 main_arg5 main_arg16 main_arg17 main_arg18 main_arg19 main_arg20 main_arg21 main_arg22 main_arg23 main_arg24 main_arg25 main_arg26 main_arg27 main_arg28 main_v63 main_v67

def fn_part2 {F : FTy → Type} [FloatOps F] (main_arg4 : IVec S320000 32) (main_arg5 : IVec S320000 32) (main_arg9 : FVec F S128 .f32) (main_arg10 : FVec F S257x128 .f32) (main_arg11 : FVec F S128 .f32) (main_arg12 : FVec F S128x128 .f32) (main_arg13 : FVec F S128 .f32) (main_arg14 : FVec F S128x1 .f32) (main_arg15 : FVec F S1 .f32) (main_arg16 : FVec F S128x1 .f32) (main_arg17 : FVec F S1 .f32) (main_arg18 : FVec F S128x128 .f32) (main_arg19 : FVec F S128 .f32) (main_arg20 : FVec F S128x1 .f32) (main_arg21 : FVec F S256x128 .f32) (main_arg22 : FVec F S128 .f32) (main_arg23 : FVec F S128x128 .f32) (main_arg24 : FVec F S128 .f32) (main_arg25 : FVec F S256x128 .f32) (main_arg26 : FVec F S128 .f32) (main_arg27 : FVec F S128x128 .f32) (main_arg28 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S257x128 .f32 := Host.absf main_arg10
  let main_cst_14 : FVec F S_ .f32 := constant S_ .f32 0x7F800000#32
  let main_v40 : FVec F S257x128 .f32 := broadcastInDim S257x128 ![] bcast_S_S257x128 main_cst_14
  let main_v41 : IVec S257x128 1 := cmpf .olt main_v39 main_v40
  let main_c_15 : IVec S_ 1 := constantI S_ 1 1#1
  let main_v42 : IVec S_ 1 := (fun x v => Host.reduce IntOp.andi x v reducesTo_S257x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg4 main_arg5 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg4 : IVec S320000 32) (main_arg5 : IVec S320000 32) (main_arg6 : FVec F S257x128 .f32) (main_arg7 : FVec F S128 .f32) (main_arg8 : FVec F S128x128 .f32) (main_arg9 : FVec F S128 .f32) (main_arg10 : FVec F S257x128 .f32) (main_arg11 : FVec F S128 .f32) (main_arg12 : FVec F S128x128 .f32) (main_arg13 : FVec F S128 .f32) (main_arg14 : FVec F S128x1 .f32) (main_arg15 : FVec F S1 .f32) (main_arg16 : FVec F S128x1 .f32) (main_arg17 : FVec F S1 .f32) (main_arg18 : FVec F S128x128 .f32) (main_arg19 : FVec F S128 .f32) (main_arg20 : FVec F S128x1 .f32) (main_arg21 : FVec F S256x128 .f32) (main_arg22 : FVec F S128 .f32) (main_arg23 : FVec F S128x128 .f32) (main_arg24 : FVec F S128 .f32) (main_arg25 : FVec F S256x128 .f32) (main_arg26 : FVec F S128 .f32) (main_arg27 : FVec F S128x128 .f32) (main_arg28 : FVec F S128 .f32) (main_v13 : IVec S_ 1) (main_v16 : IVec S20000x3 1) : IVec S_ 1 :=
  let main_c_5 : IVec S_ 1 := constantI S_ 1 1#1
  let main_v17 : IVec S_ 1 := (fun x v => Host.reduce IntOp.andi x v reducesTo_S20000x3_S_d0_1 h_S_) main_v16 main_c_5
  let main_v18 : IVec S_ 1 := andi main_v13 main_v17
  let main_v19 : FVec F S257x128 .f32 := Host.absf main_arg6
  let main_cst_6 : FVec F S_ .f32 := constant S_ .f32 0x7F800000#32
  let main_v20 : FVec F S257x128 .f32 := broadcastInDim S257x128 ![] bcast_S_S257x128 main_cst_6
  let main_v21 : IVec S257x128 1 := cmpf .olt main_v19 main_v20
  let main_c_7 : IVec S_ 1 := constantI S_ 1 1#1
  let main_v22 : IVec S_ 1 := (fun x v => Host.reduce IntOp.andi x v reducesTo_S257x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg4 main_arg5 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S20000x128 .f32) (main_arg1 : FVec F S20000x128 .f32) (main_arg2 : FVec F S20000x3 .f32) (main_arg3 : FVec F S20000x3 .f32) (main_arg4 : IVec S320000 32) (main_arg5 : IVec S320000 32) (main_arg6 : FVec F S257x128 .f32) (main_arg7 : FVec F S128 .f32) (main_arg8 : FVec F S128x128 .f32) (main_arg9 : FVec F S128 .f32) (main_arg10 : FVec F S257x128 .f32) (main_arg11 : FVec F S128 .f32) (main_arg12 : FVec F S128x128 .f32) (main_arg13 : FVec F S128 .f32) (main_arg14 : FVec F S128x1 .f32) (main_arg15 : FVec F S1 .f32) (main_arg16 : FVec F S128x1 .f32) (main_arg17 : FVec F S1 .f32) (main_arg18 : FVec F S128x128 .f32) (main_arg19 : FVec F S128 .f32) (main_arg20 : FVec F S128x1 .f32) (main_arg21 : FVec F S256x128 .f32) (main_arg22 : FVec F S128 .f32) (main_arg23 : FVec F S128x128 .f32) (main_arg24 : FVec F S128 .f32) (main_arg25 : FVec F S256x128 .f32) (main_arg26 : FVec F S128 .f32) (main_arg27 : FVec F S128x128 .f32) (main_arg28 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S20000x3 .f32 := Host.absf main_arg2
  let main_cst_2 : FVec F S_ .f32 := constant S_ .f32 0x7F800000#32
  let main_v10 : FVec F S20000x3 .f32 := broadcastInDim S20000x3 ![] bcast_S_S20000x3 main_cst_2
  let main_v11 : IVec S20000x3 1 := cmpf .olt main_v9 main_v10
  let main_c_3 : IVec S_ 1 := constantI S_ 1 1#1
  let main_v12 : IVec S_ 1 := (fun x v => Host.reduce IntOp.andi x v reducesTo_S20000x3_S_d0_1 h_S_) main_v11 main_c_3
  let main_v13 : IVec S_ 1 := andi main_v8 main_v12
  let main_v14 : FVec F S20000x3 .f32 := Host.absf main_arg3
  let main_cst_4 : FVec F S_ .f32 := constant S_ .f32 0x7F800000#32
  let main_v15 : FVec F S20000x3 .f32 := broadcastInDim S20000x3 ![] bcast_S_S20000x3 main_cst_4
  let main_v16 : IVec S20000x3 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S20000x128 : Shape := ⟨2, ![20000, 128]⟩
abbrev S20000x3 : Shape := ⟨2, ![20000, 3]⟩
abbrev S320000 : Shape := ⟨1, ![320000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S_ : Shape := ⟨0, ![]⟩
abbrev S320000x1 : Shape := ⟨2, ![320000, 1]⟩
abbrev S1x1 : Shape := ⟨2, ![1, 1]⟩
abbrev S320000x128 : Shape := ⟨2, ![320000, 128]⟩
abbrev S320000x3 : Shape := ⟨2, ![320000, 3]⟩
abbrev S1x128 : Shape := ⟨2, ![1, 128]⟩
abbrev S2000x128 : Shape := ⟨2, ![2000, 128]⟩
abbrev S2000x3 : Shape := ⟨2, ![2000, 3]⟩
abbrev S2000 : Shape := ⟨1, ![2000]⟩
abbrev S2000x1 : Shape := ⟨2, ![2000, 1]⟩
abbrev S20000 : Shape := ⟨1, ![20000]⟩
abbrev S20000x1 : Shape := ⟨2, ![20000, 1]⟩
abbrev S4000x128 : Shape := ⟨2, ![4000, 128]⟩

abbrev nBuf : Space → Nat
  | .hbm => 180
  | .vmem => 55
  | .smem => 0
  | _ => 0

abbrev hbmTy0_0 (i : Nat) : BufTy := match i % 128 with
  | 0 => ⟨S20000x128, .f32⟩
  | 1 => ⟨S20000x128, .f32⟩
  | 2 => ⟨S20000x3, .f32⟩
  | 3 => ⟨S20000x3, .f32⟩
  | 4 => ⟨S320000, .i32⟩
  | 5 => ⟨S320000, .i32⟩
  | 6 => ⟨S257x128, .f32⟩
  | 7 => ⟨S128, .f32⟩
  | 8 => ⟨S128x128, .f32⟩
  | 9 => ⟨S128, .f32⟩
  | 10 => ⟨S257x128, .f32⟩
  | 11 => ⟨S128, .f32⟩
  | 12 => ⟨S128x128, .f32⟩
  | 13 => ⟨S128, .f32⟩
  | 14 => ⟨S128x1, .f32⟩
  | 15 => ⟨S1, .f32⟩
  | 16 => ⟨S128x1, .f32⟩
  | 17 => ⟨S1, .f32⟩
  | 18 => ⟨S128x128, .f32⟩
  | 19 => ⟨S128, .f32⟩
  | 20 => ⟨S128x1, .f32⟩
  | 21 => ⟨S256x128, .f32⟩
  | 22 => ⟨S128, .f32⟩
  | 23 => ⟨S128x128, .f32⟩
  | 24 => ⟨S128, .f32⟩
  | 25 => ⟨S256x128, .f32⟩
  | 26 => ⟨S128, .f32⟩
  | 27 => ⟨S128x128, .f32⟩
  | 28 => ⟨S128, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S1, .i32⟩
  | 38 => ⟨S_, .i32⟩
  | 39 => ⟨S320000x1, .i32⟩
  | 40 => ⟨S320000x1, .i1⟩
  | 41 => ⟨S1x1, .i32⟩
  | 42 => ⟨S320000x1, .i32⟩
  | 43 => ⟨S320000x1, .i1⟩
  | 44 => ⟨S320000x1, .i1⟩
  | 45 => ⟨S_, .i1⟩
  | 46 => ⟨S320000, .i1⟩
  | 47 => ⟨S320000x128, .f32⟩
  | 48 => ⟨S320000x128, .i1⟩
  | 49 => ⟨S_, .f32⟩
  | 50 => ⟨S320000x128, .f32⟩
  | 51 => ⟨S320000x128, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S1, .i32⟩
  | 61 => ⟨S_, .i32⟩
  | 62 => ⟨S320000x1, .i32⟩
  | 63 => ⟨S320000x1, .i1⟩
  | 64 => ⟨S1x1, .i32⟩
  | 65 => ⟨S320000x1, .i32⟩
  | 66 => ⟨S320000x1, .i1⟩
  | 67 => ⟨S320000x1, .i1⟩
  | 68 => ⟨S_, .i1⟩
  | 69 => ⟨S320000, .i1⟩
  | 70 => ⟨S320000x128, .f32⟩
  | 71 => ⟨S320000x128, .i1⟩
  | 72 => ⟨S_, .f32⟩
  | 73 => ⟨S320000x128, .f32⟩
  | 74 => ⟨S320000x128, .f32⟩
  | 75 => ⟨S_, .i32⟩
  | 76 => ⟨S320000, .i32⟩
  | 77 => ⟨S320000, .i1⟩
  | 78 => ⟨S_, .i32⟩
  | 79 => ⟨S320000, .i32⟩
  | 80 => ⟨S320000, .i32⟩
  | 81 => ⟨S320000, .i32⟩
  | 82 => ⟨S320000x1, .i32⟩
  | 83 => ⟨S1, .i32⟩
  | 84 => ⟨S_, .i32⟩
  | 85 => ⟨S320000x1, .i32⟩
  | 86 => ⟨S320000x1, .i1⟩
  | 87 => ⟨S1x1, .i32⟩
  | 88 => ⟨S320000x1, .i32⟩
  | 89 => ⟨S320000x1, .i1⟩
  | 90 => ⟨S320000x1, .i1⟩
  | 91 => ⟨S_, .i1⟩
  | 92 => ⟨S320000, .i1⟩
  | 93 => ⟨S320000x3, .f32⟩
  | 94 => ⟨S320000x3, .i1⟩
  | 95 => ⟨S_, .f32⟩
  | 96 => ⟨S320000x3, .f32⟩
  | 97 => ⟨S320000x3, .f32⟩
  | 98 => ⟨S_, .i32⟩
  | 99 => ⟨S320000, .i32⟩
  | 100 => ⟨S320000, .i1⟩
  | 101 => ⟨S_, .i32⟩
  | 102 => ⟨S320000, .i32⟩
  | 103 => ⟨S320000, .i32⟩
  | 104 => ⟨S320000, .i32⟩
  | 105 => ⟨S320000x1, .i32⟩
  | 106 => ⟨S1, .i32⟩
  | 107 => ⟨S_, .i32⟩
  | 108 => ⟨S320000x1, .i32⟩
  | 109 => ⟨S320000x1, .i1⟩
  | 110 => ⟨S1x1, .i32⟩
  | 111 => ⟨S320000x1, .i32⟩
  | 112 => ⟨S320000x1, .i1⟩
  | 113 => ⟨S320000x1, .i1⟩
  | 114 => ⟨S_, .i1⟩
  | 115 => ⟨S320000, .i1⟩
  | 116 => ⟨S320000x3, .f32⟩
  | 117 => ⟨S320000x3, .i1⟩
  | 118 => ⟨S_, .f32⟩
  | 119 => ⟨S320000x3, .f32⟩
  | 120 => ⟨S320000x3, .f32⟩
  | 121 => ⟨S128x128, .f32⟩
  | 122 => ⟨S128x128, .f32⟩
  | 123 => ⟨S1x128, .f32⟩
  | 124 => ⟨S128x128, .f32⟩
  | 125 => ⟨S128x128, .f32⟩
  | 126 => ⟨S1x128, .f32⟩
  | 127 => ⟨S1x128, .f32⟩
  | _ => ⟨S20000x128, .f32⟩

abbrev hbmTy0_1 (i : Nat) : BufTy := match i % 128 with
  | 0 => ⟨S1x128, .f32⟩
  | 1 => ⟨S1x128, .f32⟩
  | 2 => ⟨S1x128, .f32⟩
  | 3 => ⟨S1x1, .f32⟩
  | 4 => ⟨S1x1, .f32⟩
  | 5 => ⟨S1x128, .f32⟩
  | 6 => ⟨S320000x128, .f32⟩
  | 7 => ⟨S320000x128, .f32⟩
  | 8 => ⟨S320000x3, .f32⟩
  | 9 => ⟨S_, .f32⟩
  | 10 => ⟨S20000x128, .f32⟩
  | 11 => ⟨S320000x1, .i32⟩
  | 12 => ⟨S20000x128, .f32⟩
  | 13 => ⟨S_, .f32⟩
  | 14 => ⟨S20000x128, .f32⟩
  | 15 => ⟨S320000x1, .i32⟩
  | 16 => ⟨S20000x128, .f32⟩
  | 17 => ⟨S_, .f32⟩
  | 18 => ⟨S20000x3, .f32⟩
  | 19 => ⟨S320000x1, .i32⟩
  | 20 => ⟨S20000x3, .f32⟩
  | 21 => ⟨S_, .f32⟩
  | 22 => ⟨S320000, .f32⟩
  | 23 => ⟨S_, .f32⟩
  | 24 => ⟨S20000, .f32⟩
  | 25 => ⟨S320000x1, .i32⟩
  | 26 => ⟨S20000, .f32⟩
  | 27 => ⟨S_, .f32⟩
  | 28 => ⟨S20000, .f32⟩
  | 29 => ⟨S20000, .f32⟩
  | 30 => ⟨S20000x1, .f32⟩
  | 31 => ⟨S20000x3, .f32⟩
  | 32 => ⟨S20000x3, .f32⟩
  | 33 => ⟨S_, .f32⟩
  | 34 => ⟨S_, .f32⟩
  | 35 => ⟨S_, .f32⟩
  | 36 => ⟨S20000x3, .f32⟩
  | 37 => ⟨S20000x3, .f32⟩
  | 38 => ⟨S_, .f32⟩
  | 39 => ⟨S20000x3, .f32⟩
  | 40 => ⟨S20000x3, .f32⟩
  | 41 => ⟨S20000x3, .f32⟩
  | 42 => ⟨S128x128, .f32⟩
  | 43 => ⟨S128x128, .f32⟩
  | 44 => ⟨S128x128, .f32⟩
  | 45 => ⟨S128x128, .f32⟩
  | 46 => ⟨S1x128, .f32⟩
  | 47 => ⟨S1x128, .f32⟩
  | 48 => ⟨S1x128, .f32⟩
  | 49 => ⟨S1x128, .f32⟩
  | 50 => ⟨S20000x128, .f32⟩
  | 51 => ⟨S20000x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x3, .f32⟩
  | .local _ .vmem, ⟨5, _⟩ => ⟨S2000x3, .f32⟩
  | .local _ .vmem, ⟨6, _⟩ => ⟨S2000x3, .f32⟩
  | .local _ .vmem, ⟨7, _⟩ => ⟨S2000x3, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x1, .f32⟩
  | .local _ .vmem, ⟨15, _⟩ => ⟨S1x1, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S128x1, .f32⟩
  | .local _ .vmem, ⟨23, _⟩ => ⟨S1x1, .f32⟩
  | .local _ .vmem, ⟨24, _⟩ => ⟨S128x128, .f32⟩
  | .local _ .vmem, ⟨25, _⟩ => ⟨S1x128, .f32⟩
  | .local _ .vmem, ⟨26, _⟩ => ⟨S128x1, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x3, .f32⟩
  | .local _ .vmem, ⟨32, _⟩ => ⟨S2000x3, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S128x128, .f32⟩
  | .local _ .vmem, ⟨38, _⟩ => ⟨S128x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S4000x128, .f32⟩
  | .local _ .vmem, ⟨43, _⟩ => ⟨S4000x128, .f32⟩
  | .local _ .vmem, ⟨44, _⟩ => ⟨S4000x128, .f32⟩
  | .local _ .vmem, ⟨45, _⟩ => ⟨S4000x128, .f32⟩
  | .local _ .vmem, ⟨46, _⟩ => ⟨S4000x128, .f32⟩
  | .local _ .vmem, ⟨47, _⟩ => ⟨S4000x128, .f32⟩
  | .local _ .vmem, ⟨48, _⟩ => ⟨S128x128, .f32⟩
  | .local _ .vmem, ⟨49, _⟩ => ⟨S128x128, .f32⟩
  | .local _ .vmem, ⟨50, _⟩ => ⟨S1x128, .f32⟩
  | .local _ .vmem, ⟨51, _⟩ => ⟨S128x128, .f32⟩
  | .local _ .vmem, ⟨52, _⟩ => ⟨S1x128, .f32⟩
  | .local _ .vmem, ⟨53, _⟩ => ⟨S4000x128, .f32⟩
  | .local _ .vmem, ⟨54, _⟩ => ⟨S4000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v0 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v1 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v2 : Ref sig .tc := ⟨.hbm, 97, rfl⟩
abbrev main_call3_c : Ref sig .tc := ⟨.hbm, 98, rfl⟩
abbrev main_call3_v0 : Ref sig .tc := ⟨.hbm, 99, rfl⟩
abbrev main_call3_v1 : Ref sig .tc := ⟨.hbm, 100, rfl⟩
abbrev main_call3_c_0 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_c_1 : Ref sig .tc := ⟨.hbm, 106, rfl⟩
abbrev main_call3_c_2 : Ref sig .tc := ⟨.hbm, 107, rfl⟩
abbrev main_call3_v6 : Ref sig .tc := ⟨.hbm, 108, rfl⟩
abbrev main_call3_v7 : Ref sig .tc := ⟨.hbm, 109, rfl⟩
abbrev main_call3_v8 : Ref sig .tc := ⟨.hbm, 110, rfl⟩
abbrev main_call3_v9 : Ref sig .tc := ⟨.hbm, 111, rfl⟩
abbrev main_call3_v10 : Ref sig .tc := ⟨.hbm, 112, rfl⟩
abbrev main_call3_v11 : Ref sig .tc := ⟨.hbm, 113, rfl⟩
abbrev main_call3_c_3 : Ref sig .tc := ⟨.hbm, 114, rfl⟩
abbrev main_call3_v12 : Ref sig .tc := ⟨.hbm, 115, rfl⟩
abbrev main_call3_v13 : Ref sig .tc := ⟨.hbm, 116, rfl⟩
abbrev main_call3_v14 : Ref sig .tc := ⟨.hbm, 117, rfl⟩
abbrev main_call3_cst : Ref sig .tc := ⟨.hbm, 118, rfl⟩
abbrev main_call3_v15 : Ref sig .tc := ⟨.hbm, 119, rfl⟩
abbrev main_v3 : Ref sig .tc := ⟨.hbm, 120, rfl⟩
abbrev main_v4 : Ref sig .tc := ⟨.hbm, 121, rfl⟩
abbrev main_v5 : Ref sig .tc := ⟨.hbm, 122, rfl⟩
abbrev main_v6 : Ref sig .tc := ⟨.hbm, 123, rfl⟩
abbrev main_v7 : Ref sig .tc := ⟨.hbm, 124, rfl⟩
abbrev main_v8 : Ref sig .tc := ⟨.hbm, 125, rfl⟩
abbrev main_v9 : Ref sig .tc := ⟨.hbm, 126, rfl⟩
abbrev main_v10 : Ref sig .tc := ⟨.hbm, 127, rfl⟩
abbrev main_v11 : Ref sig .tc := ⟨.hbm, 128, rfl⟩
abbrev main_v12 : Ref sig .tc := ⟨.hbm, 129, rfl⟩
abbrev main_v13 : Ref sig .tc := ⟨.hbm, 130, rfl⟩
abbrev main_v14 : Ref sig .tc := ⟨.hbm, 131, rfl⟩
abbrev main_v15 : Ref sig .tc := ⟨.hbm, 132, rfl⟩
abbrev main_v16 : Ref sig .tc := ⟨.hbm, 133, rfl⟩
abbrev main_v17_0 : Ref sig .tc := ⟨.hbm, 134, rfl⟩
abbrev main_v17_1 : Ref sig .tc := ⟨.hbm, 135, rfl⟩
abbrev main_v17_2 : Ref sig .tc := ⟨.hbm, 136, rfl⟩
abbrev main_cst : Ref sig .tc := ⟨.hbm, 137, rfl⟩
abbrev main_v18 : Ref sig .tc := ⟨.hbm, 138, rfl⟩
abbrev main_v19 : Ref sig .tc := ⟨.hbm, 139, rfl⟩
abbrev main_v20 : Ref sig .tc := ⟨.hbm, 140, rfl⟩
abbrev main_cst_0 : Ref sig .tc := ⟨.hbm, 141, rfl⟩
abbrev main_v21 : Ref sig .tc := ⟨.hbm, 142, rfl⟩
abbrev main_v22 : Ref sig .tc := ⟨.hbm, 143, rfl⟩
abbrev main_v23 : Ref sig .tc := ⟨.hbm, 144, rfl⟩
abbrev main_cst_1 : Ref sig .tc := ⟨.hbm, 145, rfl⟩
abbrev main_v24 : Ref sig .tc := ⟨.hbm, 146, rfl⟩
abbrev main_v25 : Ref sig .tc := ⟨.hbm, 147, rfl⟩
abbrev main_v26 : Ref sig .tc := ⟨.hbm, 148, rfl⟩
abbrev main_cst_2 : Ref sig .tc := ⟨.hbm, 149, rfl⟩
abbrev main_v27 : Ref sig .tc := ⟨.hbm, 150, rfl⟩
abbrev main_cst_3 : Ref sig .tc := ⟨.hbm, 151, rfl⟩
abbrev main_v28 : Ref sig .tc := ⟨.hbm, 152, rfl⟩
abbrev main_v29 : Ref sig .tc := ⟨.hbm, 153, rfl⟩
abbrev main_v30 : Ref sig .tc := ⟨.hbm, 154, rfl⟩
abbrev main_cst_4 : Ref sig .tc := ⟨.hbm, 155, rfl⟩
abbrev main_v31 : Ref sig .tc := ⟨.hbm, 156, rfl⟩
abbrev main_v32 : Ref sig .tc := ⟨.hbm, 157, rfl⟩
abbrev main_v33 : Ref sig .tc := ⟨.hbm, 158, rfl⟩
abbrev main_v34 : Ref sig .tc := ⟨.hbm, 159, rfl⟩
abbrev main_v35 : Ref sig .tc := ⟨.hbm, 160, rfl⟩
abbrev main_cst_5 : Ref sig .tc := ⟨.hbm, 161, rfl⟩
abbrev main_cst_6 : Ref sig .tc := ⟨.hbm, 162, rfl⟩
abbrev main_call4_v0 : Ref sig .tc := ⟨.hbm, 163, rfl⟩
abbrev main_call4_v1 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_v36 : Ref sig .tc := ⟨.hbm, 168, rfl⟩
abbrev main_v37 : Ref sig .tc := ⟨.hbm, 169, rfl⟩
abbrev main_v38 : Ref sig .tc := ⟨.hbm, 170, rfl⟩
abbrev main_v39 : Ref sig .tc := ⟨.hbm, 171, rfl⟩
abbrev main_v40 : Ref sig .tc := ⟨.hbm, 172, rfl⟩
abbrev main_v41 : Ref sig .tc := ⟨.hbm, 173, rfl⟩
abbrev main_v42 : Ref sig .tc := ⟨.hbm, 174, rfl⟩
abbrev main_v43 : Ref sig .tc := ⟨.hbm, 175, rfl⟩
abbrev main_v44 : Ref sig .tc := ⟨.hbm, 176, rfl⟩
abbrev main_v45 : Ref sig .tc := ⟨.hbm, 177, rfl⟩
abbrev main_v46 : Ref sig .tc := ⟨.hbm, 178, rfl⟩
abbrev main_v47 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg23_1 : Ref sig .tc := ⟨.vmem, 28, rfl⟩
abbrev cc0_stg24_0 : Ref sig .tc := ⟨.vmem, 29, rfl⟩
abbrev cc0_stg24_1 : Ref sig .tc := ⟨.vmem, 30, rfl⟩
abbrev cc0_stg25_0 : Ref sig .tc := ⟨.vmem, 31, rfl⟩
abbrev cc0_stg25_1 : Ref sig .tc := ⟨.vmem, 32, rfl⟩
abbrev cc1_stg0_0 : Ref sig .tc := ⟨.vmem, 33, rfl⟩
abbrev cc1_stg0_1 : Ref sig .tc := ⟨.vmem, 34, rfl⟩
abbrev cc1_stg1_0 : Ref sig .tc := ⟨.vmem, 35, rfl⟩
abbrev cc1_stg1_1 : Ref sig .tc := ⟨.vmem, 36, rfl⟩
abbrev cc1_stg2_0 : Ref sig .tc := ⟨.vmem, 37, rfl⟩
abbrev cc1_stg3_0 : Ref sig .tc := ⟨.vmem, 38, rfl⟩
abbrev cc1_stg4_0 : Ref sig .tc := ⟨.vmem, 39, rfl⟩
abbrev cc1_stg5_0 : Ref sig .tc := ⟨.vmem, 40, rfl⟩
abbrev cc1_stg6_0 : Ref sig .tc := ⟨.vmem, 41, rfl⟩
abbrev cc1_stg7_0 : Ref sig .tc := ⟨.vmem, 42, rfl⟩
abbrev cc1_stg7_1 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg3_0 : Ref sig .tc := ⟨.vmem, 49, rfl⟩
abbrev cc2_stg4_0 : Ref sig .tc := ⟨.vmem, 50, rfl⟩
abbrev cc2_stg5_0 : Ref sig .tc := ⟨.vmem, 51, rfl⟩
abbrev cc2_stg6_0 : Ref sig .tc := ⟨.vmem, 52, rfl⟩
abbrev cc2_stg7_0 : Ref sig .tc := ⟨.vmem, 53, rfl⟩
abbrev cc2_stg7_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem23_1 : DmaSem sig := 28
abbrev cc0_sem24_0 : DmaSem sig := 29
abbrev cc0_sem24_1 : DmaSem sig := 30
abbrev cc0_sem25_0 : DmaSem sig := 31
abbrev cc0_sem25_1 : DmaSem sig := 32
abbrev cc1_sem0_0 : DmaSem sig := 33
abbrev cc1_sem0_1 : DmaSem sig := 34
abbrev cc1_sem1_0 : DmaSem sig := 35
abbrev cc1_sem1_1 : DmaSem sig := 36
abbrev cc1_sem2_0 : DmaSem sig := 37
abbrev cc1_sem3_0 : DmaSem sig := 38
abbrev cc1_sem4_0 : DmaSem sig := 39
abbrev cc1_sem5_0 : DmaSem sig := 40
abbrev cc1_sem6_0 : DmaSem sig := 41
abbrev cc1_sem7_0 : DmaSem sig := 42
abbrev cc1_sem7_1 : DmaSem sig := 43
abbrev cc2_sem0_0 : DmaSem sig := 44
abbrev cc2_sem0_1 : DmaSem sig := 45
abbrev cc2_sem1_0 : DmaSem sig := 46
abbrev cc2_sem1_1 : DmaSem sig := 47
abbrev cc2_sem2_0 : DmaSem sig := 48
abbrev cc2_sem3_0 : DmaSem sig := 49
abbrev cc2_sem4_0 : DmaSem sig := 50
abbrev cc2_sem5_0 : DmaSem sig := 51
abbrev cc2_sem6_0 : DmaSem sig := 52
abbrev cc2_sem7_0 : DmaSem sig := 53
abbrev cc2_sem7_1 : DmaSem sig := 54

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S2000x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2000x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S2000x3 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  bcast_S320000_S320000x3_0 : S320000.BroadcastsInDim S320000x3 (![0] : Fin 1 → Fin S320000x3.rank)
  bcast_S_S320000x3 : S_.BroadcastsInDim S320000x3 (![] : Fin 0 → Fin S320000x3.rank)
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  reduces_S2000x3_S2000 : S2000x3.Reduces [1] S2000
  shapeCasts_S2000_S2000x1 : S2000.ShapeCasts S2000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  broadcasts_S2000x1_S2000x128 : S2000x1.Broadcasts S2000x128
  broadcasts_S2000x1_S2000x3 : S2000x1.Broadcasts S2000x3
  bcast_S_S20000x128 : S_.BroadcastsInDim S20000x128 (![] : Fin 0 → Fin S20000x128.rank)
  bcast_S_S20000x3 : S_.BroadcastsInDim S20000x3 (![] : Fin 0 → Fin S20000x3.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x3_0_1 : S20000x1.BroadcastsInDim S20000x3 (![0, 1] : Fin 2 → Fin S20000x3.rank)
  slices_S256x128_S128x128_0_0 : S256x128.Slices ![0, 0] S128x128
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  gather_S20000x128_S320000x1_S320000x128_1_0_n_n_0_1_1128_wf : GatherDims.WF S20000x128 S320000x1 S320000x128 [1] [0] [] [0] [] 1 ![1, 128]
  gather_S20000x3_S320000x1_S320000x3_1_0_n_n_0_1_13_wf : GatherDims.WF S20000x3 S320000x1 S320000x3 [1] [0] [] [0] [] 1 ![1, 3]
  dot_S2000x128_S128x128_S2000x128_1_0_0_1_n_n_wf : DotDims.WF S2000x128 S128x128 S2000x128 [1] [0] [0] [1] [] []
  dot_S2000x1_S1x128_S2000x128_1_0_0_1_n_n_wf : DotDims.WF S2000x1 S1x128 S2000x128 [1] [0] [0] [1] [] []
  dot_S2000x128_S128x1_S2000x1_1_0_0_1_n_n_wf : DotDims.WF S2000x128 S128x1 S2000x1 [1] [0] [0] [1] [] []
  scatter_S20000x128_S320000x1_S320000x128_1_0_0_1_wf : ScatterDims.WF S20000x128 S320000x1 S320000x128 [1] [0] [0] 1
  scatter_S20000x3_S320000x1_S320000x3_1_0_0_1_wf : ScatterDims.WF S20000x3 S320000x1 S320000x3 [1] [0] [0] 1
  scatter_S20000_S320000x1_S320000_n_0_0_1_wf : ScatterDims.WF S20000 S320000x1 S320000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S320000x128.size a
  hwx0_0 : ∀ i : grid0.Coords, EltTy.bits .f32 = 32 ∨ (Rect.block (s := S320000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S320000x128.size a
  hwx0_1 : ∀ i : grid0.Coords, EltTy.bits .f32 = 32 ∨ (Rect.block (s := S320000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x3.size a ≤ S320000x3.size a
  hwx0_2 : ∀ i : grid0.Coords, EltTy.bits .f32 = 32 ∨ (Rect.block (s := S320000x3) S2000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x3.size a ≤ S320000x3.size a
  hwx0_3 : ∀ i : grid0.Coords, EltTy.bits .f32 = 32 ∨ (Rect.block (s := S320000x3) S2000x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S128x1.size a
  hwx0_10 : ∀ i : grid0.Coords, EltTy.bits .f32 = 32 ∨ (Rect.block (s := S128x1) S128x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x128.size a ≤ S128x128.size a
  hwx0_16 : ∀ i : grid0.Coords, EltTy.bits .f32 = 32 ∨ (Rect.block (s := S128x128) S128x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128x1.size a ≤ S128x1.size a
  hwx0_18 : ∀ i : grid0.Coords, EltTy.bits .f32 = 32 ∨ (Rect.block (s := S128x1) S128x1.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1.size a ≤ S1x1.size a
  hwx0_19 : ∀ i : grid0.Coords, EltTy.bits .f32 = 32 ∨ (Rect.block (s := S1x1) S1x1.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x128.size a ≤ S128x128.size a
  hwx0_20 : ∀ i : grid0.Coords, EltTy.bits .f32 = 32 ∨ (Rect.block (s := S128x128) S128x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x128.size a ≤ S1x128.size a
  hwx0_21 : ∀ i : grid0.Coords, EltTy.bits .f32 = 32 ∨ (Rect.block (s := S1x128) S1x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S128x1.size a ≤ S128x1.size a
  hwx0_22 : ∀ i : grid0.Coords, EltTy.bits .f32 = 32 ∨ (Rect.block (s := S128x1) S128x1.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S2000x128.size a ≤ S320000x128.size a
  hwx0_23 : ∀ i : grid0.Coords, EltTy.bits .f32 = 32 ∨ (Rect.block (s := S320000x128) S2000x128.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S2000x128.size a ≤ S320000x128.size a
  hwx0_24 : ∀ i : grid0.Coords, EltTy.bits .f32 = 32 ∨ (Rect.block (s := S320000x128) S2000x128.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S2000x3.size a ≤ S320000x3.size a
  hwx0_25 : ∀ i : grid0.Coords, EltTy.bits .f32 = 32 ∨ (Rect.block (s := S320000x3) S2000x3.size (cc0_transform_25 i) (hinb0_25 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S20000x128.size a
  hwx1_0 : ∀ i : grid1.Coords, EltTy.bits .f32 = 32 ∨ (Rect.block (s := S20000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S20000x128.size a
  hwx1_1 : ∀ i : grid1.Coords, EltTy.bits .f32 = 32 ∨ (Rect.block (s := S20000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S20000x128.size a
  hwx1_7 : ∀ i : grid1.Coords, EltTy.bits .f32 = 32 ∨ (Rect.block (s := S20000x128) S4000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S20000x128.size a
  hwx2_0 : ∀ i : grid2.Coords, EltTy.bits .f32 = 32 ∨ (Rect.block (s := S20000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S20000x128.size a
  hwx2_1 : ∀ i : grid2.Coords, EltTy.bits .f32 = 32 ∨ (Rect.block (s := S20000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S20000x128.size a
  hwx2_7 : ∀ i : grid2.Coords, EltTy.bits .f32 = 32 ∨ (Rect.block (s := S20000x128) S4000x128.size (cc2_transform_7 i) (hinb2_7 i)).WholeWords (EltTy.packing .f32)

variable [Facts₀]

def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def gather_S20000x3_S320000x1_S320000x3_1_0_n_n_0_1_13 : GatherDims S20000x3 S320000x1 S320000x3 where
  offsetDims := [1]
  collapsedSliceDims := [0]
  operandBatchingDims := []
  startIndicesBatchingDims := []
  startIndexMap := [0]
  indexVectorDim := 1
  sliceSizes := ![1, 3]
  wf := gather_S20000x3_S320000x1_S320000x3_1_0_n_n_0_1_13_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x1_S1x128_S2000x128_1_0_0_1_n_n : DotDims S2000x1 S1x128 S2000x128 where
  lhsContracting := [1]
  rhsContracting := [0]
  lhsNonContracting := [0]
  rhsNonContracting := [1]
  lhsBatch := []
  rhsBatch := []
  wf := dot_S2000x1_S1x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def scatter_S20000x3_S320000x1_S320000x3_1_0_0_1 : ScatterDims S20000x3 S320000x1 S320000x3 where
  updateWindowDims := [1]
  insertedWindowDims := [0]
  scatterDimsToOperandDims := [0]
  indexVectorDim := 1
  wf := scatter_S20000x3_S320000x1_S320000x3_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S128x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v12) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg12) S128x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v13) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg16) S128x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v15) S1x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg18) S128x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v16) S1x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg20) S128x1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v17_0) S2000x128.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_v17_1) S2000x128.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_v17_2) S2000x3.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg23) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg27) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47) S4000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S20000x128 : Shape := ⟨2, ![20000, 128]⟩
abbrev S20000x3 : Shape := ⟨2, ![20000, 3]⟩
abbrev S320000 : Shape := ⟨1, ![320000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S_ : Shape := ⟨0, ![]⟩
abbrev S320000x1 : Shape := ⟨2, ![320000, 1]⟩
abbrev S320000x3 : Shape := ⟨2, ![320000, 3]⟩
abbrev S320000x128 : Shape := ⟨2, ![320000, 128]⟩
abbrev S320000x257 : Shape := ⟨2, ![320000, 257]⟩
abbrev S1x128 : Shape := ⟨2, ![1, 128]⟩
abbrev S1x1 : Shape := ⟨2, ![1, 1]⟩
abbrev S20000 : Shape := ⟨1, ![20000]⟩
abbrev S20000x1 : Shape := ⟨2, ![20000, 1]⟩
abbrev S20000x256 : Shape := ⟨2, ![20000, 256]⟩

abbrev nBuf : Space → Nat
  | .hbm => 238
  | .vmem => 0
  | .smem => 0
  | _ => 0

abbrev hbmTy0_0 (i : Nat) : BufTy := match i % 128 with
  | 0 => ⟨S20000x128, .f32⟩
  | 1 => ⟨S20000x128, .f32⟩
  | 2 => ⟨S20000x3, .f32⟩
  | 3 => ⟨S20000x3, .f32⟩
  | 4 => ⟨S320000, .i32⟩
  | 5 => ⟨S320000, .i32⟩
  | 6 => ⟨S257x128, .f32⟩
  | 7 => ⟨S128, .f32⟩
  | 8 => ⟨S128x128, .f32⟩
  | 9 => ⟨S128, .f32⟩
  | 10 => ⟨S257x128, .f32⟩
  | 11 => ⟨S128, .f32⟩
  | 12 => ⟨S128x128, .f32⟩
  | 13 => ⟨S128, .f32⟩
  | 14 => ⟨S128x1, .f32⟩
  | 15 => ⟨S1, .f32⟩
  | 16 => ⟨S128x1, .f32⟩
  | 17 => ⟨S1, .f32⟩
  | 18 => ⟨S128x128, .f32⟩
  | 19 => ⟨S128, .f32⟩
  | 20 => ⟨S128x1, .f32⟩
  | 21 => ⟨S256x128, .f32⟩
  | 22 => ⟨S128, .f32⟩
  | 23 => ⟨S128x128, .f32⟩
  | 24 => ⟨S128, .f32⟩
  | 25 => ⟨S256x128, .f32⟩
  | 26 => ⟨S128, .f32⟩
  | 27 => ⟨S128x128, .f32⟩
  | 28 => ⟨S128, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S320000x3, .f32⟩
  | 38 => ⟨S_, .i32⟩
  | 39 => ⟨S320000, .i32⟩
  | 40 => ⟨S320000, .i1⟩
  | 41 => ⟨S_, .i32⟩
  | 42 => ⟨S320000, .i32⟩
  | 43 => ⟨S320000, .i32⟩
  | 44 => ⟨S320000, .i32⟩
  | 45 => ⟨S320000x1, .i32⟩
  | 46 => ⟨S320000x3, .f32⟩
  | 47 => ⟨S320000x3, .f32⟩
  | 48 => ⟨S320000x3, .f32⟩
  | 49 => ⟨S_, .f32⟩
  | 50 => ⟨S320000, .f32⟩
  | 51 => ⟨S320000x1, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S320000x128, .f32⟩
  | 61 => ⟨S_, .i32⟩
  | 62 => ⟨S320000, .i32⟩
  | 63 => ⟨S320000, .i1⟩
  | 64 => ⟨S_, .i32⟩
  | 65 => ⟨S320000, .i32⟩
  | 66 => ⟨S320000, .i32⟩
  | 67 => ⟨S320000, .i32⟩
  | 68 => ⟨S320000x1, .i32⟩
  | 69 => ⟨S320000x128, .f32⟩
  | 70 => ⟨S320000x257, .f32⟩
  | 71 => ⟨S320000x128, .f32⟩
  | 72 => ⟨S1x128, .f32⟩
  | 73 => ⟨S320000x128, .f32⟩
  | 74 => ⟨S320000x128, .f32⟩
  | 75 => ⟨S320000x128, .f32⟩
  | 76 => ⟨S320000x128, .f32⟩
  | 77 => ⟨S_, .f32⟩
  | 78 => ⟨S320000x128, .f32⟩
  | 79 => ⟨S320000x128, .f32⟩
  | 80 => ⟨S_, .f32⟩
  | 81 => ⟨S320000x128, .f32⟩
  | 82 => ⟨S320000x128, .f32⟩
  | 83 => ⟨S320000x128, .f32⟩
  | 84 => ⟨S320000x128, .f32⟩
  | 85 => ⟨S1x128, .f32⟩
  | 86 => ⟨S320000x128, .f32⟩
  | 87 => ⟨S320000x128, .f32⟩
  | 88 => ⟨S320000x128, .f32⟩
  | 89 => ⟨S320000x128, .f32⟩
  | 90 => ⟨S_, .f32⟩
  | 91 => ⟨S320000x128, .f32⟩
  | 92 => ⟨S320000x128, .f32⟩
  | 93 => ⟨S_, .f32⟩
  | 94 => ⟨S320000x128, .f32⟩
  | 95 => ⟨S320000x128, .f32⟩
  | 96 => ⟨S320000x128, .f32⟩
  | 97 => ⟨S320000x128, .f32⟩
  | 98 => ⟨S1x128, .f32⟩
  | 99 => ⟨S320000x128, .f32⟩
  | 100 => ⟨S320000x128, .f32⟩
  | 101 => ⟨S320000x128, .f32⟩
  | 102 => ⟨S320000x128, .f32⟩
  | 103 => ⟨S_, .f32⟩
  | 104 => ⟨S320000x128, .f32⟩
  | 105 => ⟨S320000x128, .f32⟩
  | 106 => ⟨S_, .f32⟩
  | 107 => ⟨S320000x128, .f32⟩
  | 108 => ⟨S320000x128, .f32⟩
  | 109 => ⟨S320000x128, .f32⟩
  | 110 => ⟨S320000x128, .f32⟩
  | 111 => ⟨S1x128, .f32⟩
  | 112 => ⟨S320000x128, .f32⟩
  | 113 => ⟨S320000x128, .f32⟩
  | 114 => ⟨S320000x128, .f32⟩
  | 115 => ⟨S320000x128, .f32⟩
  | 116 => ⟨S_, .f32⟩
  | 117 => ⟨S320000x128, .f32⟩
  | 118 => ⟨S320000x128, .f32⟩
  | 119 => ⟨S_, .f32⟩
  | 120 => ⟨S320000x128, .f32⟩
  | 121 => ⟨S320000x128, .f32⟩
  | 122 => ⟨S320000x128, .f32⟩
  | 123 => ⟨S320000x1, .f32⟩
  | 124 => ⟨S1x1, .f32⟩
  | 125 => ⟨S320000x1, .f32⟩
  | 126 => ⟨S320000x1, .f32⟩
  | 127 => ⟨S320000x1, .f32⟩
  | _ => ⟨S20000x128, .f32⟩

abbrev hbmTy0_1 (i : Nat) : BufTy := match i % 128 with
  | 0 => ⟨S320000x1, .f32⟩
  | 1 => ⟨S_, .f32⟩
  | 2 => ⟨S320000x1, .f32⟩
  | 3 => ⟨S320000x1, .f32⟩
  | 4 => ⟨S_, .f32⟩
  | 5 => ⟨S320000x1, .f32⟩
  | 6 => ⟨S320000x1, .f32⟩
  | 7 => ⟨S320000x128, .f32⟩
  | 8 => ⟨S320000x128, .f32⟩
  | 9 => ⟨S320000x1, .f32⟩
  | 10 => ⟨S1x1, .f32⟩
  | 11 => ⟨S320000x1, .f32⟩
  | 12 => ⟨S320000x1, .f32⟩
  | 13 => ⟨S320000x1, .f32⟩
  | 14 => ⟨S320000x1, .f32⟩
  | 15 => ⟨S_, .f32⟩
  | 16 => ⟨S320000x1, .f32⟩
  | 17 => ⟨S320000x1, .f32⟩
  | 18 => ⟨S_, .f32⟩
  | 19 => ⟨S320000x1, .f32⟩
  | 20 => ⟨S320000x1, .f32⟩
  | 21 => ⟨S320000x128, .f32⟩
  | 22 => ⟨S320000x128, .f32⟩
  | 23 => ⟨S320000x128, .f32⟩
  | 24 => ⟨S1x128, .f32⟩
  | 25 => ⟨S320000x128, .f32⟩
  | 26 => ⟨S320000x128, .f32⟩
  | 27 => ⟨S320000x128, .f32⟩
  | 28 => ⟨S320000x128, .f32⟩
  | 29 => ⟨S_, .f32⟩
  | 30 => ⟨S320000x128, .f32⟩
  | 31 => ⟨S320000x128, .f32⟩
  | 32 => ⟨S_, .f32⟩
  | 33 => ⟨S320000x128, .f32⟩
  | 34 => ⟨S320000x128, .f32⟩
  | 35 => ⟨S320000x128, .f32⟩
  | 36 => ⟨S320000x1, .f32⟩
  | 37 => ⟨S320000x3, .f32⟩
  | 38 => ⟨S320000x3, .f32⟩
  | 39 => ⟨S_, .f32⟩
  | 40 => ⟨S20000x3, .f32⟩
  | 41 => ⟨S320000x1, .i32⟩
  | 42 => ⟨S20000x3, .f32⟩
  | 43 => ⟨S_, .f32⟩
  | 44 => ⟨S320000, .f32⟩
  | 45 => ⟨S_, .f32⟩
  | 46 => ⟨S20000, .f32⟩
  | 47 => ⟨S320000x1, .i32⟩
  | 48 => ⟨S20000, .f32⟩
  | 49 => ⟨S_, .f32⟩
  | 50 => ⟨S20000, .f32⟩
  | 51 => ⟨S20000, .f32⟩
  | 52 => ⟨S20000x1, .f32⟩
  | 53 => ⟨S20000x3, .f32⟩
  | 54 => ⟨S20000x3, .f32⟩
  | 55 => ⟨S_, .f32⟩
  | 56 => ⟨S_, .f32⟩
  | 57 => ⟨S_, .f32⟩
  | 58 => ⟨S20000x3, .f32⟩
  | 59 => ⟨S20000x3, .f32⟩
  | 60 => ⟨S_, .f32⟩
  | 61 => ⟨S20000x3, .f32⟩
  | 62 => ⟨S20000x3, .f32⟩
  | 63 => ⟨S20000x3, .f32⟩
  | 64 => ⟨S_, .f32⟩
  | 65 => ⟨S20000x128, .f32⟩
  | 66 => ⟨S320000x1, .i32⟩
  | 67 => ⟨S20000x128, .f32⟩
  | 68 => ⟨S_, .f32⟩
  | 69 => ⟨S20000x128, .f32⟩
  | 70 => ⟨S320000x1, .i32⟩
  | 71 => ⟨S20000x128, .f32⟩
  | 72 => ⟨S20000x256, .f32⟩
  | 73 => ⟨S20000x256, .f32⟩
  | 74 => ⟨S20000x128, .f32⟩
  | 75 => ⟨S1x128, .f32⟩
  | 76 => ⟨S20000x128, .f32⟩
  | 77 => ⟨S20000x128, .f32⟩
  | 78 => ⟨S20000x128, .f32⟩
  | 79 => ⟨S20000x128, .f32⟩
  | 80 => ⟨S_, .f32⟩
  | 81 => ⟨S20000x128, .f32⟩
  | 82 => ⟨S20000x128, .f32⟩
  | 83 => ⟨S_, .f32⟩
  | 84 => ⟨S20000x128, .f32⟩
  | 85 => ⟨S20000x128, .f32⟩
  | 86 => ⟨S20000x128, .f32⟩
  | 87 => ⟨S20000x128, .f32⟩
  | 88 => ⟨S1x128, .f32⟩
  | 89 => ⟨S20000x128, .f32⟩
  | 90 => ⟨S20000x128, .f32⟩
  | 91 => ⟨S20000x128, .f32⟩
  | 92 => ⟨S1x128, .f32⟩
  | 93 => ⟨S20000x128, .f32⟩
  | 94 => ⟨S20000x128, .f32⟩
  | 95 => ⟨S20000x128, .f32⟩
  | 96 => ⟨S20000x128, .f32⟩
  | 97 => ⟨S_, .f32⟩
  | 98 => ⟨S20000x128, .f32⟩
  | 99 => ⟨S20000x128, .f32⟩
  | 100 => ⟨S_, .f32⟩
  | 101 => ⟨S20000x128, .f32⟩
  | 102 => ⟨S20000x128, .f32⟩
  | 103 => ⟨S20000x128, .f32⟩
  | 104 => ⟨S20000x128, .f32⟩
  | 105 => ⟨S1x128, .f32⟩
  | 106 => ⟨S20000x128, .f32⟩
  | 107 => ⟨S20000x128, .f32⟩
  | 108 => ⟨S20000x128, .f32⟩
  | 109 => ⟨S20000x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_c : Ref sig .tc := ⟨.hbm, 29, rfl⟩
abbrev main_v0 : Ref sig .tc := ⟨.hbm, 30, rfl⟩
abbrev main_v1 : Ref sig .tc := ⟨.hbm, 31, rfl⟩
abbrev main_c_0 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_c_1 : Ref sig .tc := ⟨.hbm, 38, rfl⟩
abbrev main_v7 : Ref sig .tc := ⟨.hbm, 39, rfl⟩
abbrev main_v8 : Ref sig .tc := ⟨.hbm, 40, rfl⟩
abbrev main_c_2 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_cst : Ref sig .tc := ⟨.hbm, 49, rfl⟩
abbrev main_v16 : Ref sig .tc := ⟨.hbm, 50, rfl⟩
abbrev main_v17 : Ref sig .tc := ⟨.hbm, 51, rfl⟩
abbrev main_c_3 : Ref sig .tc := ⟨.hbm, 52, rfl⟩
abbrev main_v18 : Ref sig .tc := ⟨.hbm, 53, rfl⟩
abbrev main_v19 : Ref sig .tc := ⟨.hbm, 54, rfl⟩
abbrev main_c_4 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_c_5 : Ref sig .tc := ⟨.hbm, 61, rfl⟩
abbrev main_v25 : Ref sig .tc := ⟨.hbm, 62, rfl⟩
abbrev main_v26 : Ref sig .tc := ⟨.hbm, 63, rfl⟩
abbrev main_c_6 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_call1_v0 : Ref sig .tc := ⟨.hbm, 88, rfl⟩
abbrev main_call1_v1 : Ref sig .tc := ⟨.hbm, 89, rfl⟩
abbrev main_call1_cst : Ref sig .tc := ⟨.hbm, 90, rfl⟩
abbrev main_call1_v2 : Ref sig .tc := ⟨.hbm, 91, rfl⟩
abbrev main_call1_v3 : Ref sig .tc := ⟨.hbm, 92, rfl⟩
abbrev main_call1_cst_0 : Ref sig .tc := ⟨.hbm, 93, rfl⟩
abbrev main_call1_v4 : Ref sig .tc := ⟨.hbm, 94, rfl⟩
abbrev main_call1_v5 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_call2_v0 : Ref sig .tc := ⟨.hbm, 101, rfl⟩
abbrev main_call2_v1 : Ref sig .tc := ⟨.hbm, 102, rfl⟩
abbrev main_call2_cst : Ref sig .tc := ⟨.hbm, 103, rfl⟩
abbrev main_call2_v2 : Ref sig .tc := ⟨.hbm, 104, rfl⟩
abbrev main_call2_v3 : Ref sig .tc := ⟨.hbm, 105, rfl⟩
abbrev main_call2_cst_0 : Ref sig .tc := ⟨.hbm, 106, rfl⟩
abbrev main_call2_v4 : Ref sig .tc := ⟨.hbm, 107, rfl⟩
abbrev main_call2_v5 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_call3_v0 : Ref sig .tc := ⟨.hbm, 114, rfl⟩
abbrev main_call3_v1 : Ref sig .tc := ⟨.hbm, 115, rfl⟩
abbrev main_call3_cst : Ref sig .tc := ⟨.hbm, 116, rfl⟩
abbrev main_call3_v2 : Ref sig .tc := ⟨.hbm, 117, rfl⟩
abbrev main_call3_v3 : Ref sig .tc := ⟨.hbm, 118, rfl⟩
abbrev main_call3_cst_0 : Ref sig .tc := ⟨.hbm, 119, rfl⟩
abbrev main_call3_v4 : Ref sig .tc := ⟨.hbm, 120, rfl⟩
abbrev main_call3_v5 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_7 : Ref sig .tc := ⟨.hbm, 129, rfl⟩
abbrev main_v59 : Ref sig .tc := ⟨.hbm, 130, rfl⟩
abbrev main_v60 : Ref sig .tc := ⟨.hbm, 131, rfl⟩
abbrev main_cst_8 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_cst_9 : Ref sig .tc := ⟨.hbm, 143, rfl⟩
abbrev main_v71 : Ref sig .tc := ⟨.hbm, 144, rfl⟩
abbrev main_v72 : Ref sig .tc := ⟨.hbm, 145, rfl⟩
abbrev main_cst_10 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_call4_v0 : Ref sig .tc := ⟨.hbm, 155, rfl⟩
abbrev main_call4_v1 : Ref sig .tc := ⟨.hbm, 156, rfl⟩
abbrev main_call4_cst : Ref sig .tc := ⟨.hbm, 157, rfl⟩
abbrev main_call4_v2 : Ref sig .tc := ⟨.hbm, 158, rfl⟩
abbrev main_call4_v3 : Ref sig .tc := ⟨.hbm, 159, rfl⟩
abbrev main_call4_cst_0 : Ref sig .tc := ⟨.hbm, 160, rfl⟩
abbrev main_call4_v4 : Ref sig .tc := ⟨.hbm, 161, rfl⟩
abbrev main_call4_v5 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_cst_11 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_cst_12 : Ref sig .tc := ⟨.hbm, 171, rfl⟩
abbrev main_v88 : Ref sig .tc := ⟨.hbm, 172, rfl⟩
abbrev main_cst_13 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_cst_14 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_cst_15 : Ref sig .tc := ⟨.hbm, 183, rfl⟩
abbrev main_cst_16 : Ref sig .tc := ⟨.hbm, 184, rfl⟩
abbrev main_call5_v0 : Ref sig .tc := ⟨.hbm, 185, rfl⟩
abbrev main_call5_v1 : Ref sig .tc := ⟨.hbm, 186, rfl⟩
abbrev main_call5_v2 : Ref sig .tc := ⟨.hbm, 187, rfl⟩
abbrev main_call5_v3 : Ref sig .tc := ⟨.hbm, 188, rfl⟩
abbrev main_call5_v4 : Ref sig .tc := ⟨.hbm, 189, rfl⟩
abbrev main_v97 : Ref sig .tc := ⟨.hbm, 190, rfl⟩
abbrev main_v98 : Ref sig .tc := ⟨.hbm, 191, rfl⟩
abbrev main_cst_17 : Ref sig .tc := ⟨.hbm, 192, rfl⟩
abbrev main_v99 : Ref sig .tc := ⟨.hbm, 193, rfl⟩
abbrev main_v100 : Ref sig .tc := ⟨.hbm, 194, rfl⟩
abbrev main_v101 : Ref sig .tc := ⟨.hbm, 195, rfl⟩
abbrev main_cst_18 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_v108 : Ref sig .tc := ⟨.hbm, 203, rfl⟩
abbrev main_v109 : Ref sig .tc := ⟨.hbm, 204, rfl⟩
abbrev main_v110 : Ref sig .tc := ⟨.hbm, 205, rfl⟩
abbrev main_call6_v0 : Ref sig .tc := ⟨.hbm, 206, rfl⟩
abbrev main_call6_v1 : Ref sig .tc := ⟨.hbm, 207, rfl⟩
abbrev main_call6_cst : Ref sig .tc := ⟨.hbm, 208, rfl⟩
abbrev main_call6_v2 : Ref sig .tc := ⟨.hbm, 209, rfl⟩
abbrev main_call6_v3 : Ref sig .tc := ⟨.hbm, 210, rfl⟩
abbrev main_call6_cst_0 : Ref sig .tc := ⟨.hbm, 211, rfl⟩
abbrev main_call6_v4 : Ref sig .tc := ⟨.hbm, 212, rfl⟩
abbrev main_call6_v5 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_call7_v0 : Ref sig .tc := ⟨.hbm, 223, rfl⟩
abbrev main_call7_v1 : Ref sig .tc := ⟨.hbm, 224, rfl⟩
abbrev main_call7_cst : Ref sig .tc := ⟨.hbm, 225, rfl⟩
abbrev main_call7_v2 : Ref sig .tc := ⟨.hbm, 226, rfl⟩
abbrev main_call7_v3 : Ref sig .tc := ⟨.hbm, 227, rfl⟩
abbrev main_call7_cst_0 : Ref sig .tc := ⟨.hbm, 228, rfl⟩
abbrev main_call7_v4 : Ref sig .tc := ⟨.hbm, 229, rfl⟩
abbrev main_call7_v5 : Ref sig .tc := ⟨.hbm, 230, rfl⟩
abbrev main_v120 : Ref sig .tc := ⟨.hbm, 231, rfl⟩
abbrev main_v121 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_v125 : Ref sig .tc := ⟨.hbm, 236, rfl⟩
abbrev main_v126 : Ref sig .tc := ⟨.hbm, 237, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  reducesTo_S320000x3_S320000_d1 : S320000x3.ReducesTo [1] S320000
  h_S_ : 0 < S_.numel
  concatenates_S320000x128_S320000x128_S320000x1_S320000x257_d1 : Shape.Concatenates [S320000x128, S320000x128, S320000x1] S320000x257 1
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  bcast_S_S320000x1 : S_.BroadcastsInDim S320000x1 (![] : Fin 0 → Fin S320000x1.rank)
  bcast_S320000x1_S320000x128_0_1 : S320000x1.BroadcastsInDim S320000x128 (![0, 1] : Fin 2 → Fin S320000x128.rank)
  bcast_S320000x1_S320000x3_0_1 : S320000x1.BroadcastsInDim S320000x3 (![0, 1] : Fin 2 → Fin S320000x3.rank)
  bcast_S_S20000x3 : S_.BroadcastsInDim S20000x3 (![] : Fin 0 → Fin S20000x3.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x3_0_1 : S20000x1.BroadcastsInDim S20000x3 (![0, 1] : Fin 2 → Fin S20000x3.rank)
  bcast_S_S20000x128 : S_.BroadcastsInDim S20000x128 (![] : Fin 0 → Fin S20000x128.rank)
  concatenates_S20000x128_S20000x128_S20000x256_d1 : Shape.Concatenates [S20000x128, S20000x128] S20000x256 1
  bcast_S1x128_S20000x128_0_1 : S1x128.BroadcastsInDim S20000x128 (![0, 1] : Fin 2 → Fin S20000x128.rank)
  gather_S20000x3_S320000x1_S320000x3_1_0_n_n_0_1_13_wf : GatherDims.WF S20000x3 S320000x1 S320000x3 [1] [0] [] [0] [] 1 ![1, 3]
  gather_S20000x128_S320000x1_S320000x128_1_0_n_n_0_1_1128_wf : GatherDims.WF S20000x128 S320000x1 S320000x128 [1] [0] [] [0] [] 1 ![1, 128]
  dot_S320000x257_S257x128_S320000x128_1_0_0_1_n_n_wf : DotDims.WF S320000x257 S257x128 S320000x128 [1] [0] [0] [1] [] []
  dot_S320000x128_S128x128_S320000x128_1_0_0_1_n_n_wf : DotDims.WF S320000x128 S128x128 S320000x128 [1] [0] [0] [1] [] []
  dot_S320000x128_S128x1_S320000x1_1_0_0_1_n_n_wf : DotDims.WF S320000x128 S128x1 S320000x1 [1] [0] [0] [1] [] []
  scatter_S20000x3_S320000x1_S320000x3_1_0_0_1_wf : ScatterDims.WF S20000x3 S320000x1 S320000x3 [1] [0] [0] 1
  scatter_S20000_S320000x1_S320000_n_0_0_1_wf : ScatterDims.WF S20000 S320000x1 S320000 [] [0] [0] 1
  scatter_S20000x128_S320000x1_S320000x128_1_0_0_1_wf : ScatterDims.WF S20000x128 S320000x1 S320000x128 [1] [0] [0] 1
  dot_S20000x256_S256x128_S20000x128_1_0_0_1_n_n_wf : DotDims.WF S20000x256 S256x128 S20000x128 [1] [0] [0] [1] [] []
  dot_S20000x128_S128x128_S20000x128_1_0_0_1_n_n_wf : DotDims.WF S20000x128 S128x128 S20000x128 [1] [0] [0] [1] [] []

variable [Facts₀]

def gather_S20000x3_S320000x1_S320000x3_1_0_n_n_0_1_13 : GatherDims S20000x3 S320000x1 S320000x3 where
  offsetDims := [1]
  collapsedSliceDims := [0]
  operandBatchingDims := []
  startIndicesBatchingDims := []
  startIndexMap := [0]
  indexVectorDim := 1
  sliceSizes := ![1, 3]
  wf := gather_S20000x3_S320000x1_S320000x3_1_0_n_n_0_1_13_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S320000x257_S257x128_S320000x128_1_0_0_1_n_n : DotDims S320000x257 S257x128 S320000x128 where
  lhsContracting := [1]
  rhsContracting := [0]
  lhsNonContracting := [0]
  rhsNonContracting := [1]
  lhsBatch := []
  rhsBatch := []
  wf := dot_S320000x257_S257x128_S320000x128_1_0_0_1_n_n_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def dot_S320000x128_S128x1_S320000x1_1_0_0_1_n_n : DotDims S320000x128 S128x1 S320000x1 where
  lhsContracting := [1]
  rhsContracting := [0]
  lhsNonContracting := [0]
  rhsNonContracting := [1]
  lhsBatch := []
  rhsBatch := []
  wf := dot_S320000x128_S128x1_S320000x1_1_0_0_1_n_n_wf
def scatter_S20000x3_S320000x1_S320000x3_1_0_0_1 : ScatterDims S20000x3 S320000x1 S320000x3 where
  updateWindowDims := [1]
  insertedWindowDims := [0]
  scatterDimsToOperandDims := [0]
  indexVectorDim := 1
  wf := scatter_S20000x3_S320000x1_S320000x3_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.RefRun.lean ====
/-
  The reference program's host operations as a list, with the fact that its @main is that list run in order, and
  the reference's staged functions (one per operation, over the earlier ones) with their read-at-an-index lemmas.
  This module only gathers the two; what the run leaves in each result buffer is read off the list in the modules
  that import it.
-/
import proofs.«426544_j11063835754636_1_alg».proof.Proof.RefOpsP
import proofs.«426544_j11063835754636_1_alg».proof.Proof.ReadP
-- ==== Proof.RunCut.lean ====
/-
  The reference's operation list cut into nine stretches, and what is carried across a cut.

  Evaluating the whole list for one result walks every operation back from the result and meets each shared
  intermediate once per use. Cut where few intermediates are still needed later, the list is nine short lines:
  after a stretch only the arguments and at most three intermediates are read again (the coordinate difference, the
  joined input row, the messages, the aggregated rows), so each stretch is read with its inputs named and the next one
  starts from names, not from terms.

  * `opsA` … `opsI`: operations 0–41 (the gathers, the squared distance, the joined row), 42–67 and 68–93 (the two
    edge networks), 94–107 and 108–121 (the two gates), 122–162 (the coordinate weight, the four aggregations' first two,
    the coordinate update), 163–172 (the message aggregations and the two joined node inputs), 173–189 and 190–208 (the
    two node updates).
  * `after_take_drop`: the contents after a list are the contents after its tail from the contents after its head.
  * `SameArgs V₀ V`: V holds the launch contents V₀ at every argument buffer.
  * `S14 V₀` …: the reference's staged functions at the launch arguments.
-/
import proofs.«426544_j11063835754636_1_alg».proof.Proof.RefRun
import Idealize.ShloMosaic.Lib.StableHlo.Run

set_option maxRecDepth 8192

noncomputable section

namespace Cert.Bridge

open Idealize.ShloMosaic Idealize.ShloMosaic.TcCoe Idealize.ShloMosaic.StableHlo Idealize.SL.Sem
open Cert.ReferenceIdeal Cert.ReferenceIdeal.Gen Cert.ReferenceIdeal.RunP Cert.ReferenceIdeal.ReadP

/-- The whole list at the ideal values. -/
abbrev opsAll : List (HloOp τ sig (Elt Ideal)) := ops (F := Ideal)

/-- Operations 0–41. -/
abbrev opsA : List (HloOp τ sig (Elt Ideal)) := (opsAll.drop 0).take 42
/-- Operations 42–67. -/
abbrev opsB : List (HloOp τ sig (Elt Ideal)) := (opsAll.drop 42).take 26
/-- Operations 68–93. -/
abbrev opsC : List (HloOp τ sig (Elt Ideal)) := (opsAll.drop 68).take 26
/-- Operations 94–107. -/
abbrev opsD : List (HloOp τ sig (Elt Ideal)) := (opsAll.drop 94).take 14
/-- Operations 108–121. -/
abbrev opsE : List (HloOp τ sig (Elt Ideal)) := (opsAll.drop 108).take 14
/-- Operations 122–162. -/
abbrev opsF : List (HloOp τ sig (Elt Ideal)) := (opsAll.drop 122).take 41
/-- Operations 163–172. -/
abbrev opsG : List (HloOp τ sig (Elt Ideal)) := (opsAll.drop 163).take 10
/-- Operations 173–189. -/
abbrev opsH : List (HloOp τ sig (Elt Ideal)) := (opsAll.drop 173).take 17
/-- Operations 190–208. -/
abbrev opsI : List (HloOp τ sig (Elt Ideal)) := (opsAll.drop 190).take 19

/-- The contents after two lines run one after the other. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The contents after a list are the contents after its tail from the contents after its head. -/
theorem after_take_drop (n : Nat) (l : List (HloOp τ sig (Elt Ideal))) (V : Valuation τ sig (Elt Ideal)) :
    after l V = after (l.drop n) (after (l.take n) V) := by
  rw [← after_append, List.take_append_drop]

/-- The 29 argument buffers. -/
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]

/-- `V` holds the launch contents `V₀` at every argument buffer. -/
def SameArgs (V₀ V : Valuation τ sig (Elt Ideal)) : Prop :=
  ∀ r ∈ argRefs, V (Proc.devRef .tc r) = V₀ (Proc.devRef .tc r)

theorem SameArgs.refl (V₀ : Valuation τ sig (Elt Ideal)) : SameArgs V₀ V₀ := fun _ _ => rfl

variable (V₀ : Valuation τ sig (Elt Ideal))

/-! ## The reference's staged functions at the launch arguments -/

abbrev S14 := val_main_v14 (F := Ideal) (V₀ (Proc.devRef .tc main_arg2)) (V₀ (Proc.devRef .tc main_arg3)) (V₀ (Proc.devRef .tc main_arg4)) (V₀ (Proc.devRef .tc main_arg5))
abbrev S32 := val_main_v32 (F := Ideal) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5))
abbrev S42 := val_main_v42 (F := Ideal) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg8)) (V₀ (Proc.devRef .tc main_arg9))
abbrev S52 := val_main_v52 (F := Ideal) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg10)) (V₀ (Proc.devRef .tc main_arg11)) (V₀ (Proc.devRef .tc main_arg12)) (V₀ (Proc.devRef .tc main_arg13))
abbrev S64 := val_main_v64 (F := Ideal) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg8)) (V₀ (Proc.devRef .tc main_arg9)) (V₀ (Proc.devRef .tc main_arg14)) (V₀ (Proc.devRef .tc main_arg15))
abbrev S76 := val_main_v76 (F := Ideal) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg10)) (V₀ (Proc.devRef .tc main_arg11)) (V₀ (Proc.devRef .tc main_arg12)) (V₀ (Proc.devRef .tc main_arg13)) (V₀ (Proc.devRef .tc main_arg16)) (V₀ (Proc.devRef .tc main_arg17))
abbrev S98 := val_main_v98 (F := Ideal) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg8)) (V₀ (Proc.devRef .tc main_arg9)) (V₀ (Proc.devRef .tc main_arg14)) (V₀ (Proc.devRef .tc main_arg15)) (V₀ (Proc.devRef .tc main_arg18)) (V₀ (Proc.devRef .tc main_arg19)) (V₀ (Proc.devRef .tc main_arg20))
abbrev S105 := val_main_v105 (F := Ideal) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg8)) (V₀ (Proc.devRef .tc main_arg9)) (V₀ (Proc.devRef .tc main_arg14)) (V₀ (Proc.devRef .tc main_arg15))
abbrev S106 := val_main_v106 (F := Ideal) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg10)) (V₀ (Proc.devRef .tc main_arg11)) (V₀ (Proc.devRef .tc main_arg12)) (V₀ (Proc.devRef .tc main_arg13)) (V₀ (Proc.devRef .tc main_arg16)) (V₀ (Proc.devRef .tc main_arg17))
abbrev S115 := val_main_v115 (F := Ideal) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg8)) (V₀ (Proc.devRef .tc main_arg9)) (V₀ (Proc.devRef .tc main_arg14)) (V₀ (Proc.devRef .tc main_arg15)) (V₀ (Proc.devRef .tc main_arg21)) (V₀ (Proc.devRef .tc main_arg22)) (V₀ (Proc.devRef .tc main_arg23)) (V₀ (Proc.devRef .tc main_arg24))
abbrev S125 := val_main_v125 (F := Ideal) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg6)) (V₀ (Proc.devRef .tc main_arg7)) (V₀ (Proc.devRef .tc main_arg8)) (V₀ (Proc.devRef .tc main_arg9)) (V₀ (Proc.devRef .tc main_arg14)) (V₀ (Proc.devRef .tc main_arg15)) (V₀ (Proc.devRef .tc main_arg21)) (V₀ (Proc.devRef .tc main_arg22)) (V₀ (Proc.devRef .tc main_arg23)) (V₀ (Proc.devRef .tc main_arg24))
abbrev S126 := val_main_v126 (F := Ideal) (V₀ (Proc.devRef .tc main_arg0)) (V₀ (Proc.devRef .tc main_arg1)) (V₀ (Proc.devRef .tc main_arg2)) (V₀ (Proc.devRef .tc main_arg3)) (V₀ (Proc.devRef .tc main_arg4)) (V₀ (Proc.devRef .tc main_arg5)) (V₀ (Proc.devRef .tc main_arg10)) (V₀ (Proc.devRef .tc main_arg11)) (V₀ (Proc.devRef .tc main_arg12)) (V₀ (Proc.devRef .tc main_arg13)) (V₀ (Proc.devRef .tc main_arg16)) (V₀ (Proc.devRef .tc main_arg17)) (V₀ (Proc.devRef .tc main_arg25)) (V₀ (Proc.devRef .tc main_arg26)) (V₀ (Proc.devRef .tc main_arg27)) (V₀ (Proc.devRef .tc main_arg28))

end Cert.Bridge

end
-- ==== Proof.RunStretchA.lean ====
/-
  Stretch A of the reference's operation list (operations 0–41): the four gathered arrays, the coordinate difference, the squared distance and the joined 257-wide input row.
  From contents that hold the launch arguments, the stretch leaves the reference's staged function
  in each of the buffers it is read for; a buffer it does not write keeps its contents.
-/
import proofs.«426544_j11063835754636_1_alg».proof.Proof.RunCut

set_option maxRecDepth 8192

noncomputable section

namespace Cert.Bridge

open Idealize.ShloMosaic Idealize.ShloMosaic.TcCoe Idealize.ShloMosaic.StableHlo Idealize.SL.Sem
open Cert.ReferenceIdeal Cert.ReferenceIdeal.Gen Cert.ReferenceIdeal.RunP Cert.ReferenceIdeal.ReadP

/-- The buffers stretch A writes. -/
abbrev writesA : List (Ref sig .tc) :=
  [main_c, main_v0, main_v1, main_c_0, main_v2, main_v3, main_v4, main_v5, main_v6,
   main_c_1, main_v7, main_v8, main_c_2, main_v9, main_v10, main_v11, main_v12, main_v13,
   main_v14, main_v15, main_cst, main_v16, main_v17,
   main_c_3, main_v18, main_v19, main_c_4, main_v20, main_v21, main_v22, main_v23, main_v24,
   main_c_5, main_v25, main_v26, main_c_6, main_v27, main_v28, main_v29, main_v30, main_v31,
   main_v32]

/-- Every operation of the stretch writes one of them. -/
theorem writesA_sub : opsA.Forall fun op => op.writes ⊆ (writesA.map (Proc.devRef (τ := τ) .tc)).toFinset := by
  simp only [opsA, opsAll, ops, List.drop_zero, List.take_succ_cons, List.take_zero, List.Forall,
    nullary_writes, unary_writes, binary_writes, ternary_writes, nary_writes, Finset.singleton_subset_iff]
  repeat' apply And.intro
  all_goals exact List.mem_toFinset.mpr (List.mem_map_of_mem (by decide))

/-- A buffer the stretch does not write keeps its contents. -/
theorem keepA (V : Valuation τ sig (Elt Ideal)) (r : Ref sig .tc) (hr : r ∉ writesA) :
    after opsA V (Proc.devRef .tc r) = V (Proc.devRef .tc r) :=
  after_of_writes_sub opsA V writesA_sub hr

/-- What the stretch leaves where it is read later. -/
theorem stepA (V₀ V : Valuation τ sig (Elt Ideal)) (ha : SameArgs V₀ V)  :
    after opsA V (Proc.devRef .tc main_v14) = S14 V₀ ∧ after opsA V (Proc.devRef .tc main_v32) = S32 V₀ := by
  constructor
  · simp only [opsA, opsAll, ops, List.drop_zero, List.take_succ_cons, List.take_zero]
    after_results_simp
    rw [ha main_arg2 (by decide), ha main_arg3 (by decide), ha main_arg4 (by decide), ha main_arg5 (by decide)]
    rfl
  · -- the joined row: its three operands first, from the contents before the joining operation
    have h24 : (after (opsA.take 41) V (Proc.devRef .tc main_v24) : Vec Ideal S320000x128 .f32)
        = val_main_v24 (F := Ideal) (V₀ (Proc.devRef .tc main_arg0)) (V₀ (Proc.devRef .tc main_arg4)) := by
      simp only [opsA, opsAll, ops, List.drop_zero, List.take_succ_cons, List.take_zero]
      after_results_simp
      rw [ha main_arg0 (by decide), ha main_arg4 (by decide)]
      rfl
    have h31 : (after (opsA.take 41) V (Proc.devRef .tc main_v31) : Vec Ideal S320000x128 .f32)
        = val_main_v31 (F := Ideal) (V₀ (Proc.devRef .tc main_arg1)) (V₀ (Proc.devRef .tc main_arg5)) := by
      simp only [opsA, opsAll, ops, List.drop_zero, List.take_succ_cons, List.take_zero]
      after_results_simp
      rw [ha main_arg1 (by decide), ha main_arg5 (by decide)]
      rfl
    have h17 : (after (opsA.take 41) V (Proc.devRef .tc main_v17) : Vec Ideal S320000x1 .f32)
        = val_main_v17 (F := Ideal) (V₀ (Proc.devRef .tc main_arg2)) (V₀ (Proc.devRef .tc main_arg3))
            (V₀ (Proc.devRef .tc main_arg4)) (V₀ (Proc.devRef .tc main_arg5)) := by
      simp only [opsA, opsAll, ops, List.drop_zero, List.take_succ_cons, List.take_zero]
      after_results_simp
      rw [ha main_arg2 (by decide), ha main_arg3 (by decide), ha main_arg4 (by decide), ha main_arg5 (by decide)]
      rfl
    have key : ∀ (a a' b b' : Vec Ideal S320000x128 .f32) (c c' : Vec Ideal S320000x1 .f32), a = a' → b = b' → c = c' →
        concatenate S320000x257 1 [⟨S320000x128, a⟩, ⟨S320000x128, b⟩, ⟨S320000x1, c⟩]
            concatenates_S320000x128_S320000x128_S320000x1_S320000x257_d1
          = concatenate S320000x257 1 [⟨S320000x128, a'⟩, ⟨S320000x128, b'⟩, ⟨S320000x1, c'⟩]
            concatenates_S320000x128_S320000x128_S320000x1_S320000x257_d1 := by
      rintro _ _ _ _ _ _ rfl rfl rfl; rfl
    have hd : opsA.drop 41 = [nary ![main_v24, main_v31, main_v17] main_v32
        (fun u => concatenate S320000x257 1 [⟨S320000x128, u 0⟩, ⟨S320000x128, u 1⟩, ⟨S320000x1, u 2⟩]
          concatenates_S320000x128_S320000x128_S320000x1_S320000x257_d1)] := rfl
    rw [after_take_drop 41 opsA V, hd, after_cons, after_nil, nary_result]
    exact key _ _ _ _ _ _ h24 h31 h17

end Cert.Bridge

end
-- ==== Proof.RunStretchB.lean ====
/-
  Stretch B of the reference's operation list (operations 42–67): the source-to-target edge network (two dense layers, two activations) on the joined input row.
  From contents that hold the launch arguments and the named earlier stages, the stretch leaves the reference's staged function
  in the buffer it is read for; a buffer it does not write keeps its contents.
-/
import proofs.«426544_j11063835754636_1_alg».proof.Proof.RunCut

set_option maxRecDepth 8192

noncomputable section

namespace Cert.Bridge

open Idealize.ShloMosaic Idealize.ShloMosaic.TcCoe Idealize.ShloMosaic.StableHlo Idealize.SL.Sem
open Cert.ReferenceIdeal Cert.ReferenceIdeal.Gen Cert.ReferenceIdeal.RunP Cert.ReferenceIdeal.ReadP

/-- The buffers stretch B writes. -/
abbrev writesB : List (Ref sig .tc) :=
  [main_v33, main_v34, main_v35, main_v36, main_call0_v0, main_call0_v1, main_call0_cst, main_call0_v2, main_call0_v3, main_call0_cst_0, main_call0_v4, main_call0_v5, main_v37, main_v38, main_v39, main_v40, main_v41, main_call1_v0, main_call1_v1, main_call1_cst, main_call1_v2, main_call1_v3, main_call1_cst_0, main_call1_v4, main_call1_v5, main_v42]

/-- A buffer the stretch does not write keeps its contents. -/
theorem keepB (V : Valuation τ sig (Elt Ideal)) (r : Ref sig .tc) (hr : r ∉ writesB) :
    after opsB V (Proc.devRef .tc r) = V (Proc.devRef .tc r) := by
  refine after_of_writes_sub (W := writesB) opsB V ?_ hr
  simp only [opsB, opsAll, ops, List.drop_succ_cons, List.drop_zero, List.take_succ_cons, List.take_zero, List.Forall,
    StableHlo.nullary_writes, StableHlo.unary_writes, StableHlo.binary_writes, Finset.singleton_subset_iff, List.mem_toFinset]
  repeat' apply And.intro
  all_goals exact List.mem_map_of_mem (by decide)

/-- What the stretch leaves where it is read later. -/
theorem stepB (V₀ V : Valuation τ sig (Elt Ideal)) (ha : SameArgs V₀ V) (h32 : V (Proc.devRef .tc main_v32) = S32 V₀) :
    after opsB V (Proc.devRef .tc main_v42) = S42 V₀ := by
  simp only [opsB, opsAll, ops, List.drop_succ_cons, List.drop_zero, List.take_succ_cons, List.take_zero]
  after_results_simp
  simp only [StableHlo.TRef.ofBuf, StableHlo.TRef.toBuf, cast_eq]
  rw [ha main_arg6 (by decide), ha main_arg7 (by decide), ha main_arg8 (by decide), ha main_arg9 (by decide), h32]
  rfl

end Cert.Bridge

end
-- ==== Proof.RunStretchC.lean ====
/-
  Stretch C of the reference's operation list (operations 68–93): the target-to-source edge network on the joined input row.
  From contents that hold the launch arguments and the named earlier stages, the stretch leaves the reference's staged function
  in the buffer it is read for; a buffer it does not write keeps its contents.
-/
import proofs.«426544_j11063835754636_1_alg».proof.Proof.RunCut

set_option maxRecDepth 8192

noncomputable section

namespace Cert.Bridge

open Idealize.ShloMosaic Idealize.ShloMosaic.TcCoe Idealize.ShloMosaic.StableHlo Idealize.SL.Sem
open Cert.ReferenceIdeal Cert.ReferenceIdeal.Gen Cert.ReferenceIdeal.RunP Cert.ReferenceIdeal.ReadP

/-- The buffers stretch C writes. -/
abbrev writesC : List (Ref sig .tc) :=
  [main_v43, main_v44, main_v45, main_v46, main_call2_v0, main_call2_v1, main_call2_cst, main_call2_v2, main_call2_v3, main_call2_cst_0, main_call2_v4, main_call2_v5, main_v47, main_v48, main_v49, main_v50, main_v51, main_call3_v0, main_call3_v1, main_call3_cst, main_call3_v2, main_call3_v3, main_call3_cst_0, main_call3_v4, main_call3_v5, main_v52]

/-- A buffer the stretch does not write keeps its contents. -/
theorem keepC (V : Valuation τ sig (Elt Ideal)) (r : Ref sig .tc) (hr : r ∉ writesC) :
    after opsC V (Proc.devRef .tc r) = V (Proc.devRef .tc r) := by
  refine after_of_writes_sub (W := writesC) opsC V ?_ hr
  simp only [opsC, opsAll, ops, List.drop_succ_cons, List.drop_zero, List.take_succ_cons, List.take_zero, List.Forall,
    StableHlo.nullary_writes, StableHlo.unary_writes, StableHlo.binary_writes, Finset.singleton_subset_iff, List.mem_toFinset]
  repeat' apply And.intro
  all_goals exact List.mem_map_of_mem (by decide)

/-- What the stretch leaves where it is read later. -/
theorem stepC (V₀ V : Valuation τ sig (Elt Ideal)) (ha : SameArgs V₀ V) (h32 : V (Proc.devRef .tc main_v32) = S32 V₀) :
    after opsC V (Proc.devRef .tc main_v52) = S52 V₀ := by
  simp only [opsC, opsAll, ops, List.drop_succ_cons, List.drop_zero, List.take_succ_cons, List.take_zero]
  after_results_simp
  simp only [StableHlo.TRef.ofBuf, StableHlo.TRef.toBuf, cast_eq]
  rw [ha main_arg10 (by decide), ha main_arg11 (by decide), ha main_arg12 (by decide), ha main_arg13 (by decide), h32]
  rfl

end Cert.Bridge

end
-- ==== Proof.RunStretchD.lean ====
/-
  Stretch D of the reference's operation list (operations 94–107): the source-to-target gate and the gated message.
  From contents that hold the launch arguments and the named earlier stages, the stretch leaves the reference's staged function
  in the buffer it is read for; a buffer it does not write keeps its contents.
-/
import proofs.«426544_j11063835754636_1_alg».proof.Proof.RunCut

set_option maxRecDepth 8192

noncomputable section

namespace Cert.Bridge

open Idealize.ShloMosaic Idealize.ShloMosaic.TcCoe Idealize.ShloMosaic.StableHlo Idealize.SL.Sem
open Cert.ReferenceIdeal Cert.ReferenceIdeal.Gen Cert.ReferenceIdeal.RunP Cert.ReferenceIdeal.ReadP

/-- The buffers stretch D writes. -/
abbrev writesD : List (Ref sig .tc) :=
  [main_v53, main_v54, main_v55, main_v56, main_v57, main_v58, main_cst_7, main_v59, main_v60, main_cst_8, main_v61, main_v62,
    main_v63, main_v64]

/-- A buffer the stretch does not write keeps its contents. -/
theorem keepD (V : Valuation τ sig (Elt Ideal)) (r : Ref sig .tc) (hr : r ∉ writesD) :
    after opsD V (Proc.devRef .tc r) = V (Proc.devRef .tc r) :=
  after_of_writes_sub opsD V (by
    simp only [opsD, opsAll, ops, List.drop_succ_cons, List.drop_zero, List.take_succ_cons, List.take_zero, List.Forall,
      nullary_writes, unary_writes, binary_writes, Finset.singleton_subset_iff, List.mem_toFinset]
    repeat' apply And.intro
    all_goals exact List.mem_map.mpr ⟨_, by decide, rfl⟩) hr

/-- What the stretch leaves where it is read later. -/
theorem stepD (V₀ V : Valuation τ sig (Elt Ideal)) (ha : SameArgs V₀ V) (h42 : V (Proc.devRef .tc main_v42) = S42 V₀) :
    after opsD V (Proc.devRef .tc main_v64) = S64 V₀ := by
  simp only [opsD, opsAll, ops, List.drop_succ_cons, List.drop_zero, List.take_succ_cons, List.take_zero]
  after_results_simp
  rw [ha main_arg14 (by decide), ha main_arg15 (by decide), h42]
  unfold S64
  unfold val_main_v64 val_main_v63 val_main_v62 val_main_v61 val_main_cst_8 val_main_v60 val_main_v59 val_main_cst_7
    val_main_v58 val_main_v57 val_main_v56 val_main_v55 val_main_v54 val_main_v53
  rfl

end Cert.Bridge

end
-- ==== Proof.RunStretchE.lean ====
/-
  Stretch E of the reference's operation list (operations 108–121): the target-to-source gate and the gated message.
  From contents that hold the launch arguments and the named earlier stages, the stretch leaves the reference's staged function
  in the buffer it is read for; a buffer it does not write keeps its contents.
-/
import proofs.«426544_j11063835754636_1_alg».proof.Proof.RunCut

set_option maxRecDepth 8192

noncomputable section

namespace Cert.Bridge

open Idealize.ShloMosaic Idealize.ShloMosaic.TcCoe Idealize.ShloMosaic.StableHlo Idealize.SL.Sem
open Cert.ReferenceIdeal Cert.ReferenceIdeal.Gen Cert.ReferenceIdeal.RunP Cert.ReferenceIdeal.ReadP

/-- The buffers stretch E writes. -/
abbrev writesE : List (Ref sig .tc) :=
  [main_v65, main_v66, main_v67, main_v68, main_v69, main_v70, main_cst_9, main_v71, main_v72, main_cst_10, main_v73, main_v74,
    main_v75, main_v76]

/-- A buffer the stretch does not write keeps its contents. -/
theorem keepE (V : Valuation τ sig (Elt Ideal)) (r : Ref sig .tc) (hr : r ∉ writesE) :
    after opsE V (Proc.devRef .tc r) = V (Proc.devRef .tc r) :=
  after_of_writes_sub opsE V (by
    simp only [opsE, opsAll, ops, List.drop_succ_cons, List.drop_zero, List.take_succ_cons, List.take_zero, List.Forall,
      nullary_writes, unary_writes, binary_writes, Finset.singleton_subset_iff, List.mem_toFinset]
    repeat' apply And.intro
    all_goals exact List.mem_map.mpr ⟨_, by decide, rfl⟩) hr

/-- What the stretch leaves where it is read later. -/
theorem stepE (V₀ V : Valuation τ sig (Elt Ideal)) (ha : SameArgs V₀ V) (h52 : V (Proc.devRef .tc main_v52) = S52 V₀) :
    after opsE V (Proc.devRef .tc main_v76) = S76 V₀ := by
  simp only [opsE, opsAll, ops, List.drop_succ_cons, List.drop_zero, List.take_succ_cons, List.take_zero]
  after_results_simp
  rw [ha main_arg16 (by decide), ha main_arg17 (by decide), h52]
  unfold S76
  unfold val_main_v76 val_main_v75 val_main_v74 val_main_v73 val_main_cst_10 val_main_v72 val_main_v71 val_main_cst_9
    val_main_v70 val_main_v69 val_main_v68 val_main_v67 val_main_v66 val_main_v65
  rfl

end Cert.Bridge

end
-- ==== Proof.RunStretchF.lean ====
/-
  Stretch F of the reference's operation list (operations 122–162): the coordinate weight, the weighted translation, its aggregation, the edge count and the coordinate update.
  From contents that hold the launch arguments and the named earlier stages, the stretch leaves the reference's staged function
  in the buffer it is read for; a buffer it does not write keeps its contents.
-/
import proofs.«426544_j11063835754636_1_alg».proof.Proof.RunCut

set_option maxRecDepth 8192

noncomputable section

namespace Cert.Bridge

open Idealize.ShloMosaic Idealize.ShloMosaic.TcCoe Idealize.ShloMosaic.StableHlo Idealize.SL.Sem
open Cert.ReferenceIdeal Cert.ReferenceIdeal.Gen Cert.ReferenceIdeal.RunP Cert.ReferenceIdeal.ReadP

/-- The buffers stretch F writes. -/
abbrev writesF : List (Ref sig .tc) :=
  [main_v77, main_v78, main_v79, main_v80, main_call4_v0, main_call4_v1, main_call4_cst, main_call4_v2,
   main_call4_v3, main_call4_cst_0, main_call4_v4, main_call4_v5, main_v81, main_v82, main_v83, main_v84,
   main_cst_11, main_v85, main_v86, main_v87, main_cst_12, main_v88, main_cst_13, main_v89, main_v90, main_v91,
   main_cst_14, main_v92, main_v93, main_v94, main_v95, main_v96, main_cst_15, main_cst_16, main_call5_v0,
   main_call5_v1, main_call5_v2, main_call5_v3, main_call5_v4, main_v97, main_v98]

/-- Every operation of the stretch writes one of the listed buffers. -/
theorem opsF_writes : opsF.Forall fun op => op.writes ⊆ (writesF.map (Proc.devRef (τ := τ) .tc)).toFinset := by
  simp only [opsF, opsAll, ops, List.drop_succ_cons, List.drop_zero, List.take_succ_cons, List.take_zero, List.Forall,
    StableHlo.nullary_writes, StableHlo.unary_writes, StableHlo.binary_writes, StableHlo.ternary_writes,
    StableHlo.quaternary_writes, StableHlo.reshape_writes, StableHlo.binaryIndexed_writes, StableHlo.nary_writes,
    Finset.singleton_subset_iff, List.mem_toFinset]
  repeat' apply And.intro
  all_goals exact List.mem_map_of_mem (by decide)

/-- A buffer the stretch does not write keeps its contents. -/
theorem keepF (V : Valuation τ sig (Elt Ideal)) (r : Ref sig .tc) (hr : r ∉ writesF) :
    after opsF V (Proc.devRef .tc r) = V (Proc.devRef .tc r) :=
  after_of_writes_sub opsF V opsF_writes hr

set_option maxHeartbeats 2000000 in
/-- What the stretch leaves where it is read later. -/
theorem stepF (V₀ V : Valuation τ sig (Elt Ideal)) (ha : SameArgs V₀ V) (h14 : V (Proc.devRef .tc main_v14) = S14 V₀) (h64 : V (Proc.devRef .tc main_v64) = S64 V₀) :
    after opsF V (Proc.devRef .tc main_v98) = S98 V₀ := by
  have a3 := ha main_arg3 (by decide)
  have a5 := ha main_arg5 (by decide)
  have a18 := ha main_arg18 (by decide)
  have a19 := ha main_arg19 (by decide)
  have a20 := ha main_arg20 (by decide)
  simp only [opsF, opsAll, ops, List.drop_succ_cons, List.drop_zero, List.take_succ_cons, List.take_zero]
  after_results_simp
  simp only [StableHlo.TRef.ofBuf, StableHlo.TRef.toBuf, cast_eq]
  rw [a3, a5, a18, a19, a20, h14, h64]
  unfold S98 val_main_v98 val_main_v97 val_main_call5_v4 val_main_call5_v3 val_main_call5_v2 val_main_call5_v1
    val_main_call5_v0 val_main_cst_16 val_main_cst_15 val_main_v96 val_main_v95 val_main_v94 val_main_v93
    val_main_v92 val_main_cst_14 val_main_v91 val_main_v90 val_main_v89 val_main_cst_13 val_main_v88 val_main_cst_12
    val_main_v87 val_main_v86 val_main_v85 val_main_cst_11 val_main_v84 val_main_v83 val_main_v82 val_main_v81
    val_main_call4_v5 val_main_call4_v4 val_main_call4_cst_0 val_main_call4_v3 val_main_call4_v2 val_main_call4_cst
    val_main_call4_v1 val_main_call4_v0 val_main_v80 val_main_v79 val_main_v78 val_main_v77
  rfl

end Cert.Bridge

end
-- ==== Proof.RunStretchG.lean ====
/-
  Stretch G of the reference's operation list (operations 163–172): the two message aggregations and the two joined 256-wide node inputs.
  From contents that hold the launch arguments and the named earlier stages, the stretch leaves the reference's staged function
  in each of the buffers it is read for; a buffer it does not write keeps its contents.
-/
import proofs.«426544_j11063835754636_1_alg».proof.Proof.RunCut

set_option maxRecDepth 8192

noncomputable section

namespace Cert.Bridge

open Idealize.ShloMosaic Idealize.ShloMosaic.TcCoe Idealize.ShloMosaic.StableHlo Idealize.SL.Sem
open Cert.ReferenceIdeal Cert.ReferenceIdeal.Gen Cert.ReferenceIdeal.RunP Cert.ReferenceIdeal.ReadP

/-- The buffers stretch G writes. -/
abbrev writesG : List (Ref sig .tc) :=
  [main_cst_17, main_v99, main_v100, main_v101, main_cst_18, main_v102, main_v103, main_v104, main_v105, main_v106]

/-- Every operation of the stretch writes one of the listed buffers. -/
theorem opsG_writes : opsG.Forall fun op => op.writes ⊆ (writesG.map (Proc.devRef (τ := τ) .tc)).toFinset := by
  simp only [opsG, opsAll, ops, List.drop_succ_cons, List.drop_zero, List.take_succ_cons, List.take_zero, List.Forall,
    StableHlo.nullary_writes, StableHlo.unary_writes, StableHlo.binary_writes, StableHlo.ternary_writes,
    StableHlo.quaternary_writes, StableHlo.reshape_writes, StableHlo.binaryIndexed_writes, StableHlo.nary_writes,
    Finset.singleton_subset_iff, List.mem_toFinset]
  repeat' apply And.intro
  all_goals exact List.mem_map_of_mem (by decide)

/-- A buffer the stretch does not write keeps its contents. -/
theorem keepG (V : Valuation τ sig (Elt Ideal)) (r : Ref sig .tc) (hr : r ∉ writesG) :
    after opsG V (Proc.devRef .tc r) = V (Proc.devRef .tc r) :=
  after_of_writes_sub opsG V opsG_writes hr

/-- What the stretch leaves where it is read later. -/
theorem stepG (V₀ V : Valuation τ sig (Elt Ideal)) (ha : SameArgs V₀ V) (h64 : V (Proc.devRef .tc main_v64) = S64 V₀) (h76 : V (Proc.devRef .tc main_v76) = S76 V₀) :
    after opsG V (Proc.devRef .tc main_v105) = S105 V₀ ∧ after opsG V (Proc.devRef .tc main_v106) = S106 V₀ := by
  have a0 := ha main_arg0 (by decide)
  have a1 := ha main_arg1 (by decide)
  have a4 := ha main_arg4 (by decide)
  have a5 := ha main_arg5 (by decide)
  constructor
  · simp only [opsG, opsAll, ops, List.drop_succ_cons, List.drop_zero, List.take_succ_cons, List.take_zero]
    after_results
    rw [a1, a5, h64]
    unfold S105 val_main_v105 val_main_v101 val_main_v99 val_main_v100 val_main_cst_17
    rfl
  · simp only [opsG, opsAll, ops, List.drop_succ_cons, List.drop_zero, List.take_succ_cons, List.take_zero]
    after_results
    rw [a0, a4, h76]
    unfold S106 val_main_v106 val_main_v104 val_main_v102 val_main_v103 val_main_cst_18
    rfl

end Cert.Bridge

end
-- ==== Proof.RunStretchH.lean ====
/-
  Stretch H of the reference's operation list (operations 173–189): the target-node network on the joined node input.
  From contents that hold the launch arguments and the named earlier stages, the stretch leaves the reference's staged function
  in the buffer it is read for; a buffer it does not write keeps its contents.
-/
import proofs.«426544_j11063835754636_1_alg».proof.Proof.RunCut

set_option maxRecDepth 8192

noncomputable section

namespace Cert.Bridge

open Idealize.ShloMosaic Idealize.ShloMosaic.TcCoe Idealize.ShloMosaic.StableHlo Idealize.SL.Sem
open Cert.ReferenceIdeal Cert.ReferenceIdeal.Gen Cert.ReferenceIdeal.RunP Cert.ReferenceIdeal.ReadP

/-- The buffers stretch H writes. -/
abbrev writesH : List (Ref sig .tc) :=
  [main_v107, main_v108, main_v109, main_v110, main_call6_v0, main_call6_v1, main_call6_cst, main_call6_v2, main_call6_v3, main_call6_cst_0, main_call6_v4, main_call6_v5, main_v111, main_v112, main_v113, main_v114, main_v115]

/-- A buffer the stretch does not write keeps its contents. -/
theorem keepH (V : Valuation τ sig (Elt Ideal)) (r : Ref sig .tc) (hr : r ∉ writesH) :
    after opsH V (Proc.devRef .tc r) = V (Proc.devRef .tc r) := by
  refine after_of_writes_sub opsH V ?_ hr
  simp only [opsH, opsAll, ops, List.drop_succ_cons, List.drop_zero, List.take_succ_cons, List.take_zero]
  simp only [List.Forall, nullary_writes, unary_writes, binary_writes]
  repeat' apply And.intro
  all_goals exact Finset.singleton_subset_iff.mpr (List.mem_toFinset.mpr (List.mem_map_of_mem (by decide)))

set_option maxHeartbeats 2000000 in
/-- What the stretch leaves where it is read later. -/
theorem stepH (V₀ V : Valuation τ sig (Elt Ideal)) (ha : SameArgs V₀ V) (h105 : V (Proc.devRef .tc main_v105) = S105 V₀) :
    after opsH V (Proc.devRef .tc main_v115) = S115 V₀ := by
  have a21 := ha main_arg21 (by decide)
  have a22 := ha main_arg22 (by decide)
  have a23 := ha main_arg23 (by decide)
  have a24 := ha main_arg24 (by decide)
  simp only [opsH, opsAll, ops, List.drop_succ_cons, List.drop_zero, List.take_succ_cons, List.take_zero]
  after_results_simp
  simp only [StableHlo.TRef.ofBuf, StableHlo.TRef.toBuf, cast_eq]
  rw [a21, a22, a23, a24, h105]
  unfold S115 val_main_v115 val_main_v114 val_main_v113 val_main_v112 val_main_v111 val_main_call6_v5 val_main_call6_v4
    val_main_call6_cst_0 val_main_call6_v3 val_main_call6_v2 val_main_call6_cst val_main_call6_v1 val_main_call6_v0
    val_main_v110 val_main_v109 val_main_v108 val_main_v107
  rfl

end Cert.Bridge

end
-- ==== Proof.RunStretchI.lean ====
/-
  Stretch I of the reference's operation list (operations 190–208): the source-node network, and the two residual sums.
  From contents that hold the launch arguments and the named earlier stages, the stretch leaves the reference's staged function
  in each of the buffers it is read for; a buffer it does not write keeps its contents.
-/
import proofs.«426544_j11063835754636_1_alg».proof.Proof.RunCut

set_option maxRecDepth 8192

noncomputable section

namespace Cert.Bridge

open Idealize.ShloMosaic Idealize.ShloMosaic.TcCoe Idealize.ShloMosaic.StableHlo Idealize.SL.Sem
open Cert.ReferenceIdeal Cert.ReferenceIdeal.Gen Cert.ReferenceIdeal.RunP Cert.ReferenceIdeal.ReadP

/-- The buffers stretch I writes. -/
abbrev writesI : List (Ref sig .tc) :=
  [main_v116, main_v117, main_v118, main_v119, main_call7_v0, main_call7_v1, main_call7_cst, main_call7_v2, main_call7_v3, main_call7_cst_0, main_call7_v4, main_call7_v5, main_v120, main_v121, main_v122, main_v123, main_v124, main_v125, main_v126]

/-- A buffer the stretch does not write keeps its contents. -/
theorem keepI (V : Valuation τ sig (Elt Ideal)) (r : Ref sig .tc) (hr : r ∉ writesI) :
    after opsI V (Proc.devRef .tc r) = V (Proc.devRef .tc r) := by
  refine after_of_writes_sub opsI V ?_ hr
  simp only [opsI, opsAll, ops, List.drop_succ_cons, List.drop_zero, List.take_succ_cons, List.take_zero]
  simp only [List.Forall, nullary_writes, unary_writes, binary_writes]
  repeat' apply And.intro
  all_goals exact Finset.singleton_subset_iff.mpr (List.mem_toFinset.mpr (List.mem_map_of_mem (by decide)))

set_option maxHeartbeats 2000000 in
/-- What the stretch leaves where it is read later. -/
theorem stepI (V₀ V : Valuation τ sig (Elt Ideal)) (ha : SameArgs V₀ V) (h106 : V (Proc.devRef .tc main_v106) = S106 V₀) (h115 : V (Proc.devRef .tc main_v115) = S115 V₀) :
    after opsI V (Proc.devRef .tc main_v125) = S125 V₀ ∧ after opsI V (Proc.devRef .tc main_v126) = S126 V₀ := by
  have a0 := ha main_arg0 (by decide)
  have a1 := ha main_arg1 (by decide)
  have a25 := ha main_arg25 (by decide)
  have a26 := ha main_arg26 (by decide)
  have a27 := ha main_arg27 (by decide)
  have a28 := ha main_arg28 (by decide)
  constructor
  · simp only [opsI, opsAll, ops, List.drop_succ_cons, List.drop_zero, List.take_succ_cons, List.take_zero]
    after_results_simp
    rw [a1, h115]
    unfold S125 val_main_v125
    rfl
  · simp only [opsI, opsAll, ops, List.drop_succ_cons, List.drop_zero, List.take_succ_cons, List.take_zero]
    after_results_simp
    simp only [StableHlo.TRef.ofBuf, StableHlo.TRef.toBuf, cast_eq]
    rw [a0, a25, a26, a27, a28, h106]
    unfold S126 val_main_v126 val_main_v124 val_main_v123 val_main_v122 val_main_v121 val_main_v120 val_main_call7_v5 val_main_call7_v4
      val_main_call7_cst_0 val_main_call7_v3 val_main_call7_v2 val_main_call7_cst val_main_call7_v1 val_main_call7_v0
      val_main_v119 val_main_v118 val_main_v117 val_main_v116
    rfl

end Cert.Bridge

end
-- ==== Proof.RefRunHand.lean ====
/-
  The reference's run with its results named as the reference's staged functions of the launch arguments.

  The operation list is the nine stretches in order, so the contents after the whole list are the contents after the
  last stretch from the contents after the one before, and so on down to the launch contents. Across each cut the
  arguments are still the launch arguments (no stretch writes one) and the few intermediates still needed are the
  staged functions (the stretch that wrote them left them so; the later ones do not write them). The three computed
  results are what the last stretches leave; the fourth result is an argument.
-/
import proofs.«426544_j11063835754636_1_alg».proof.Proof.RunCut
import proofs.«426544_j11063835754636_1_alg».proof.Proof.RunStretchA
import proofs.«426544_j11063835754636_1_alg».proof.Proof.RunStretchB
import proofs.«426544_j11063835754636_1_alg».proof.Proof.RunStretchC
import proofs.«426544_j11063835754636_1_alg».proof.Proof.RunStretchD
import proofs.«426544_j11063835754636_1_alg».proof.Proof.RunStretchE
import proofs.«426544_j11063835754636_1_alg».proof.Proof.RunStretchF
import proofs.«426544_j11063835754636_1_alg».proof.Proof.RunStretchG
import proofs.«426544_j11063835754636_1_alg».proof.Proof.RunStretchH
import proofs.«426544_j11063835754636_1_alg».proof.Proof.RunStretchI

set_option maxRecDepth 8192

noncomputable section

namespace Cert.Bridge

open Idealize.ShloMosaic Idealize.ShloMosaic.TcCoe Idealize.ShloMosaic.StableHlo Idealize.SL.Sem
open Cert.ReferenceIdeal Cert.ReferenceIdeal.Gen Cert.ReferenceIdeal.RunP Cert.ReferenceIdeal.ReadP

/-! ## No stretch writes an argument -/

theorem args_not_A : ∀ r ∈ argRefs, r ∉ writesA := by decide
theorem args_not_B : ∀ r ∈ argRefs, r ∉ writesB := by decide
theorem args_not_C : ∀ r ∈ argRefs, r ∉ writesC := by decide
theorem args_not_D : ∀ r ∈ argRefs, r ∉ writesD := by decide
theorem args_not_E : ∀ r ∈ argRefs, r ∉ writesE := by decide
theorem args_not_F : ∀ r ∈ argRefs, r ∉ writesF := by decide
theorem args_not_G : ∀ r ∈ argRefs, r ∉ writesG := by decide
theorem args_not_H : ∀ r ∈ argRefs, r ∉ writesH := by decide
theorem args_not_I : ∀ r ∈ argRefs, r ∉ writesI := by decide

/-- The list is its nine stretches in order. -/
theorem ops_cut : opsAll = opsA ++ (opsB ++ (opsC ++ (opsD ++ (opsE ++ (opsF ++ (opsG ++ (opsH ++ opsI))))))) := by
  rfl

/-- The contents after the whole list, stretch by stretch. -/
theorem after_cut (V : Valuation τ sig (Elt Ideal)) :
    after opsAll V = after opsI (after opsH (after opsG (after opsF (after opsE (after opsD (after opsC (after opsB (after opsA V)))))))) :=
  (congrArg (fun l => after l V) ops_cut).trans (by simp only [after_append])

/-- After the whole list from contents `V₀`: the three computed results are the reference's staged functions of the
    arguments in `V₀`, and every argument buffer is as in `V₀`. -/
theorem ref_fold (V₀ : Valuation τ sig (Elt Ideal)) :
    after opsAll V₀ (Proc.devRef .tc main_v126) = S126 V₀ ∧ after opsAll V₀ (Proc.devRef .tc main_v125) = S125 V₀
      ∧ after opsAll V₀ (Proc.devRef .tc main_v98) = S98 V₀ ∧ SameArgs V₀ (after opsAll V₀) := by
  rw [after_cut]
  -- stretch A
  obtain ⟨a14, a32⟩ := stepA V₀ V₀ (SameArgs.refl V₀)
  have sA : SameArgs V₀ (after opsA V₀) := fun r hr => keepA V₀ r (args_not_A r hr)
  generalize after opsA V₀ = V1 at a14 a32 sA ⊢
  -- stretch B: the source-to-target network; the difference and the joined row are carried
  have b42 := stepB V₀ V1 sA a32
  have b14 : after opsB V1 (Proc.devRef .tc main_v14) = S14 V₀ := (keepB V1 main_v14 (by decide)).trans a14
  have b32 : after opsB V1 (Proc.devRef .tc main_v32) = S32 V₀ := (keepB V1 main_v32 (by decide)).trans a32
  have sB : SameArgs V₀ (after opsB V1) := fun r hr => (keepB V1 r (args_not_B r hr)).trans (sA r hr)
  generalize after opsB V1 = V2 at b42 b14 b32 sB ⊢
  -- stretch C: the target-to-source network
  have c52 := stepC V₀ V2 sB b32
  have c14 : after opsC V2 (Proc.devRef .tc main_v14) = S14 V₀ := (keepC V2 main_v14 (by decide)).trans b14
  have c42 : after opsC V2 (Proc.devRef .tc main_v42) = S42 V₀ := (keepC V2 main_v42 (by decide)).trans b42
  have sC : SameArgs V₀ (after opsC V2) := fun r hr => (keepC V2 r (args_not_C r hr)).trans (sB r hr)
  generalize after opsC V2 = V3 at c52 c14 c42 sC ⊢
  -- stretch D: the first gate
  have d64 := stepD V₀ V3 sC c42
  have d14 : after opsD V3 (Proc.devRef .tc main_v14) = S14 V₀ := (keepD V3 main_v14 (by decide)).trans c14
  have d52 : after opsD V3 (Proc.devRef .tc main_v52) = S52 V₀ := (keepD V3 main_v52 (by decide)).trans c52
  have sD : SameArgs V₀ (after opsD V3) := fun r hr => (keepD V3 r (args_not_D r hr)).trans (sC r hr)
  generalize after opsD V3 = V4 at d64 d14 d52 sD ⊢
  -- stretch E: the second gate
  have e76 := stepE V₀ V4 sD d52
  have e14 : after opsE V4 (Proc.devRef .tc main_v14) = S14 V₀ := (keepE V4 main_v14 (by decide)).trans d14
  have e64 : after opsE V4 (Proc.devRef .tc main_v64) = S64 V₀ := (keepE V4 main_v64 (by decide)).trans d64
  have sE : SameArgs V₀ (after opsE V4) := fun r hr => (keepE V4 r (args_not_E r hr)).trans (sD r hr)
  generalize after opsE V4 = V5 at e76 e14 e64 sE ⊢
  -- stretch F: the coordinates
  have f98 := stepF V₀ V5 sE e14 e64
  have f64 : after opsF V5 (Proc.devRef .tc main_v64) = S64 V₀ := (keepF V5 main_v64 (by decide)).trans e64
  have f76 : after opsF V5 (Proc.devRef .tc main_v76) = S76 V₀ := (keepF V5 main_v76 (by decide)).trans e76
  have sF : SameArgs V₀ (after opsF V5) := fun r hr => (keepF V5 r (args_not_F r hr)).trans (sE r hr)
  generalize after opsF V5 = V6 at f98 f64 f76 sF ⊢
  -- stretch G: the aggregations and the joined node inputs
  obtain ⟨g105, g106⟩ := stepG V₀ V6 sF f64 f76
  have g98 : after opsG V6 (Proc.devRef .tc main_v98) = S98 V₀ := (keepG V6 main_v98 (by decide)).trans f98
  have sG : SameArgs V₀ (after opsG V6) := fun r hr => (keepG V6 r (args_not_G r hr)).trans (sF r hr)
  generalize after opsG V6 = V7 at g105 g106 g98 sG ⊢
  -- stretch H: the target-node network
  have h115 := stepH V₀ V7 sG g105
  have h98 : after opsH V7 (Proc.devRef .tc main_v98) = S98 V₀ := (keepH V7 main_v98 (by decide)).trans g98
  have h106 : after opsH V7 (Proc.devRef .tc main_v106) = S106 V₀ := (keepH V7 main_v106 (by decide)).trans g106
  have sH : SameArgs V₀ (after opsH V7) := fun r hr => (keepH V7 r (args_not_H r hr)).trans (sG r hr)
  generalize after opsH V7 = V8 at h115 h98 h106 sH ⊢
  -- stretch I: the source-node network and the two residual sums
  obtain ⟨i125, i126⟩ := stepI V₀ V8 sH h106 h115
  have i98 : after opsI V8 (Proc.devRef .tc main_v98) = S98 V₀ := (keepI V8 main_v98 (by decide)).trans h98
  have sI : SameArgs V₀ (after opsI V8) := fun r hr => (keepI V8 r (args_not_I r hr)).trans (sH r hr)
  exact ⟨i126, i125, i98, sI⟩

/-- On every device, from any memory with zero counters: every weakly fair execution of the reference's @main
    terminates, nothing faulting, with the three computed results at the reference's staged functions of the launch
    arguments and every argument array as launched. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v126) = val_main_v126 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg16)) (m ((c.tc : Thread nD τ).loc main_arg17)) (m ((c.tc : Thread nD τ).loc main_arg25)) (m ((c.tc : Thread nD τ).loc main_arg26)) (m ((c.tc : Thread nD τ).loc main_arg27)) (m ((c.tc : Thread nD τ).loc main_arg28))
      ∧ r.2.mem ((c.tc : Thread nD τ).loc main_v125) = val_main_v125 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg2) = m ((c.tc : Thread nD τ).loc main_arg2)
      ∧ r.2.mem ((c.tc : Thread nD τ).loc main_v98) = val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun _ h c => by
      obtain ⟨f126, f125, f98, fa⟩ := ref_fold (launchContents m c)
      exact ⟨(h c main_v126).trans f126, (h c main_v125).trans f125, (h c main_arg2).trans (fa main_arg2 (by decide)),
        (h c main_v98).trans f98,
        (h c main_arg0).trans (fa main_arg0 (by decide)),
        (h c main_arg1).trans (fa main_arg1 (by decide)),
        (h c main_arg2).trans (fa main_arg2 (by decide)),
        (h c main_arg3).trans (fa main_arg3 (by decide)),
        (h c main_arg4).trans (fa main_arg4 (by decide)),
        (h c main_arg5).trans (fa main_arg5 (by decide)),
        (h c main_arg6).trans (fa main_arg6 (by decide)),
        (h c main_arg7).trans (fa main_arg7 (by decide)),
        (h c main_arg8).trans (fa main_arg8 (by decide)),
        (h c main_arg9).trans (fa main_arg9 (by decide)),
        (h c main_arg10).trans (fa main_arg10 (by decide)),
        (h c main_arg11).trans (fa main_arg11 (by decide)),
        (h c main_arg12).trans (fa main_arg12 (by decide)),
        (h c main_arg13).trans (fa main_arg13 (by decide)),
        (h c main_arg14).trans (fa main_arg14 (by decide)),
        (h c main_arg15).trans (fa main_arg15 (by decide)),
        (h c main_arg16).trans (fa main_arg16 (by decide)),
        (h c main_arg17).trans (fa main_arg17 (by decide)),
        (h c main_arg18).trans (fa main_arg18 (by decide)),
        (h c main_arg19).trans (fa main_arg19 (by decide)),
        (h c main_arg20).trans (fa main_arg20 (by decide)),
        (h c main_arg21).trans (fa main_arg21 (by decide)),
        (h c main_arg22).trans (fa main_arg22 (by decide)),
        (h c main_arg23).trans (fa main_arg23 (by decide)),
        (h c main_arg24).trans (fa main_arg24 (by decide)),
        (h c main_arg25).trans (fa main_arg25 (by decide)),
        (h c main_arg26).trans (fa main_arg26 (by decide)),
        (h c main_arg27).trans (fa main_arg27 (by decide)),
        (h c main_arg28).trans (fa main_arg28 (by decide))⟩)
    (run_seq scopedRefs_eq scopedSems_eq defs main (fun _ => ops) main_eq (fun _ => ops_sub) m ρ)

end Cert.Bridge

end
-- ==== Proof.Spec.lean ====
/-
  The message-passing layer, row by row, over the extended reals.

  Every output row of the edge stage depends on ONE row of each gathered array and on the weights; every output row
  of the node stage on one row of the node features, one row of the aggregated messages and the weights. This
  module states those row functions once. A tile of rows computed in a staging buffer and the whole array computed
  by array operations are then the same function read at different row counts, which is all the two programs
  differ by in this part of the computation.

  * `silu x = x · σ(x)`, with `σ` the logistic function.
  * first edge layer: `silu (s·Wa + t·Wb + r·Wr + b)`, the 257-wide input row `[s, t, r]` against the weight
    rows 0–127, 128–255 and 256 taken separately: a sum over 257 indices is the sum of its three stretches
    (`sum_fin257`), by associativity of `+` alone, so nothing here asks the inputs to be finite.
  * the gate multiplies a row by ONE number, `σ(e·wg + bg)`.
  * the coordinate weight of an edge is `silu(e·Wc1 + bc1)·wc2`, a number; the weighted translation is the
    coordinate difference times it.
  * the node update is `f + (silu(f·Wa + g·Wb + b1)·W2 + b2)`, the 256-wide input `[f, g]` split the same way
    (`sum_fin256`).
-/
import Idealize.ShloMosaic.PureOps.Ideal.Laws
import Idealize.ShloMosaic.Lib.ValueIdx

noncomputable section

namespace Cert.Bridge

open Idealize.ShloMosaic Idealize.ShloMosaic.ValueIdx
open scoped BigOperators

/-- A row of `n` extended reals. -/
abbrev Row (n : Nat) := Fin n → EReal

/-- Row `r` of a two-axis array. -/
abbrev rowOf {n k : Nat} (x : (⟨2, ![n, k]⟩ : Shape).Idx → EReal) (r : Fin n) : Row k := fun j => x (ix2 r j)

/-- `x · σ(x)`. -/
def silu (x : EReal) : EReal := x * Ideal.logistic x

/-- `silu` along a row. -/
def siluRow {k : Nat} (x : Row k) : Row k := fun q => silu (x q)

/-- The first edge layer before its activation: `s·Wa + t·Wb + r·Wr + b`. -/
def lin3 (s t : Row 128) (r : EReal) (Wa Wb : Fin 128 → Row 128) (Wr b : Row 128) : Row 128 :=
  fun q => (((∑ k, s k * Wa k q) + (∑ k, t k * Wb k q)) + r * Wr q) + b q

/-- A dense layer before its activation: `h·W + b`. -/
def lin (h : Row 128) (W : Fin 128 → Row 128) (b : Row 128) : Row 128 :=
  fun q => (∑ k, h k * W k q) + b q

/-- The two-layer edge network on one edge's inputs. -/
def mlp (s t : Row 128) (r : EReal) (Wa Wb : Fin 128 → Row 128) (Wr b1 : Row 128) (W2 : Fin 128 → Row 128) (b2 : Row 128) : Row 128 :=
  siluRow (lin (siluRow (lin3 s t r Wa Wb Wr b1)) W2 b2)

/-- The gate of a message: one number for the whole row. -/
def gateOf (e wg : Row 128) (bg : EReal) : EReal := Ideal.logistic ((∑ k, e k * wg k) + bg)

/-- A message times its gate. -/
def gated (e wg : Row 128) (bg : EReal) : Row 128 := fun q => e q * gateOf e wg bg

/-- The squared distance between an edge's two endpoints. -/
def radial (sc tc : Row 3) : EReal := ∑ a, (tc a - sc a) * (tc a - sc a)

/-- One edge's gated message from its two endpoint feature rows and coordinate rows. -/
def edgeRow (s t : Row 128) (sc tc : Row 3) (Wa Wb : Fin 128 → Row 128) (Wr b1 : Row 128) (W2 : Fin 128 → Row 128)
    (b2 wg : Row 128) (bg : EReal) : Row 128 :=
  gated (mlp s t (radial sc tc) Wa Wb Wr b1 W2 b2) wg bg

/-- The coordinate weight of an edge from its gated message. -/
def coordW (e : Row 128) (Wc1 : Fin 128 → Row 128) (bc1 wc2 : Row 128) : EReal :=
  ∑ k, siluRow (lin e Wc1 bc1) k * wc2 k

/-- The weighted translation of an edge: the coordinate difference times the coordinate weight. -/
def wtransRow (sc tc : Row 3) (cw : EReal) : Row 3 := fun a => (tc a - sc a) * cw

/-- One node's update from its feature row `f` and its aggregated messages `g`. -/
def nodeRow (f g : Row 128) (Wa Wb : Fin 128 → Row 128) (b1 : Row 128) (W2 : Fin 128 → Row 128) (b2 : Row 128) : Row 128 :=
  fun q => f q + ((∑ k, silu (((∑ j, f j * Wa j k) + (∑ j, g j * Wb j k)) + b1 k) * W2 k q) + b2 q)

/-- Every entry of an edge-index array is a node number: a non-negative word below 20000. -/
def InRange (idx : (⟨1, ![320000]⟩ : Shape).Idx → BitVec 32) : Prop := ∀ e : Fin 320000, (idx (ix1 e)).toNat < 20000

/-! ## Rows of the weight arrays -/

/-- Rows 0–127 of a weight array of at least 256 rows. -/
abbrev topRows {n : Nat} (hn : 256 ≤ n) (W : (⟨2, ![n, 128]⟩ : Shape).Idx → EReal) : Fin 128 → Row 128 :=
  fun k q => W (ix2 ⟨k.val, by omega⟩ q)

/-- Rows 128–255 of a weight array of at least 256 rows. -/
abbrev nextRows {n : Nat} (hn : 256 ≤ n) (W : (⟨2, ![n, 128]⟩ : Shape).Idx → EReal) : Fin 128 → Row 128 :=
  fun k q => W (ix2 ⟨128 + k.val, by omega⟩ q)

/-- Row 256 of the 257-row first-layer weight: the row that meets the squared distance. -/
abbrev lastRow (W : (⟨2, ![257, 128]⟩ : Shape).Idx → EReal) : Row 128 := fun q => W (ix2 ⟨256, by omega⟩ q)

/-- All rows of a square weight. -/
abbrev allRows (W : (⟨2, ![128, 128]⟩ : Shape).Idx → EReal) : Fin 128 → Row 128 := fun k => rowOf W k

/-- A bias vector as a row. -/
abbrev vecRow (b : (⟨1, ![128]⟩ : Shape).Idx → EReal) : Row 128 := fun q => b (ix1 q)

/-- A one-column weight as a row. -/
abbrev colRow (w : (⟨2, ![128, 1]⟩ : Shape).Idx → EReal) : Row 128 := fun k => w (ix2 k 0)

/-! ## A sum over a joined axis is the sum of its stretches -/

/-- A sum over 256 indices is the sum over the first 128 plus the sum over the last 128. -/
theorem sum_fin256 {M : Type*} [AddCommMonoid M] (f : Fin 256 → M) :
    ∑ k, f k = (∑ k : Fin 128, f ⟨k.val, by omega⟩) + (∑ k : Fin 128, f ⟨128 + k.val, by omega⟩) := by
  rw [show (∑ k, f k) = ∑ k : Fin (128 + 128), f k from rfl, Fin.sum_univ_add]
  rfl

/-- A sum over 257 indices is the sum over the first 128, the next 128 and the last one. -/
theorem sum_fin257 {M : Type*} [AddCommMonoid M] (f : Fin 257 → M) :
    ∑ k, f k = ((∑ k : Fin 128, f ⟨k.val, by omega⟩) + (∑ k : Fin 128, f ⟨128 + k.val, by omega⟩)) + f ⟨256, by omega⟩ := by
  rw [show (∑ k, f k) = ∑ k : Fin (128 + 128 + 1), f k from rfl, Fin.sum_univ_add, Fin.sum_univ_add, Fin.sum_univ_one]
  rfl

end Cert.Bridge

end
-- ==== Proof.RefTail.lean ====
/-
  The reference's three aggregations and its coordinate update, each as ONE function of the edge-level array it
  consumes. Both programs sum the gated messages and the weighted translations into node rows by the same
  scatter-add over the same edge-index array, count the edges per target node the same way, and finish the
  coordinates with the same division, clamp and sum; naming those steps once lets the comparison stop at the
  edge-level arrays and never open a scatter.
-/
import proofs.«426544_j11063835754636_1_alg».proof.Proof.RefRun
import proofs.«426544_j11063835754636_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.Bridge

open Idealize.ShloMosaic Idealize.ShloMosaic.ValueIdx Cert.ReferenceIdeal Cert.ReferenceIdeal.ReadP
open scoped BigOperators

/-- Summing edge rows into the target node each edge points at. -/
def aggTgt (x5 : (⟨S320000, .i32⟩ : BufTy).Contents (Elt Ideal)) (e : (⟨S320000x128, .f32⟩ : BufTy).Contents (Elt Ideal)) : (⟨S20000x128, .f32⟩ : BufTy).Contents (Elt Ideal) :=
  Host.scatterAdd (F := Ideal) (φ := .f32) scatter_S20000x128_S320000x1_S320000x128_1_0_0_1 (val_main_v99 (F := Ideal)) (val_main_v100 (F := Ideal) x5) e

/-- Summing edge rows into the source node each edge leaves. -/
def aggSrc (x4 : (⟨S320000, .i32⟩ : BufTy).Contents (Elt Ideal)) (e : (⟨S320000x128, .f32⟩ : BufTy).Contents (Elt Ideal)) : (⟨S20000x128, .f32⟩ : BufTy).Contents (Elt Ideal) :=
  Host.scatterAdd (F := Ideal) (φ := .f32) scatter_S20000x128_S320000x1_S320000x128_1_0_0_1 (val_main_v102 (F := Ideal)) (val_main_v103 (F := Ideal) x4) e

/-- The coordinate update: the weighted translations summed per target node, divided by the node's edge count
    (at least one), clamped to [-10, 10] and added to the node's coordinates. -/
def coordTail (x3 : (⟨S20000x3, .f32⟩ : BufTy).Contents (Elt Ideal)) (x5 : (⟨S320000, .i32⟩ : BufTy).Contents (Elt Ideal)) (wt : (⟨S320000x3, .f32⟩ : BufTy).Contents (Elt Ideal)) : (⟨S20000x3, .f32⟩ : BufTy).Contents (Elt Ideal) :=
  addf (F := Ideal) (φ := .f32) x3 (minimumf (F := Ideal) (φ := .f32) (val_main_call5_v4 (F := Ideal)) (maximumf (F := Ideal) (φ := .f32) (val_main_call5_v1 (F := Ideal))
    (Host.divf (F := Ideal) (φ := .f32) (Host.scatterAdd (F := Ideal) (φ := .f32) scatter_S20000x3_S320000x1_S320000x3_1_0_0_1 (val_main_v85 (F := Ideal)) (val_main_v86 (F := Ideal) x5) wt)
      (val_main_v95 (F := Ideal) x5))))

theorem ref_agg_tgt (x0 x1 : (⟨S20000x128, .f32⟩ : BufTy).Contents (Elt Ideal)) (x2 x3 : (⟨S20000x3, .f32⟩ : BufTy).Contents (Elt Ideal))
    (x4 x5 : (⟨S320000, .i32⟩ : BufTy).Contents (Elt Ideal)) (x6 : (⟨S257x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) (x14 : (⟨S128x1, .f32⟩ : BufTy).Contents (Elt Ideal)) (x15 : (⟨S1, .f32⟩ : BufTy).Contents (Elt Ideal)) :
    val_main_v101 (F := Ideal) x0 x1 x2 x3 x4 x5 x6 x7 x8 x9 x14 x15 = aggTgt x5 (val_main_v64 (F := Ideal) x0 x1 x2 x3 x4 x5 x6 x7 x8 x9 x14 x15) := by
  unfold val_main_v101 aggTgt
  rfl

theorem ref_agg_src (x0 x1 : (⟨S20000x128, .f32⟩ : BufTy).Contents (Elt Ideal)) (x2 x3 : (⟨S20000x3, .f32⟩ : BufTy).Contents (Elt Ideal))
    (x4 x5 : (⟨S320000, .i32⟩ : BufTy).Contents (Elt Ideal)) (x10 : (⟨S257x128, .f32⟩ : BufTy).Contents (Elt Ideal)) (x11 : (⟨S128, .f32⟩ : BufTy).Contents (Elt Ideal))
    (x12 : (⟨S128x128, .f32⟩ : BufTy).Contents (Elt Ideal)) (x13 : (⟨S128, .f32⟩ : BufTy).Contents (Elt Ideal)) (x16 : (⟨S128x1, .f32⟩ : BufTy).Contents (Elt Ideal)) (x17 : (⟨S1, .f32⟩ : BufTy).Contents (Elt Ideal)) :
    val_main_v104 (F := Ideal) x0 x1 x2 x3 x4 x5 x10 x11 x12 x13 x16 x17 = aggSrc x4 (val_main_v76 (F := Ideal) x0 x1 x2 x3 x4 x5 x10 x11 x12 x13 x16 x17) := by
  unfold val_main_v104 aggSrc
  rfl

theorem ref_coord_tail (x0 x1 : (⟨S20000x128, .f32⟩ : BufTy).Contents (Elt Ideal)) (x2 x3 : (⟨S20000x3, .f32⟩ : BufTy).Contents (Elt Ideal))
    (x4 x5 : (⟨S320000, .i32⟩ : BufTy).Contents (Elt Ideal)) (x6 : (⟨S257x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) (x14 : (⟨S128x1, .f32⟩ : BufTy).Contents (Elt Ideal)) (x15 : (⟨S1, .f32⟩ : BufTy).Contents (Elt Ideal))
    (x18 : (⟨S128x128, .f32⟩ : BufTy).Contents (Elt Ideal)) (x19 : (⟨S128, .f32⟩ : BufTy).Contents (Elt Ideal)) (x20 : (⟨S128x1, .f32⟩ : BufTy).Contents (Elt Ideal)) :
    val_main_v98 (F := Ideal) x0 x1 x2 x3 x4 x5 x6 x7 x8 x9 x14 x15 x18 x19 x20 = coordTail x3 x5 (val_main_v84 (F := Ideal) x0 x1 x2 x3 x4 x5 x6 x7 x8 x9 x14 x15 x18 x19 x20) := by
  unfold val_main_v98 val_main_v97 val_main_call5_v2 val_main_v96 val_main_v87 coordTail
  rfl

end Cert.Bridge

end
-- ==== Proof.RefS2T.lean ====
/-
  The reference's gated source-to-target message, read at one entry.

  The reference joins the two gathered feature rows and the squared distance into one 257-wide row and contracts it
  with the whole first-layer weight; a sum over the joined axis is the sum over its three stretches, which is the
  row function of the specification. The activation is spelt `x · (1 / (1 + e^{-x}))`, the logistic function.
-/
import proofs.«426544_j11063835754636_1_alg».proof.Proof.RefRun
import proofs.«426544_j11063835754636_1_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

noncomputable section

namespace Cert.Bridge

open Idealize.ShloMosaic Idealize.ShloMosaic.ValueIdx Cert.ReferenceIdeal Cert.ReferenceIdeal.ReadP
open scoped BigOperators

namespace S2T

/-- The activation as the reference spells it. -/
theorem silu_spelt (x : EReal) :
    x * Ideal.div (Ideal.ofBits .f32 0x3F800000#32) (Ideal.ofBits .f32 0x3F800000#32 + Ideal.exp (-x)) = silu x := by
  rw [Ideal.ofBits_one_f32]; rfl

/-- An entry of a join of widths 128, 128 and 1 along axis 1 whose column lies in the first stretch is the first piece's
    entry at the same row and column. -/
theorem join_top (y24 y31 : S320000x128.Idx → EReal) (y17 : S320000x1.Idx → EReal)
    (h : Shape.Concatenates [S320000x128, S320000x128, S320000x1] S320000x257 1) (e : Fin 320000) (k : Fin 128) :
    concatenate S320000x257 1 [⟨S320000x128, y24⟩, ⟨S320000x128, y31⟩, ⟨S320000x1, y17⟩] h (ix2 e (⟨k.val, by omega⟩ : Fin 257))
      = y24 (ix2 e k) := by
  refine concatenate_apply_piece (1 : Fin S320000x257.rank) [⟨S320000x128, y24⟩, ⟨S320000x128, y31⟩, ⟨S320000x1, y17⟩] h _ 0
    (by show 0 < 3; omega) S320000x128 y24 rfl rfl 0 rfl (ix2 e k) ?_ ?_
  · intro b hb
    match b with
    | ⟨0, _⟩ => rfl
    | ⟨1, _⟩ => exact absurd rfl hb
  · exact Nat.zero_add _

/-- A column in the second stretch, 128 + k, reads the second piece at column k. -/
theorem join_next (y24 y31 : S320000x128.Idx → EReal) (y17 : S320000x1.Idx → EReal)
    (h : Shape.Concatenates [S320000x128, S320000x128, S320000x1] S320000x257 1) (e : Fin 320000) (k : Fin 128) :
    concatenate S320000x257 1 [⟨S320000x128, y24⟩, ⟨S320000x128, y31⟩, ⟨S320000x1, y17⟩] h (ix2 e (⟨128 + k.val, by omega⟩ : Fin 257))
      = y31 (ix2 e k) := by
  refine concatenate_apply_piece (1 : Fin S320000x257.rank) [⟨S320000x128, y24⟩, ⟨S320000x128, y31⟩, ⟨S320000x1, y17⟩] h _ 1
    (by show 1 < 3; omega) S320000x128 y31 rfl rfl 128 rfl (ix2 e k) ?_ ?_
  · intro b hb
    match b with
    | ⟨0, _⟩ => rfl
    | ⟨1, _⟩ => exact absurd rfl hb
  · rfl

/-- The last column, 256, reads the one-column third piece. -/
theorem join_last (y24 y31 : S320000x128.Idx → EReal) (y17 : S320000x1.Idx → EReal)
    (h : Shape.Concatenates [S320000x128, S320000x128, S320000x1] S320000x257 1) (e : Fin 320000) :
    concatenate S320000x257 1 [⟨S320000x128, y24⟩, ⟨S320000x128, y31⟩, ⟨S320000x1, y17⟩] h (ix2 e (⟨256, by omega⟩ : Fin 257))
      = y17 (ix2 e 0) := by
  refine concatenate_apply_piece (1 : Fin S320000x257.rank) [⟨S320000x128, y24⟩, ⟨S320000x128, y31⟩, ⟨S320000x1, y17⟩] h _ 2
    (by show 2 < 3; omega) S320000x1 y17 rfl rfl 256 rfl (ix2 e 0) ?_ ?_
  · intro b hb
    match b with
    | ⟨0, _⟩ => rfl
    | ⟨1, _⟩ => exact absurd rfl hb
  · rfl

/-- The squared distance column at row `e`: the three squared coordinate differences, summed from zero. -/
theorem sqdist_at (x2 x3 : (⟨S20000x3, .f32⟩ : BufTy).Contents (Elt Ideal)) (x4 x5 : (⟨S320000, .i32⟩ : BufTy).Contents (Elt Ideal)) (e : Fin 320000) :
    val_main_v17 (F := Ideal) x2 x3 x4 x5 (ix2 e 0)
      = radial (rowOf (val_main_v13 (F := Ideal) x2 x4) e) (rowOf (val_main_v6 (F := Ideal) x3 x5) e) := by
  rw [val_main_v17_apply, val_main_v16_apply]
  have hi : ∀ k : Fin 3, idx_main_v16 (idx_main_v17 (ix2 e (0 : Fin 1))) k = ix2 e k := fun k =>
    funext fun a => Fin.ext (by match a with | ⟨0, _⟩ => rfl | ⟨1, _⟩ => rfl)
  simp only [hi, val_main_v15_apply, val_main_v14_apply, val_main_cst_apply, Ideal.ofBits_def, Ideal.mulf_def, Ideal.subf_def,
    Ideal.ofBits_zero_f32, zero_add]
  rfl

/-- The joined 257-wide row: its first 128 entries are the gathered source features, … -/
theorem joined_top (x0 x1 : (⟨S20000x128, .f32⟩ : BufTy).Contents (Elt Ideal)) (x2 x3 : (⟨S20000x3, .f32⟩ : BufTy).Contents (Elt Ideal)) (x4 x5 : (⟨S320000, .i32⟩ : BufTy).Contents (Elt Ideal)) (e : Fin 320000) (k : Fin 128) :
    val_main_v32 (F := Ideal) x0 x1 x2 x3 x4 x5 (ix2 e (⟨k.val, by omega⟩ : Fin 257)) = val_main_v24 (F := Ideal) x0 x4 (ix2 e k) :=
  join_top _ _ _ _ e k

/-- … its next 128 the gathered target features, … -/
theorem joined_next (x0 x1 : (⟨S20000x128, .f32⟩ : BufTy).Contents (Elt Ideal)) (x2 x3 : (⟨S20000x3, .f32⟩ : BufTy).Contents (Elt Ideal)) (x4 x5 : (⟨S320000, .i32⟩ : BufTy).Contents (Elt Ideal)) (e : Fin 320000) (k : Fin 128) :
    val_main_v32 (F := Ideal) x0 x1 x2 x3 x4 x5 (ix2 e (⟨128 + k.val, by omega⟩ : Fin 257)) = val_main_v31 (F := Ideal) x1 x5 (ix2 e k) :=
  join_next _ _ _ _ e k

/-- … and its last the squared distance. -/
theorem joined_last (x0 x1 : (⟨S20000x128, .f32⟩ : BufTy).Contents (Elt Ideal)) (x2 x3 : (⟨S20000x3, .f32⟩ : BufTy).Contents (Elt Ideal)) (x4 x5 : (⟨S320000, .i32⟩ : BufTy).Contents (Elt Ideal)) (e : Fin 320000) :
    val_main_v32 (F := Ideal) x0 x1 x2 x3 x4 x5 (ix2 e (⟨256, by omega⟩ : Fin 257)) = val_main_v17 (F := Ideal) x2 x3 x4 x5 (ix2 e 0) :=
  join_last _ _ _ _ e

/-- The first layer before its activation: the contraction over the joined 257-wide row splits into its three
    stretches, and the bias is read at the column. -/
theorem first_layer (x0 x1 : (⟨S20000x128, .f32⟩ : BufTy).Contents (Elt Ideal)) (x2 x3 : (⟨S20000x3, .f32⟩ : BufTy).Contents (Elt Ideal)) (x4 x5 : (⟨S320000, .i32⟩ : BufTy).Contents (Elt Ideal)) (x6 : (⟨S257x128, .f32⟩ : BufTy).Contents (Elt Ideal)) (x7 : (⟨S128, .f32⟩ : BufTy).Contents (Elt Ideal)) (e : Fin 320000) (q : Fin 128) :
    val_main_v36 (F := Ideal) x0 x1 x2 x3 x4 x5 x6 x7 (ix2 e q) = lin3 (rowOf (val_main_v24 (F := Ideal) x0 x4) e) (rowOf (val_main_v31 (F := Ideal) x1 x5) e) (radial (rowOf (val_main_v13 (F := Ideal) x2 x4) e) (rowOf (val_main_v6 (F := Ideal) x3 x5) e)) (topRows (by omega) x6) (nextRows (by omega) x6) (lastRow x6) (vecRow x7) q := by
  rw [val_main_v36_apply, val_main_v33_apply, val_main_v35_apply, val_main_v34_apply]
  have hl : ∀ k : Fin 257, lidx_main_v33 (ix2 e q) k = ix2 e k := fun k =>
    funext fun a => Fin.ext (by match a with | ⟨0, _⟩ => rfl | ⟨1, _⟩ => rfl)
  have hr : ∀ k : Fin 257, ridx_main_v33 (ix2 e q) k = ix2 k q := fun k =>
    funext fun a => Fin.ext (by match a with | ⟨0, _⟩ => rfl | ⟨1, _⟩ => rfl)
  have hb : idx_main_v34 (idx_main_v35 (ix2 e q)) = ix1 q :=
    funext fun a => Fin.ext (by match a with | ⟨0, _⟩ => rfl)
  simp only [hl, hr, hb, Ideal.addf_def]
  rw [sum_fin257]
  simp only [joined_top, joined_next, joined_last, sqdist_at]
  rfl

/-- The first activation, at any entry. -/
theorem first_act (x0 x1 : (⟨S20000x128, .f32⟩ : BufTy).Contents (Elt Ideal)) (x2 x3 : (⟨S20000x3, .f32⟩ : BufTy).Contents (Elt Ideal)) (x4 x5 : (⟨S320000, .i32⟩ : BufTy).Contents (Elt Ideal)) (x6 : (⟨S257x128, .f32⟩ : BufTy).Contents (Elt Ideal)) (x7 : (⟨S128, .f32⟩ : BufTy).Contents (Elt Ideal)) (i : S320000x128.Idx) :
    val_main_v37 (F := Ideal) x0 x1 x2 x3 x4 x5 x6 x7 i = silu (val_main_v36 (F := Ideal) x0 x1 x2 x3 x4 x5 x6 x7 i) := by
  rw [val_main_v37_apply, val_main_call0_v5_apply, val_main_call0_v4_apply, val_main_call0_cst_0_apply, val_main_call0_v3_apply,
    val_main_call0_v2_apply, val_main_call0_cst_apply, val_main_call0_v1_apply, val_main_call0_v0_apply]
  exact silu_spelt _

/-- The second layer before its activation. -/
theorem second_layer (x0 x1 : (⟨S20000x128, .f32⟩ : BufTy).Contents (Elt Ideal)) (x2 x3 : (⟨S20000x3, .f32⟩ : BufTy).Contents (Elt Ideal)) (x4 x5 : (⟨S320000, .i32⟩ : BufTy).Contents (Elt Ideal)) (x6 : (⟨S257x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (e : Fin 320000) (q : Fin 128) :
    val_main_v41 (F := Ideal) x0 x1 x2 x3 x4 x5 x6 x7 x8 x9 (ix2 e q)
      = lin (fun k => val_main_v37 (F := Ideal) x0 x1 x2 x3 x4 x5 x6 x7 (ix2 e k)) (allRows x8) (vecRow x9) q := by
  rw [val_main_v41_apply, val_main_v38_apply, val_main_v40_apply, val_main_v39_apply]
  have hl : ∀ k : Fin 128, lidx_main_v38 (ix2 e q) k = ix2 e k := fun k =>
    funext fun a => Fin.ext (by match a with | ⟨0, _⟩ => rfl | ⟨1, _⟩ => rfl)
  have hr : ∀ k : Fin 128, ridx_main_v38 (ix2 e q) k = ix2 k q := fun k =>
    funext fun a => Fin.ext (by match a with | ⟨0, _⟩ => rfl | ⟨1, _⟩ => rfl)
  have hb : idx_main_v39 (idx_main_v40 (ix2 e q)) = ix1 q :=
    funext fun a => Fin.ext (by match a with | ⟨0, _⟩ => rfl)
  simp only [hl, hr, hb, Ideal.addf_def]
  rfl

/-- The second activation, at any entry. -/
theorem second_act (x0 x1 : (⟨S20000x128, .f32⟩ : BufTy).Contents (Elt Ideal)) (x2 x3 : (⟨S20000x3, .f32⟩ : BufTy).Contents (Elt Ideal)) (x4 x5 : (⟨S320000, .i32⟩ : BufTy).Contents (Elt Ideal)) (x6 : (⟨S257x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (i : S320000x128.Idx) :
    val_main_v42 (F := Ideal) x0 x1 x2 x3 x4 x5 x6 x7 x8 x9 i = silu (val_main_v41 (F := Ideal) x0 x1 x2 x3 x4 x5 x6 x7 x8 x9 i) := by
  rw [val_main_v42_apply, val_main_call1_v5_apply, val_main_call1_v4_apply, val_main_call1_cst_0_apply, val_main_call1_v3_apply,
    val_main_call1_v2_apply, val_main_call1_cst_apply, val_main_call1_v1_apply, val_main_call1_v0_apply]
  exact silu_spelt _

/-- The two-layer network's output row is the specification's `mlp`. -/
theorem network (x0 x1 : (⟨S20000x128, .f32⟩ : BufTy).Contents (Elt Ideal)) (x2 x3 : (⟨S20000x3, .f32⟩ : BufTy).Contents (Elt Ideal)) (x4 x5 : (⟨S320000, .i32⟩ : BufTy).Contents (Elt Ideal)) (x6 : (⟨S257x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (e : Fin 320000) (q : Fin 128) :
    val_main_v42 (F := Ideal) x0 x1 x2 x3 x4 x5 x6 x7 x8 x9 (ix2 e q)
      = mlp (rowOf (val_main_v24 (F := Ideal) x0 x4) e) (rowOf (val_main_v31 (F := Ideal) x1 x5) e) (radial (rowOf (val_main_v13 (F := Ideal) x2 x4) e) (rowOf (val_main_v6 (F := Ideal) x3 x5) e)) (topRows (by omega) x6) (nextRows (by omega) x6) (lastRow x6) (vecRow x7) (allRows x8) (vecRow x9) q := by
  rw [second_act, second_layer]
  simp only [first_act, first_layer]
  rfl

/-- The gate column: the logistic function of the message row against the gate weight, plus the gate bias. -/
theorem gate (x0 x1 : (⟨S20000x128, .f32⟩ : BufTy).Contents (Elt Ideal)) (x2 x3 : (⟨S20000x3, .f32⟩ : BufTy).Contents (Elt Ideal)) (x4 x5 : (⟨S320000, .i32⟩ : BufTy).Contents (Elt Ideal)) (x6 : (⟨S257x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x14 : (⟨S128x1, .f32⟩ : BufTy).Contents (Elt Ideal)) (x15 : (⟨S1, .f32⟩ : BufTy).Contents (Elt Ideal)) (e : Fin 320000) :
    val_main_v62 (F := Ideal) x0 x1 x2 x3 x4 x5 x6 x7 x8 x9 x14 x15 (ix2 e 0)
      = gateOf (fun k => val_main_v42 (F := Ideal) x0 x1 x2 x3 x4 x5 x6 x7 x8 x9 (ix2 e k)) (colRow x14) (x15 (ix1 0)) := by
  rw [val_main_v62_apply, val_main_v61_apply, val_main_cst_8_apply, val_main_v60_apply, val_main_v59_apply, val_main_cst_7_apply,
    val_main_v58_apply, val_main_v57_apply, val_main_v56_apply, val_main_v53_apply, val_main_v55_apply, val_main_v54_apply]
  have hl : ∀ k : Fin 128, lidx_main_v53 (ix2 e (0 : Fin 1)) k = ix2 e k := fun k =>
    funext fun a => Fin.ext (by match a with | ⟨0, _⟩ => rfl | ⟨1, _⟩ => rfl)
  have hr : ∀ k : Fin 128, ridx_main_v53 (ix2 e (0 : Fin 1)) k = ix2 k 0 := fun k =>
    funext fun a => Fin.ext (by match a with | ⟨0, _⟩ => rfl | ⟨1, _⟩ => rfl)
  have hb : idx_main_v54 (idx_main_v55 (ix2 e (0 : Fin 1))) = ix1 0 :=
    funext fun a => Fin.ext (by match a with | ⟨0, _⟩ => rfl)
  simp only [hl, hr, hb, Ideal.addf_def, Ideal.hostDivf_def, Ideal.hostUnary_exp_def, Ideal.hostNegf_def, Ideal.negf_def, Ideal.ofBits_def,
    Ideal.ofBits_one_f32]
  rfl

end S2T

/-- Entry (e, q) of the reference's gated source-to-target message is `edgeRow` of edge e's gathered rows. -/
theorem ref_s2t (x0 x1 : (⟨S20000x128, .f32⟩ : BufTy).Contents (Elt Ideal)) (x2 x3 : (⟨S20000x3, .f32⟩ : BufTy).Contents (Elt Ideal))
    (x4 x5 : (⟨S320000, .i32⟩ : BufTy).Contents (Elt Ideal)) (x6 : (⟨S257x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) (x14 : (⟨S128x1, .f32⟩ : BufTy).Contents (Elt Ideal)) (x15 : (⟨S1, .f32⟩ : BufTy).Contents (Elt Ideal)) (e : Fin 320000) (q : Fin 128) :
    val_main_v64 (F := Ideal) x0 x1 x2 x3 x4 x5 x6 x7 x8 x9 x14 x15 (ix2 e q)
      = edgeRow (rowOf (val_main_v24 (F := Ideal) x0 x4) e) (rowOf (val_main_v31 (F := Ideal) x1 x5) e)
          (rowOf (val_main_v13 (F := Ideal) x2 x4) e) (rowOf (val_main_v6 (F := Ideal) x3 x5) e)
          (topRows (by omega) x6) (nextRows (by omega) x6) (lastRow x6) (vecRow x7) (allRows x8) (vecRow x9) (colRow x14) (x15 (ix1 0)) q := by
  rw [val_main_v64_apply, val_main_v63_apply]
  have hg : idx_main_v63 (ix2 e q) = ix2 e 0 :=
    funext fun a => Fin.ext (by match a with | ⟨0, _⟩ => rfl | ⟨1, _⟩ => rfl)
  rw [hg, S2T.gate]
  simp only [S2T.network, Ideal.mulf_def]
  rfl

end Cert.Bridge

end
-- ==== Proof.RefT2S.lean ====
/-
  The reference's gated target-to-source message, read at one entry: the same network as the source-to-target
  message with the second set of weights.
-/
import proofs.«426544_j11063835754636_1_alg».proof.Proof.RefRun
import proofs.«426544_j11063835754636_1_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

noncomputable section

namespace Cert.Bridge

open Idealize.ShloMosaic Idealize.ShloMosaic.ValueIdx Cert.ReferenceIdeal Cert.ReferenceIdeal.ReadP
open scoped BigOperators

namespace T2S

/-- The activation as the reference spells it. -/
theorem silu_spelt (x : EReal) :
    x * Ideal.div (Ideal.ofBits .f32 0x3F800000#32) (Ideal.ofBits .f32 0x3F800000#32 + Ideal.exp (-x)) = silu x := by
  rw [Ideal.ofBits_one_f32]; rfl

/-- An entry of a join of widths 128, 128 and 1 along axis 1 whose column lies in the first stretch is the first piece's
    entry at the same row and column. -/
theorem join_top (y24 y31 : S320000x128.Idx → EReal) (y17 : S320000x1.Idx → EReal)
    (h : Shape.Concatenates [S320000x128, S320000x128, S320000x1] S320000x257 1) (e : Fin 320000) (k : Fin 128) :
    concatenate S320000x257 1 [⟨S320000x128, y24⟩, ⟨S320000x128, y31⟩, ⟨S320000x1, y17⟩] h (ix2 e (⟨k.val, by omega⟩ : Fin 257))
      = y24 (ix2 e k) := by
  refine concatenate_apply_piece (1 : Fin S320000x257.rank) [⟨S320000x128, y24⟩, ⟨S320000x128, y31⟩, ⟨S320000x1, y17⟩] h _ 0
    (by show 0 < 3; omega) S320000x128 y24 rfl rfl 0 rfl (ix2 e k) ?_ ?_
  · intro b hb
    match b with
    | ⟨0, _⟩ => rfl
    | ⟨1, _⟩ => exact absurd rfl hb
  · exact Nat.zero_add _

/-- A column in the second stretch, 128 + k, reads the second piece at column k. -/
theorem join_next (y24 y31 : S320000x128.Idx → EReal) (y17 : S320000x1.Idx → EReal)
    (h : Shape.Concatenates [S320000x128, S320000x128, S320000x1] S320000x257 1) (e : Fin 320000) (k : Fin 128) :
    concatenate S320000x257 1 [⟨S320000x128, y24⟩, ⟨S320000x128, y31⟩, ⟨S320000x1, y17⟩] h (ix2 e (⟨128 + k.val, by omega⟩ : Fin 257))
      = y31 (ix2 e k) := by
  refine concatenate_apply_piece (1 : Fin S320000x257.rank) [⟨S320000x128, y24⟩, ⟨S320000x128, y31⟩, ⟨S320000x1, y17⟩] h _ 1
    (by show 1 < 3; omega) S320000x128 y31 rfl rfl 128 rfl (ix2 e k) ?_ ?_
  · intro b hb
    match b with
    | ⟨0, _⟩ => rfl
    | ⟨1, _⟩ => exact absurd rfl hb
  · rfl

/-- The last column, 256, reads the one-column third piece. -/
theorem join_last (y24 y31 : S320000x128.Idx → EReal) (y17 : S320000x1.Idx → EReal)
    (h : Shape.Concatenates [S320000x128, S320000x128, S320000x1] S320000x257 1) (e : Fin 320000) :
    concatenate S320000x257 1 [⟨S320000x128, y24⟩, ⟨S320000x128, y31⟩, ⟨S320000x1, y17⟩] h (ix2 e (⟨256, by omega⟩ : Fin 257))
      = y17 (ix2 e 0) := by
  refine concatenate_apply_piece (1 : Fin S320000x257.rank) [⟨S320000x128, y24⟩, ⟨S320000x128, y31⟩, ⟨S320000x1, y17⟩] h _ 2
    (by show 2 < 3; omega) S320000x1 y17 rfl rfl 256 rfl (ix2 e 0) ?_ ?_
  · intro b hb
    match b with
    | ⟨0, _⟩ => rfl
    | ⟨1, _⟩ => exact absurd rfl hb
  · rfl

/-- The squared distance column at row `e`: the three squared coordinate differences, summed from zero. -/
theorem sqdist_at (x2 x3 : (⟨S20000x3, .f32⟩ : BufTy).Contents (Elt Ideal)) (x4 x5 : (⟨S320000, .i32⟩ : BufTy).Contents (Elt Ideal)) (e : Fin 320000) :
    val_main_v17 (F := Ideal) x2 x3 x4 x5 (ix2 e 0)
      = radial (rowOf (val_main_v13 (F := Ideal) x2 x4) e) (rowOf (val_main_v6 (F := Ideal) x3 x5) e) := by
  rw [val_main_v17_apply, val_main_v16_apply]
  have hi : ∀ k : Fin 3, idx_main_v16 (idx_main_v17 (ix2 e (0 : Fin 1))) k = ix2 e k := fun k =>
    funext fun a => Fin.ext (by match a with | ⟨0, _⟩ => rfl | ⟨1, _⟩ => rfl)
  simp only [hi, val_main_v15_apply, val_main_v14_apply, val_main_cst_apply, Ideal.ofBits_def, Ideal.mulf_def, Ideal.subf_def,
    Ideal.ofBits_zero_f32, zero_add]
  rfl

/-- The joined 257-wide row: its first 128 entries are the gathered source features, … -/
theorem joined_top (x0 x1 : (⟨S20000x128, .f32⟩ : BufTy).Contents (Elt Ideal)) (x2 x3 : (⟨S20000x3, .f32⟩ : BufTy).Contents (Elt Ideal)) (x4 x5 : (⟨S320000, .i32⟩ : BufTy).Contents (Elt Ideal)) (e : Fin 320000) (k : Fin 128) :
    val_main_v32 (F := Ideal) x0 x1 x2 x3 x4 x5 (ix2 e (⟨k.val, by omega⟩ : Fin 257)) = val_main_v24 (F := Ideal) x0 x4 (ix2 e k) :=
  join_top _ _ _ _ e k

/-- … its next 128 the gathered target features, … -/
theorem joined_next (x0 x1 : (⟨S20000x128, .f32⟩ : BufTy).Contents (Elt Ideal)) (x2 x3 : (⟨S20000x3, .f32⟩ : BufTy).Contents (Elt Ideal)) (x4 x5 : (⟨S320000, .i32⟩ : BufTy).Contents (Elt Ideal)) (e : Fin 320000) (k : Fin 128) :
    val_main_v32 (F := Ideal) x0 x1 x2 x3 x4 x5 (ix2 e (⟨128 + k.val, by omega⟩ : Fin 257)) = val_main_v31 (F := Ideal) x1 x5 (ix2 e k) :=
  join_next _ _ _ _ e k

/-- … and its last the squared distance. -/
theorem joined_last (x0 x1 : (⟨S20000x128, .f32⟩ : BufTy).Contents (Elt Ideal)) (x2 x3 : (⟨S20000x3, .f32⟩ : BufTy).Contents (Elt Ideal)) (x4 x5 : (⟨S320000, .i32⟩ : BufTy).Contents (Elt Ideal)) (e : Fin 320000) :
    val_main_v32 (F := Ideal) x0 x1 x2 x3 x4 x5 (ix2 e (⟨256, by omega⟩ : Fin 257)) = val_main_v17 (F := Ideal) x2 x3 x4 x5 (ix2 e 0) :=
  join_last _ _ _ _ e

/-- The first layer before its activation: the contraction over the joined 257-wide row splits into its three
    stretches, and the bias is read at the column. -/
theorem first_layer (x0 x1 : (⟨S20000x128, .f32⟩ : BufTy).Contents (Elt Ideal)) (x2 x3 : (⟨S20000x3, .f32⟩ : BufTy).Contents (Elt Ideal)) (x4 x5 : (⟨S320000, .i32⟩ : BufTy).Contents (Elt Ideal)) (x10 : (⟨S257x128, .f32⟩ : BufTy).Contents (Elt Ideal)) (x11 : (⟨S128, .f32⟩ : BufTy).Contents (Elt Ideal)) (e : Fin 320000) (q : Fin 128) :
    val_main_v46 (F := Ideal) x0 x1 x2 x3 x4 x5 x10 x11 (ix2 e q) = lin3 (rowOf (val_main_v24 (F := Ideal) x0 x4) e) (rowOf (val_main_v31 (F := Ideal) x1 x5) e) (radial (rowOf (val_main_v13 (F := Ideal) x2 x4) e) (rowOf (val_main_v6 (F := Ideal) x3 x5) e)) (topRows (by omega) x10) (nextRows (by omega) x10) (lastRow x10) (vecRow x11) q := by
  rw [val_main_v46_apply, val_main_v43_apply, val_main_v45_apply, val_main_v44_apply]
  have hl : ∀ k : Fin 257, lidx_main_v43 (ix2 e q) k = ix2 e k := fun k =>
    funext fun a => Fin.ext (by match a with | ⟨0, _⟩ => rfl | ⟨1, _⟩ => rfl)
  have hr : ∀ k : Fin 257, ridx_main_v43 (ix2 e q) k = ix2 k q := fun k =>
    funext fun a => Fin.ext (by match a with | ⟨0, _⟩ => rfl | ⟨1, _⟩ => rfl)
  have hb : idx_main_v44 (idx_main_v45 (ix2 e q)) = ix1 q :=
    funext fun a => Fin.ext (by match a with | ⟨0, _⟩ => rfl)
  simp only [hl, hr, hb, Ideal.addf_def]
  rw [sum_fin257]
  simp only [joined_top, joined_next, joined_last, sqdist_at]
  rfl

/-- The first activation, at any entry. -/
theorem first_act (x0 x1 : (⟨S20000x128, .f32⟩ : BufTy).Contents (Elt Ideal)) (x2 x3 : (⟨S20000x3, .f32⟩ : BufTy).Contents (Elt Ideal)) (x4 x5 : (⟨S320000, .i32⟩ : BufTy).Contents (Elt Ideal)) (x10 : (⟨S257x128, .f32⟩ : BufTy).Contents (Elt Ideal)) (x11 : (⟨S128, .f32⟩ : BufTy).Contents (Elt Ideal)) (i : S320000x128.Idx) :
    val_main_v47 (F := Ideal) x0 x1 x2 x3 x4 x5 x10 x11 i = silu (val_main_v46 (F := Ideal) x0 x1 x2 x3 x4 x5 x10 x11 i) := by
  rw [val_main_v47_apply, val_main_call2_v5_apply, val_main_call2_v4_apply, val_main_call2_cst_0_apply, val_main_call2_v3_apply,
    val_main_call2_v2_apply, val_main_call2_cst_apply, val_main_call2_v1_apply, val_main_call2_v0_apply]
  exact silu_spelt _

/-- The second layer before its activation. -/
theorem second_layer (x0 x1 : (⟨S20000x128, .f32⟩ : BufTy).Contents (Elt Ideal)) (x2 x3 : (⟨S20000x3, .f32⟩ : BufTy).Contents (Elt Ideal)) (x4 x5 : (⟨S320000, .i32⟩ : BufTy).Contents (Elt Ideal)) (x10 : (⟨S257x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (e : Fin 320000) (q : Fin 128) :
    val_main_v51 (F := Ideal) x0 x1 x2 x3 x4 x5 x10 x11 x12 x13 (ix2 e q)
      = lin (fun k => val_main_v47 (F := Ideal) x0 x1 x2 x3 x4 x5 x10 x11 (ix2 e k)) (allRows x12) (vecRow x13) q := by
  rw [val_main_v51_apply, val_main_v48_apply, val_main_v50_apply, val_main_v49_apply]
  have hl : ∀ k : Fin 128, lidx_main_v48 (ix2 e q) k = ix2 e k := fun k =>
    funext fun a => Fin.ext (by match a with | ⟨0, _⟩ => rfl | ⟨1, _⟩ => rfl)
  have hr : ∀ k : Fin 128, ridx_main_v48 (ix2 e q) k = ix2 k q := fun k =>
    funext fun a => Fin.ext (by match a with | ⟨0, _⟩ => rfl | ⟨1, _⟩ => rfl)
  have hb : idx_main_v49 (idx_main_v50 (ix2 e q)) = ix1 q :=
    funext fun a => Fin.ext (by match a with | ⟨0, _⟩ => rfl)
  simp only [hl, hr, hb, Ideal.addf_def]
  rfl

/-- The second activation, at any entry. -/
theorem second_act (x0 x1 : (⟨S20000x128, .f32⟩ : BufTy).Contents (Elt Ideal)) (x2 x3 : (⟨S20000x3, .f32⟩ : BufTy).Contents (Elt Ideal)) (x4 x5 : (⟨S320000, .i32⟩ : BufTy).Contents (Elt Ideal)) (x10 : (⟨S257x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (i : S320000x128.Idx) :
    val_main_v52 (F := Ideal) x0 x1 x2 x3 x4 x5 x10 x11 x12 x13 i = silu (val_main_v51 (F := Ideal) x0 x1 x2 x3 x4 x5 x10 x11 x12 x13 i) := by
  rw [val_main_v52_apply, val_main_call3_v5_apply, val_main_call3_v4_apply, val_main_call3_cst_0_apply, val_main_call3_v3_apply,
    val_main_call3_v2_apply, val_main_call3_cst_apply, val_main_call3_v1_apply, val_main_call3_v0_apply]
  exact silu_spelt _

/-- The two-layer network's output row is the specification's `mlp`. -/
theorem network (x0 x1 : (⟨S20000x128, .f32⟩ : BufTy).Contents (Elt Ideal)) (x2 x3 : (⟨S20000x3, .f32⟩ : BufTy).Contents (Elt Ideal)) (x4 x5 : (⟨S320000, .i32⟩ : BufTy).Contents (Elt Ideal)) (x10 : (⟨S257x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (e : Fin 320000) (q : Fin 128) :
    val_main_v52 (F := Ideal) x0 x1 x2 x3 x4 x5 x10 x11 x12 x13 (ix2 e q)
      = mlp (rowOf (val_main_v24 (F := Ideal) x0 x4) e) (rowOf (val_main_v31 (F := Ideal) x1 x5) e) (radial (rowOf (val_main_v13 (F := Ideal) x2 x4) e) (rowOf (val_main_v6 (F := Ideal) x3 x5) e)) (topRows (by omega) x10) (nextRows (by omega) x10) (lastRow x10) (vecRow x11) (allRows x12) (vecRow x13) q := by
  rw [second_act, second_layer]
  simp only [first_act, first_layer]
  rfl

/-- The gate column: the logistic function of the message row against the gate weight, plus the gate bias. -/
theorem gate (x0 x1 : (⟨S20000x128, .f32⟩ : BufTy).Contents (Elt Ideal)) (x2 x3 : (⟨S20000x3, .f32⟩ : BufTy).Contents (Elt Ideal)) (x4 x5 : (⟨S320000, .i32⟩ : BufTy).Contents (Elt Ideal)) (x10 : (⟨S257x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x16 : (⟨S128x1, .f32⟩ : BufTy).Contents (Elt Ideal)) (x17 : (⟨S1, .f32⟩ : BufTy).Contents (Elt Ideal)) (e : Fin 320000) :
    val_main_v74 (F := Ideal) x0 x1 x2 x3 x4 x5 x10 x11 x12 x13 x16 x17 (ix2 e 0)
      = gateOf (fun k => val_main_v52 (F := Ideal) x0 x1 x2 x3 x4 x5 x10 x11 x12 x13 (ix2 e k)) (colRow x16) (x17 (ix1 0)) := by
  rw [val_main_v74_apply, val_main_v73_apply, val_main_cst_10_apply, val_main_v72_apply, val_main_v71_apply, val_main_cst_9_apply,
    val_main_v70_apply, val_main_v69_apply, val_main_v68_apply, val_main_v65_apply, val_main_v67_apply, val_main_v66_apply]
  have hl : ∀ k : Fin 128, lidx_main_v65 (ix2 e (0 : Fin 1)) k = ix2 e k := fun k =>
    funext fun a => Fin.ext (by match a with | ⟨0, _⟩ => rfl | ⟨1, _⟩ => rfl)
  have hr : ∀ k : Fin 128, ridx_main_v65 (ix2 e (0 : Fin 1)) k = ix2 k 0 := fun k =>
    funext fun a => Fin.ext (by match a with | ⟨0, _⟩ => rfl | ⟨1, _⟩ => rfl)
  have hb : idx_main_v66 (idx_main_v67 (ix2 e (0 : Fin 1))) = ix1 0 :=
    funext fun a => Fin.ext (by match a with | ⟨0, _⟩ => rfl)
  simp only [hl, hr, hb, Ideal.addf_def, Ideal.hostDivf_def, Ideal.hostUnary_exp_def, Ideal.hostNegf_def, Ideal.negf_def, Ideal.ofBits_def,
    Ideal.ofBits_one_f32]
  rfl

end T2S

/-- Entry (e, q) of the reference's gated target-to-source message is `edgeRow` of edge e's gathered rows. -/
theorem ref_t2s (x0 x1 : (⟨S20000x128, .f32⟩ : BufTy).Contents (Elt Ideal)) (x2 x3 : (⟨S20000x3, .f32⟩ : BufTy).Contents (Elt Ideal))
    (x4 x5 : (⟨S320000, .i32⟩ : BufTy).Contents (Elt Ideal)) (x10 : (⟨S257x128, .f32⟩ : BufTy).Contents (Elt Ideal)) (x11 : (⟨S128, .f32⟩ : BufTy).Contents (Elt Ideal))
    (x12 : (⟨S128x128, .f32⟩ : BufTy).Contents (Elt Ideal)) (x13 : (⟨S128, .f32⟩ : BufTy).Contents (Elt Ideal)) (x16 : (⟨S128x1, .f32⟩ : BufTy).Contents (Elt Ideal)) (x17 : (⟨S1, .f32⟩ : BufTy).Contents (Elt Ideal)) (e : Fin 320000) (q : Fin 128) :
    val_main_v76 (F := Ideal) x0 x1 x2 x3 x4 x5 x10 x11 x12 x13 x16 x17 (ix2 e q)
      = edgeRow (rowOf (val_main_v24 (F := Ideal) x0 x4) e) (rowOf (val_main_v31 (F := Ideal) x1 x5) e)
          (rowOf (val_main_v13 (F := Ideal) x2 x4) e) (rowOf (val_main_v6 (F := Ideal) x3 x5) e)
          (topRows (by omega) x10) (nextRows (by omega) x10) (lastRow x10) (vecRow x11) (allRows x12) (vecRow x13) (colRow x16) (x17 (ix1 0)) q := by
  rw [val_main_v76_apply, val_main_v75_apply]
  have hg : idx_main_v75 (ix2 e q) = ix2 e 0 :=
    funext fun a => Fin.ext (by match a with | ⟨0, _⟩ => rfl | ⟨1, _⟩ => rfl)
  rw [hg, T2S.gate]
  simp only [T2S.network, Ideal.mulf_def]
  rfl

end Cert.Bridge

end
-- ==== Proof.RefWT.lean ====
/-
  The reference's weighted translation, read at one entry: the difference of the two gathered coordinate rows times
  the edge's coordinate weight, which is a dense layer, an activation and a one-column product of the gated
  source-to-target message's row.
-/
import proofs.«426544_j11063835754636_1_alg».proof.Proof.RefRun
import proofs.«426544_j11063835754636_1_alg».proof.Proof.Spec
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout

noncomputable section

namespace Cert.Bridge

open Idealize.ShloMosaic Idealize.ShloMosaic.ValueIdx Cert.ReferenceIdeal Cert.ReferenceIdeal.ReadP
open scoped BigOperators

namespace WT

/-! ## The activation as the reference spells it -/

/-- `x · (1 / (1 + e^(−x)))`, the constant one given by its word, is `silu x`: the quotient is the logistic function by
    its definition. -/
theorem silu_spelt (x : Ideal .f32) :
    FloatOps.mulf x (FloatOps.hostDivf (FloatOps.ofBits (F := Ideal) .f32 0x3F800000#32)
        (FloatOps.addf (FloatOps.ofBits (F := Ideal) .f32 0x3F800000#32) (FloatOps.hostUnary .exp (FloatOps.hostNegf x))))
      = silu x := by
  show x * Ideal.div (Ideal.ofBits .f32 0x3F800000#32) (Ideal.ofBits .f32 0x3F800000#32 + Ideal.exp (-x)) = x * Ideal.logistic x
  rw [Ideal.ofBits_one_f32]
  rfl

/-! ## The composed index functions at an entry given by its coordinates -/

/-- The first product reads row `e` of its left operand. -/
theorem lidx77_at (e : Fin 320000) (k j : Fin 128) : lidx_main_v77 (ix2 e k) j = ix2 e j :=
  funext fun a => by match a with | ⟨0, _⟩ => rfl | ⟨1, _⟩ => rfl

/-- The first product reads column `k` of the weight. -/
theorem ridx77_at (e : Fin 320000) (k j : Fin 128) : ridx_main_v77 (ix2 e k) j = ix2 j k :=
  funext fun a => by match a with | ⟨0, _⟩ => rfl | ⟨1, _⟩ => rfl

/-- The bias, broadcast along the rows, is read at the column. -/
theorem idx78_at (e : Fin 320000) (k : Fin 128) : idx_main_v78 (idx_main_v79 (ix2 e k)) = ix1 k :=
  funext fun a => by match a with | ⟨0, _⟩ => rfl

/-- The one-column product, read through the broadcast along the three coordinates, reads row `e` of its left operand. -/
theorem lidx82_at (e : Fin 320000) (a : Fin 3) (k : Fin 128) : lidx_main_v82 (idx_main_v83 (ix2 e a)) k = ix2 e k :=
  funext fun b => by match b with | ⟨0, _⟩ => rfl | ⟨1, _⟩ => rfl

/-- The one-column product reads the weight's only column. -/
theorem ridx82_at (e : Fin 320000) (a : Fin 3) (k : Fin 128) : ridx_main_v82 (idx_main_v83 (ix2 e a)) k = ix2 k 0 :=
  funext fun b => by match b with | ⟨0, _⟩ => rfl | ⟨1, _⟩ => rfl

/-! ## The stages, in program order -/

/-- The dense layer before its activation: entry (e, k) is row `e` of the message against column `k` of the weight, plus
    the bias. -/
theorem v80_at (x0 x1 : (⟨S20000x128, .f32⟩ : BufTy).Contents (Elt Ideal)) (x2 x3 : (⟨S20000x3, .f32⟩ : BufTy).Contents (Elt Ideal))
    (x4 x5 : (⟨S320000, .i32⟩ : BufTy).Contents (Elt Ideal)) (x6 : (⟨S257x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) (x14 : (⟨S128x1, .f32⟩ : BufTy).Contents (Elt Ideal)) (x15 : (⟨S1, .f32⟩ : BufTy).Contents (Elt Ideal))
    (x18 : (⟨S128x128, .f32⟩ : BufTy).Contents (Elt Ideal)) (x19 : (⟨S128, .f32⟩ : BufTy).Contents (Elt Ideal)) (e : Fin 320000) (k : Fin 128) :
    val_main_v80 (F := Ideal) x0 x1 x2 x3 x4 x5 x6 x7 x8 x9 x14 x15 x18 x19 (ix2 e k)
      = lin (rowOf (val_main_v64 (F := Ideal) x0 x1 x2 x3 x4 x5 x6 x7 x8 x9 x14 x15) e) (allRows x18) (vecRow x19) k := by
  rw [val_main_v80_apply, val_main_v77_apply, val_main_v79_apply, val_main_v78_apply, idx78_at]
  generalize val_main_v64 (F := Ideal) x0 x1 x2 x3 x4 x5 x6 x7 x8 x9 x14 x15 = E
  simp only [lidx77_at, ridx77_at, Ideal.addf_def]
  rfl

/-- The activation, entry by entry. -/
theorem v81_at (x0 x1 : (⟨S20000x128, .f32⟩ : BufTy).Contents (Elt Ideal)) (x2 x3 : (⟨S20000x3, .f32⟩ : BufTy).Contents (Elt Ideal))
    (x4 x5 : (⟨S320000, .i32⟩ : BufTy).Contents (Elt Ideal)) (x6 : (⟨S257x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) (x14 : (⟨S128x1, .f32⟩ : BufTy).Contents (Elt Ideal)) (x15 : (⟨S1, .f32⟩ : BufTy).Contents (Elt Ideal))
    (x18 : (⟨S128x128, .f32⟩ : BufTy).Contents (Elt Ideal)) (x19 : (⟨S128, .f32⟩ : BufTy).Contents (Elt Ideal)) (i : S320000x128.Idx) :
    val_main_v81 (F := Ideal) x0 x1 x2 x3 x4 x5 x6 x7 x8 x9 x14 x15 x18 x19 i = silu (val_main_v80 (F := Ideal) x0 x1 x2 x3 x4 x5 x6 x7 x8 x9 x14 x15 x18 x19 i) := by
  rw [val_main_v81_apply, val_main_call4_v5_apply, val_main_call4_v4_apply, val_main_call4_cst_0_apply,
    val_main_call4_v3_apply, val_main_call4_v2_apply, val_main_call4_cst_apply, val_main_call4_v1_apply,
    val_main_call4_v0_apply]
  exact silu_spelt _

/-- The one-column product, read through the broadcast: the edge's coordinate weight. -/
theorem v82_at (x0 x1 : (⟨S20000x128, .f32⟩ : BufTy).Contents (Elt Ideal)) (x2 x3 : (⟨S20000x3, .f32⟩ : BufTy).Contents (Elt Ideal))
    (x4 x5 : (⟨S320000, .i32⟩ : BufTy).Contents (Elt Ideal)) (x6 : (⟨S257x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) (x14 : (⟨S128x1, .f32⟩ : BufTy).Contents (Elt Ideal)) (x15 : (⟨S1, .f32⟩ : BufTy).Contents (Elt Ideal))
    (x18 : (⟨S128x128, .f32⟩ : BufTy).Contents (Elt Ideal)) (x19 : (⟨S128, .f32⟩ : BufTy).Contents (Elt Ideal)) (x20 : (⟨S128x1, .f32⟩ : BufTy).Contents (Elt Ideal)) (e : Fin 320000) (a : Fin 3) :
    val_main_v82 (F := Ideal) x0 x1 x2 x3 x4 x5 x6 x7 x8 x9 x14 x15 x18 x19 x20 (idx_main_v83 (ix2 e a))
      = coordW (rowOf (val_main_v64 (F := Ideal) x0 x1 x2 x3 x4 x5 x6 x7 x8 x9 x14 x15) e) (allRows x18) (vecRow x19) (colRow x20) := by
  rw [val_main_v82_apply]
  simp only [lidx82_at, ridx82_at, v81_at, v80_at]
  generalize val_main_v64 (F := Ideal) x0 x1 x2 x3 x4 x5 x6 x7 x8 x9 x14 x15 = E
  rfl

end WT

/-- Entry (e, a) of the reference's weighted translation, over the row of its gated source-to-target message. -/
theorem ref_wt (x0 x1 : (⟨S20000x128, .f32⟩ : BufTy).Contents (Elt Ideal)) (x2 x3 : (⟨S20000x3, .f32⟩ : BufTy).Contents (Elt Ideal))
    (x4 x5 : (⟨S320000, .i32⟩ : BufTy).Contents (Elt Ideal)) (x6 : (⟨S257x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) (x14 : (⟨S128x1, .f32⟩ : BufTy).Contents (Elt Ideal)) (x15 : (⟨S1, .f32⟩ : BufTy).Contents (Elt Ideal))
    (x18 : (⟨S128x128, .f32⟩ : BufTy).Contents (Elt Ideal)) (x19 : (⟨S128, .f32⟩ : BufTy).Contents (Elt Ideal)) (x20 : (⟨S128x1, .f32⟩ : BufTy).Contents (Elt Ideal)) (e : Fin 320000) (a : Fin 3) :
    val_main_v84 (F := Ideal) x0 x1 x2 x3 x4 x5 x6 x7 x8 x9 x14 x15 x18 x19 x20 (ix2 e a)
      = wtransRow (rowOf (val_main_v13 (F := Ideal) x2 x4) e) (rowOf (val_main_v6 (F := Ideal) x3 x5) e)
          (coordW (rowOf (val_main_v64 (F := Ideal) x0 x1 x2 x3 x4 x5 x6 x7 x8 x9 x14 x15) e) (allRows x18) (vecRow x19) (colRow x20)) a := by
  rw [val_main_v84_apply, val_main_v14_apply, val_main_v83_apply, WT.v82_at, Ideal.mulf_def, Ideal.subf_def]
  generalize val_main_v64 (F := Ideal) x0 x1 x2 x3 x4 x5 x6 x7 x8 x9 x14 x15 = E
  generalize val_main_v6 (F := Ideal) x3 x5 = T
  generalize val_main_v13 (F := Ideal) x2 x4 = S
  rfl

end Cert.Bridge

end
-- ==== Proof.RefNode.lean ====
/-
  The reference's two node updates, read at one entry, over the aggregated messages as the reference names them.

  The reference joins a node's feature row and its aggregated-message row into one 256-wide row and contracts it
  with the whole first-layer weight; the sum over the joined axis is the sum over its two halves.
-/
import proofs.«426544_j11063835754636_1_alg».proof.Proof.RefRun
import proofs.«426544_j11063835754636_1_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

noncomputable section

namespace Cert.Bridge

open Idealize.ShloMosaic Idealize.ShloMosaic.ValueIdx Cert.ReferenceIdeal Cert.ReferenceIdeal.ReadP
open scoped BigOperators

namespace RefNode

open Cert.ReferenceIdeal.Gen

/-- The activation as the reference spells it, `x · (1 / (1 + e⁻ˣ))`, is `silu`. -/
theorem silu_spelt (x : EReal) :
    x * Ideal.div (Ideal.ofBits .f32 0x3F800000#32) (Ideal.ofBits .f32 0x3F800000#32 + Ideal.exp (-x)) = silu x := by
  rw [Ideal.ofBits_one_f32]; rfl

/-- Columns 0–127 of the joined row are the first piece's row. -/
theorem joined_left (a b : (⟨S20000x128, .f32⟩ : BufTy).Contents (Elt Ideal)) (r : Fin 20000) (k : Fin 128) :
    concatenate S20000x256 1 [⟨S20000x128, a⟩, ⟨S20000x128, b⟩] concatenates_S20000x128_S20000x128_S20000x256_d1
      (ix2 r (⟨k.val, by omega⟩ : Fin 256)) = a (ix2 r k) := by
  refine concatenate_pair_apply_left (t := S20000x256) (s₁ := S20000x128) (s₂ := S20000x128) (1 : Fin 2) a b _ _ rfl (ix2 r k) ?_
  intro d
  match d with
  | ⟨0, _⟩ => rfl
  | ⟨1, _⟩ => rfl

/-- Columns 128–255 of the joined row are the second piece's row. -/
theorem joined_right (a b : (⟨S20000x128, .f32⟩ : BufTy).Contents (Elt Ideal)) (r : Fin 20000) (k : Fin 128) :
    concatenate S20000x256 1 [⟨S20000x128, a⟩, ⟨S20000x128, b⟩] concatenates_S20000x128_S20000x128_S20000x256_d1
      (ix2 r (⟨128 + k.val, by omega⟩ : Fin 256)) = b (ix2 r k) := by
  refine concatenate_pair_apply_right (t := S20000x256) (s₁ := S20000x128) (s₂ := S20000x128) (1 : Fin 2) a b _ _ rfl rfl (ix2 r k) ?_ ?_
  · intro d hd
    match d with
    | ⟨0, _⟩ => rfl
    | ⟨1, _⟩ => exact absurd rfl hd
  · show k.val + 128 = 128 + k.val
    omega

/-- The contraction of a joined row `[a, b]` with a 256-row weight is the sum over its two halves. -/
theorem joined_dot (a b : (⟨S20000x128, .f32⟩ : BufTy).Contents (Elt Ideal)) (W : (⟨S256x128, .f32⟩ : BufTy).Contents (Elt Ideal)) (r : Fin 20000) (k : Fin 128) :
    (∑ j : Fin 256, concatenate S20000x256 1 [⟨S20000x128, a⟩, ⟨S20000x128, b⟩] concatenates_S20000x128_S20000x128_S20000x256_d1 (ix2 r j)
        * W (ix2 j k))
      = (∑ j : Fin 128, a (ix2 r j) * W (ix2 (⟨j.val, by omega⟩ : Fin 256) k))
        + (∑ j : Fin 128, b (ix2 r j) * W (ix2 (⟨128 + j.val, by omega⟩ : Fin 256) k)) := by
  rw [sum_fin256]
  congr 1
  · refine Finset.sum_congr rfl fun j _ => ?_
    rw [joined_left]
  · refine Finset.sum_congr rfl fun j _ => ?_
    rw [joined_right]

/-! ## The target-node update, stage by stage -/

/-- The first layer before its activation: the joined row against the whole weight, plus the bias. -/
theorem tgt_pre (x0 x1 : (⟨S20000x128, .f32⟩ : BufTy).Contents (Elt Ideal)) (x2 x3 : (⟨S20000x3, .f32⟩ : BufTy).Contents (Elt Ideal))
    (x4 x5 : (⟨S320000, .i32⟩ : BufTy).Contents (Elt Ideal)) (x6 : (⟨S257x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) (x14 : (⟨S128x1, .f32⟩ : BufTy).Contents (Elt Ideal)) (x15 : (⟨S1, .f32⟩ : BufTy).Contents (Elt Ideal))
    (x21 : (⟨S256x128, .f32⟩ : BufTy).Contents (Elt Ideal)) (x22 : (⟨S128, .f32⟩ : BufTy).Contents (Elt Ideal))
    (r : Fin 20000) (k : Fin 128) :
    val_main_v110 (F := Ideal) x0 x1 x2 x3 x4 x5 x6 x7 x8 x9 x14 x15 x21 x22 (ix2 r k)
      = ((∑ j : Fin 128, x1 (ix2 r j) * x21 (ix2 (⟨j.val, by omega⟩ : Fin 256) k))
          + (∑ j : Fin 128, val_main_v101 (F := Ideal) x0 x1 x2 x3 x4 x5 x6 x7 x8 x9 x14 x15 (ix2 r j) * x21 (ix2 (⟨128 + j.val, by omega⟩ : Fin 256) k)))
        + x22 (ix1 k) := by
  have el : ∀ j : Fin 256, lidx_main_v107 (ix2 r k) j = ix2 r j := fun j =>
    funext fun a => Fin.ext (by match a with | ⟨0, _⟩ => rfl | ⟨1, _⟩ => rfl)
  have er : ∀ j : Fin 256, ridx_main_v107 (ix2 r k) j = ix2 j k := fun j =>
    funext fun a => Fin.ext (by match a with | ⟨0, _⟩ => rfl | ⟨1, _⟩ => rfl)
  have eb : idx_main_v108 (idx_main_v109 (ix2 r k)) = ix1 k :=
    funext fun a => Fin.ext (by match a with | ⟨0, _⟩ => rfl)
  rw [val_main_v110_apply, val_main_v107_apply, val_main_v109_apply, val_main_v108_apply]
  unfold val_main_v105
  generalize val_main_v101 (F := Ideal) x0 x1 x2 x3 x4 x5 x6 x7 x8 x9 x14 x15 = g
  simp only [el, er, eb, Ideal.addf_def]
  rw [joined_dot]

/-- The activation: `x · (1 / (1 + e⁻ˣ))` entry by entry. -/
theorem tgt_act (x0 x1 : (⟨S20000x128, .f32⟩ : BufTy).Contents (Elt Ideal)) (x2 x3 : (⟨S20000x3, .f32⟩ : BufTy).Contents (Elt Ideal))
    (x4 x5 : (⟨S320000, .i32⟩ : BufTy).Contents (Elt Ideal)) (x6 : (⟨S257x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) (x14 : (⟨S128x1, .f32⟩ : BufTy).Contents (Elt Ideal)) (x15 : (⟨S1, .f32⟩ : BufTy).Contents (Elt Ideal))
    (x21 : (⟨S256x128, .f32⟩ : BufTy).Contents (Elt Ideal)) (x22 : (⟨S128, .f32⟩ : BufTy).Contents (Elt Ideal))
    (i : S20000x128.Idx) :
    val_main_v111 (F := Ideal) x0 x1 x2 x3 x4 x5 x6 x7 x8 x9 x14 x15 x21 x22 i = silu (val_main_v110 (F := Ideal) x0 x1 x2 x3 x4 x5 x6 x7 x8 x9 x14 x15 x21 x22 i) := by
  rw [val_main_v111_apply, val_main_call6_v5_apply, val_main_call6_v4_apply, val_main_call6_cst_0_apply, val_main_call6_v3_apply, val_main_call6_v2_apply, val_main_call6_cst_apply,
    val_main_call6_v1_apply, val_main_call6_v0_apply]
  generalize val_main_v110 (F := Ideal) x0 x1 x2 x3 x4 x5 x6 x7 x8 x9 x14 x15 x21 x22 i = x
  simp only [Ideal.mulf_def, Ideal.hostDivf_def, Ideal.addf_def, Ideal.hostUnary_exp_def, Ideal.hostNegf_def, Ideal.negf_def,
    Ideal.ofBits_def]
  exact silu_spelt x

/-- The second layer: the activated row against the square weight, plus the bias. -/
theorem tgt_lin2 (x0 x1 : (⟨S20000x128, .f32⟩ : BufTy).Contents (Elt Ideal)) (x2 x3 : (⟨S20000x3, .f32⟩ : BufTy).Contents (Elt Ideal))
    (x4 x5 : (⟨S320000, .i32⟩ : BufTy).Contents (Elt Ideal)) (x6 : (⟨S257x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) (x14 : (⟨S128x1, .f32⟩ : BufTy).Contents (Elt Ideal)) (x15 : (⟨S1, .f32⟩ : BufTy).Contents (Elt Ideal))
    (x21 : (⟨S256x128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal))
    (r : Fin 20000) (q : Fin 128) :
    val_main_v115 (F := Ideal) x0 x1 x2 x3 x4 x5 x6 x7 x8 x9 x14 x15 x21 x22 x23 x24 (ix2 r q)
      = (∑ k : Fin 128, val_main_v111 (F := Ideal) x0 x1 x2 x3 x4 x5 x6 x7 x8 x9 x14 x15 x21 x22 (ix2 r k) * x23 (ix2 k q)) + x24 (ix1 q) := by
  have el : ∀ k : Fin 128, lidx_main_v112 (ix2 r q) k = ix2 r k := fun k =>
    funext fun a => Fin.ext (by match a with | ⟨0, _⟩ => rfl | ⟨1, _⟩ => rfl)
  have er : ∀ k : Fin 128, ridx_main_v112 (ix2 r q) k = ix2 k q := fun k =>
    funext fun a => Fin.ext (by match a with | ⟨0, _⟩ => rfl | ⟨1, _⟩ => rfl)
  have eb : idx_main_v113 (idx_main_v114 (ix2 r q)) = ix1 q :=
    funext fun a => Fin.ext (by match a with | ⟨0, _⟩ => rfl)
  rw [val_main_v115_apply, val_main_v112_apply, val_main_v114_apply, val_main_v113_apply]
  generalize val_main_v111 (F := Ideal) x0 x1 x2 x3 x4 x5 x6 x7 x8 x9 x14 x15 x21 x22 = h
  simp only [el, er, eb, Ideal.addf_def]

/-! ## The source-node update, stage by stage -/

/-- The first layer before its activation: the joined row against the whole weight, plus the bias. -/
theorem src_pre (x0 x1 : (⟨S20000x128, .f32⟩ : BufTy).Contents (Elt Ideal)) (x2 x3 : (⟨S20000x3, .f32⟩ : BufTy).Contents (Elt Ideal))
    (x4 x5 : (⟨S320000, .i32⟩ : BufTy).Contents (Elt Ideal)) (x10 : (⟨S257x128, .f32⟩ : BufTy).Contents (Elt Ideal)) (x11 : (⟨S128, .f32⟩ : BufTy).Contents (Elt Ideal))
    (x12 : (⟨S128x128, .f32⟩ : BufTy).Contents (Elt Ideal)) (x13 : (⟨S128, .f32⟩ : BufTy).Contents (Elt Ideal)) (x16 : (⟨S128x1, .f32⟩ : BufTy).Contents (Elt Ideal)) (x17 : (⟨S1, .f32⟩ : BufTy).Contents (Elt Ideal))
    (x25 : (⟨S256x128, .f32⟩ : BufTy).Contents (Elt Ideal)) (x26 : (⟨S128, .f32⟩ : BufTy).Contents (Elt Ideal))
    (r : Fin 20000) (k : Fin 128) :
    val_main_v119 (F := Ideal) x0 x1 x2 x3 x4 x5 x10 x11 x12 x13 x16 x17 x25 x26 (ix2 r k)
      = ((∑ j : Fin 128, x0 (ix2 r j) * x25 (ix2 (⟨j.val, by omega⟩ : Fin 256) k))
          + (∑ j : Fin 128, val_main_v104 (F := Ideal) x0 x1 x2 x3 x4 x5 x10 x11 x12 x13 x16 x17 (ix2 r j) * x25 (ix2 (⟨128 + j.val, by omega⟩ : Fin 256) k)))
        + x26 (ix1 k) := by
  have el : ∀ j : Fin 256, lidx_main_v116 (ix2 r k) j = ix2 r j := fun j =>
    funext fun a => Fin.ext (by match a with | ⟨0, _⟩ => rfl | ⟨1, _⟩ => rfl)
  have er : ∀ j : Fin 256, ridx_main_v116 (ix2 r k) j = ix2 j k := fun j =>
    funext fun a => Fin.ext (by match a with | ⟨0, _⟩ => rfl | ⟨1, _⟩ => rfl)
  have eb : idx_main_v117 (idx_main_v118 (ix2 r k)) = ix1 k :=
    funext fun a => Fin.ext (by match a with | ⟨0, _⟩ => rfl)
  rw [val_main_v119_apply, val_main_v116_apply, val_main_v118_apply, val_main_v117_apply]
  unfold val_main_v106
  generalize val_main_v104 (F := Ideal) x0 x1 x2 x3 x4 x5 x10 x11 x12 x13 x16 x17 = g
  simp only [el, er, eb, Ideal.addf_def]
  rw [joined_dot]

/-- The activation: `x · (1 / (1 + e⁻ˣ))` entry by entry. -/
theorem src_act (x0 x1 : (⟨S20000x128, .f32⟩ : BufTy).Contents (Elt Ideal)) (x2 x3 : (⟨S20000x3, .f32⟩ : BufTy).Contents (Elt Ideal))
    (x4 x5 : (⟨S320000, .i32⟩ : BufTy).Contents (Elt Ideal)) (x10 : (⟨S257x128, .f32⟩ : BufTy).Contents (Elt Ideal)) (x11 : (⟨S128, .f32⟩ : BufTy).Contents (Elt Ideal))
    (x12 : (⟨S128x128, .f32⟩ : BufTy).Contents (Elt Ideal)) (x13 : (⟨S128, .f32⟩ : BufTy).Contents (Elt Ideal)) (x16 : (⟨S128x1, .f32⟩ : BufTy).Contents (Elt Ideal)) (x17 : (⟨S1, .f32⟩ : BufTy).Contents (Elt Ideal))
    (x25 : (⟨S256x128, .f32⟩ : BufTy).Contents (Elt Ideal)) (x26 : (⟨S128, .f32⟩ : BufTy).Contents (Elt Ideal))
    (i : S20000x128.Idx) :
    val_main_v120 (F := Ideal) x0 x1 x2 x3 x4 x5 x10 x11 x12 x13 x16 x17 x25 x26 i = silu (val_main_v119 (F := Ideal) x0 x1 x2 x3 x4 x5 x10 x11 x12 x13 x16 x17 x25 x26 i) := by
  rw [val_main_v120_apply, val_main_call7_v5_apply, val_main_call7_v4_apply, val_main_call7_cst_0_apply, val_main_call7_v3_apply, val_main_call7_v2_apply, val_main_call7_cst_apply,
    val_main_call7_v1_apply, val_main_call7_v0_apply]
  generalize val_main_v119 (F := Ideal) x0 x1 x2 x3 x4 x5 x10 x11 x12 x13 x16 x17 x25 x26 i = x
  simp only [Ideal.mulf_def, Ideal.hostDivf_def, Ideal.addf_def, Ideal.hostUnary_exp_def, Ideal.hostNegf_def, Ideal.negf_def,
    Ideal.ofBits_def]
  exact silu_spelt x

/-- The second layer: the activated row against the square weight, plus the bias. -/
theorem src_lin2 (x0 x1 : (⟨S20000x128, .f32⟩ : BufTy).Contents (Elt Ideal)) (x2 x3 : (⟨S20000x3, .f32⟩ : BufTy).Contents (Elt Ideal))
    (x4 x5 : (⟨S320000, .i32⟩ : BufTy).Contents (Elt Ideal)) (x10 : (⟨S257x128, .f32⟩ : BufTy).Contents (Elt Ideal)) (x11 : (⟨S128, .f32⟩ : BufTy).Contents (Elt Ideal))
    (x12 : (⟨S128x128, .f32⟩ : BufTy).Contents (Elt Ideal)) (x13 : (⟨S128, .f32⟩ : BufTy).Contents (Elt Ideal)) (x16 : (⟨S128x1, .f32⟩ : BufTy).Contents (Elt Ideal)) (x17 : (⟨S1, .f32⟩ : BufTy).Contents (Elt Ideal))
    (x25 : (⟨S256x128, .f32⟩ : BufTy).Contents (Elt Ideal)) (x26 : (⟨S128, .f32⟩ : BufTy).Contents (Elt Ideal)) (x27 : (⟨S128x128, .f32⟩ : BufTy).Contents (Elt Ideal)) (x28 : (⟨S128, .f32⟩ : BufTy).Contents (Elt Ideal))
    (r : Fin 20000) (q : Fin 128) :
    val_main_v124 (F := Ideal) x0 x1 x2 x3 x4 x5 x10 x11 x12 x13 x16 x17 x25 x26 x27 x28 (ix2 r q)
      = (∑ k : Fin 128, val_main_v120 (F := Ideal) x0 x1 x2 x3 x4 x5 x10 x11 x12 x13 x16 x17 x25 x26 (ix2 r k) * x27 (ix2 k q)) + x28 (ix1 q) := by
  have el : ∀ k : Fin 128, lidx_main_v121 (ix2 r q) k = ix2 r k := fun k =>
    funext fun a => Fin.ext (by match a with | ⟨0, _⟩ => rfl | ⟨1, _⟩ => rfl)
  have er : ∀ k : Fin 128, ridx_main_v121 (ix2 r q) k = ix2 k q := fun k =>
    funext fun a => Fin.ext (by match a with | ⟨0, _⟩ => rfl | ⟨1, _⟩ => rfl)
  have eb : idx_main_v122 (idx_main_v123 (ix2 r q)) = ix1 q :=
    funext fun a => Fin.ext (by match a with | ⟨0, _⟩ => rfl)
  rw [val_main_v124_apply, val_main_v121_apply, val_main_v123_apply, val_main_v122_apply]
  generalize val_main_v120 (F := Ideal) x0 x1 x2 x3 x4 x5 x10 x11 x12 x13 x16 x17 x25 x26 = h
  simp only [el, er, eb, Ideal.addf_def]

end RefNode

open RefNode

/-- Entry (r, q) of the reference's target-node update. -/
theorem ref_node_tgt (x0 x1 : (⟨S20000x128, .f32⟩ : BufTy).Contents (Elt Ideal)) (x2 x3 : (⟨S20000x3, .f32⟩ : BufTy).Contents (Elt Ideal))
    (x4 x5 : (⟨S320000, .i32⟩ : BufTy).Contents (Elt Ideal)) (x6 : (⟨S257x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) (x14 : (⟨S128x1, .f32⟩ : BufTy).Contents (Elt Ideal)) (x15 : (⟨S1, .f32⟩ : BufTy).Contents (Elt Ideal))
    (x21 : (⟨S256x128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal))
    (r : Fin 20000) (q : Fin 128) :
    val_main_v125 (F := Ideal) x0 x1 x2 x3 x4 x5 x6 x7 x8 x9 x14 x15 x21 x22 x23 x24 (ix2 r q)
      = nodeRow (rowOf x1 r) (rowOf (val_main_v101 (F := Ideal) x0 x1 x2 x3 x4 x5 x6 x7 x8 x9 x14 x15) r)
          (topRows (by omega) x21) (nextRows (by omega) x21) (vecRow x22) (allRows x23) (vecRow x24) q := by
  rw [val_main_v125_apply, tgt_lin2]
  simp only [tgt_act, tgt_pre, Ideal.addf_def]
  generalize val_main_v101 (F := Ideal) x0 x1 x2 x3 x4 x5 x6 x7 x8 x9 x14 x15 = g
  rfl

/-- Entry (r, q) of the reference's source-node update. -/
theorem ref_node_src (x0 x1 : (⟨S20000x128, .f32⟩ : BufTy).Contents (Elt Ideal)) (x2 x3 : (⟨S20000x3, .f32⟩ : BufTy).Contents (Elt Ideal))
    (x4 x5 : (⟨S320000, .i32⟩ : BufTy).Contents (Elt Ideal)) (x10 : (⟨S257x128, .f32⟩ : BufTy).Contents (Elt Ideal)) (x11 : (⟨S128, .f32⟩ : BufTy).Contents (Elt Ideal))
    (x12 : (⟨S128x128, .f32⟩ : BufTy).Contents (Elt Ideal)) (x13 : (⟨S128, .f32⟩ : BufTy).Contents (Elt Ideal)) (x16 : (⟨S128x1, .f32⟩ : BufTy).Contents (Elt Ideal)) (x17 : (⟨S1, .f32⟩ : BufTy).Contents (Elt Ideal))
    (x25 : (⟨S256x128, .f32⟩ : BufTy).Contents (Elt Ideal)) (x26 : (⟨S128, .f32⟩ : BufTy).Contents (Elt Ideal)) (x27 : (⟨S128x128, .f32⟩ : BufTy).Contents (Elt Ideal)) (x28 : (⟨S128, .f32⟩ : BufTy).Contents (Elt Ideal))
    (r : Fin 20000) (q : Fin 128) :
    val_main_v126 (F := Ideal) x0 x1 x2 x3 x4 x5 x10 x11 x12 x13 x16 x17 x25 x26 x27 x28 (ix2 r q)
      = nodeRow (rowOf x0 r) (rowOf (val_main_v104 (F := Ideal) x0 x1 x2 x3 x4 x5 x10 x11 x12 x13 x16 x17) r)
          (topRows (by omega) x25) (nextRows (by omega) x25) (vecRow x26) (allRows x27) (vecRow x28) q := by
  rw [val_main_v126_apply, src_lin2]
  simp only [src_act, src_pre, Ideal.addf_def]
  generalize val_main_v104 (F := Ideal) x0 x1 x2 x3 x4 x5 x10 x11 x12 x13 x16 x17 = g
  rfl

end Cert.Bridge

end
-- ==== Proof.PayS2T.lean ====
/-
  The source-to-target message a tile of edges leaves in its staging buffer, read at one entry.

  Entry (p, q) of the tile is column q of the gated two-layer network applied to edge p's two feature rows and the
  squared distance of its endpoints: the three matrix products of the first layer are sums over the contracted axis
  (the accumulator is the zero splat), the narrowings to the matrix unit's format are the identity over the extended
  reals, and the gate is one logistic of a 128-term sum broadcast along the row.
-/
import proofs.«426544_j11063835754636_1_alg».proof.Proof.Gen.KernelIdeal.Skeleton
import proofs.«426544_j11063835754636_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.Bridge

open Idealize.ShloMosaic Idealize.ShloMosaic.ValueIdx Cert.KernelIdeal Cert.KernelIdeal.Gen
open scoped BigOperators

namespace S2T

/-! ## Layout operations read at an index -/

/-- A `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(p, u)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum along the three lanes of a 2000×3 block, at row `p`. -/
theorem laneSum3_apply (src : FVec Ideal S2000x3 .f32) (h : S2000x3.Reduces [1] S2000) (hφ : FKind.Formats .f32)
    (hacc : (0x00000000#32 : BitVec 32) = FKind.add.neutral .f32 hφ) (p : Fin 2000) :
    multiReduction (F := Ideal) .add [1] S2000 src 0x00000000#32 h hφ hacc (ix1 p) = ∑ a : Fin 3, src (ix2 p a) := by
  refine (Ideal.multiReduction_add_single src 0x00000000#32 h hφ hacc (ix1 p)).trans ?_
  refine Finset.sum_congr rfl fun a _ => congrArg src ?_
  funext d
  match d with
  | ⟨0, _⟩ => exact Fin.ext rfl
  | ⟨1, _⟩ => exact Fin.ext rfl

/-- The logistic of a block at an index is the logistic of the entry. -/
theorem logistic_apply {s : Shape} {φ : FTy} (v : FVec Ideal s φ) (i : s.Idx) : logistic v i = Ideal.logistic (v i) := rfl

/-! ## The three matrix products read at an index -/

theorem lhs_sq_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_sq_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_sq_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_sq_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000×128 block times a 128×128 weight into the zero splat, at (p, q): row p of the block against column q of the
    weight, summed over the contracted axis. -/
theorem matmul_sq_apply {φ₁ φ₂ : FTy} (l : FVec Ideal S2000x128 φ₁) (r : FVec Ideal S128x128 φ₂) (p : Fin 2000) (q : Fin 128) :
    FloatOps.matmul dot_S2000x128_S128x128_S2000x128_1_0_0_1_n_n none l r (constant (F := Ideal) S2000x128 .f32 0x00000000#32) (ix2 p q)
      = ∑ k : Fin 128, l (ix2 p k) * r (ix2 k q) := by
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_sq_0 _ _
    | ⟨1, _⟩ => exact (lhs_sq_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_sq_0 _ _).trans hk
    | ⟨1, _⟩ => exact rhs_sq_1 _ _)
  rw [el, er]

theorem lhs_one_0 (i : S2000x128.Idx) (q : dot_S2000x1_S1x128_S2000x128_1_0_0_1_n_n.contr.Idx) :
    (dot_S2000x1_S1x128_S2000x128_1_0_0_1_n_n.lhsIdx i q 0).val = (i 0).val := by
  unfold DotDims.lhsIdx
  rw [dif_neg (show ¬(0 : Fin S2000x1.rank) ∈ dot_S2000x1_S1x128_S2000x128_1_0_0_1_n_n.lhsBatch by decide), dif_pos (show (0 : Fin S2000x1.rank) ∈ dot_S2000x1_S1x128_S2000x128_1_0_0_1_n_n.lhsNonContracting by decide)]
  rfl
theorem lhs_one_1 (i : S2000x128.Idx) (q : dot_S2000x1_S1x128_S2000x128_1_0_0_1_n_n.contr.Idx) :
    (dot_S2000x1_S1x128_S2000x128_1_0_0_1_n_n.lhsIdx i q 1).val = (q ⟨0, by decide⟩).val :=
  dot_S2000x1_S1x128_S2000x128_1_0_0_1_n_n.lhsIdx_val_of_single rfl i q
theorem rhs_one_0 (i : S2000x128.Idx) (q : dot_S2000x1_S1x128_S2000x128_1_0_0_1_n_n.contr.Idx) :
    (dot_S2000x1_S1x128_S2000x128_1_0_0_1_n_n.rhsIdx i q 0).val = (q ⟨0, by decide⟩).val :=
  dot_S2000x1_S1x128_S2000x128_1_0_0_1_n_n.rhsIdx_val_of_single rfl i q
theorem rhs_one_1 (i : S2000x128.Idx) (q : dot_S2000x1_S1x128_S2000x128_1_0_0_1_n_n.contr.Idx) :
    (dot_S2000x1_S1x128_S2000x128_1_0_0_1_n_n.rhsIdx i q 1).val = (i 1).val := by
  unfold DotDims.rhsIdx
  rw [dif_neg (show ¬(1 : Fin S1x128.rank) ∈ dot_S2000x1_S1x128_S2000x128_1_0_0_1_n_n.rhsBatch by decide), dif_pos (show (1 : Fin S1x128.rank) ∈ dot_S2000x1_S1x128_S2000x128_1_0_0_1_n_n.rhsNonContracting by decide)]
  rfl

/-- A 2000×1 column times a 1×128 row into the zero splat, at (p, q): the contracted axis has one index, so the sum
    is the single product. -/
theorem matmul_one_apply {φ₁ φ₂ : FTy} (l : FVec Ideal S2000x1 φ₁) (r : FVec Ideal S1x128 φ₂) (p : Fin 2000) (q : Fin 128) :
    FloatOps.matmul dot_S2000x1_S1x128_S2000x128_1_0_0_1_n_n none l r (constant (F := Ideal) S2000x128 .f32 0x00000000#32) (ix2 p q)
      = ∑ k : Fin 1, l (ix2 p k) * r (ix2 k q) := by
  rw [Ideal.matmul_constant_zero_apply, ← Equiv.sum_comp (ValueIdx.contrEquiv1 dot_S2000x1_S1x128_S2000x128_1_0_0_1_n_n 1 rfl rfl).symm]
  refine Finset.sum_congr rfl fun k _ => ?_
  have hk := ValueIdx.contrEquiv1_symm_val dot_S2000x1_S1x128_S2000x128_1_0_0_1_n_n 1 rfl rfl k
  have el : dot_S2000x1_S1x128_S2000x128_1_0_0_1_n_n.lhsIdx (ix2 p q) ((ValueIdx.contrEquiv1 dot_S2000x1_S1x128_S2000x128_1_0_0_1_n_n 1 rfl rfl).symm k) = ix2 p k := funext fun a => Fin.ext (by
    match a with
    | ⟨0, _⟩ => exact lhs_one_0 _ _
    | ⟨1, _⟩ => exact (lhs_one_1 _ _).trans hk)
  have er : dot_S2000x1_S1x128_S2000x128_1_0_0_1_n_n.rhsIdx (ix2 p q) ((ValueIdx.contrEquiv1 dot_S2000x1_S1x128_S2000x128_1_0_0_1_n_n 1 rfl rfl).symm k) = ix2 k q := funext fun a => Fin.ext (by
    match a with
    | ⟨0, _⟩ => exact (rhs_one_0 _ _).trans hk
    | ⟨1, _⟩ => exact rhs_one_1 _ _)
  rw [el, er]

theorem lhs_col_0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
theorem lhs_col_1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q
theorem rhs_col_0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q
theorem rhs_col_1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- A 2000×128 block times a 128×1 column into the zero splat, at (p, q): row p of the block against the column,
    summed over the contracted axis. -/
theorem matmul_col_apply {φ₁ φ₂ : FTy} (l : FVec Ideal S2000x128 φ₁) (r : FVec Ideal S128x1 φ₂) (p : Fin 2000) (q : Fin 1) :
    FloatOps.matmul dot_S2000x128_S128x1_S2000x1_1_0_0_1_n_n none l r (constant (F := Ideal) S2000x1 .f32 0x00000000#32) (ix2 p q)
      = ∑ k : Fin 128, l (ix2 p k) * r (ix2 k q) := by
  rw [Ideal.matmul_constant_zero_apply, ← Equiv.sum_comp (ValueIdx.contrEquiv1 dot_S2000x128_S128x1_S2000x1_1_0_0_1_n_n 128 rfl rfl).symm]
  refine Finset.sum_congr rfl fun k _ => ?_
  have hk := ValueIdx.contrEquiv1_symm_val dot_S2000x128_S128x1_S2000x1_1_0_0_1_n_n 128 rfl rfl k
  have el : dot_S2000x128_S128x1_S2000x1_1_0_0_1_n_n.lhsIdx (ix2 p q) ((ValueIdx.contrEquiv1 dot_S2000x128_S128x1_S2000x1_1_0_0_1_n_n 128 rfl rfl).symm k) = ix2 p k := funext fun a => Fin.ext (by
    match a with
    | ⟨0, _⟩ => exact lhs_col_0 _ _
    | ⟨1, _⟩ => exact (lhs_col_1 _ _).trans hk)
  have er : dot_S2000x128_S128x1_S2000x1_1_0_0_1_n_n.rhsIdx (ix2 p q) ((ValueIdx.contrEquiv1 dot_S2000x128_S128x1_S2000x1_1_0_0_1_n_n 128 rfl rfl).symm k) = ix2 k q := funext fun a => Fin.ext (by
    match a with
    | ⟨0, _⟩ => exact (rhs_col_0 _ _).trans hk
    | ⟨1, _⟩ => exact rhs_col_1 _ _)
  rw [el, er]

/-! ## The payloads read at an index -/

/-- The narrowed source feature block is the block itself. -/
theorem pay2_apply (x : Vec Ideal S2000x128 .f32) (i : S2000x128.Idx) : k0_pay2 (F := Ideal) x i = x i := by
  unfold k0_pay2
  exact congrFun (shapeCast_self x _) i

/-- The narrowed target feature block is the block itself. -/
theorem pay3_apply (x : Vec Ideal S2000x128 .f32) (i : S2000x128.Idx) : k0_pay3 (F := Ideal) x i = x i := by
  unfold k0_pay3
  exact congrFun (shapeCast_self x _) i

/-- The coordinate difference, target minus source, entry by entry. -/
theorem pay4_apply (x2 x3 : Vec Ideal S2000x3 .f32) (i : S2000x3.Idx) : k0_pay4 (F := Ideal) x2 x3 i = x3 i - x2 i := by
  unfold k0_pay4
  show shapeCast S2000x3 x3 _ i - shapeCast S2000x3 x2 _ i = _
  rw [shapeCast_self, shapeCast_self]

/-- The squared distance of edge p's endpoints: the sum over the three lanes of the squared coordinate differences. -/
theorem pay5_apply (x2 x3 : Vec Ideal S2000x3 .f32) (p : Fin 2000) (u : Fin 1) :
    k0_pay5 (F := Ideal) x2 x3 (ix2 p u) = radial (rowOf x2 p) (rowOf x3 p) := by
  unfold k0_pay5
  refine (shapeCast_a_a1_apply _ _ p u).trans ?_
  refine (laneSum3_apply _ _ _ _ p).trans ?_
  unfold radial
  refine Finset.sum_congr rfl fun a _ => ?_
  show k0_pay4 (F := Ideal) x2 x3 (ix2 p a) * k0_pay4 (F := Ideal) x2 x3 (ix2 p a) = _
  rw [pay4_apply]

/-- The first layer at (p, q): `silu` of the three products' sum plus the bias, the one-term product being the squared
    distance times the last weight row. -/
theorem pay6_apply (x0 x1 : Vec Ideal S2000x128 .f32) (x2 x3 : Vec Ideal S2000x3 .f32) (x4 x5 : Vec Ideal S128x128 .f32)
    (x6 x7 : Vec Ideal S1x128 .f32) (p : Fin 2000) (q : Fin 128) :
    k0_pay6 (F := Ideal) x0 x1 x2 x3 x4 x5 x6 x7 (ix2 p q)
      = siluRow (lin3 (rowOf x0 p) (rowOf x1 p) (radial (rowOf x2 p) (rowOf x3 p)) (fun k => rowOf x4 k) (fun k => rowOf x5 k)
          (rowOf x6 0) (rowOf x7 0)) q := by
  unfold k0_pay6
  simp only [truncf_apply, mulf_apply, addf_apply, logistic_apply, matmul_sq_apply, matmul_one_apply, broadcastTo_1b_ab_apply,
    shapeCast_self, pay2_apply, pay3_apply, pay5_apply, Fin.sum_univ_one]
  rfl

/-- The second layer and the gate at (p, q), over any first-layer block `y`: the activated row times the logistic of its
    product with the gate column plus the gate bias. -/
theorem pay7_apply (y : FVec Ideal S2000x128 .bf16) (x8 : Vec Ideal S128x128 .f32) (x9 : Vec Ideal S1x128 .f32)
    (x10 : Vec Ideal S128x1 .f32) (x11 : Vec Ideal S1x1 .f32) (p : Fin 2000) (q : Fin 128) :
    k0_pay7 (F := Ideal) y x8 x9 x10 x11 (ix2 p q)
      = gated (siluRow (lin (rowOf y p) (fun k => rowOf x8 k) (rowOf x9 0))) (fun k => x10 (ix2 k 0)) (x11 (ix2 0 0)) q := by
  unfold k0_pay7
  simp only [truncf_apply, mulf_apply, addf_apply, logistic_apply, matmul_sq_apply, matmul_col_apply, broadcastTo_1b_ab_apply,
    broadcastTo_a1_ab_apply, shapeCast_self]
  rfl

end S2T

/-- The tile's source-to-target payload at (p, q) is `edgeRow` of edge p's rows, column q. -/
theorem pay_s2t (x0 x1 : Vec Ideal S2000x128 .f32) (x2 x3 : Vec Ideal S2000x3 .f32) (x4 x5 : Vec Ideal S128x128 .f32)
    (x6 x7 : Vec Ideal S1x128 .f32) (x8 : Vec Ideal S128x128 .f32) (x9 : Vec Ideal S1x128 .f32) (x10 : Vec Ideal S128x1 .f32)
    (x11 : Vec Ideal S1x1 .f32) (p : Fin 2000) (q : Fin 128) :
    k0_pay7 (F := Ideal) (k0_pay6 x0 x1 x2 x3 x4 x5 x6 x7) x8 x9 x10 x11 (ix2 p q)
      = edgeRow (rowOf x0 p) (rowOf x1 p) (rowOf x2 p) (rowOf x3 p) (fun k => rowOf x4 k) (fun k => rowOf x5 k) (rowOf x6 0)
          (rowOf x7 0) (fun k => rowOf x8 k) (rowOf x9 0) (fun k => x10 (ix2 k 0)) (x11 (ix2 0 0)) q := by
  refine (S2T.pay7_apply _ x8 x9 x10 x11 p q).trans ?_
  have e : rowOf (k0_pay6 (F := Ideal) x0 x1 x2 x3 x4 x5 x6 x7) p
      = siluRow (lin3 (rowOf x0 p) (rowOf x1 p) (radial (rowOf x2 p) (rowOf x3 p)) (fun k => rowOf x4 k) (fun k => rowOf x5 k)
          (rowOf x6 0) (rowOf x7 0)) :=
    funext fun k => S2T.pay6_apply x0 x1 x2 x3 x4 x5 x6 x7 p k
  rw [e]
  rfl

end Cert.Bridge

end
-- ==== Proof.PayT2S.lean ====
/-
  The target-to-source message a tile of edges leaves in its staging buffer, read at one entry.

  The same network as the source-to-target message with the other set of weights; the body computes it in two
  pieces (the activated second layer, and the gate as a one-column array) and multiplies them.
-/
import proofs.«426544_j11063835754636_1_alg».proof.Proof.Gen.KernelIdeal.Skeleton
import proofs.«426544_j11063835754636_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.Bridge

open Idealize.ShloMosaic Idealize.ShloMosaic.ValueIdx Cert.KernelIdeal Cert.KernelIdeal.Gen
open scoped BigOperators

namespace T2S
/-! ### The three products of the edge network, read at an entry

Each is a product into the zero block, so its entry is the plain sum over the shared axis; the four coordinate
facts of each product say which entries of the two factors meet. -/

theorem lhsA_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsA_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
theorem rhsA_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
theorem rhsA_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block of 2000 rows times a square weight: entry (p, q) is the sum over the 128 shared coordinates of row p's
    entries times column q's. -/
theorem mmA_at (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

theorem lhsB_0 (i : S2000x128.Idx) (c : dot_S2000x1_S1x128_S2000x128_1_0_0_1_n_n.contr.Idx) :
    (dot_S2000x1_S1x128_S2000x128_1_0_0_1_n_n.lhsIdx i c 0).val = (i 0).val := by
  unfold DotDims.lhsIdx
  rw [dif_neg (show ¬(0 : Fin S2000x1.rank) ∈ dot_S2000x1_S1x128_S2000x128_1_0_0_1_n_n.lhsBatch by decide), dif_pos (show (0 : Fin S2000x1.rank) ∈ dot_S2000x1_S1x128_S2000x128_1_0_0_1_n_n.lhsNonContracting by decide)]
  rfl
theorem lhsB_1 (i : S2000x128.Idx) (c : dot_S2000x1_S1x128_S2000x128_1_0_0_1_n_n.contr.Idx) :
    (dot_S2000x1_S1x128_S2000x128_1_0_0_1_n_n.lhsIdx i c 1).val = (c ⟨0, by decide⟩).val :=
  dot_S2000x1_S1x128_S2000x128_1_0_0_1_n_n.lhsIdx_val_of_single rfl i c
theorem rhsB_0 (i : S2000x128.Idx) (c : dot_S2000x1_S1x128_S2000x128_1_0_0_1_n_n.contr.Idx) :
    (dot_S2000x1_S1x128_S2000x128_1_0_0_1_n_n.rhsIdx i c 0).val = (c ⟨0, by decide⟩).val :=
  dot_S2000x1_S1x128_S2000x128_1_0_0_1_n_n.rhsIdx_val_of_single rfl i c
theorem rhsB_1 (i : S2000x128.Idx) (c : dot_S2000x1_S1x128_S2000x128_1_0_0_1_n_n.contr.Idx) :
    (dot_S2000x1_S1x128_S2000x128_1_0_0_1_n_n.rhsIdx i c 1).val = (i 1).val := by
  unfold DotDims.rhsIdx
  rw [dif_neg (show ¬(1 : Fin S1x128.rank) ∈ dot_S2000x1_S1x128_S2000x128_1_0_0_1_n_n.rhsBatch by decide), dif_pos (show (1 : Fin S1x128.rank) ∈ dot_S2000x1_S1x128_S2000x128_1_0_0_1_n_n.rhsNonContracting by decide)]
  rfl

/-- A one-column block times a one-row weight: entry (p, q) is a sum over the one shared coordinate. -/
theorem mmB_at (l : FVec Ideal S2000x1 .bf16) (r : FVec Ideal S1x128 .bf16) (p : Fin 2000) (q : Fin 128) :
    matmul dot_S2000x1_S1x128_S2000x128_1_0_0_1_n_n none l r (constant (F := Ideal) S2000x128 .f32 0x00000000#32) (ix2 p q)
      = ∑ k : Fin 1, l (ix2 p k) * r (ix2 k q) := by
  refine (Ideal.matmul_constant_zero_apply dot_S2000x1_S1x128_S2000x128_1_0_0_1_n_n none l r (ix2 p q)).trans ?_
  rw [← Equiv.sum_comp (contrEquiv1 dot_S2000x1_S1x128_S2000x128_1_0_0_1_n_n 1 rfl rfl).symm]
  refine Finset.sum_congr rfl fun k _ => ?_
  have hk := contrEquiv1_symm_val dot_S2000x1_S1x128_S2000x128_1_0_0_1_n_n 1 rfl rfl k
  have el : dot_S2000x1_S1x128_S2000x128_1_0_0_1_n_n.lhsIdx (ix2 p q) ((contrEquiv1 dot_S2000x1_S1x128_S2000x128_1_0_0_1_n_n 1 rfl rfl).symm k) = ix2 p k := funext fun a => Fin.ext (by
    match a with
    | ⟨0, _⟩ => exact lhsB_0 _ _
    | ⟨1, _⟩ => exact (lhsB_1 _ _).trans hk)
  have er : dot_S2000x1_S1x128_S2000x128_1_0_0_1_n_n.rhsIdx (ix2 p q) ((contrEquiv1 dot_S2000x1_S1x128_S2000x128_1_0_0_1_n_n 1 rfl rfl).symm k) = ix2 k q := funext fun a => Fin.ext (by
    match a with
    | ⟨0, _⟩ => exact (rhsB_0 _ _).trans hk
    | ⟨1, _⟩ => exact rhsB_1 _ _)
  rw [el, er]

theorem lhsC_0 (i : S2000x1.Idx) (c : dot_S2000x128_S128x1_S2000x1_1_0_0_1_n_n.contr.Idx) :
    (dot_S2000x128_S128x1_S2000x1_1_0_0_1_n_n.lhsIdx i c 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
theorem lhsC_1 (i : S2000x1.Idx) (c : dot_S2000x128_S128x1_S2000x1_1_0_0_1_n_n.contr.Idx) :
    (dot_S2000x128_S128x1_S2000x1_1_0_0_1_n_n.lhsIdx i c 1).val = (c ⟨0, by decide⟩).val :=
  dot_S2000x128_S128x1_S2000x1_1_0_0_1_n_n.lhsIdx_val_of_single rfl i c
theorem rhsC_0 (i : S2000x1.Idx) (c : dot_S2000x128_S128x1_S2000x1_1_0_0_1_n_n.contr.Idx) :
    (dot_S2000x128_S128x1_S2000x1_1_0_0_1_n_n.rhsIdx i c 0).val = (c ⟨0, by decide⟩).val :=
  dot_S2000x128_S128x1_S2000x1_1_0_0_1_n_n.rhsIdx_val_of_single rfl i c
theorem rhsC_1 (i : S2000x1.Idx) (c : dot_S2000x128_S128x1_S2000x1_1_0_0_1_n_n.contr.Idx) :
    (dot_S2000x128_S128x1_S2000x1_1_0_0_1_n_n.rhsIdx i c 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- A block of 2000 rows times a one-column weight: entry (p, q) is the sum over the 128 shared coordinates. -/
theorem mmC_at (l : FVec Ideal S2000x128 .bf16) (r : FVec Ideal S128x1 .bf16) (p : Fin 2000) (q : Fin 1) :
    matmul dot_S2000x128_S128x1_S2000x1_1_0_0_1_n_n none l r (constant (F := Ideal) S2000x1 .f32 0x00000000#32) (ix2 p q)
      = ∑ k : Fin 128, l (ix2 p k) * r (ix2 k q) := by
  refine (Ideal.matmul_constant_zero_apply dot_S2000x128_S128x1_S2000x1_1_0_0_1_n_n none l r (ix2 p q)).trans ?_
  rw [← Equiv.sum_comp (contrEquiv1 dot_S2000x128_S128x1_S2000x1_1_0_0_1_n_n 128 rfl rfl).symm]
  refine Finset.sum_congr rfl fun k _ => ?_
  have hk := contrEquiv1_symm_val dot_S2000x128_S128x1_S2000x1_1_0_0_1_n_n 128 rfl rfl k
  have el : dot_S2000x128_S128x1_S2000x1_1_0_0_1_n_n.lhsIdx (ix2 p q) ((contrEquiv1 dot_S2000x128_S128x1_S2000x1_1_0_0_1_n_n 128 rfl rfl).symm k) = ix2 p k := funext fun a => Fin.ext (by
    match a with
    | ⟨0, _⟩ => exact lhsC_0 _ _
    | ⟨1, _⟩ => exact (lhsC_1 _ _).trans hk)
  have er : dot_S2000x128_S128x1_S2000x1_1_0_0_1_n_n.rhsIdx (ix2 p q) ((contrEquiv1 dot_S2000x128_S128x1_S2000x1_1_0_0_1_n_n 128 rfl rfl).symm k) = ix2 k q := funext fun a => Fin.ext (by
    match a with
    | ⟨0, _⟩ => exact (rhsC_0 _ _).trans hk
    | ⟨1, _⟩ => exact rhsC_1 _ _)
  rw [el, er]

/-! ### Layout steps read at an entry -/

/-- The logistic of a vector, read at an index, is the logistic of the entry. -/
theorem logistic_at {s : Shape} {φ : FTy} (x : FVec Ideal s φ) (i : s.Idx) : logistic x i = Ideal.logistic (x i) := rfl

/-- An `[a]` array viewed as a column `[a, 1]` reads, at `(p, u)`, the operand at `p`. -/
theorem col_of_vec_at {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along its rows to `[a, b]` reads, at `(p, c)`, the column's entry of row `p`. -/
theorem bcast_col_at {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The pieces of the payload, read at an entry -/

/-- Narrowing the source feature block changes no value. -/
theorem pay2_at (x0 : Vec Ideal S2000x128 .f32) (i : S2000x128.Idx) : k0_pay2 (F := Ideal) x0 i = x0 i := by
  unfold k0_pay2
  exact congrFun (shapeCast_self x0 _) i

/-- Narrowing the target feature block changes no value. -/
theorem pay3_at (x1 : Vec Ideal S2000x128 .f32) (i : S2000x128.Idx) : k0_pay3 (F := Ideal) x1 i = x1 i := by
  unfold k0_pay3
  exact congrFun (shapeCast_self x1 _) i

/-- The coordinate difference of an edge: target minus source. -/
theorem pay4_at (x2 x3 : Vec Ideal S2000x3 .f32) (i : S2000x3.Idx) : k0_pay4 (F := Ideal) x2 x3 i = x3 i - x2 i := by
  unfold k0_pay4
  simp only [shapeCast_self]
  rfl

/-- The squared-distance column at row p is the squared distance of edge p's two coordinate rows. -/
theorem pay5_at (x2 x3 : Vec Ideal S2000x3 .f32) (p : Fin 2000) (u : Fin 1) :
    k0_pay5 (F := Ideal) x2 x3 (ix2 p u) = radial (rowOf x2 p) (rowOf x3 p) := by
  unfold k0_pay5
  refine (col_of_vec_at _ _ p u).trans ?_
  refine (Ideal.multiReduction_add_single _ _ _ _ _ (ix1 p)).trans ?_
  unfold radial
  refine Finset.sum_congr rfl fun (k : Fin 3) _ => ?_
  have e : reduces_S2000x3_S2000.lift (ix1 p) k = ix2 p k := funext fun c => Fin.ext (by
    match c with
    | ⟨0, _⟩ => rfl
    | ⟨1, _⟩ => rfl)
  rw [e, mulf_apply, pay4_at]

/-- The one-column block times the one-row weight, with its one-term sum read off. -/
theorem mmB_one (l : FVec Ideal S2000x1 .bf16) (r : FVec Ideal S1x128 .bf16) (p : Fin 2000) (q : Fin 128) :
    matmul dot_S2000x1_S1x128_S2000x128_1_0_0_1_n_n none l r (constant (F := Ideal) S2000x128 .f32 0x00000000#32) (ix2 p q)
      = l (ix2 p 0) * r (ix2 0 q) :=
  (mmB_at l r p q).trans (Fin.sum_univ_one _)

/-- The activated second layer at (p, q) is the two-layer edge network on edge p's rows, column q. -/
theorem pay9_at (x0 x1 : Vec Ideal S2000x128 .f32) (x2 x3 : Vec Ideal S2000x3 .f32) (x12 x13 : Vec Ideal S128x128 .f32)
    (x14 x15 : Vec Ideal S1x128 .f32) (x16 : Vec Ideal S128x128 .f32) (x17 : Vec Ideal S1x128 .f32) (p : Fin 2000) (q : Fin 128) :
    k0_pay9 (F := Ideal) (k0_pay2 x0) (k0_pay3 x1) (k0_pay5 x2 x3) x12 x13 x14 x15 x16 x17 (ix2 p q)
      = mlp (rowOf x0 p) (rowOf x1 p) (radial (rowOf x2 p) (rowOf x3 p)) (fun k => rowOf x12 k) (fun k => rowOf x13 k)
          (rowOf x14 0) (rowOf x15 0) (fun k => rowOf x16 k) (rowOf x17 0) q := by
  unfold k0_pay9
  simp only [shapeCast_self, mulf_apply, addf_apply, truncf_apply, logistic_at, mmA_at, mmB_one, broadcastTo_1b_ab_apply,
    pay2_at, pay3_at, pay5_at]
  rfl

/-- The gate column at row p is the gate of edge p's message. -/
theorem pay10_at (x0 x1 : Vec Ideal S2000x128 .f32) (x2 x3 : Vec Ideal S2000x3 .f32) (x12 x13 : Vec Ideal S128x128 .f32)
    (x14 x15 : Vec Ideal S1x128 .f32) (x16 : Vec Ideal S128x128 .f32) (x17 : Vec Ideal S1x128 .f32) (x18 : Vec Ideal S128x1 .f32)
    (x19 : Vec Ideal S1x1 .f32) (p : Fin 2000) :
    k0_pay10 (F := Ideal) (k0_pay2 x0) (k0_pay3 x1) (k0_pay5 x2 x3) x12 x13 x14 x15 x16 x17 x18 x19 (ix2 p 0)
      = gateOf (mlp (rowOf x0 p) (rowOf x1 p) (radial (rowOf x2 p) (rowOf x3 p)) (fun k => rowOf x12 k) (fun k => rowOf x13 k)
          (rowOf x14 0) (rowOf x15 0) (fun k => rowOf x16 k) (rowOf x17 0)) (fun k => x18 (ix2 k 0)) (x19 (ix2 0 0)) := by
  unfold k0_pay10
  simp only [shapeCast_self, addf_apply, truncf_apply, logistic_at, mmC_at, broadcastTo_1b_ab_apply, pay9_at]
  rfl

end T2S

/-- The tile's target-to-source payload at (p, q) is `edgeRow` of edge p's rows with the second weight set, column q. -/
theorem pay_t2s (x0 x1 : Vec Ideal S2000x128 .f32) (x2 x3 : Vec Ideal S2000x3 .f32) (x12 x13 : Vec Ideal S128x128 .f32)
    (x14 x15 : Vec Ideal S1x128 .f32) (x16 : Vec Ideal S128x128 .f32) (x17 : Vec Ideal S1x128 .f32) (x18 : Vec Ideal S128x1 .f32)
    (x19 : Vec Ideal S1x1 .f32) (p : Fin 2000) (q : Fin 128) :
    k0_pay1 (F := Ideal) (k0_pay9 (k0_pay2 x0) (k0_pay3 x1) (k0_pay5 x2 x3) x12 x13 x14 x15 x16 x17)
        (k0_pay10 (k0_pay2 x0) (k0_pay3 x1) (k0_pay5 x2 x3) x12 x13 x14 x15 x16 x17 x18 x19) (ix2 p q)
      = edgeRow (rowOf x0 p) (rowOf x1 p) (rowOf x2 p) (rowOf x3 p) (fun k => rowOf x12 k) (fun k => rowOf x13 k) (rowOf x14 0)
          (rowOf x15 0) (fun k => rowOf x16 k) (rowOf x17 0) (fun k => x18 (ix2 k 0)) (x19 (ix2 0 0)) q := by
  unfold k0_pay1
  simp only [mulf_apply, T2S.bcast_col_at, T2S.pay9_at, T2S.pay10_at]
  rfl

end Cert.Bridge

end
-- ==== Proof.PayWT.lean ====
/-
  The weighted translation a tile of edges leaves in its staging buffer, read at one entry.

  Entry (p, a) is coordinate a of the difference of edge p's endpoints times the edge's coordinate weight, a number
  computed from the gated source-to-target message by a dense layer, an activation and a one-column product.
-/
import proofs.«426544_j11063835754636_1_alg».proof.Proof.Gen.KernelIdeal.Skeleton
import proofs.«426544_j11063835754636_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.Bridge

open Idealize.ShloMosaic Idealize.ShloMosaic.ValueIdx Cert.KernelIdeal Cert.KernelIdeal.Gen
open scoped BigOperators

/-! ## A product of a tile by a weight, into the zero accumulator, read at an index

Each of the three products contracts the tile's second axis with the weight's first. Read at (p, q) it is the sum, over
the contracted positions k, of the tile at (p, k) times the weight at (k, q): the contraction index has one coordinate,
the left operand's index is (row of the output, k) and the right operand's is (k, column of the output). -/
/-- The left operand's row coordinate is the output's row. -/
theorem wt_mm_sq_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column coordinate is the contraction position. -/
theorem wt_mm_sq_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row coordinate is the contraction position. -/
theorem wt_mm_sq_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column coordinate is the output's column. -/
theorem wt_mm_sq_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A tile of 2000 rows times a square weight, into the zero accumulator, read at (p, q): the sum over the 128 contracted positions of row p of the tile against column q of the weight. -/
theorem wt_mm_sq (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, (l (ix2 p k) : EReal) * (r (ix2 k q) : EReal) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact wt_mm_sq_lhs_0 _ _
    | ⟨1, _⟩ => exact (wt_mm_sq_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (wt_mm_sq_rhs_0 _ _).trans hk
    | ⟨1, _⟩ => exact wt_mm_sq_rhs_1 _ _)
  rw [el, er]

/-- The left operand's row coordinate is the output's row. -/
theorem wt_mm_one_lhs_0 (i : S2000x128.Idx) (q : dot_S2000x1_S1x128_S2000x128_1_0_0_1_n_n.contr.Idx) :
    (dot_S2000x1_S1x128_S2000x128_1_0_0_1_n_n.lhsIdx i q 0).val = (i 0).val := by
  unfold DotDims.lhsIdx
  rw [dif_neg (show ¬(0 : Fin S2000x1.rank) ∈ dot_S2000x1_S1x128_S2000x128_1_0_0_1_n_n.lhsBatch by decide), dif_pos (show (0 : Fin S2000x1.rank) ∈ dot_S2000x1_S1x128_S2000x128_1_0_0_1_n_n.lhsNonContracting by decide)]
  rfl
/-- The left operand's column coordinate is the contraction position. -/
theorem wt_mm_one_lhs_1 (i : S2000x128.Idx) (q : dot_S2000x1_S1x128_S2000x128_1_0_0_1_n_n.contr.Idx) :
    (dot_S2000x1_S1x128_S2000x128_1_0_0_1_n_n.lhsIdx i q 1).val = (q ⟨0, by decide⟩).val :=
  dot_S2000x1_S1x128_S2000x128_1_0_0_1_n_n.lhsIdx_val_of_single rfl i q
/-- The right operand's row coordinate is the contraction position. -/
theorem wt_mm_one_rhs_0 (i : S2000x128.Idx) (q : dot_S2000x1_S1x128_S2000x128_1_0_0_1_n_n.contr.Idx) :
    (dot_S2000x1_S1x128_S2000x128_1_0_0_1_n_n.rhsIdx i q 0).val = (q ⟨0, by decide⟩).val :=
  dot_S2000x1_S1x128_S2000x128_1_0_0_1_n_n.rhsIdx_val_of_single rfl i q
/-- The right operand's column coordinate is the output's column. -/
theorem wt_mm_one_rhs_1 (i : S2000x128.Idx) (q : dot_S2000x1_S1x128_S2000x128_1_0_0_1_n_n.contr.Idx) :
    (dot_S2000x1_S1x128_S2000x128_1_0_0_1_n_n.rhsIdx i q 1).val = (i 1).val := by
  unfold DotDims.rhsIdx
  rw [dif_neg (show ¬(1 : Fin S1x128.rank) ∈ dot_S2000x1_S1x128_S2000x128_1_0_0_1_n_n.rhsBatch by decide), dif_pos (show (1 : Fin S1x128.rank) ∈ dot_S2000x1_S1x128_S2000x128_1_0_0_1_n_n.rhsNonContracting by decide)]
  rfl

/-- A one-column tile times a one-row weight, read at (p, q): a sum over the single contracted position. -/
theorem wt_mm_one (l : FVec Ideal S2000x1 .bf16) (r : FVec Ideal S1x128 .bf16) (p : Fin 2000) (q : Fin 128) :
    matmul dot_S2000x1_S1x128_S2000x128_1_0_0_1_n_n none l r (constant (F := Ideal) S2000x128 .f32 0x00000000#32) (ix2 p q)
      = ∑ k : Fin 1, (l (ix2 p k) : EReal) * (r (ix2 k q) : EReal) := by
  simp only [matmul]
  rw [Ideal.matmul_constant_zero_apply, ← Equiv.sum_comp (contrEquiv1 dot_S2000x1_S1x128_S2000x128_1_0_0_1_n_n 1 rfl rfl).symm]
  refine Finset.sum_congr rfl fun k _ => ?_
  have hk := contrEquiv1_symm_val dot_S2000x1_S1x128_S2000x128_1_0_0_1_n_n 1 rfl rfl k
  have el : dot_S2000x1_S1x128_S2000x128_1_0_0_1_n_n.lhsIdx (ix2 p q) ((contrEquiv1 dot_S2000x1_S1x128_S2000x128_1_0_0_1_n_n 1 rfl rfl).symm k) = ix2 p k := funext fun a => Fin.ext (by
    match a with
    | ⟨0, _⟩ => exact wt_mm_one_lhs_0 _ _
    | ⟨1, _⟩ => exact (wt_mm_one_lhs_1 _ _).trans hk)
  have er : dot_S2000x1_S1x128_S2000x128_1_0_0_1_n_n.rhsIdx (ix2 p q) ((contrEquiv1 dot_S2000x1_S1x128_S2000x128_1_0_0_1_n_n 1 rfl rfl).symm k) = ix2 k q := funext fun a => Fin.ext (by
    match a with
    | ⟨0, _⟩ => exact (wt_mm_one_rhs_0 _ _).trans hk
    | ⟨1, _⟩ => exact wt_mm_one_rhs_1 _ _)
  rw [el, er]

/-- The left operand's row coordinate is the output's row. -/
theorem wt_mm_col_lhs_0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
/-- The left operand's column coordinate is the contraction position. -/
theorem wt_mm_col_lhs_1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q
/-- The right operand's row coordinate is the contraction position. -/
theorem wt_mm_col_rhs_0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q
/-- The right operand's column coordinate is the output's column. -/
theorem wt_mm_col_rhs_1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- A tile of 2000 rows times a one-column weight, read at (p, q): the sum over the 128 contracted positions. -/
theorem wt_mm_col (l : FVec Ideal S2000x128 .bf16) (r : FVec Ideal S128x1 .bf16) (p : Fin 2000) (q : Fin 1) :
    matmul dot_S2000x128_S128x1_S2000x1_1_0_0_1_n_n none l r (constant (F := Ideal) S2000x1 .f32 0x00000000#32) (ix2 p q)
      = ∑ k : Fin 128, (l (ix2 p k) : EReal) * (r (ix2 k q) : EReal) := by
  simp only [matmul]
  rw [Ideal.matmul_constant_zero_apply, ← Equiv.sum_comp (contrEquiv1 dot_S2000x128_S128x1_S2000x1_1_0_0_1_n_n 128 rfl rfl).symm]
  refine Finset.sum_congr rfl fun k _ => ?_
  have hk := contrEquiv1_symm_val dot_S2000x128_S128x1_S2000x1_1_0_0_1_n_n 128 rfl rfl k
  have el : dot_S2000x128_S128x1_S2000x1_1_0_0_1_n_n.lhsIdx (ix2 p q) ((contrEquiv1 dot_S2000x128_S128x1_S2000x1_1_0_0_1_n_n 128 rfl rfl).symm k) = ix2 p k := funext fun a => Fin.ext (by
    match a with
    | ⟨0, _⟩ => exact wt_mm_col_lhs_0 _ _
    | ⟨1, _⟩ => exact (wt_mm_col_lhs_1 _ _).trans hk)
  have er : dot_S2000x128_S128x1_S2000x1_1_0_0_1_n_n.rhsIdx (ix2 p q) ((contrEquiv1 dot_S2000x128_S128x1_S2000x1_1_0_0_1_n_n 128 rfl rfl).symm k) = ix2 k q := funext fun a => Fin.ext (by
    match a with
    | ⟨0, _⟩ => exact (wt_mm_col_rhs_0 _ _).trans hk
    | ⟨1, _⟩ => exact wt_mm_col_rhs_1 _ _)
  rw [el, er]

/-! ## Layout operations read at an index -/

/-- A column broadcast along a second axis reads, at (p, c), the column's entry of row p. -/
theorem wt_bcast_col {a b : ℕ} (v : (⟨2, ![a, 1]⟩ : Shape).Idx → EReal) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a one-column array reads, at (p, c), the vector's entry p. -/
theorem wt_cast_col {a : ℕ} (v : (⟨1, ![a]⟩ : Shape).Idx → EReal) (h : (⟨1, ![a]⟩ : Shape).ShapeCasts ⟨2, ![a, 1]⟩)
    (p : Fin a) (c : Fin 1) : shapeCast ⟨2, ![a, 1]⟩ v h (ix2 p c) = v (ix1 p) :=
  shapeCast_apply v h _ _ (by
    have hc : c.val = 0 := by omega
    rw [Shape.rowMajor_val_two, Shape.rowMajor_val_one]
    show p.val = p.val * 1 + c.val
    rw [hc, Nat.mul_one, Nat.add_zero])

/-- The lane sum of a three-column tile at row p is the sum of the row's three entries. -/
theorem wt_rowsum3 (src : FVec Ideal S2000x3 .f32) (h : S2000x3.Reduces [1] S2000) (hφ : FKind.Formats .f32)
    (hacc : (0x00000000#32 : BitVec 32) = 0x00000000#32) (p : Fin 2000) :
    multiReduction (F := Ideal) .add [1] S2000 src 0x00000000#32 h hφ hacc (ix1 p) = ∑ a : Fin 3, src (ix2 p a) := by
  refine (Ideal.multiReduction_add_single src 0x00000000#32 h hφ hacc (ix1 p)).trans ?_
  refine Finset.sum_congr rfl fun a _ => congrArg src ?_
  funext c
  refine Fin.ext ?_
  match c with
  | ⟨0, _⟩ => rfl
  | ⟨1, _⟩ => rfl

/-- The logistic operation acts entry by entry. -/
theorem wt_logistic_apply {s : Shape} {φ : FTy} (v : FVec Ideal s φ) (i : s.Idx) : logistic v i = Ideal.logistic (v i) := rfl

/-! ## The payloads read at an index -/

/-- The narrowed source features at (p, k). -/
theorem wt_pay2 (x0 : Vec Ideal S2000x128 .f32) (p : Fin 2000) (k : Fin 128) : k0_pay2 (F := Ideal) x0 (ix2 p k) = x0 (ix2 p k) := by
  unfold k0_pay2
  simp only [truncf_apply, shapeCast_self]

/-- The narrowed target features at (p, k). -/
theorem wt_pay3 (x1 : Vec Ideal S2000x128 .f32) (p : Fin 2000) (k : Fin 128) : k0_pay3 (F := Ideal) x1 (ix2 p k) = x1 (ix2 p k) := by
  unfold k0_pay3
  simp only [truncf_apply, shapeCast_self]

/-- The coordinate difference at (p, a). -/
theorem wt_pay4 (x2 x3 : Vec Ideal S2000x3 .f32) (p : Fin 2000) (a : Fin 3) :
    k0_pay4 (F := Ideal) x2 x3 (ix2 p a) = x3 (ix2 p a) - x2 (ix2 p a) := by
  unfold k0_pay4
  simp only [subf_apply, shapeCast_self]

/-- The squared distance column at (p, c). -/
theorem wt_pay5 (x2 x3 : Vec Ideal S2000x3 .f32) (p : Fin 2000) (c : Fin 1) :
    k0_pay5 (F := Ideal) x2 x3 (ix2 p c) = radial (rowOf x2 p) (rowOf x3 p) := by
  unfold k0_pay5
  simp only [wt_cast_col]
  refine (wt_rowsum3 _ _ _ _ p).trans ?_
  simp only [mulf_apply, wt_pay4]
  rfl

/-- The activated first layer at (p, j). -/
theorem wt_pay6 (x0 x1 : Vec Ideal S2000x128 .f32) (x2 x3 : Vec Ideal S2000x3 .f32) (x4 x5 : Vec Ideal S128x128 .f32)
    (x6 x7 : Vec Ideal S1x128 .f32) (p : Fin 2000) (j : Fin 128) :
    k0_pay6 (F := Ideal) x0 x1 x2 x3 x4 x5 x6 x7 (ix2 p j)
      = siluRow (lin3 (rowOf x0 p) (rowOf x1 p) (radial (rowOf x2 p) (rowOf x3 p)) (fun k => rowOf x4 k) (fun k => rowOf x5 k)
          (rowOf x6 0) (rowOf x7 0)) j := by
  unfold k0_pay6
  simp only [truncf_apply, mulf_apply, addf_apply, wt_logistic_apply, wt_mm_sq, wt_mm_one, broadcastTo_1b_ab_apply,
    shapeCast_self, wt_pay2, wt_pay3, wt_pay5, Fin.sum_univ_one]
  rfl

/-- The gated message at (p, q), over any activated first layer. -/
theorem wt_pay7 (h1 : FVec Ideal S2000x128 .bf16) (x8 : Vec Ideal S128x128 .f32) (x9 : Vec Ideal S1x128 .f32)
    (x10 : Vec Ideal S128x1 .f32) (x11 : Vec Ideal S1x1 .f32) (p : Fin 2000) (q : Fin 128) :
    k0_pay7 (F := Ideal) h1 x8 x9 x10 x11 (ix2 p q)
      = gated (siluRow (lin (fun j => h1 (ix2 p j)) (fun k => rowOf x8 k) (rowOf x9 0))) (fun k => x10 (ix2 k 0)) (x11 (ix2 0 0)) q := by
  unfold k0_pay7
  simp only [truncf_apply, mulf_apply, addf_apply, wt_logistic_apply, wt_mm_sq, wt_mm_col, broadcastTo_1b_ab_apply, wt_bcast_col,
    shapeCast_self]
  rfl

/-- The weighted translation at (p, a), over any coordinate difference and any activated first layer: the difference
    times the coordinate weight of row p of the gated message. -/
theorem wt_pay8 (d : FVec Ideal S2000x3 .f32) (h1 : FVec Ideal S2000x128 .bf16) (x8 : Vec Ideal S128x128 .f32)
    (x9 : Vec Ideal S1x128 .f32) (x10 : Vec Ideal S128x1 .f32) (x11 : Vec Ideal S1x1 .f32) (x20 : Vec Ideal S128x128 .f32)
    (x21 : Vec Ideal S1x128 .f32) (x22 : Vec Ideal S128x1 .f32) (p : Fin 2000) (a : Fin 3) :
    k0_pay8 (F := Ideal) d h1 x8 x9 x10 x11 x20 x21 x22 (ix2 p a)
      = d (ix2 p a) * coordW (fun j => k0_pay7 (F := Ideal) h1 x8 x9 x10 x11 (ix2 p j)) (fun k => rowOf x20 k) (rowOf x21 0)
          (fun k => x22 (ix2 k 0)) := by
  unfold k0_pay8
  simp only [truncf_apply, mulf_apply, addf_apply, wt_logistic_apply, wt_mm_sq, wt_mm_col, broadcastTo_1b_ab_apply, wt_bcast_col,
    shapeCast_self]
  rfl

/-- The tile's weighted-translation payload at (p, a): the coordinate difference times the coordinate weight of the
    gated source-to-target message. -/
theorem pay_wt (x0 x1 : Vec Ideal S2000x128 .f32) (x2 x3 : Vec Ideal S2000x3 .f32) (x4 x5 : Vec Ideal S128x128 .f32)
    (x6 x7 : Vec Ideal S1x128 .f32) (x8 : Vec Ideal S128x128 .f32) (x9 : Vec Ideal S1x128 .f32) (x10 : Vec Ideal S128x1 .f32)
    (x11 : Vec Ideal S1x1 .f32) (x20 : Vec Ideal S128x128 .f32) (x21 : Vec Ideal S1x128 .f32) (x22 : Vec Ideal S128x1 .f32)
    (p : Fin 2000) (a : Fin 3) :
    k0_pay8 (F := Ideal) (k0_pay4 x2 x3) (k0_pay6 x0 x1 x2 x3 x4 x5 x6 x7) x8 x9 x10 x11 x20 x21 x22 (ix2 p a)
      = wtransRow (rowOf x2 p) (rowOf x3 p)
          (coordW (edgeRow (rowOf x0 p) (rowOf x1 p) (rowOf x2 p) (rowOf x3 p) (fun k => rowOf x4 k) (fun k => rowOf x5 k) (rowOf x6 0)
              (rowOf x7 0) (fun k => rowOf x8 k) (rowOf x9 0) (fun k => x10 (ix2 k 0)) (x11 (ix2 0 0)))
            (fun k => rowOf x20 k) (rowOf x21 0) (fun k => x22 (ix2 k 0))) a := by
  rw [wt_pay8, wt_pay4]
  simp only [wt_pay7, wt_pay6]
  rfl

end Cert.Bridge

end
-- ==== Proof.EdgeRegion.lean ====
/-
  What the edge launch leaves in its three output arrays, as functions of the arrays it was entered with.

  The launch walks the 320000 edges in 160 tiles of 2000; tile t stages rows 2000·t … 2000·t + 1999 of the four
  gathered arrays and the whole of every weight, and writes back rows 2000·t … of each output. Row e of an output is
  therefore written once, by tile e / 2000, with the tile's payload at row e mod 2000, which is the row function of
  the specification at edge e's rows. The tiles cover every row, so the array after the launch is that function.
-/
import proofs.«426544_j11063835754636_1_alg».proof.Proof.Gen.KernelIdeal.Frame
import proofs.«426544_j11063835754636_1_alg».proof.Proof.PayS2T
import proofs.«426544_j11063835754636_1_alg».proof.Proof.PayT2S
import proofs.«426544_j11063835754636_1_alg».proof.Proof.PayWT
import proofs.«426544_j11063835754636_1_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.Bridge

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

namespace EdgeRegion

theorem hz0 : (![0, 0] : Fin 2 → Nat) = fun _ => 0 := funext fun a => by fin_cases a <;> rfl

/-- The launch has 160 tiles. -/
theorem tile_lt (t : Fin cfg0.N) : t.val < 160 := lt_of_lt_of_eq t.isLt N_0

/-- The windows' index maps over the 160 tiles: a row-blocked window's block index is the tile number on the row axis
    and zero on the column axis. -/
theorem edge_idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_23.index t (0 : Fin 2) = t.val ∧ win0_23.index t (1 : Fin 2) = 0)
    ∧ (win0_24.index t (0 : Fin 2) = t.val ∧ win0_24.index t (1 : Fin 2) = 0)
    ∧ (win0_25.index t (0 : Fin 2) = t.val ∧ win0_25.index t (1 : Fin 2) = 0) :=
  (by decide +kernel : ∀ t : Fin grid0.N, _)

/-- A weight's block index is zero on both axes at every tile: the whole weight is staged. -/
theorem weight_idx : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0)
    ∧ (win0_17.index t (0 : Fin 2) = 0 ∧ win0_17.index t (1 : Fin 2) = 0)
    ∧ (win0_18.index t (0 : Fin 2) = 0 ∧ win0_18.index t (1 : Fin 2) = 0)
    ∧ (win0_19.index t (0 : Fin 2) = 0 ∧ win0_19.index t (1 : Fin 2) = 0)
    ∧ (win0_20.index t (0 : Fin 2) = 0 ∧ win0_20.index t (1 : Fin 2) = 0)
    ∧ (win0_21.index t (0 : Fin 2) = 0 ∧ win0_21.index t (1 : Fin 2) = 0)
    ∧ (win0_22.index t (0 : Fin 2) = 0 ∧ win0_22.index t (1 : Fin 2) = 0) :=
  (by decide +kernel : ∀ t : Fin grid0.N, _)

/-! ## The staged blocks of the four gathered arrays: tile t holds rows 2000·t … 2000·t + 1999 -/

theorem blk0_row (c : Dev nD) (t : Fin cfg0.N) (p : Fin 2000) (r : Fin 320000) (hr : r.val = 2000 * t.val + p.val) :
    rowOf (iblk0 V c 0 t : Vec Ideal S2000x128 .f32) p = rowOf (V c main_v0 : Vec Ideal S320000x128 .f32) r := by
  obtain ⟨⟨e0, e1⟩, -⟩ := edge_idx t
  funext q
  unfold iblk0
  show V c main_v0 (((cfg0.win 0).blk t).view.emb (ix2 p q)) = V c main_v0 (ix2 r q)
  congr 1
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * q.val = q.val; rw [e1]; omega

theorem blk1_row (c : Dev nD) (t : Fin cfg0.N) (p : Fin 2000) (r : Fin 320000) (hr : r.val = 2000 * t.val + p.val) :
    rowOf (iblk0 V c 1 t : Vec Ideal S2000x128 .f32) p = rowOf (V c main_v1 : Vec Ideal S320000x128 .f32) r := by
  obtain ⟨-, ⟨e0, e1⟩, -⟩ := edge_idx t
  funext q
  unfold iblk0
  show V c main_v1 (((cfg0.win 1).blk t).view.emb (ix2 p q)) = V c main_v1 (ix2 r q)
  congr 1
  funext a
  apply Fin.ext
  match a with
  | ⟨0, _⟩ => show win0_1.index t (0 : Fin 2) * 2000 + 1 * p.val = r.val; rw [e0, hr]; omega
  | ⟨1, _⟩ => show win0_1.index t (1 : Fin 2) * 128 + 1 * q.val = q.val; rw [e1]; omega

theorem blk2_row (c : Dev nD) (t : Fin cfg0.N) (p : Fin 2000) (r : Fin 320000) (hr : r.val = 2000 * t.val + p.val) :
    rowOf (iblk0 V c 2 t : Vec Ideal S2000x3 .f32) p = rowOf (V c main_v2 : Vec Ideal S320000x3 .f32) r := by
  obtain ⟨-, -, ⟨e0, e1⟩, -⟩ := edge_idx t
  funext q
  unfold iblk0
  show V c main_v2 (((cfg0.win 2).blk t).view.emb (ix2 p q)) = V c main_v2 (ix2 r q)
  congr 1
  funext a
  apply Fin.ext
  match a with
  | ⟨0, _⟩ => show win0_2.index t (0 : Fin 2) * 2000 + 1 * p.val = r.val; rw [e0, hr]; omega
  | ⟨1, _⟩ => show win0_2.index t (1 : Fin 2) * 3 + 1 * q.val = q.val; rw [e1]; omega

theorem blk3_row (c : Dev nD) (t : Fin cfg0.N) (p : Fin 2000) (r : Fin 320000) (hr : r.val = 2000 * t.val + p.val) :
    rowOf (iblk0 V c 3 t : Vec Ideal S2000x3 .f32) p = rowOf (V c main_v3 : Vec Ideal S320000x3 .f32) r := by
  obtain ⟨-, -, -, ⟨e0, e1⟩, -⟩ := edge_idx t
  funext q
  unfold iblk0
  show V c main_v3 (((cfg0.win 3).blk t).view.emb (ix2 p q)) = V c main_v3 (ix2 r q)
  congr 1
  funext a
  apply Fin.ext
  match a with
  | ⟨0, _⟩ => show win0_3.index t (0 : Fin 2) * 2000 + 1 * p.val = r.val; rw [e0, hr]; omega
  | ⟨1, _⟩ => show win0_3.index t (1 : Fin 2) * 3 + 1 * q.val = q.val; rw [e1]; omega

/-! ## The staged weights: at every tile the block is the whole array -/

theorem blk4_eq (c : Dev nD) (t : Fin cfg0.N) :
    (iblk0 V c 4 t : Vec Ideal S128x128 .f32) = (V c main_v4 : Vec Ideal S128x128 .f32) := by
  obtain ⟨⟨e0, e1⟩, -⟩ := weight_idx t
  funext y
  unfold iblk0
  show V c main_v4 (((cfg0.win 4).blk t).view.emb y) = V c main_v4 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem blk5_eq (c : Dev nD) (t : Fin cfg0.N) :
    (iblk0 V c 5 t : Vec Ideal S128x128 .f32) = (V c main_v5 : Vec Ideal S128x128 .f32) := by
  obtain ⟨-, ⟨e0, e1⟩, -⟩ := weight_idx t
  funext y
  unfold iblk0
  show V c main_v5 (((cfg0.win 5).blk t).view.emb y) = V c main_v5 y
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

theorem blk6_eq (c : Dev nD) (t : Fin cfg0.N) :
    (iblk0 V c 6 t : Vec Ideal S1x128 .f32) = (V c main_v6 : Vec Ideal S1x128 .f32) := by
  obtain ⟨-, -, ⟨e0, e1⟩, -⟩ := weight_idx t
  funext y
  unfold iblk0
  show V c main_v6 (((cfg0.win 6).blk t).view.emb y) = V c main_v6 y
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

theorem blk7_eq (c : Dev nD) (t : Fin cfg0.N) :
    (iblk0 V c 7 t : Vec Ideal S1x128 .f32) = (V c main_v10 : Vec Ideal S1x128 .f32) := by
  obtain ⟨-, -, -, ⟨e0, e1⟩, -⟩ := weight_idx t
  funext y
  unfold iblk0
  show V c main_v10 (((cfg0.win 7).blk t).view.emb y) = V c main_v10 y
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

theorem blk8_eq (c : Dev nD) (t : Fin cfg0.N) :
    (iblk0 V c 8 t : Vec Ideal S128x128 .f32) = (V c main_arg8 : Vec Ideal S128x128 .f32) := by
  obtain ⟨-, -, -, -, ⟨e0, e1⟩, -⟩ := weight_idx t
  funext y
  unfold iblk0
  show V c main_arg8 (((cfg0.win 8).blk t).view.emb y) = V c main_arg8 y
  congr 1
  funext a
  apply Fin.ext
  match a with
  | ⟨0, _⟩ => show win0_8.index t (0 : Fin 2) * 128 + 1 * (y 0).val = (y 0).val; rw [e0]; omega
  | ⟨1, _⟩ => show win0_8.index t (1 : Fin 2) * 128 + 1 * (y 1).val = (y 1).val; rw [e1]; omega

theorem blk9_eq (c : Dev nD) (t : Fin cfg0.N) :
    (iblk0 V c 9 t : Vec Ideal S1x128 .f32) = (V c main_v11 : Vec Ideal S1x128 .f32) := by
  obtain ⟨-, -, -, -, -, ⟨e0, e1⟩, -⟩ := weight_idx t
  funext y
  unfold iblk0
  show V c main_v11 (((cfg0.win 9).blk t).view.emb y) = V c main_v11 y
  congr 1
  funext a
  apply Fin.ext
  match a with
  | ⟨0, _⟩ => show win0_9.index t (0 : Fin 2) * 1 + 1 * (y 0).val = (y 0).val; rw [e0]; omega
  | ⟨1, _⟩ => show win0_9.index t (1 : Fin 2) * 128 + 1 * (y 1).val = (y 1).val; rw [e1]; omega

theorem blk10_eq (c : Dev nD) (t : Fin cfg0.N) :
    (iblk0 V c 10 t : Vec Ideal S128x1 .f32) = (V c main_arg14 : Vec Ideal S128x1 .f32) := by
  obtain ⟨-, -, -, -, -, -, ⟨e0, e1⟩, -⟩ := weight_idx t
  funext y
  unfold iblk0
  show V c main_arg14 (((cfg0.win 10).blk t).view.emb y) = V c main_arg14 y
  congr 1
  funext a
  apply Fin.ext
  match a with
  | ⟨0, _⟩ => show win0_10.index t (0 : Fin 2) * 128 + 1 * (y 0).val = (y 0).val; rw [e0]; omega
  | ⟨1, _⟩ => show win0_10.index t (1 : Fin 2) * 1 + 1 * (y 1).val = (y 1).val; rw [e1]; omega

theorem blk11_eq (c : Dev nD) (t : Fin cfg0.N) :
    (iblk0 V c 11 t : Vec Ideal S1x1 .f32) = (V c main_v14 : Vec Ideal S1x1 .f32) := by
  obtain ⟨-, -, -, -, -, -, -, ⟨e0, e1⟩, -⟩ := weight_idx t
  funext y
  unfold iblk0
  show V c main_v14 (((cfg0.win 11).blk t).view.emb y) = V c main_v14 y
  congr 1
  funext a
  apply Fin.ext
  match a with
  | ⟨0, _⟩ => show win0_11.index t (0 : Fin 2) * 1 + 1 * (y 0).val = (y 0).val; rw [e0]; omega
  | ⟨1, _⟩ => show win0_11.index t (1 : Fin 2) * 1 + 1 * (y 1).val = (y 1).val; rw [e1]; omega

theorem blk12_eq (c : Dev nD) (t : Fin cfg0.N) :
    (iblk0 V c 12 t : Vec Ideal S128x128 .f32) = (V c main_v7 : Vec Ideal S128x128 .f32) := by
  obtain ⟨-, -, -, -, -, -, -, -, ⟨e0, e1⟩, -⟩ := weight_idx t
  funext y
  unfold iblk0
  show V c main_v7 (((cfg0.win 12).blk t).view.emb y) = V c main_v7 y
  congr 1
  funext a
  apply Fin.ext
  match a with
  | ⟨0, _⟩ => show win0_12.index t (0 : Fin 2) * 128 + 1 * (y 0).val = (y 0).val; rw [e0]; omega
  | ⟨1, _⟩ => show win0_12.index t (1 : Fin 2) * 128 + 1 * (y 1).val = (y 1).val; rw [e1]; omega

theorem blk13_eq (c : Dev nD) (t : Fin cfg0.N) :
    (iblk0 V c 13 t : Vec Ideal S128x128 .f32) = (V c main_v8 : Vec Ideal S128x128 .f32) := by
  obtain ⟨-, -, -, -, -, -, -, -, -, ⟨e0, e1⟩, -⟩ := weight_idx t
  funext y
  unfold iblk0
  show V c main_v8 (((cfg0.win 13).blk t).view.emb y) = V c main_v8 y
  congr 1
  funext a
  apply Fin.ext
  match a with
  | ⟨0, _⟩ => show win0_13.index t (0 : Fin 2) * 128 + 1 * (y 0).val = (y 0).val; rw [e0]; omega
  | ⟨1, _⟩ => show win0_13.index t (1 : Fin 2) * 128 + 1 * (y 1).val = (y 1).val; rw [e1]; omega

theorem blk14_eq (c : Dev nD) (t : Fin cfg0.N) :
    (iblk0 V c 14 t : Vec Ideal S1x128 .f32) = (V c main_v9 : Vec Ideal S1x128 .f32) := by
  obtain ⟨-, -, -, -, -, -, -, -, -, -, ⟨e0, e1⟩, -⟩ := weight_idx t
  funext y
  unfold iblk0
  show V c main_v9 (((cfg0.win 14).blk t).view.emb y) = V c main_v9 y
  congr 1
  funext a
  apply Fin.ext
  match a with
  | ⟨0, _⟩ => show win0_14.index t (0 : Fin 2) * 1 + 1 * (y 0).val = (y 0).val; rw [e0]; omega
  | ⟨1, _⟩ => show win0_14.index t (1 : Fin 2) * 128 + 1 * (y 1).val = (y 1).val; rw [e1]; omega

theorem blk15_eq (c : Dev nD) (t : Fin cfg0.N) :
    (iblk0 V c 15 t : Vec Ideal S1x128 .f32) = (V c main_v12 : Vec Ideal S1x128 .f32) := by
  obtain ⟨-, -, -, -, -, -, -, -, -, -, -, ⟨e0, e1⟩, -⟩ := weight_idx t
  funext y
  unfold iblk0
  show V c main_v12 (((cfg0.win 15).blk t).view.emb y) = V c main_v12 y
  congr 1
  funext a
  apply Fin.ext
  match a with
  | ⟨0, _⟩ => show win0_15.index t (0 : Fin 2) * 1 + 1 * (y 0).val = (y 0).val; rw [e0]; omega
  | ⟨1, _⟩ => show win0_15.index t (1 : Fin 2) * 128 + 1 * (y 1).val = (y 1).val; rw [e1]; omega

theorem blk16_eq (c : Dev nD) (t : Fin cfg0.N) :
    (iblk0 V c 16 t : Vec Ideal S128x128 .f32) = (V c main_arg12 : Vec Ideal S128x128 .f32) := by
  obtain ⟨-, -, -, -, -, -, -, -, -, -, -, -, ⟨e0, e1⟩, -⟩ := weight_idx t
  funext y
  unfold iblk0
  show V c main_arg12 (((cfg0.win 16).blk t).view.emb y) = V c main_arg12 y
  congr 1
  funext a
  apply Fin.ext
  match a with
  | ⟨0, _⟩ => show win0_16.index t (0 : Fin 2) * 128 + 1 * (y 0).val = (y 0).val; rw [e0]; omega
  | ⟨1, _⟩ => show win0_16.index t (1 : Fin 2) * 128 + 1 * (y 1).val = (y 1).val; rw [e1]; omega

theorem blk17_eq (c : Dev nD) (t : Fin cfg0.N) :
    (iblk0 V c 17 t : Vec Ideal S1x128 .f32) = (V c main_v13 : Vec Ideal S1x128 .f32) := by
  obtain ⟨-, -, -, -, -, -, -, -, -, -, -, -, -, ⟨e0, e1⟩, -⟩ := weight_idx t
  funext y
  unfold iblk0
  show V c main_v13 (((cfg0.win 17).blk t).view.emb y) = V c main_v13 y
  congr 1
  funext a
  apply Fin.ext
  match a with
  | ⟨0, _⟩ => show win0_17.index t (0 : Fin 2) * 1 + 1 * (y 0).val = (y 0).val; rw [e0]; omega
  | ⟨1, _⟩ => show win0_17.index t (1 : Fin 2) * 128 + 1 * (y 1).val = (y 1).val; rw [e1]; omega

theorem blk18_eq (c : Dev nD) (t : Fin cfg0.N) :
    (iblk0 V c 18 t : Vec Ideal S128x1 .f32) = (V c main_arg16 : Vec Ideal S128x1 .f32) := by
  obtain ⟨-, -, -, -, -, -, -, -, -, -, -, -, -, -, ⟨e0, e1⟩, -⟩ := weight_idx t
  funext y
  unfold iblk0
  show V c main_arg16 (((cfg0.win 18).blk t).view.emb y) = V c main_arg16 y
  congr 1
  funext a
  apply Fin.ext
  match a with
  | ⟨0, _⟩ => show win0_18.index t (0 : Fin 2) * 128 + 1 * (y 0).val = (y 0).val; rw [e0]; omega
  | ⟨1, _⟩ => show win0_18.index t (1 : Fin 2) * 1 + 1 * (y 1).val = (y 1).val; rw [e1]; omega

theorem blk19_eq (c : Dev nD) (t : Fin cfg0.N) :
    (iblk0 V c 19 t : Vec Ideal S1x1 .f32) = (V c main_v15 : Vec Ideal S1x1 .f32) := by
  obtain ⟨-, -, -, -, -, -, -, -, -, -, -, -, -, -, -, ⟨e0, e1⟩, -⟩ := weight_idx t
  funext y
  unfold iblk0
  show V c main_v15 (((cfg0.win 19).blk t).view.emb y) = V c main_v15 y
  congr 1
  funext a
  apply Fin.ext
  match a with
  | ⟨0, _⟩ => show win0_19.index t (0 : Fin 2) * 1 + 1 * (y 0).val = (y 0).val; rw [e0]; omega
  | ⟨1, _⟩ => show win0_19.index t (1 : Fin 2) * 1 + 1 * (y 1).val = (y 1).val; rw [e1]; omega

theorem blk20_eq (c : Dev nD) (t : Fin cfg0.N) :
    (iblk0 V c 20 t : Vec Ideal S128x128 .f32) = (V c main_arg18 : Vec Ideal S128x128 .f32) := by
  obtain ⟨-, -, -, -, -, -, -, -, -, -, -, -, -, -, -, -, ⟨e0, e1⟩, -⟩ := weight_idx t
  funext y
  unfold iblk0
  show V c main_arg18 (((cfg0.win 20).blk t).view.emb y) = V c main_arg18 y
  congr 1
  funext a
  apply Fin.ext
  match a with
  | ⟨0, _⟩ => show win0_20.index t (0 : Fin 2) * 128 + 1 * (y 0).val = (y 0).val; rw [e0]; omega
  | ⟨1, _⟩ => show win0_20.index t (1 : Fin 2) * 128 + 1 * (y 1).val = (y 1).val; rw [e1]; omega

theorem blk21_eq (c : Dev nD) (t : Fin cfg0.N) :
    (iblk0 V c 21 t : Vec Ideal S1x128 .f32) = (V c main_v16 : Vec Ideal S1x128 .f32) := by
  obtain ⟨-, -, -, -, -, -, -, -, -, -, -, -, -, -, -, -, -, ⟨e0, e1⟩, -⟩ := weight_idx t
  funext y
  unfold iblk0
  show V c main_v16 (((cfg0.win 21).blk t).view.emb y) = V c main_v16 y
  congr 1
  funext a
  apply Fin.ext
  match a with
  | ⟨0, _⟩ => show win0_21.index t (0 : Fin 2) * 1 + 1 * (y 0).val = (y 0).val; rw [e0]; omega
  | ⟨1, _⟩ => show win0_21.index t (1 : Fin 2) * 128 + 1 * (y 1).val = (y 1).val; rw [e1]; omega

theorem blk22_eq (c : Dev nD) (t : Fin cfg0.N) :
    (iblk0 V c 22 t : Vec Ideal S128x1 .f32) = (V c main_arg20 : Vec Ideal S128x1 .f32) := by
  obtain ⟨-, -, -, -, -, -, -, -, -, -, -, -, -, -, -, -, -, -, ⟨e0, e1⟩⟩ := weight_idx t
  funext y
  unfold iblk0
  show V c main_arg20 (((cfg0.win 22).blk t).view.emb y) = V c main_arg20 y
  congr 1
  funext a
  apply Fin.ext
  match a with
  | ⟨0, _⟩ => show win0_22.index t (0 : Fin 2) * 128 + 1 * (y 0).val = (y 0).val; rw [e0]; omega
  | ⟨1, _⟩ => show win0_22.index t (1 : Fin 2) * 1 + 1 * (y 1).val = (y 1).val; rw [e1]; omega

/-! ## The source-to-target output -/

/-- Row e of the source-to-target output: the specification's edge row at edge e's gathered rows and the first weight set. -/
abbrev s2tArr (c : Dev nD) : Vec Ideal S320000x128 .f32 :=
  fun i => edgeRow (rowOf (V c main_v0 : Vec Ideal S320000x128 .f32) (i 0)) (rowOf (V c main_v1 : Vec Ideal S320000x128 .f32) (i 0))
          (rowOf (V c main_v2 : Vec Ideal S320000x3 .f32) (i 0)) (rowOf (V c main_v3 : Vec Ideal S320000x3 .f32) (i 0))
          (allRows (V c main_v4 : Vec Ideal S128x128 .f32)) (allRows (V c main_v5 : Vec Ideal S128x128 .f32)) (rowOf (V c main_v6 : Vec Ideal S1x128 .f32) 0) (rowOf (V c main_v10 : Vec Ideal S1x128 .f32) 0)
          (allRows (V c main_arg8 : Vec Ideal S128x128 .f32)) (rowOf (V c main_v11 : Vec Ideal S1x128 .f32) 0) (colRow (V c main_arg14 : Vec Ideal S128x1 .f32)) ((V c main_v14 : Vec Ideal S1x1 .f32) (ix2 0 0)) (i 1)

/-- Where tile t's block of a row-blocked output puts its element (p, q): row 2000·t + p, column q. -/
theorem out23_emb (t : Fin cfg0.N) (p : Fin 2000) (q : Fin 128) (r : Fin 320000) (hr : r.val = 2000 * t.val + p.val) :
    (((cfg0.win 23).blk t).view.emb (ix2 p q) : S320000x128.Idx) = ix2 r q := by
  obtain ⟨-, -, -, -, ⟨e0, e1⟩, -⟩ := edge_idx t
  funext a
  apply Fin.ext
  match a with
  | ⟨0, _⟩ => show win0_23.index t (0 : Fin 2) * 2000 + 1 * p.val = r.val; rw [e0, hr]; omega
  | ⟨1, _⟩ => show win0_23.index t (1 : Fin 2) * 128 + 1 * q.val = q.val; rw [e1]; omega

/-- What tile t writes back to the source-to-target output is block t of `s2tArr`. -/
theorem flushed23_eq (c : Dev nD) (t : Fin cfg0.N) :
    (dat0 (F := Ideal) V c).flushed 23 t = ((cfg0.win 23).blk t).view.read (Elt Ideal) (s2tArr V c) := by
  show (cfg0.win 23).cut (grid0.coords t) ((dat0 (F := Ideal) V c).after 23 t) = _
  rw [after0_23]
  unfold out0_23
  rw [View.canon_unit_zero hz0]
  simp only [View.ld_unit_zero (S := S2000x128) hz0, View.ld_unit_zero (S := S2000x3) hz0, View.ld_unit_zero (S := S128x128) hz0,
    View.ld_unit_zero (S := S1x128) hz0, View.ld_unit_zero (S := S128x1) hz0, View.ld_unit_zero (S := S1x1) hz0]
  funext j
  obtain ⟨p, q, rfl⟩ : ∃ (p : Fin 2000) (q : Fin 128), j = ix2 p q := ⟨j 0, j 1, eq_ix2 j⟩
  have ht : t.val < 160 := tile_lt t
  have hr : (⟨2000 * t.val + p.val, by have := p.isLt; omega⟩ : Fin 320000).val = 2000 * t.val + p.val := rfl
  show k0_pay7 (F := Ideal) (k0_pay6 (iblk0 V c 0 t) (iblk0 V c 1 t) (iblk0 V c 2 t) (iblk0 V c 3 t) (iblk0 V c 4 t) (iblk0 V c 5 t) (iblk0 V c 6 t) (iblk0 V c 7 t))
      (iblk0 V c 8 t) (iblk0 V c 9 t) (iblk0 V c 10 t) (iblk0 V c 11 t) (ix2 p q)
    = s2tArr V c (((cfg0.win 23).blk t).view.emb (ix2 p q))
  rw [out23_emb t p q _ hr]
  refine (pay_s2t (iblk0 V c 0 t) (iblk0 V c 1 t) (iblk0 V c 2 t) (iblk0 V c 3 t) (iblk0 V c 4 t) (iblk0 V c 5 t) (iblk0 V c 6 t) (iblk0 V c 7 t)
      (iblk0 V c 8 t) (iblk0 V c 9 t) (iblk0 V c 10 t) (iblk0 V c 11 t) p q).trans ?_
  rw [blk0_row V c t p _ hr, blk1_row V c t p _ hr, blk2_row V c t p _ hr, blk3_row V c t p _ hr,
    blk4_eq V c t, blk5_eq V c t, blk6_eq V c t, blk7_eq V c t, blk8_eq V c t, blk9_eq V c t, blk10_eq V c t, blk11_eq V c t]

/-- An index of the output is in tile t's block iff each coordinate is in the block's range on its axis. -/
theorem mem_blk23 (t : Fin cfg0.N) (i : S320000x128.Idx) :
    i ∈ ((cfg0.win 23).blk t).view.set ↔ ∀ a : Fin 2, win0_23.index t a * S2000x128.size a ≤ (i a).val ∧ (i a).val < win0_23.index t a * S2000x128.size a + S2000x128.size a := by
  show i ∈ ((View.whole main_v17_0).slice (win0_23.rect t)).set ↔ _
  rw [View.set_slice_whole, Rect.mem_set_unit]
  exact Iff.rfl

/-- Row e is in the block of tile e / 2000: the tiles cover the output. -/
theorem cover23 (i : S320000x128.Idx) : ∃ t : Fin cfg0.N, (cfg0.win 23).flush t = true ∧ i ∈ ((cfg0.win 23).blk t).view.set := by
  have hi0 : (i 0).val < 320000 := (i 0).isLt
  have hi1 : (i 1).val < 128 := (i 1).isLt
  obtain ⟨t, ht⟩ : ∃ t : Fin cfg0.N, t.val = (i 0).val / 2000 := ⟨⟨(i 0).val / 2000, by rw [show cfg0.N = 160 from N_0]; omega⟩, rfl⟩
  obtain ⟨-, -, -, -, ⟨e0, e1⟩, -⟩ := edge_idx t
  refine ⟨t, flush0_23 t, ?_⟩
  rw [mem_blk23]
  intro a
  match a with
  | ⟨0, _⟩ => show win0_23.index t (0 : Fin 2) * 2000 ≤ (i 0).val ∧ (i 0).val < win0_23.index t (0 : Fin 2) * 2000 + 2000; rw [e0, ht]; omega
  | ⟨1, _⟩ => show win0_23.index t (1 : Fin 2) * 128 ≤ (i 1).val ∧ (i 1).val < win0_23.index t (1 : Fin 2) * 128 + 128; rw [e1]; omega

/-! ## The target-to-source output -/

/-- Row e of the target-to-source output: the specification's edge row at edge e's gathered rows and the second weight set. -/
abbrev t2sArr (c : Dev nD) : Vec Ideal S320000x128 .f32 :=
  fun i => edgeRow (rowOf (V c main_v0 : Vec Ideal S320000x128 .f32) (i 0)) (rowOf (V c main_v1 : Vec Ideal S320000x128 .f32) (i 0))
          (rowOf (V c main_v2 : Vec Ideal S320000x3 .f32) (i 0)) (rowOf (V c main_v3 : Vec Ideal S320000x3 .f32) (i 0))
          (allRows (V c main_v7 : Vec Ideal S128x128 .f32)) (allRows (V c main_v8 : Vec Ideal S128x128 .f32)) (rowOf (V c main_v9 : Vec Ideal S1x128 .f32) 0) (rowOf (V c main_v12 : Vec Ideal S1x128 .f32) 0)
          (allRows (V c main_arg12 : Vec Ideal S128x128 .f32)) (rowOf (V c main_v13 : Vec Ideal S1x128 .f32) 0) (colRow (V c main_arg16 : Vec Ideal S128x1 .f32)) ((V c main_v15 : Vec Ideal S1x1 .f32) (ix2 0 0)) (i 1)

theorem out24_emb (t : Fin cfg0.N) (p : Fin 2000) (q : Fin 128) (r : Fin 320000) (hr : r.val = 2000 * t.val + p.val) :
    (((cfg0.win 24).blk t).view.emb (ix2 p q) : S320000x128.Idx) = ix2 r q := by
  obtain ⟨-, -, -, -, -, ⟨e0, e1⟩, -⟩ := edge_idx t
  funext a
  apply Fin.ext
  match a with
  | ⟨0, _⟩ => show win0_24.index t (0 : Fin 2) * 2000 + 1 * p.val = r.val; rw [e0, hr]; omega
  | ⟨1, _⟩ => show win0_24.index t (1 : Fin 2) * 128 + 1 * q.val = q.val; rw [e1]; omega

/-- What tile t writes back to the target-to-source output is block t of `t2sArr`. -/
theorem flushed24_eq (c : Dev nD) (t : Fin cfg0.N) :
    (dat0 (F := Ideal) V c).flushed 24 t = ((cfg0.win 24).blk t).view.read (Elt Ideal) (t2sArr V c) := by
  show (cfg0.win 24).cut (grid0.coords t) ((dat0 (F := Ideal) V c).after 24 t) = _
  rw [after0_24]
  unfold out0_24
  rw [View.canon_unit_zero hz0]
  simp only [View.ld_unit_zero (S := S2000x128) hz0, View.ld_unit_zero (S := S2000x3) hz0, View.ld_unit_zero (S := S128x128) hz0,
    View.ld_unit_zero (S := S1x128) hz0, View.ld_unit_zero (S := S128x1) hz0, View.ld_unit_zero (S := S1x1) hz0]
  funext j
  obtain ⟨p, q, rfl⟩ : ∃ (p : Fin 2000) (q : Fin 128), j = ix2 p q := ⟨j 0, j 1, eq_ix2 j⟩
  have ht : t.val < 160 := tile_lt t
  have hr : (⟨2000 * t.val + p.val, by have := p.isLt; omega⟩ : Fin 320000).val = 2000 * t.val + p.val := rfl
  show k0_pay1 (F := Ideal)
      (k0_pay9 (k0_pay2 (iblk0 V c 0 t)) (k0_pay3 (iblk0 V c 1 t)) (k0_pay5 (iblk0 V c 2 t) (iblk0 V c 3 t)) (iblk0 V c 12 t) (iblk0 V c 13 t) (iblk0 V c 14 t) (iblk0 V c 15 t) (iblk0 V c 16 t) (iblk0 V c 17 t))
      (k0_pay10 (k0_pay2 (iblk0 V c 0 t)) (k0_pay3 (iblk0 V c 1 t)) (k0_pay5 (iblk0 V c 2 t) (iblk0 V c 3 t)) (iblk0 V c 12 t) (iblk0 V c 13 t) (iblk0 V c 14 t) (iblk0 V c 15 t) (iblk0 V c 16 t) (iblk0 V c 17 t) (iblk0 V c 18 t) (iblk0 V c 19 t))
      (ix2 p q)
    = t2sArr V c (((cfg0.win 24).blk t).view.emb (ix2 p q))
  rw [out24_emb t p q _ hr]
  refine (pay_t2s (iblk0 V c 0 t) (iblk0 V c 1 t) (iblk0 V c 2 t) (iblk0 V c 3 t) (iblk0 V c 12 t) (iblk0 V c 13 t) (iblk0 V c 14 t) (iblk0 V c 15 t)
      (iblk0 V c 16 t) (iblk0 V c 17 t) (iblk0 V c 18 t) (iblk0 V c 19 t) p q).trans ?_
  rw [blk0_row V c t p _ hr, blk1_row V c t p _ hr, blk2_row V c t p _ hr, blk3_row V c t p _ hr,
    blk12_eq V c t, blk13_eq V c t, blk14_eq V c t, blk15_eq V c t, blk16_eq V c t, blk17_eq V c t, blk18_eq V c t, blk19_eq V c t]

theorem mem_blk24 (t : Fin cfg0.N) (i : S320000x128.Idx) :
    i ∈ ((cfg0.win 24).blk t).view.set ↔ ∀ a : Fin 2, win0_24.index t a * S2000x128.size a ≤ (i a).val ∧ (i a).val < win0_24.index t a * S2000x128.size a + S2000x128.size a := by
  show i ∈ ((View.whole main_v17_1).slice (win0_24.rect t)).set ↔ _
  rw [View.set_slice_whole, Rect.mem_set_unit]
  exact Iff.rfl

theorem cover24 (i : S320000x128.Idx) : ∃ t : Fin cfg0.N, (cfg0.win 24).flush t = true ∧ i ∈ ((cfg0.win 24).blk t).view.set := by
  have hi0 : (i 0).val < 320000 := (i 0).isLt
  have hi1 : (i 1).val < 128 := (i 1).isLt
  obtain ⟨t, ht⟩ : ∃ t : Fin cfg0.N, t.val = (i 0).val / 2000 := ⟨⟨(i 0).val / 2000, by rw [show cfg0.N = 160 from N_0]; omega⟩, rfl⟩
  obtain ⟨-, -, -, -, -, ⟨e0, e1⟩, -⟩ := edge_idx t
  refine ⟨t, flush0_24 t, ?_⟩
  rw [mem_blk24]
  intro a
  match a with
  | ⟨0, _⟩ => show win0_24.index t (0 : Fin 2) * 2000 ≤ (i 0).val ∧ (i 0).val < win0_24.index t (0 : Fin 2) * 2000 + 2000; rw [e0, ht]; omega
  | ⟨1, _⟩ => show win0_24.index t (1 : Fin 2) * 128 ≤ (i 1).val ∧ (i 1).val < win0_24.index t (1 : Fin 2) * 128 + 128; rw [e1]; omega

/-! ## The weighted-translation output -/

/-- Row e of the weighted-translation output: edge e's coordinate difference times the coordinate weight of its
    source-to-target message. -/
abbrev wtArr (c : Dev nD) : Vec Ideal S320000x3 .f32 :=
  fun i => wtransRow (rowOf (V c main_v2 : Vec Ideal S320000x3 .f32) (i 0)) (rowOf (V c main_v3 : Vec Ideal S320000x3 .f32) (i 0))
          (coordW (edgeRow (rowOf (V c main_v0 : Vec Ideal S320000x128 .f32) (i 0)) (rowOf (V c main_v1 : Vec Ideal S320000x128 .f32) (i 0))
          (rowOf (V c main_v2 : Vec Ideal S320000x3 .f32) (i 0)) (rowOf (V c main_v3 : Vec Ideal S320000x3 .f32) (i 0))
          (allRows (V c main_v4 : Vec Ideal S128x128 .f32)) (allRows (V c main_v5 : Vec Ideal S128x128 .f32)) (rowOf (V c main_v6 : Vec Ideal S1x128 .f32) 0) (rowOf (V c main_v10 : Vec Ideal S1x128 .f32) 0)
          (allRows (V c main_arg8 : Vec Ideal S128x128 .f32)) (rowOf (V c main_v11 : Vec Ideal S1x128 .f32) 0) (colRow (V c main_arg14 : Vec Ideal S128x1 .f32)) ((V c main_v14 : Vec Ideal S1x1 .f32) (ix2 0 0)))
            (allRows (V c main_arg18 : Vec Ideal S128x128 .f32)) (rowOf (V c main_v16 : Vec Ideal S1x128 .f32) 0) (colRow (V c main_arg20 : Vec Ideal S128x1 .f32))) (i 1)

theorem out25_emb (t : Fin cfg0.N) (p : Fin 2000) (q : Fin 3) (r : Fin 320000) (hr : r.val = 2000 * t.val + p.val) :
    (((cfg0.win 25).blk t).view.emb (ix2 p q) : S320000x3.Idx) = ix2 r q := by
  obtain ⟨-, -, -, -, -, -, ⟨e0, e1⟩⟩ := edge_idx t
  funext a
  apply Fin.ext
  match a with
  | ⟨0, _⟩ => show win0_25.index t (0 : Fin 2) * 2000 + 1 * p.val = r.val; rw [e0, hr]; omega
  | ⟨1, _⟩ => show win0_25.index t (1 : Fin 2) * 3 + 1 * q.val = q.val; rw [e1]; omega

/-- What tile t writes back to the weighted-translation output is block t of `wtArr`. -/
theorem flushed25_eq (c : Dev nD) (t : Fin cfg0.N) :
    (dat0 (F := Ideal) V c).flushed 25 t = ((cfg0.win 25).blk t).view.read (Elt Ideal) (wtArr V c) := by
  show (cfg0.win 25).cut (grid0.coords t) ((dat0 (F := Ideal) V c).after 25 t) = _
  rw [after0_25]
  unfold out0_25
  rw [View.canon_unit_zero hz0]
  simp only [View.ld_unit_zero (S := S2000x128) hz0, View.ld_unit_zero (S := S2000x3) hz0, View.ld_unit_zero (S := S128x128) hz0,
    View.ld_unit_zero (S := S1x128) hz0, View.ld_unit_zero (S := S128x1) hz0, View.ld_unit_zero (S := S1x1) hz0]
  funext j
  obtain ⟨p, q, rfl⟩ : ∃ (p : Fin 2000) (q : Fin 3), j = ix2 p q := ⟨j 0, j 1, eq_ix2 j⟩
  have ht : t.val < 160 := tile_lt t
  have hr : (⟨2000 * t.val + p.val, by have := p.isLt; omega⟩ : Fin 320000).val = 2000 * t.val + p.val := rfl
  show k0_pay8 (F := Ideal) (k0_pay4 (iblk0 V c 2 t) (iblk0 V c 3 t))
      (k0_pay6 (iblk0 V c 0 t) (iblk0 V c 1 t) (iblk0 V c 2 t) (iblk0 V c 3 t) (iblk0 V c 4 t) (iblk0 V c 5 t) (iblk0 V c 6 t) (iblk0 V c 7 t))
      (iblk0 V c 8 t) (iblk0 V c 9 t) (iblk0 V c 10 t) (iblk0 V c 11 t) (iblk0 V c 20 t) (iblk0 V c 21 t) (iblk0 V c 22 t) (ix2 p q)
    = wtArr V c (((cfg0.win 25).blk t).view.emb (ix2 p q))
  rw [out25_emb t p q _ hr]
  refine (pay_wt (iblk0 V c 0 t) (iblk0 V c 1 t) (iblk0 V c 2 t) (iblk0 V c 3 t) (iblk0 V c 4 t) (iblk0 V c 5 t) (iblk0 V c 6 t) (iblk0 V c 7 t)
      (iblk0 V c 8 t) (iblk0 V c 9 t) (iblk0 V c 10 t) (iblk0 V c 11 t) (iblk0 V c 20 t) (iblk0 V c 21 t) (iblk0 V c 22 t) p q).trans ?_
  rw [blk0_row V c t p _ hr, blk1_row V c t p _ hr, blk2_row V c t p _ hr, blk3_row V c t p _ hr,
    blk4_eq V c t, blk5_eq V c t, blk6_eq V c t, blk7_eq V c t, blk8_eq V c t, blk9_eq V c t, blk10_eq V c t, blk11_eq V c t,
    blk20_eq V c t, blk21_eq V c t, blk22_eq V c t]

theorem mem_blk25 (t : Fin cfg0.N) (i : S320000x3.Idx) :
    i ∈ ((cfg0.win 25).blk t).view.set ↔ ∀ a : Fin 2, win0_25.index t a * S2000x3.size a ≤ (i a).val ∧ (i a).val < win0_25.index t a * S2000x3.size a + S2000x3.size a := by
  show i ∈ ((View.whole main_v17_2).slice (win0_25.rect t)).set ↔ _
  rw [View.set_slice_whole, Rect.mem_set_unit]
  exact Iff.rfl

theorem cover25 (i : S320000x3.Idx) : ∃ t : Fin cfg0.N, (cfg0.win 25).flush t = true ∧ i ∈ ((cfg0.win 25).blk t).view.set := by
  have hi0 : (i 0).val < 320000 := (i 0).isLt
  have hi1 : (i 1).val < 3 := (i 1).isLt
  obtain ⟨t, ht⟩ : ∃ t : Fin cfg0.N, t.val = (i 0).val / 2000 := ⟨⟨(i 0).val / 2000, by rw [show cfg0.N = 160 from N_0]; omega⟩, rfl⟩
  obtain ⟨-, -, -, -, -, -, ⟨e0, e1⟩⟩ := edge_idx t
  refine ⟨t, flush0_25 t, ?_⟩
  rw [mem_blk25]
  intro a
  match a with
  | ⟨0, _⟩ => show win0_25.index t (0 : Fin 2) * 2000 ≤ (i 0).val ∧ (i 0).val < win0_25.index t (0 : Fin 2) * 2000 + 2000; rw [e0, ht]; omega
  | ⟨1, _⟩ => show win0_25.index t (1 : Fin 2) * 3 ≤ (i 1).val ∧ (i 1).val < win0_25.index t (1 : Fin 2) * 3 + 3; rw [e1]; omega

end EdgeRegion

open EdgeRegion

/-! ## The three output arrays after the launch -/

/-- The source-to-target output array after the edge launch. -/
theorem edge_s2t_arr (c : Dev nD) :
    ((dat0 (F := Ideal) V c).arrAt 23 cfg0.N : Vec Ideal S320000x128 .f32)
      = fun i => edgeRow (rowOf (V c main_v0 : Vec Ideal S320000x128 .f32) (i 0)) (rowOf (V c main_v1 : Vec Ideal S320000x128 .f32) (i 0))
          (rowOf (V c main_v2 : Vec Ideal S320000x3 .f32) (i 0)) (rowOf (V c main_v3 : Vec Ideal S320000x3 .f32) (i 0))
          (allRows (V c main_v4 : Vec Ideal S128x128 .f32)) (allRows (V c main_v5 : Vec Ideal S128x128 .f32)) (rowOf (V c main_v6 : Vec Ideal S1x128 .f32) 0) (rowOf (V c main_v10 : Vec Ideal S1x128 .f32) 0)
          (allRows (V c main_arg8 : Vec Ideal S128x128 .f32)) (rowOf (V c main_v11 : Vec Ideal S1x128 .f32) 0) (colRow (V c main_arg14 : Vec Ideal S128x1 .f32)) ((V c main_v14 : Vec Ideal S1x1 .f32) (ix2 0 0)) (i 1) :=
  (dat0 (F := Ideal) V c).arrAt_eq_of_cover 23 (s2tArr V c) (fun t _ => flushed23_eq V c t) cover23

/-- The target-to-source output array after the edge launch. -/
theorem edge_t2s_arr (c : Dev nD) :
    ((dat0 (F := Ideal) V c).arrAt 24 cfg0.N : Vec Ideal S320000x128 .f32)
      = fun i => edgeRow (rowOf (V c main_v0 : Vec Ideal S320000x128 .f32) (i 0)) (rowOf (V c main_v1 : Vec Ideal S320000x128 .f32) (i 0))
          (rowOf (V c main_v2 : Vec Ideal S320000x3 .f32) (i 0)) (rowOf (V c main_v3 : Vec Ideal S320000x3 .f32) (i 0))
          (allRows (V c main_v7 : Vec Ideal S128x128 .f32)) (allRows (V c main_v8 : Vec Ideal S128x128 .f32)) (rowOf (V c main_v9 : Vec Ideal S1x128 .f32) 0) (rowOf (V c main_v12 : Vec Ideal S1x128 .f32) 0)
          (allRows (V c main_arg12 : Vec Ideal S128x128 .f32)) (rowOf (V c main_v13 : Vec Ideal S1x128 .f32) 0) (colRow (V c main_arg16 : Vec Ideal S128x1 .f32)) ((V c main_v15 : Vec Ideal S1x1 .f32) (ix2 0 0)) (i 1) :=
  (dat0 (F := Ideal) V c).arrAt_eq_of_cover 24 (t2sArr V c) (fun t _ => flushed24_eq V c t) cover24

/-- The weighted-translation output array after the edge launch. -/
theorem edge_wt_arr (c : Dev nD) :
    ((dat0 (F := Ideal) V c).arrAt 25 cfg0.N : Vec Ideal S320000x3 .f32)
      = fun i => wtransRow (rowOf (V c main_v2 : Vec Ideal S320000x3 .f32) (i 0)) (rowOf (V c main_v3 : Vec Ideal S320000x3 .f32) (i 0))
          (coordW (edgeRow (rowOf (V c main_v0 : Vec Ideal S320000x128 .f32) (i 0)) (rowOf (V c main_v1 : Vec Ideal S320000x128 .f32) (i 0))
          (rowOf (V c main_v2 : Vec Ideal S320000x3 .f32) (i 0)) (rowOf (V c main_v3 : Vec Ideal S320000x3 .f32) (i 0))
          (allRows (V c main_v4 : Vec Ideal S128x128 .f32)) (allRows (V c main_v5 : Vec Ideal S128x128 .f32)) (rowOf (V c main_v6 : Vec Ideal S1x128 .f32) 0) (rowOf (V c main_v10 : Vec Ideal S1x128 .f32) 0)
          (allRows (V c main_arg8 : Vec Ideal S128x128 .f32)) (rowOf (V c main_v11 : Vec Ideal S1x128 .f32) 0) (colRow (V c main_arg14 : Vec Ideal S128x1 .f32)) ((V c main_v14 : Vec Ideal S1x1 .f32) (ix2 0 0)))
            (allRows (V c main_arg18 : Vec Ideal S128x128 .f32)) (rowOf (V c main_v16 : Vec Ideal S1x128 .f32) 0) (colRow (V c main_arg20 : Vec Ideal S128x1 .f32))) (i 1) :=
  (dat0 (F := Ideal) V c).arrAt_eq_of_cover 25 (wtArr V c) (fun t _ => flushed25_eq V c t) cover25

end Cert.Bridge

end
-- ==== Proof.PayNode.lean ====
/-
  The node update a tile of nodes leaves in its staging buffer, read at one entry: the feature row plus a two-layer
  network of the feature row and the aggregated-message row, the first layer's 256-wide weight taken as its two
  128-row halves. The program launches the same body twice (target nodes, source nodes); both payloads are stated.
-/
import proofs.«426544_j11063835754636_1_alg».proof.Proof.Gen.KernelIdeal.Skeleton
import proofs.«426544_j11063835754636_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.Bridge

open Idealize.ShloMosaic Idealize.ShloMosaic.ValueIdx Cert.KernelIdeal Cert.KernelIdeal.Gen
open scoped BigOperators

/-! ## A 4000×128 block times a 128×128 weight, read at one entry -/

/-- The left operand's row coordinate is the output's row. -/
theorem lhs_node_0 (i : S4000x128.Idx) (c : dot_S4000x128_S128x128_S4000x128_1_0_0_1_n_n.contr.Idx) :
    (dot_S4000x128_S128x128_S4000x128_1_0_0_1_n_n.lhsIdx i c 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column coordinate is the contraction index. -/
theorem lhs_node_1 (i : S4000x128.Idx) (c : dot_S4000x128_S128x128_S4000x128_1_0_0_1_n_n.contr.Idx) :
    (dot_S4000x128_S128x128_S4000x128_1_0_0_1_n_n.lhsIdx i c 1).val = (c ⟨0, by decide⟩).val :=
  dot_S4000x128_S128x128_S4000x128_1_0_0_1_n_n.lhsIdx_val_of_single rfl i c
/-- The right operand's row coordinate is the contraction index. -/
theorem rhs_node_0 (i : S4000x128.Idx) (c : dot_S4000x128_S128x128_S4000x128_1_0_0_1_n_n.contr.Idx) :
    (dot_S4000x128_S128x128_S4000x128_1_0_0_1_n_n.rhsIdx i c 0).val = (c ⟨0, by decide⟩).val :=
  dot_S4000x128_S128x128_S4000x128_1_0_0_1_n_n.rhsIdx_val_of_single rfl i c
/-- The right operand's column coordinate is the output's column. -/
theorem rhs_node_1 (i : S4000x128.Idx) (c : dot_S4000x128_S128x128_S4000x128_1_0_0_1_n_n.contr.Idx) :
    (dot_S4000x128_S128x128_S4000x128_1_0_0_1_n_n.rhsIdx i c 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product of a block of rows by a square weight into the zero accumulator, at (p, q): the sum over the
    contracted axis of row p of the block against column q of the weight. -/
theorem matmul_node {φ₁ φ₂ : FTy} (l : FVec Ideal S4000x128 φ₁) (r : FVec Ideal S128x128 φ₂) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  refine (Ideal.matmul_constant_zero_apply dot_S4000x128_S128x128_S4000x128_1_0_0_1_n_n none l r (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_node_0 _ _
    | ⟨1, _⟩ => exact (lhs_node_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_node_0 _ _).trans hk
    | ⟨1, _⟩ => exact rhs_node_1 _ _)
  rw [el, er]

/-! ## The first layer before its activation -/

/-- The two half products plus the bias row, at (p, k): row p of the feature block against column k of the first
    half weight, row p of the aggregated block against column k of the second half weight, and the bias at k. -/
theorem node_hidden_apply (x0 x1 : Vec Ideal S4000x128 .f32) (x2 x3 : Vec Ideal S128x128 .f32) (x4 : Vec Ideal S1x128 .f32)
    (p : Fin 4000) (k : Fin 128) :
    (addf (addf (matmul dot_S4000x128_S128x128_S4000x128_1_0_0_1_n_n none (truncf .bf16 x0 bitsLt_bf16_f32) (truncf .bf16 (shapeCast S128x128 x2 shapeCasts_S128x128_S128x128) bitsLt_bf16_f32) (constant (F := Ideal) S4000x128 .f32 0x00000000#32))
          (matmul dot_S4000x128_S128x128_S4000x128_1_0_0_1_n_n none (truncf .bf16 (shapeCast S4000x128 x1 shapeCasts_S4000x128_S4000x128) bitsLt_bf16_f32) (truncf .bf16 (shapeCast S128x128 x3 shapeCasts_S128x128_S128x128) bitsLt_bf16_f32) (constant (F := Ideal) S4000x128 .f32 0x00000000#32)))
        (broadcastTo S4000x128 (shapeCast S1x128 x4 shapeCasts_S1x128_S1x128) broadcasts_S1x128_S4000x128)) (ix2 p k)
      = ((∑ j : Fin 128, x0 (ix2 p j) * x2 (ix2 j k)) + (∑ j : Fin 128, x1 (ix2 p j) * x3 (ix2 j k))) + x4 (ix2 0 k) := by
  rw [shapeCast_self, shapeCast_self, shapeCast_self, shapeCast_self]
  refine (congrArg₂ (· + ·) (congrArg₂ (· + ·) (matmul_node _ _ p k) (matmul_node _ _ p k))
    (broadcastTo_1b_ab_apply x4 broadcasts_S1x128_S4000x128 p k)).trans ?_
  rfl

/-! ## The payload -/

/-- The body's value at (p, q): the feature entry plus the second layer, over the activated first layer, plus its bias. -/
theorem node_body_apply (x0 x1 : Vec Ideal S4000x128 .f32) (x2 x3 : Vec Ideal S128x128 .f32) (x4 : Vec Ideal S1x128 .f32)
    (x5 : Vec Ideal S128x128 .f32) (x6 : Vec Ideal S1x128 .f32) (H : FVec Ideal S4000x128 .f32) (p : Fin 4000) (q : Fin 128) :
    addf x0 (addf (matmul dot_S4000x128_S128x128_S4000x128_1_0_0_1_n_n none (truncf .bf16 (mulf H (logistic H)) bitsLt_bf16_f32) (truncf .bf16 x5 bitsLt_bf16_f32) (constant (F := Ideal) S4000x128 .f32 0x00000000#32))
        (broadcastTo S4000x128 (shapeCast S1x128 x6 shapeCasts_S1x128_S1x128) broadcasts_S1x128_S4000x128)) (ix2 p q)
      = x0 (ix2 p q) + ((∑ k : Fin 128, silu (H (ix2 p k)) * x5 (ix2 k q)) + x6 (ix2 0 q)) := by
  rw [shapeCast_self]
  refine (congrArg (x0 (ix2 p q) + ·) (congrArg₂ (· + ·) (matmul_node _ _ p q)
    (broadcastTo_1b_ab_apply x6 broadcasts_S1x128_S4000x128 p q))).trans ?_
  rfl

/-- The first node launch's payload at (p, q) is `nodeRow` of node p's two rows, column q. -/
theorem pay_node1 (x0 x1 : Vec Ideal S4000x128 .f32) (x2 x3 : Vec Ideal S128x128 .f32) (x4 : Vec Ideal S1x128 .f32)
    (x5 : Vec Ideal S128x128 .f32) (x6 : Vec Ideal S1x128 .f32) (p : Fin 4000) (q : Fin 128) :
    k1_pay1 (F := Ideal) x0 x1 x2 x3 x4 x5 x6 (ix2 p q)
      = nodeRow (rowOf x0 p) (rowOf x1 p) (fun j => rowOf x2 j) (fun j => rowOf x3 j) (rowOf x4 0) (fun k => rowOf x5 k) (rowOf x6 0) q := by
  unfold k1_pay1
  refine (node_body_apply x0 x1 x2 x3 x4 x5 x6 (addf (addf (matmul dot_S4000x128_S128x128_S4000x128_1_0_0_1_n_n none (truncf .bf16 x0 bitsLt_bf16_f32) (truncf .bf16 (shapeCast S128x128 x2 shapeCasts_S128x128_S128x128) bitsLt_bf16_f32) (constant (F := Ideal) S4000x128 .f32 0x00000000#32))
          (matmul dot_S4000x128_S128x128_S4000x128_1_0_0_1_n_n none (truncf .bf16 (shapeCast S4000x128 x1 shapeCasts_S4000x128_S4000x128) bitsLt_bf16_f32) (truncf .bf16 (shapeCast S128x128 x3 shapeCasts_S128x128_S128x128) bitsLt_bf16_f32) (constant (F := Ideal) S4000x128 .f32 0x00000000#32)))
        (broadcastTo S4000x128 (shapeCast S1x128 x4 shapeCasts_S1x128_S1x128) broadcasts_S1x128_S4000x128)) p q).trans ?_
  unfold nodeRow
  refine congrArg (x0 (ix2 p q) + ·) (congrArg (· + x6 (ix2 0 q)) (Finset.sum_congr rfl fun k _ => ?_))
  rw [node_hidden_apply]

/-- The second node launch's payload likewise. -/
theorem pay_node2 (x0 x1 : Vec Ideal S4000x128 .f32) (x2 x3 : Vec Ideal S128x128 .f32) (x4 : Vec Ideal S1x128 .f32)
    (x5 : Vec Ideal S128x128 .f32) (x6 : Vec Ideal S1x128 .f32) (p : Fin 4000) (q : Fin 128) :
    k2_pay1 (F := Ideal) x0 x1 x2 x3 x4 x5 x6 (ix2 p q)
      = nodeRow (rowOf x0 p) (rowOf x1 p) (fun j => rowOf x2 j) (fun j => rowOf x3 j) (rowOf x4 0) (fun k => rowOf x5 k) (rowOf x6 0) q := by
  unfold k2_pay1
  refine (node_body_apply x0 x1 x2 x3 x4 x5 x6 (addf (addf (matmul dot_S4000x128_S128x128_S4000x128_1_0_0_1_n_n none (truncf .bf16 x0 bitsLt_bf16_f32) (truncf .bf16 (shapeCast S128x128 x2 shapeCasts_S128x128_S128x128) bitsLt_bf16_f32) (constant (F := Ideal) S4000x128 .f32 0x00000000#32))
          (matmul dot_S4000x128_S128x128_S4000x128_1_0_0_1_n_n none (truncf .bf16 (shapeCast S4000x128 x1 shapeCasts_S4000x128_S4000x128) bitsLt_bf16_f32) (truncf .bf16 (shapeCast S128x128 x3 shapeCasts_S128x128_S128x128) bitsLt_bf16_f32) (constant (F := Ideal) S4000x128 .f32 0x00000000#32)))
        (broadcastTo S4000x128 (shapeCast S1x128 x4 shapeCasts_S1x128_S1x128) broadcasts_S1x128_S4000x128)) p q).trans ?_
  unfold nodeRow
  refine congrArg (x0 (ix2 p q) + ·) (congrArg (· + x6 (ix2 0 q)) (Finset.sum_congr rfl fun k _ => ?_))
  rw [node_hidden_apply]

end Cert.Bridge

end
-- ==== Proof.NodeRegion.lean ====
/-
  What each node launch leaves in its output array, as a function of the arrays it was entered with.

  A node launch walks the 20000 nodes in 5 tiles of 4000; tile t stages rows 4000·t … of the feature array and of
  the aggregated messages and the whole of every weight, and writes back rows 4000·t … of the output. Row r of the
  output is the node row function at node r's two rows.
-/
import proofs.«426544_j11063835754636_1_alg».proof.Proof.Gen.KernelIdeal.Frame
import proofs.«426544_j11063835754636_1_alg».proof.Proof.PayNode
import proofs.«426544_j11063835754636_1_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.Bridge

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

private theorem zero_offsets : (![0, 0] : Fin 2 → Nat) = fun _ => 0 := funext fun a => by fin_cases a <;> rfl

/-- The node stage over whole arrays: row `i 0` of the result is the node row function at row `i 0` of the
    features and of the aggregated messages. -/
private abbrev nodeArr (f g : Vec Ideal S20000x128 .f32) (Wa Wb : Vec Ideal S128x128 .f32) (b1 : Vec Ideal S1x128 .f32)
    (W2 : Vec Ideal S128x128 .f32) (b2 : Vec Ideal S1x128 .f32) : Vec Ideal S20000x128 .f32 :=
  fun i => nodeRow (rowOf f (i 0)) (rowOf g (i 0)) (allRows Wa) (allRows Wb) (rowOf b1 0) (allRows W2) (rowOf b2 0) (i 1)

/-! ## Node launch 1 -/

/-- A tile's entry `y` is the whole-array function at `i` when row `y 0` of the two staged tiles is row `i 0`
    of the two arrays and the columns agree. -/
private theorem node_tile1 (x0 x1 : Vec Ideal S4000x128 .f32) (x2 x3 : Vec Ideal S128x128 .f32) (x4 : Vec Ideal S1x128 .f32)
    (x5 : Vec Ideal S128x128 .f32) (x6 : Vec Ideal S1x128 .f32) (f g : Vec Ideal S20000x128 .f32)
    (y : S4000x128.Idx) (i : S20000x128.Idx)
    (h0 : ∀ q : Fin 128, x0 (ix2 (y 0) q) = f (ix2 (i 0) q)) (h1 : ∀ q : Fin 128, x1 (ix2 (y 0) q) = g (ix2 (i 0) q))
    (hq : y 1 = i 1) :
    k1_pay1 (F := Ideal) x0 x1 x2 x3 x4 x5 x6 y = nodeArr f g x2 x3 x4 x5 x6 i := by
  refine (congrArg (k1_pay1 (F := Ideal) x0 x1 x2 x3 x4 x5 x6) (eq_ix2 y)).trans ?_
  refine (pay_node1 x0 x1 x2 x3 x4 x5 x6 (y 0) (y 1)).trans ?_
  show nodeRow (rowOf x0 (y 0)) (rowOf x1 (y 0)) _ _ _ _ _ (y 1) = nodeRow (rowOf f (i 0)) (rowOf g (i 0)) _ _ _ _ _ (i 1)
  rw [show rowOf x0 (y 0) = rowOf f (i 0) from funext h0, show rowOf x1 (y 0) = rowOf g (i 0) from funext h1, hq]

/-- The block index of every window at every tile, decided over the 5 tiles: a row-blocked window's is (t, 0), a
    weight's is (0, 0). -/
private theorem tile_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Tile `t` of a row-blocked input is rows `4000·t …` of its array. -/
private theorem rblk1_0 (c : Dev nD) (t : Fin cfg1.N) (y : S4000x128.Idx) (i : S20000x128.Idx)
    (h0 : (i 0).val = t.val * 4000 + (y 0).val) (h1 : (i 1).val = (y 1).val) :
    (iblk1 V c 0 t : Vec Ideal S4000x128 .f32) y = (V c main_arg1 : Vec Ideal S20000x128 .f32) i := by
  obtain ⟨e0, e1, -⟩ := tile_index1 t
  show V c main_arg1 (((cfg1.win 0).blk t).view.emb y) = V c main_arg1 i
  refine congrArg (V c main_arg1) (funext fun a => Fin.ext ?_)
  match a with
  | ⟨0, _⟩ => show win1_0.index t (0 : Fin 2) * 4000 + 1 * (y 0).val = (i 0).val; rw [e0, h0]; omega
  | ⟨1, _⟩ => show win1_0.index t (1 : Fin 2) * 128 + 1 * (y 1).val = (i 1).val; rw [e1, h1]; omega

private theorem rblk1_1 (c : Dev nD) (t : Fin cfg1.N) (y : S4000x128.Idx) (i : S20000x128.Idx)
    (h0 : (i 0).val = t.val * 4000 + (y 0).val) (h1 : (i 1).val = (y 1).val) :
    (iblk1 V c 1 t : Vec Ideal S4000x128 .f32) y = (V c main_v20 : Vec Ideal S20000x128 .f32) i := by
  obtain ⟨-, -, e0, e1, -⟩ := tile_index1 t
  show V c main_v20 (((cfg1.win 1).blk t).view.emb y) = V c main_v20 i
  refine congrArg (V c main_v20) (funext fun a => Fin.ext ?_)
  match a with
  | ⟨0, _⟩ => show win1_1.index t (0 : Fin 2) * 4000 + 1 * (y 0).val = (i 0).val; rw [e0, h0]; omega
  | ⟨1, _⟩ => show win1_1.index t (1 : Fin 2) * 128 + 1 * (y 1).val = (i 1).val; rw [e1, h1]; omega

/-- A weight window's one block is its whole array, at every tile. -/
private theorem wblk1_2 (c : Dev nD) (t : Fin cfg1.N) : @Eq (Vec Ideal S128x128 .f32) (iblk1 V c 2 t) (V c main_v38) := by
  obtain ⟨-, -, -, -, e0, e1, -⟩ := tile_index1 t
  funext y
  show V c main_v38 (((cfg1.win 2).blk t).view.emb y) = V c main_v38 y
  refine congrArg (V c main_v38) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

private theorem wblk1_3 (c : Dev nD) (t : Fin cfg1.N) : @Eq (Vec Ideal S128x128 .f32) (iblk1 V c 3 t) (V c main_v39) := by
  obtain ⟨-, -, -, -, -, -, e0, e1, -⟩ := tile_index1 t
  funext y
  show V c main_v39 (((cfg1.win 3).blk t).view.emb y) = V c main_v39 y
  refine congrArg (V c main_v39) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

private theorem wblk1_4 (c : Dev nD) (t : Fin cfg1.N) : @Eq (Vec Ideal S1x128 .f32) (iblk1 V c 4 t) (V c main_v42) := by
  obtain ⟨-, -, -, -, -, -, -, -, e0, e1, -⟩ := tile_index1 t
  funext y
  show V c main_v42 (((cfg1.win 4).blk t).view.emb y) = V c main_v42 y
  refine congrArg (V c main_v42) (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

private theorem wblk1_5 (c : Dev nD) (t : Fin cfg1.N) : @Eq (Vec Ideal S128x128 .f32) (iblk1 V c 5 t) (V c main_arg23) := by
  obtain ⟨-, -, -, -, -, -, -, -, -, -, e0, e1, -⟩ := tile_index1 t
  funext y
  show V c main_arg23 (((cfg1.win 5).blk t).view.emb y) = V c main_arg23 y
  refine congrArg (V c main_arg23) (funext fun a => Fin.ext ?_)
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

private theorem wblk1_6 (c : Dev nD) (t : Fin cfg1.N) : @Eq (Vec Ideal S1x128 .f32) (iblk1 V c 6 t) (V c main_v43) := by
  obtain ⟨-, -, -, -, -, -, -, -, -, -, -, -, e0, e1, -⟩ := tile_index1 t
  funext y
  show V c main_v43 (((cfg1.win 6).blk t).view.emb y) = V c main_v43 y
  refine congrArg (V c main_v43) (funext fun a => Fin.ext ?_)
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- What tile `t` writes back is block `t` of the whole-array function of the arrays the launch was entered with. -/
private theorem flushed1 (c : Dev nD) (t : Fin cfg1.N) :
    (dat1 (F := Ideal) V c).flushed 7 t = ((cfg1.win 7).blk t).view.read (Elt Ideal)
      (nodeArr (V c main_arg1) (V c main_v20) (V c main_v38) (V c main_v39) (V c main_v42) (V c main_arg23) (V c main_v43)) := by
  show (cfg1.win 7).cut (grid1.coords t) ((dat1 V c).after 7 t) = _
  rw [after1_7]
  unfold out1_7
  rw [View.canon_unit_zero zero_offsets]
  simp only [View.ld_unit_zero (S := S4000x128) zero_offsets, View.ld_unit_zero (S := S128x128) zero_offsets, View.ld_unit_zero (S := S1x128) zero_offsets]
  obtain ⟨-, -, -, -, -, -, -, -, -, -, -, -, -, -, e0, e1⟩ := tile_index1 t
  funext j
  show k1_pay1 (F := Ideal) (iblk1 V c 0 t) (iblk1 V c 1 t) (iblk1 V c 2 t) (iblk1 V c 3 t) (iblk1 V c 4 t) (iblk1 V c 5 t) (iblk1 V c 6 t) ((win1 7).xinj (grid1.coords t) j)
    = nodeArr (V c main_arg1) (V c main_v20) (V c main_v38) (V c main_v39) (V c main_v42) (V c main_arg23) (V c main_v43) (((cfg1.win 7).blk t).view.emb j)
  rw [wblk1_2 V c t, wblk1_3 V c t, wblk1_4 V c t, wblk1_5 V c t, wblk1_6 V c t]
  refine node_tile1 (iblk1 V c 0 t) (iblk1 V c 1 t) (V c main_v38) (V c main_v39) (V c main_v42) (V c main_arg23) (V c main_v43) (V c main_arg1) (V c main_v20)
    ((win1 7).xinj (grid1.coords t) j) (((cfg1.win 7).blk t).view.emb j) (fun q => ?_) (fun q => ?_) ?_
  · refine rblk1_0 V c t _ _ ?_ rfl
    show win1_7.index t (0 : Fin 2) * 4000 + 1 * (j 0).val = t.val * 4000 + (j 0).val
    rw [e0]; omega
  · refine rblk1_1 V c t _ _ ?_ rfl
    show win1_7.index t (0 : Fin 2) * 4000 + 1 * (j 0).val = t.val * 4000 + (j 0).val
    rw [e0]; omega
  · apply Fin.ext
    show (j 1).val = win1_7.index t (1 : Fin 2) * 128 + 1 * (j 1).val
    rw [e1]; omega

/-- An index of the output array is in tile `t`'s block iff each coordinate is in the block's range on its axis. -/
private theorem mem_tile1 (t : Fin cfg1.N) (i : S20000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v46).slice (win1_7.rect t)).set ↔ _
  rw [View.set_slice_whole, Rect.mem_set_unit]
  exact Iff.rfl

/-- Every row of the output is in some tile's block: row `r` is in tile `r / 4000`. -/
private theorem cover1 (i : S20000x128.Idx) :
    ∃ t : Fin cfg1.N, (cfg1.win 7).flush t = true ∧ i ∈ ((cfg1.win 7).blk t).view.set := by
  have hi0 : (i 0).val < 20000 := (i 0).isLt
  have hi1 : (i 1).val < 128 := (i 1).isLt
  obtain ⟨t, ht⟩ : ∃ t : Fin cfg1.N, t.val = (i 0).val / 4000 :=
    ⟨⟨(i 0).val / 4000, by rw [show cfg1.N = 5 from N_1]; omega⟩, rfl⟩
  obtain ⟨-, -, -, -, -, -, -, -, -, -, -, -, -, -, e0, e1⟩ := tile_index1 t
  refine ⟨t, flush1_7 t, ?_⟩
  rw [mem_tile1]
  intro a
  match a with
  | ⟨0, _⟩ => show win1_7.index t (0 : Fin 2) * 4000 ≤ (i 0).val ∧ (i 0).val < win1_7.index t (0 : Fin 2) * 4000 + 4000; rw [e0, ht]; omega
  | ⟨1, _⟩ => show win1_7.index t (1 : Fin 2) * 128 ≤ (i 1).val ∧ (i 1).val < win1_7.index t (1 : Fin 2) * 128 + 128; rw [e1]; omega

/-- The output array after the first node launch (target nodes). -/
theorem node1_arr (c : Dev nD) :
    ((dat1 (F := Ideal) V c).arrAt 7 cfg1.N : Vec Ideal S20000x128 .f32)
      = fun i => nodeRow (rowOf (V c main_arg1 : Vec Ideal S20000x128 .f32) (i 0)) (rowOf (V c main_v20 : Vec Ideal S20000x128 .f32) (i 0))
          (allRows (V c main_v38 : Vec Ideal S128x128 .f32)) (allRows (V c main_v39 : Vec Ideal S128x128 .f32)) (rowOf (V c main_v42 : Vec Ideal S1x128 .f32) 0)
          (allRows (V c main_arg23 : Vec Ideal S128x128 .f32)) (rowOf (V c main_v43 : Vec Ideal S1x128 .f32) 0) (i 1) :=
  (dat1 (F := Ideal) V c).arrAt_eq_of_cover 7
    (nodeArr (V c main_arg1) (V c main_v20) (V c main_v38) (V c main_v39) (V c main_v42) (V c main_arg23) (V c main_v43))
    (fun t _ => flushed1 V c t) cover1

/-! ## Node launch 2 -/

/-- A tile's entry `y` is the whole-array function at `i` when row `y 0` of the two staged tiles is row `i 0`
    of the two arrays and the columns agree. -/
private theorem node_tile2 (x0 x1 : Vec Ideal S4000x128 .f32) (x2 x3 : Vec Ideal S128x128 .f32) (x4 : Vec Ideal S1x128 .f32)
    (x5 : Vec Ideal S128x128 .f32) (x6 : Vec Ideal S1x128 .f32) (f g : Vec Ideal S20000x128 .f32)
    (y : S4000x128.Idx) (i : S20000x128.Idx)
    (h0 : ∀ q : Fin 128, x0 (ix2 (y 0) q) = f (ix2 (i 0) q)) (h1 : ∀ q : Fin 128, x1 (ix2 (y 0) q) = g (ix2 (i 0) q))
    (hq : y 1 = i 1) :
    k2_pay1 (F := Ideal) x0 x1 x2 x3 x4 x5 x6 y = nodeArr f g x2 x3 x4 x5 x6 i := by
  refine (congrArg (k2_pay1 (F := Ideal) x0 x1 x2 x3 x4 x5 x6) (eq_ix2 y)).trans ?_
  refine (pay_node2 x0 x1 x2 x3 x4 x5 x6 (y 0) (y 1)).trans ?_
  show nodeRow (rowOf x0 (y 0)) (rowOf x1 (y 0)) _ _ _ _ _ (y 1) = nodeRow (rowOf f (i 0)) (rowOf g (i 0)) _ _ _ _ _ (i 1)
  rw [show rowOf x0 (y 0) = rowOf f (i 0) from funext h0, show rowOf x1 (y 0) = rowOf g (i 0) from funext h1, hq]

/-- The block index of every window at every tile, decided over the 5 tiles: a row-blocked window's is (t, 0), a
    weight's is (0, 0). -/
private theorem tile_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Tile `t` of a row-blocked input is rows `4000·t …` of its array. -/
private theorem rblk2_0 (c : Dev nD) (t : Fin cfg2.N) (y : S4000x128.Idx) (i : S20000x128.Idx)
    (h0 : (i 0).val = t.val * 4000 + (y 0).val) (h1 : (i 1).val = (y 1).val) :
    (iblk2 V c 0 t : Vec Ideal S4000x128 .f32) y = (V c main_arg0 : Vec Ideal S20000x128 .f32) i := by
  obtain ⟨e0, e1, -⟩ := tile_index2 t
  show V c main_arg0 (((cfg2.win 0).blk t).view.emb y) = V c main_arg0 i
  refine congrArg (V c main_arg0) (funext fun a => Fin.ext ?_)
  match a with
  | ⟨0, _⟩ => show win2_0.index t (0 : Fin 2) * 4000 + 1 * (y 0).val = (i 0).val; rw [e0, h0]; omega
  | ⟨1, _⟩ => show win2_0.index t (1 : Fin 2) * 128 + 1 * (y 1).val = (i 1).val; rw [e1, h1]; omega

private theorem rblk2_1 (c : Dev nD) (t : Fin cfg2.N) (y : S4000x128.Idx) (i : S20000x128.Idx)
    (h0 : (i 0).val = t.val * 4000 + (y 0).val) (h1 : (i 1).val = (y 1).val) :
    (iblk2 V c 1 t : Vec Ideal S4000x128 .f32) y = (V c main_v23 : Vec Ideal S20000x128 .f32) i := by
  obtain ⟨-, -, e0, e1, -⟩ := tile_index2 t
  show V c main_v23 (((cfg2.win 1).blk t).view.emb y) = V c main_v23 i
  refine congrArg (V c main_v23) (funext fun a => Fin.ext ?_)
  match a with
  | ⟨0, _⟩ => show win2_1.index t (0 : Fin 2) * 4000 + 1 * (y 0).val = (i 0).val; rw [e0, h0]; omega
  | ⟨1, _⟩ => show win2_1.index t (1 : Fin 2) * 128 + 1 * (y 1).val = (i 1).val; rw [e1, h1]; omega

/-- A weight window's one block is its whole array, at every tile. -/
private theorem wblk2_2 (c : Dev nD) (t : Fin cfg2.N) : @Eq (Vec Ideal S128x128 .f32) (iblk2 V c 2 t) (V c main_v40) := by
  obtain ⟨-, -, -, -, e0, e1, -⟩ := tile_index2 t
  funext y
  show V c main_v40 (((cfg2.win 2).blk t).view.emb y) = V c main_v40 y
  refine congrArg (V c main_v40) (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

private theorem wblk2_3 (c : Dev nD) (t : Fin cfg2.N) : @Eq (Vec Ideal S128x128 .f32) (iblk2 V c 3 t) (V c main_v41) := by
  obtain ⟨-, -, -, -, -, -, e0, e1, -⟩ := tile_index2 t
  funext y
  show V c main_v41 (((cfg2.win 3).blk t).view.emb y) = V c main_v41 y
  refine congrArg (V c main_v41) (funext fun a => Fin.ext ?_)
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

private theorem wblk2_4 (c : Dev nD) (t : Fin cfg2.N) : @Eq (Vec Ideal S1x128 .f32) (iblk2 V c 4 t) (V c main_v44) := by
  obtain ⟨-, -, -, -, -, -, -, -, e0, e1, -⟩ := tile_index2 t
  funext y
  show V c main_v44 (((cfg2.win 4).blk t).view.emb y) = V c main_v44 y
  refine congrArg (V c main_v44) (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

private theorem wblk2_5 (c : Dev nD) (t : Fin cfg2.N) : @Eq (Vec Ideal S128x128 .f32) (iblk2 V c 5 t) (V c main_arg27) := by
  obtain ⟨-, -, -, -, -, -, -, -, -, -, e0, e1, -⟩ := tile_index2 t
  funext y
  show V c main_arg27 (((cfg2.win 5).blk t).view.emb y) = V c main_arg27 y
  refine congrArg (V c main_arg27) (funext fun a => Fin.ext ?_)
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega

private theorem wblk2_6 (c : Dev nD) (t : Fin cfg2.N) : @Eq (Vec Ideal S1x128 .f32) (iblk2 V c 6 t) (V c main_v45) := by
  obtain ⟨-, -, -, -, -, -, -, -, -, -, -, -, e0, e1, -⟩ := tile_index2 t
  funext y
  show V c main_v45 (((cfg2.win 6).blk t).view.emb y) = V c main_v45 y
  refine congrArg (V c main_v45) (funext fun a => Fin.ext ?_)
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega

/-- What tile `t` writes back is block `t` of the whole-array function of the arrays the launch was entered with. -/
private theorem flushed2 (c : Dev nD) (t : Fin cfg2.N) :
    (dat2 (F := Ideal) V c).flushed 7 t = ((cfg2.win 7).blk t).view.read (Elt Ideal)
      (nodeArr (V c main_arg0) (V c main_v23) (V c main_v40) (V c main_v41) (V c main_v44) (V c main_arg27) (V c main_v45)) := by
  show (cfg2.win 7).cut (grid2.coords t) ((dat2 V c).after 7 t) = _
  rw [after2_7]
  unfold out2_7
  rw [View.canon_unit_zero zero_offsets]
  simp only [View.ld_unit_zero (S := S4000x128) zero_offsets, View.ld_unit_zero (S := S128x128) zero_offsets, View.ld_unit_zero (S := S1x128) zero_offsets]
  obtain ⟨-, -, -, -, -, -, -, -, -, -, -, -, -, -, e0, e1⟩ := tile_index2 t
  funext j
  show k2_pay1 (F := Ideal) (iblk2 V c 0 t) (iblk2 V c 1 t) (iblk2 V c 2 t) (iblk2 V c 3 t) (iblk2 V c 4 t) (iblk2 V c 5 t) (iblk2 V c 6 t) ((win2 7).xinj (grid2.coords t) j)
    = nodeArr (V c main_arg0) (V c main_v23) (V c main_v40) (V c main_v41) (V c main_v44) (V c main_arg27) (V c main_v45) (((cfg2.win 7).blk t).view.emb j)
  rw [wblk2_2 V c t, wblk2_3 V c t, wblk2_4 V c t, wblk2_5 V c t, wblk2_6 V c t]
  refine node_tile2 (iblk2 V c 0 t) (iblk2 V c 1 t) (V c main_v40) (V c main_v41) (V c main_v44) (V c main_arg27) (V c main_v45) (V c main_arg0) (V c main_v23)
    ((win2 7).xinj (grid2.coords t) j) (((cfg2.win 7).blk t).view.emb j) (fun q => ?_) (fun q => ?_) ?_
  · refine rblk2_0 V c t _ _ ?_ rfl
    show win2_7.index t (0 : Fin 2) * 4000 + 1 * (j 0).val = t.val * 4000 + (j 0).val
    rw [e0]; omega
  · refine rblk2_1 V c t _ _ ?_ rfl
    show win2_7.index t (0 : Fin 2) * 4000 + 1 * (j 0).val = t.val * 4000 + (j 0).val
    rw [e0]; omega
  · apply Fin.ext
    show (j 1).val = win2_7.index t (1 : Fin 2) * 128 + 1 * (j 1).val
    rw [e1]; omega

/-- An index of the output array is in tile `t`'s block iff each coordinate is in the block's range on its axis. -/
private theorem mem_tile2 (t : Fin cfg2.N) (i : S20000x128.Idx) :
    i ∈ ((cfg2.win 7).blk t).view.set ↔ ∀ a : Fin 2, win2_7.index t a * S4000x128.size a ≤ (i a).val ∧ (i a).val < win2_7.index t a * S4000x128.size a + S4000x128.size a := by
  show i ∈ ((View.whole main_v47).slice (win2_7.rect t)).set ↔ _
  rw [View.set_slice_whole, Rect.mem_set_unit]
  exact Iff.rfl

/-- Every row of the output is in some tile's block: row `r` is in tile `r / 4000`. -/
private theorem cover2 (i : S20000x128.Idx) :
    ∃ t : Fin cfg2.N, (cfg2.win 7).flush t = true ∧ i ∈ ((cfg2.win 7).blk t).view.set := by
  have hi0 : (i 0).val < 20000 := (i 0).isLt
  have hi1 : (i 1).val < 128 := (i 1).isLt
  obtain ⟨t, ht⟩ : ∃ t : Fin cfg2.N, t.val = (i 0).val / 4000 :=
    ⟨⟨(i 0).val / 4000, by rw [show cfg2.N = 5 from N_2]; omega⟩, rfl⟩
  obtain ⟨-, -, -, -, -, -, -, -, -, -, -, -, -, -, e0, e1⟩ := tile_index2 t
  refine ⟨t, flush2_7 t, ?_⟩
  rw [mem_tile2]
  intro a
  match a with
  | ⟨0, _⟩ => show win2_7.index t (0 : Fin 2) * 4000 ≤ (i 0).val ∧ (i 0).val < win2_7.index t (0 : Fin 2) * 4000 + 4000; rw [e0, ht]; omega
  | ⟨1, _⟩ => show win2_7.index t (1 : Fin 2) * 128 ≤ (i 1).val ∧ (i 1).val < win2_7.index t (1 : Fin 2) * 128 + 128; rw [e1]; omega

/-- The output array after the second node launch (source nodes). -/
theorem node2_arr (c : Dev nD) :
    ((dat2 (F := Ideal) V c).arrAt 7 cfg2.N : Vec Ideal S20000x128 .f32)
      = fun i => nodeRow (rowOf (V c main_arg0 : Vec Ideal S20000x128 .f32) (i 0)) (rowOf (V c main_v23 : Vec Ideal S20000x128 .f32) (i 0))
          (allRows (V c main_v40 : Vec Ideal S128x128 .f32)) (allRows (V c main_v41 : Vec Ideal S128x128 .f32)) (rowOf (V c main_v44 : Vec Ideal S1x128 .f32) 0)
          (allRows (V c main_arg27 : Vec Ideal S128x128 .f32)) (rowOf (V c main_v45 : Vec Ideal S1x128 .f32) 0) (i 1) :=
  (dat2 (F := Ideal) V c).arrAt_eq_of_cover 7
    (nodeArr (V c main_arg0) (V c main_v23) (V c main_v40) (V c main_v41) (V c main_v44) (V c main_arg27) (V c main_v45))
    (fun t _ => flushed2 V c t) cover2

end Cert.Bridge

end
-- ==== Proof.KHost0.lean ====
/-
  The arrays the edge launch is entered with, as functions of the program's arguments.

  Before the edge launch the program gathers the four per-edge arrays (a row look-up that fills a row with a
  marker value when its index is outside the table), cuts the two 257-row first-layer weights into their rows
  0–127, 128–255 and 256, and reshapes the bias vectors to one-row arrays. With every edge index a node number the
  marker is never used, so each gathered array is the reference's gather of the same table by the same indices;
  a slice read at (k, q) is the weight at the shifted row; a reshape read at (0, q) is the vector at q.
-/
import proofs.«426544_j11063835754636_1_alg».proof.Proof.Gen.KernelIdeal.Frame
import proofs.«426544_j11063835754636_1_alg».proof.Proof.RefRun
import proofs.«426544_j11063835754636_1_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate
import Idealize.ShloMosaic.PureOps.Reduce

set_option maxRecDepth 16384

noncomputable section

namespace Cert.Bridge

open Idealize.ShloMosaic Idealize.ShloMosaic.TcCoe Idealize.ShloMosaic.ValueIdx Idealize.SL.Sem
open Cert.KernelIdeal Cert.KernelIdeal.Gen
open scoped BigOperators

variable (m : (ℓ : Loc nD τ sig) → Buf (Elt Ideal) ℓ) (ρ : Dev nD → PrngReg)

/-- A buffer that a stretch of host operations does not write keeps its contents. -/
local macro "unwritten" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- An argument no host operation before the edge launch writes is, after the first four stretches, as launched. -/
local macro "walk4" : tactic =>
  `(tactic| exact Eq.trans (by unwritten hostOps0_3) (Eq.trans (by unwritten hostOps0_2) (Eq.trans (by unwritten hostOps0_1) (by unwritten hostOps0))))

namespace KHost0

/-! ## Slices and reshapes read at an index -/

/-- Rows 0–127 of a 257-row weight, cut out as an array of their own. -/
theorem slice_top (A : Vec Ideal S257x128 .f32) (h : S257x128.Slices ![0, 0] S128x128) :
    allRows (extractStridedSlice S128x128 ![0, 0] A h) = topRows (by omega) A := by
  funext k q
  exact slice2_axis0_apply 0 A h k q ⟨k.val, by omega⟩ (Nat.zero_add _).symm

/-- Rows 128–255. -/
theorem slice_next (A : Vec Ideal S257x128 .f32) (h : S257x128.Slices ![128, 0] S128x128) :
    allRows (extractStridedSlice S128x128 ![128, 0] A h) = nextRows (by omega) A := by
  funext k q
  exact slice2_axis0_apply 128 A h k q ⟨128 + k.val, by omega⟩ rfl

/-- Row 256. -/
theorem slice_last (A : Vec Ideal S257x128 .f32) (h : S257x128.Slices ![256, 0] S1x128) :
    rowOf (extractStridedSlice S1x128 ![256, 0] A h) 0 = lastRow A := by
  funext q
  exact slice2_axis0_apply 256 A h 0 q ⟨256, by omega⟩ rfl

/-- A vector reshaped to a one-row array, read along its row. -/
theorem reshape_row (b : Vec Ideal S128 .f32) (h : S128.ShapeCasts S1x128) :
    rowOf (shapeCast S1x128 b h) 0 = vecRow b := by
  funext q
  exact shapeCast_a_1a_apply b h 0 q

/-- A one-element vector reshaped to a one-by-one array. -/
theorem reshape_one (b : Vec Ideal S1 .f32) (h : S1.ShapeCasts S1x1) :
    shapeCast S1x1 b h (ix2 0 0) = b (ix1 0) :=
  shapeCast_a_1a_apply b h 0 0

/-! ## What the last host stretch before the edge launch writes, from any contents -/

section After4
variable (V : Valuation τ sig (Elt Ideal))

theorem after4_v4 : (StableHlo.after hostOps0_4 V (Proc.devRef .tc main_v4) : Vec Ideal S128x128 .f32)
    = extractStridedSlice S128x128 ![0, 0] (V (Proc.devRef .tc main_arg6) : Vec Ideal S257x128 .f32) slices_S257x128_S128x128_0_0 := by
  after_results
theorem after4_v5 : (StableHlo.after hostOps0_4 V (Proc.devRef .tc main_v5) : Vec Ideal S128x128 .f32)
    = extractStridedSlice S128x128 ![128, 0] (V (Proc.devRef .tc main_arg6) : Vec Ideal S257x128 .f32) slices_S257x128_S128x128_128_0 := by
  after_results
theorem after4_v6 : (StableHlo.after hostOps0_4 V (Proc.devRef .tc main_v6) : Vec Ideal S1x128 .f32)
    = extractStridedSlice S1x128 ![256, 0] (V (Proc.devRef .tc main_arg6) : Vec Ideal S257x128 .f32) slices_S257x128_S1x128_256_0 := by
  after_results
theorem after4_v7 : (StableHlo.after hostOps0_4 V (Proc.devRef .tc main_v7) : Vec Ideal S128x128 .f32)
    = extractStridedSlice S128x128 ![0, 0] (V (Proc.devRef .tc main_arg10) : Vec Ideal S257x128 .f32) slices_S257x128_S128x128_0_0 := by
  after_results
theorem after4_v8 : (StableHlo.after hostOps0_4 V (Proc.devRef .tc main_v8) : Vec Ideal S128x128 .f32)
    = extractStridedSlice S128x128 ![128, 0] (V (Proc.devRef .tc main_arg10) : Vec Ideal S257x128 .f32) slices_S257x128_S128x128_128_0 := by
  after_results
theorem after4_v9 : (StableHlo.after hostOps0_4 V (Proc.devRef .tc main_v9) : Vec Ideal S1x128 .f32)
    = extractStridedSlice S1x128 ![256, 0] (V (Proc.devRef .tc main_arg10) : Vec Ideal S257x128 .f32) slices_S257x128_S1x128_256_0 := by
  after_results
theorem after4_v10 : (StableHlo.after hostOps0_4 V (Proc.devRef .tc main_v10) : Vec Ideal S1x128 .f32)
    = shapeCast S1x128 (V (Proc.devRef .tc main_arg7) : Vec Ideal S128 .f32) shapeCasts_S128_S1x128 := by
  after_results
  rfl
theorem after4_v11 : (StableHlo.after hostOps0_4 V (Proc.devRef .tc main_v11) : Vec Ideal S1x128 .f32)
    = shapeCast S1x128 (V (Proc.devRef .tc main_arg9) : Vec Ideal S128 .f32) shapeCasts_S128_S1x128 := by
  after_results
  rfl
theorem after4_v12 : (StableHlo.after hostOps0_4 V (Proc.devRef .tc main_v12) : Vec Ideal S1x128 .f32)
    = shapeCast S1x128 (V (Proc.devRef .tc main_arg11) : Vec Ideal S128 .f32) shapeCasts_S128_S1x128 := by
  after_results
  rfl
theorem after4_v13 : (StableHlo.after hostOps0_4 V (Proc.devRef .tc main_v13) : Vec Ideal S1x128 .f32)
    = shapeCast S1x128 (V (Proc.devRef .tc main_arg13) : Vec Ideal S128 .f32) shapeCasts_S128_S1x128 := by
  after_results
  rfl
theorem after4_v14 : (StableHlo.after hostOps0_4 V (Proc.devRef .tc main_v14) : Vec Ideal S1x1 .f32)
    = shapeCast S1x1 (V (Proc.devRef .tc main_arg15) : Vec Ideal S1 .f32) shapeCasts_S1_S1x1 := by
  after_results
  rfl
theorem after4_v15 : (StableHlo.after hostOps0_4 V (Proc.devRef .tc main_v15) : Vec Ideal S1x1 .f32)
    = shapeCast S1x1 (V (Proc.devRef .tc main_arg17) : Vec Ideal S1 .f32) shapeCasts_S1_S1x1 := by
  after_results
  rfl
theorem after4_v16 : (StableHlo.after hostOps0_4 V (Proc.devRef .tc main_v16) : Vec Ideal S1x128 .f32)
    = shapeCast S1x128 (V (Proc.devRef .tc main_arg19) : Vec Ideal S128 .f32) shapeCasts_S128_S1x128 := by
  after_results
  rfl

end After4

/-! ## The weight arguments after the four row look-ups: as launched -/

theorem W4_arg6 (c : Dev nD) : W4 m ρ c (Proc.devRef .tc main_arg6) = m ((c.tc : Thread nD τ).loc main_arg6) := by walk4
theorem W4_arg7 (c : Dev nD) : W4 m ρ c (Proc.devRef .tc main_arg7) = m ((c.tc : Thread nD τ).loc main_arg7) := by walk4
theorem W4_arg8 (c : Dev nD) : W4 m ρ c (Proc.devRef .tc main_arg8) = m ((c.tc : Thread nD τ).loc main_arg8) := by walk4
theorem W4_arg9 (c : Dev nD) : W4 m ρ c (Proc.devRef .tc main_arg9) = m ((c.tc : Thread nD τ).loc main_arg9) := by walk4
theorem W4_arg10 (c : Dev nD) : W4 m ρ c (Proc.devRef .tc main_arg10) = m ((c.tc : Thread nD τ).loc main_arg10) := by walk4
theorem W4_arg11 (c : Dev nD) : W4 m ρ c (Proc.devRef .tc main_arg11) = m ((c.tc : Thread nD τ).loc main_arg11) := by walk4
theorem W4_arg12 (c : Dev nD) : W4 m ρ c (Proc.devRef .tc main_arg12) = m ((c.tc : Thread nD τ).loc main_arg12) := by walk4
theorem W4_arg13 (c : Dev nD) : W4 m ρ c (Proc.devRef .tc main_arg13) = m ((c.tc : Thread nD τ).loc main_arg13) := by walk4
theorem W4_arg14 (c : Dev nD) : W4 m ρ c (Proc.devRef .tc main_arg14) = m ((c.tc : Thread nD τ).loc main_arg14) := by walk4
theorem W4_arg15 (c : Dev nD) : W4 m ρ c (Proc.devRef .tc main_arg15) = m ((c.tc : Thread nD τ).loc main_arg15) := by walk4
theorem W4_arg16 (c : Dev nD) : W4 m ρ c (Proc.devRef .tc main_arg16) = m ((c.tc : Thread nD τ).loc main_arg16) := by walk4
theorem W4_arg17 (c : Dev nD) : W4 m ρ c (Proc.devRef .tc main_arg17) = m ((c.tc : Thread nD τ).loc main_arg17) := by walk4
theorem W4_arg18 (c : Dev nD) : W4 m ρ c (Proc.devRef .tc main_arg18) = m ((c.tc : Thread nD τ).loc main_arg18) := by walk4
theorem W4_arg19 (c : Dev nD) : W4 m ρ c (Proc.devRef .tc main_arg19) = m ((c.tc : Thread nD τ).loc main_arg19) := by walk4
theorem W4_arg20 (c : Dev nD) : W4 m ρ c (Proc.devRef .tc main_arg20) = m ((c.tc : Thread nD τ).loc main_arg20) := by walk4

/-! ## The sliced and reshaped weights at the edge launch, over the arguments -/

theorem W5_v4 (c : Dev nD) : (V5 m ρ c main_v4 : Vec Ideal S128x128 .f32)
    = extractStridedSlice S128x128 ![0, 0] ((m ((c.tc : Thread nD τ).loc main_arg6)) : Vec Ideal S257x128 .f32) slices_S257x128_S128x128_0_0 := by
  rw [← W4_arg6 m ρ c]; exact after4_v4 (W4 m ρ c)
theorem W5_v5 (c : Dev nD) : (V5 m ρ c main_v5 : Vec Ideal S128x128 .f32)
    = extractStridedSlice S128x128 ![128, 0] ((m ((c.tc : Thread nD τ).loc main_arg6)) : Vec Ideal S257x128 .f32) slices_S257x128_S128x128_128_0 := by
  rw [← W4_arg6 m ρ c]; exact after4_v5 (W4 m ρ c)
theorem W5_v6 (c : Dev nD) : (V5 m ρ c main_v6 : Vec Ideal S1x128 .f32)
    = extractStridedSlice S1x128 ![256, 0] ((m ((c.tc : Thread nD τ).loc main_arg6)) : Vec Ideal S257x128 .f32) slices_S257x128_S1x128_256_0 := by
  rw [← W4_arg6 m ρ c]; exact after4_v6 (W4 m ρ c)
theorem W5_v7 (c : Dev nD) : (V5 m ρ c main_v7 : Vec Ideal S128x128 .f32)
    = extractStridedSlice S128x128 ![0, 0] ((m ((c.tc : Thread nD τ).loc main_arg10)) : Vec Ideal S257x128 .f32) slices_S257x128_S128x128_0_0 := by
  rw [← W4_arg10 m ρ c]; exact after4_v7 (W4 m ρ c)
theorem W5_v8 (c : Dev nD) : (V5 m ρ c main_v8 : Vec Ideal S128x128 .f32)
    = extractStridedSlice S128x128 ![128, 0] ((m ((c.tc : Thread nD τ).loc main_arg10)) : Vec Ideal S257x128 .f32) slices_S257x128_S128x128_128_0 := by
  rw [← W4_arg10 m ρ c]; exact after4_v8 (W4 m ρ c)
theorem W5_v9 (c : Dev nD) : (V5 m ρ c main_v9 : Vec Ideal S1x128 .f32)
    = extractStridedSlice S1x128 ![256, 0] ((m ((c.tc : Thread nD τ).loc main_arg10)) : Vec Ideal S257x128 .f32) slices_S257x128_S1x128_256_0 := by
  rw [← W4_arg10 m ρ c]; exact after4_v9 (W4 m ρ c)
theorem W5_v10 (c : Dev nD) : (V5 m ρ c main_v10 : Vec Ideal S1x128 .f32)
    = shapeCast S1x128 ((m ((c.tc : Thread nD τ).loc main_arg7)) : Vec Ideal S128 .f32) shapeCasts_S128_S1x128 := by
  rw [← W4_arg7 m ρ c]; exact after4_v10 (W4 m ρ c)
theorem W5_v11 (c : Dev nD) : (V5 m ρ c main_v11 : Vec Ideal S1x128 .f32)
    = shapeCast S1x128 ((m ((c.tc : Thread nD τ).loc main_arg9)) : Vec Ideal S128 .f32) shapeCasts_S128_S1x128 := by
  rw [← W4_arg9 m ρ c]; exact after4_v11 (W4 m ρ c)
theorem W5_v12 (c : Dev nD) : (V5 m ρ c main_v12 : Vec Ideal S1x128 .f32)
    = shapeCast S1x128 ((m ((c.tc : Thread nD τ).loc main_arg11)) : Vec Ideal S128 .f32) shapeCasts_S128_S1x128 := by
  rw [← W4_arg11 m ρ c]; exact after4_v12 (W4 m ρ c)
theorem W5_v13 (c : Dev nD) : (V5 m ρ c main_v13 : Vec Ideal S1x128 .f32)
    = shapeCast S1x128 ((m ((c.tc : Thread nD τ).loc main_arg13)) : Vec Ideal S128 .f32) shapeCasts_S128_S1x128 := by
  rw [← W4_arg13 m ρ c]; exact after4_v13 (W4 m ρ c)
theorem W5_v14 (c : Dev nD) : (V5 m ρ c main_v14 : Vec Ideal S1x1 .f32)
    = shapeCast S1x1 ((m ((c.tc : Thread nD τ).loc main_arg15)) : Vec Ideal S1 .f32) shapeCasts_S1_S1x1 := by
  rw [← W4_arg15 m ρ c]; exact after4_v14 (W4 m ρ c)
theorem W5_v15 (c : Dev nD) : (V5 m ρ c main_v15 : Vec Ideal S1x1 .f32)
    = shapeCast S1x1 ((m ((c.tc : Thread nD τ).loc main_arg17)) : Vec Ideal S1 .f32) shapeCasts_S1_S1x1 := by
  rw [← W4_arg17 m ρ c]; exact after4_v15 (W4 m ρ c)
theorem W5_v16 (c : Dev nD) : (V5 m ρ c main_v16 : Vec Ideal S1x128 .f32)
    = shapeCast S1x128 ((m ((c.tc : Thread nD τ).loc main_arg19)) : Vec Ideal S128 .f32) shapeCasts_S128_S1x128 := by
  rw [← W4_arg19 m ρ c]; exact after4_v16 (W4 m ρ c)

/-! ## The weights the program passes through unchanged -/

theorem W5_arg8 (c : Dev nD) : (V5 m ρ c main_arg8 : Vec Ideal S128x128 .f32) = (m ((c.tc : Thread nD τ).loc main_arg8)) :=
  Eq.trans (by unwritten hostOps0_4) (W4_arg8 m ρ c)
theorem W5_arg12 (c : Dev nD) : (V5 m ρ c main_arg12 : Vec Ideal S128x128 .f32) = (m ((c.tc : Thread nD τ).loc main_arg12)) :=
  Eq.trans (by unwritten hostOps0_4) (W4_arg12 m ρ c)
theorem W5_arg14 (c : Dev nD) : (V5 m ρ c main_arg14 : Vec Ideal S128x1 .f32) = (m ((c.tc : Thread nD τ).loc main_arg14)) :=
  Eq.trans (by unwritten hostOps0_4) (W4_arg14 m ρ c)
theorem W5_arg16 (c : Dev nD) : (V5 m ρ c main_arg16 : Vec Ideal S128x1 .f32) = (m ((c.tc : Thread nD τ).loc main_arg16)) :=
  Eq.trans (by unwritten hostOps0_4) (W4_arg16 m ρ c)
theorem W5_arg18 (c : Dev nD) : (V5 m ρ c main_arg18 : Vec Ideal S128x128 .f32) = (m ((c.tc : Thread nD τ).loc main_arg18)) :=
  Eq.trans (by unwritten hostOps0_4) (W4_arg18 m ρ c)
theorem W5_arg20 (c : Dev nD) : (V5 m ρ c main_arg20 : Vec Ideal S128x1 .f32) = (m ((c.tc : Thread nD τ).loc main_arg20)) :=
  Eq.trans (by unwritten hostOps0_4) (W4_arg20 m ρ c)

/-! ## The row look-up

A row look-up by an index array first wraps a negative index by the table's height (20000), makes the indices a
one-column array, gathers the rows, and then overwrites with a marker every row whose index is not in [0, 19999].
When every index is a node number nothing wraps and no row is marked: the look-up is the plain gather. -/

/-- The index column of a row look-up. -/
def takeCol (idx : IVec S320000 32) : IVec S320000x1 32 :=
  broadcastInDim S320000x1 ![0] bcast_S320000_S320000x1_0
    (select (cmpi .slt idx (broadcastInDim S320000 ![] bcast_S_S320000 (constantI S_ 32 0#32)))
      (addi idx (broadcastInDim S320000 ![] bcast_S_S320000 (constantI S_ 32 20000#32))) idx)

/-- Row by row, whether the index column's entry lies in [0, 19999]. -/
def takeMask (w : IVec S320000x1 32) : IVec S320000 1 :=
  Host.reduce IntOp.andi
    (andi (cmpi .sge w (broadcastInDim S320000x1 ![] bcast_S_S320000x1 (constantI S_ 32 0#32)))
      (cmpi .sle w (broadcastInDim S320000x1 ![0, 1] bcast_S1x1_S320000x1_0_1
        (broadcastInDim S1x1 ![1] bcast_S1_S1x1_1 (constantI S1 32 19999#32)))))
    (constantI S_ 1 1#1) reducesTo_S320000x1_S320000_d1 h_S_

/-- A fold by `and` from 1 over words that are all 1 is 1. -/
theorem fold_andi_ones {ι : Type} (S : Finset ι) (x : ι → BitVec 1) (b : BitVec 1) (hb : b = 1#1)
    (h : ∀ i ∈ S, x i = 1#1) : S.fold IntOp.andi b x = 1#1 := by
  classical
  induction S using Finset.induction_on with
  | empty => rw [Finset.fold_empty]; exact hb
  | insert a S ha ih =>
    rw [Finset.fold_insert ha, h a (Finset.mem_insert_self _ _), ih fun i hi => h i (Finset.mem_insert_of_mem hi)]
    rfl

/-- With every index a node number the index column is the index array itself. -/
theorem takeCol_apply (idx : IVec S320000 32) (h : InRange idx) (i : S320000x1.Idx) :
    takeCol idx i = idx (ix1 (i 0)) := by
  unfold takeCol
  refine (broadcastInDim_apply _ _ _ i (ix1 (i 0)) (fun a => match a with
    | ⟨0, _⟩ => by show (i 0).val = if (320000 : Nat) = 1 then 0 else (i 0).val; rw [if_neg (by decide)])).trans ?_
  show Scalar.select (IntOp.cmpi .slt (idx (ix1 (i 0))) 0#32) (IntOp.addi (idx (ix1 (i 0))) 20000#32) (idx (ix1 (i 0))) = _
  have hlt := h (i 0)
  have hz : IntOp.cmpi .slt (idx (ix1 (i 0))) 0#32 = 0#1 :=
    eq_zero_of_ne_one fun e => by
      have := (StableHlo.Predicate.slt_iff_toNat (a := idx (ix1 (i 0))) (b := 0#32) (by omega) (by decide)).mp e
      exact Nat.not_lt_zero _ this
  rw [hz, select_zero]

theorem takeCol_lt (idx : IVec S320000 32) (h : InRange idx) (i : S320000x1.Idx) : (takeCol idx i).toNat < 20000 := by
  rw [takeCol_apply idx h i]; exact h (i 0)

/-- An index column whose entries are all node numbers marks no row. -/
theorem takeMask_eq_one (w : IVec S320000x1 32) (hw : ∀ i, (w i).toNat < 20000) : takeMask w = fun _ => 1#1 := by
  funext j
  unfold takeMask
  rw [Host.reduce_eq_fold]
  refine fold_andi_ones _ _ _ rfl fun i _ => ?_
  show IntOp.andi (IntOp.cmpi .sge (w i) 0#32) (IntOp.cmpi .sle (w i) 19999#32) = 1#1
  have hi := hw i
  rw [(StableHlo.Predicate.sge_iff_toNat (a := w i) (b := 0#32) (by omega) (by decide)).mpr (Nat.zero_le _),
    (StableHlo.Predicate.sle_iff_toNat (a := w i) (b := 19999#32) (by omega) (by decide)).mpr (by show (w i).toNat ≤ 19999; omega)]
  rfl

/-- The marked look-up is the plain one when no row is marked, whatever the table's width. -/
theorem select_takeMask {α : Type} {t : Shape} (dims : Fin S320000.rank → Fin t.rank) (hb : S320000.BroadcastsInDim t dims)
    (w : IVec S320000x1 32) (hw : ∀ i, (w i).toNat < 20000) (a b : t.Idx → α) :
    select (broadcastInDim t dims hb (takeMask w)) a b = a := by
  rw [takeMask_eq_one w hw]
  funext i
  exact select_one _ _

/-- What the look-up into a 128-wide table leaves: the gathered rows, a marker where the mask is clear. -/
def take128 (x : Vec Ideal S20000x128 .f32) (idx : IVec S320000 32) : Vec Ideal S320000x128 .f32 :=
  select (broadcastInDim S320000x128 ![0] bcast_S320000_S320000x128_0 (takeMask (takeCol idx)))
    (Host.gather gather_S20000x128_S320000x1_S320000x128_1_0_n_n_0_1_1128 x (takeCol idx))
    (broadcastInDim S320000x128 ![] bcast_S_S320000x128 (constant (F := Ideal) S_ .f32 0x7FC00000#32))

/-- The same for a 3-wide table. -/
def take3 (x : Vec Ideal S20000x3 .f32) (idx : IVec S320000 32) : Vec Ideal S320000x3 .f32 :=
  select (broadcastInDim S320000x3 ![0] bcast_S320000_S320000x3_0 (takeMask (takeCol idx)))
    (Host.gather gather_S20000x3_S320000x1_S320000x3_1_0_n_n_0_1_13 x (takeCol idx))
    (broadcastInDim S320000x3 ![] bcast_S_S320000x3 (constant (F := Ideal) S_ .f32 0x7FC00000#32))

theorem take128_eq (x : Vec Ideal S20000x128 .f32) (idx : IVec S320000 32) (h : InRange idx) :
    take128 x idx = Host.gather gather_S20000x128_S320000x1_S320000x128_1_0_n_n_0_1_1128 x (takeCol idx) :=
  select_takeMask _ _ _ (takeCol_lt idx h) _ _

theorem take3_eq (x : Vec Ideal S20000x3 .f32) (idx : IVec S320000 32) (h : InRange idx) :
    take3 x idx = Host.gather gather_S20000x3_S320000x1_S320000x3_1_0_n_n_0_1_13 x (takeCol idx) :=
  select_takeMask _ _ _ (takeCol_lt idx h) _ _

/-! ## What each of the four look-up stretches writes, from any contents -/

section AfterTake
variable (V : Valuation τ sig (Elt Ideal))

set_option maxHeartbeats 2000000 in
theorem after0_v0 : (StableHlo.after hostOps0 V (Proc.devRef .tc main_v0) : Vec Ideal S320000x128 .f32)
    = take128 (V (Proc.devRef .tc main_arg0)) (V (Proc.devRef .tc main_arg4)) := by
  after_results_simp
  simp only [StableHlo.TRef.ofBuf, StableHlo.TRef.toBuf, cast_eq]
  rfl

set_option maxHeartbeats 2000000 in
theorem after1_v1 : (StableHlo.after hostOps0_1 V (Proc.devRef .tc main_v1) : Vec Ideal S320000x128 .f32)
    = take128 (V (Proc.devRef .tc main_arg1)) (V (Proc.devRef .tc main_arg5)) := by
  after_results_simp
  simp only [StableHlo.TRef.ofBuf, StableHlo.TRef.toBuf, cast_eq]
  rfl

set_option maxHeartbeats 2000000 in
theorem after2_v2 : (StableHlo.after hostOps0_2 V (Proc.devRef .tc main_v2) : Vec Ideal S320000x3 .f32)
    = take3 (V (Proc.devRef .tc main_arg2)) (V (Proc.devRef .tc main_arg4)) := by
  after_results_simp
  simp only [StableHlo.TRef.ofBuf, StableHlo.TRef.toBuf, cast_eq]
  rfl

set_option maxHeartbeats 2000000 in
theorem after3_v3 : (StableHlo.after hostOps0_3 V (Proc.devRef .tc main_v3) : Vec Ideal S320000x3 .f32)
    = take3 (V (Proc.devRef .tc main_arg3)) (V (Proc.devRef .tc main_arg5)) := by
  after_results_simp
  simp only [StableHlo.TRef.ofBuf, StableHlo.TRef.toBuf, cast_eq]
  rfl

end AfterTake

/-! ## The four gathered arrays at the edge launch, over the arguments

Each is written by one look-up stretch and by nothing after it; the stretch reads a table and an index array that
nothing before it writes. -/

theorem W5_v0 (c : Dev nD) : (V5 m ρ c main_v0 : Vec Ideal S320000x128 .f32) = take128 (m ((c.tc : Thread nD τ).loc main_arg0)) (m ((c.tc : Thread nD τ).loc main_arg4)) :=
  calc (V5 m ρ c main_v0 : Vec Ideal S320000x128 .f32)
    _ = W4 m ρ c (Proc.devRef .tc main_v0) := by unwritten hostOps0_4
    _ = W3 m ρ c (Proc.devRef .tc main_v0) := by unwritten hostOps0_3
    _ = W2 m ρ c (Proc.devRef .tc main_v0) := by unwritten hostOps0_2
    _ = W1 m ρ c (Proc.devRef .tc main_v0) := by unwritten hostOps0_1
    _ = _ := after0_v0 (W0 m ρ c)

theorem W1_arg1 (c : Dev nD) : W1 m ρ c (Proc.devRef .tc main_arg1) = (m ((c.tc : Thread nD τ).loc main_arg1)) := by unwritten hostOps0
theorem W1_arg5 (c : Dev nD) : W1 m ρ c (Proc.devRef .tc main_arg5) = (m ((c.tc : Thread nD τ).loc main_arg5)) := by unwritten hostOps0

theorem W5_v1 (c : Dev nD) : (V5 m ρ c main_v1 : Vec Ideal S320000x128 .f32) = take128 (m ((c.tc : Thread nD τ).loc main_arg1)) (m ((c.tc : Thread nD τ).loc main_arg5)) :=
  calc (V5 m ρ c main_v1 : Vec Ideal S320000x128 .f32)
    _ = W4 m ρ c (Proc.devRef .tc main_v1) := by unwritten hostOps0_4
    _ = W3 m ρ c (Proc.devRef .tc main_v1) := by unwritten hostOps0_3
    _ = W2 m ρ c (Proc.devRef .tc main_v1) := by unwritten hostOps0_2
    _ = take128 (W1 m ρ c (Proc.devRef .tc main_arg1)) (W1 m ρ c (Proc.devRef .tc main_arg5)) := after1_v1 (W1 m ρ c)
    _ = _ := by rw [W1_arg1, W1_arg5]

theorem W2_arg2 (c : Dev nD) : W2 m ρ c (Proc.devRef .tc main_arg2) = (m ((c.tc : Thread nD τ).loc main_arg2)) :=
  Eq.trans (by unwritten hostOps0_1) (by unwritten hostOps0)
theorem W2_arg4 (c : Dev nD) : W2 m ρ c (Proc.devRef .tc main_arg4) = (m ((c.tc : Thread nD τ).loc main_arg4)) :=
  Eq.trans (by unwritten hostOps0_1) (by unwritten hostOps0)

theorem W5_v2 (c : Dev nD) : (V5 m ρ c main_v2 : Vec Ideal S320000x3 .f32) = take3 (m ((c.tc : Thread nD τ).loc main_arg2)) (m ((c.tc : Thread nD τ).loc main_arg4)) :=
  calc (V5 m ρ c main_v2 : Vec Ideal S320000x3 .f32)
    _ = W4 m ρ c (Proc.devRef .tc main_v2) := by unwritten hostOps0_4
    _ = W3 m ρ c (Proc.devRef .tc main_v2) := by unwritten hostOps0_3
    _ = take3 (W2 m ρ c (Proc.devRef .tc main_arg2)) (W2 m ρ c (Proc.devRef .tc main_arg4)) := after2_v2 (W2 m ρ c)
    _ = _ := by rw [W2_arg2, W2_arg4]

theorem W3_arg3 (c : Dev nD) : W3 m ρ c (Proc.devRef .tc main_arg3) = (m ((c.tc : Thread nD τ).loc main_arg3)) :=
  Eq.trans (by unwritten hostOps0_2) (Eq.trans (by unwritten hostOps0_1) (by unwritten hostOps0))
theorem W3_arg5 (c : Dev nD) : W3 m ρ c (Proc.devRef .tc main_arg5) = (m ((c.tc : Thread nD τ).loc main_arg5)) :=
  Eq.trans (by unwritten hostOps0_2) (Eq.trans (by unwritten hostOps0_1) (by unwritten hostOps0))

theorem W5_v3 (c : Dev nD) : (V5 m ρ c main_v3 : Vec Ideal S320000x3 .f32) = take3 (m ((c.tc : Thread nD τ).loc main_arg3)) (m ((c.tc : Thread nD τ).loc main_arg5)) :=
  calc (V5 m ρ c main_v3 : Vec Ideal S320000x3 .f32)
    _ = W4 m ρ c (Proc.devRef .tc main_v3) := by unwritten hostOps0_4
    _ = take3 (W3 m ρ c (Proc.devRef .tc main_arg3)) (W3 m ρ c (Proc.devRef .tc main_arg5)) := after3_v3 (W3 m ρ c)
    _ = _ := by rw [W3_arg3, W3_arg5]

end KHost0

/-! ## The four gathered arrays -/

theorem v5_src_feat (c : Dev nD) (h4 : InRange ((m ((c.tc : Thread nD τ).loc main_arg4)) : IVec S320000 32)) :
    (V5 m ρ c main_v0 : Vec Ideal S320000x128 .f32) = Cert.ReferenceIdeal.ReadP.val_main_v24 (F := Ideal) (m ((c.tc : Thread nD τ).loc main_arg0)) (m ((c.tc : Thread nD τ).loc main_arg4)) := by
  rw [KHost0.W5_v0 m ρ c, KHost0.take128_eq _ _ h4]
  rfl
theorem v5_tgt_feat (c : Dev nD) (h5 : InRange ((m ((c.tc : Thread nD τ).loc main_arg5)) : IVec S320000 32)) :
    (V5 m ρ c main_v1 : Vec Ideal S320000x128 .f32) = Cert.ReferenceIdeal.ReadP.val_main_v31 (F := Ideal) (m ((c.tc : Thread nD τ).loc main_arg1)) (m ((c.tc : Thread nD τ).loc main_arg5)) := by
  rw [KHost0.W5_v1 m ρ c, KHost0.take128_eq _ _ h5]
  rfl
theorem v5_src_coord (c : Dev nD) (h4 : InRange ((m ((c.tc : Thread nD τ).loc main_arg4)) : IVec S320000 32)) :
    (V5 m ρ c main_v2 : Vec Ideal S320000x3 .f32) = Cert.ReferenceIdeal.ReadP.val_main_v13 (F := Ideal) (m ((c.tc : Thread nD τ).loc main_arg2)) (m ((c.tc : Thread nD τ).loc main_arg4)) := by
  rw [KHost0.W5_v2 m ρ c, KHost0.take3_eq _ _ h4]
  rfl
theorem v5_tgt_coord (c : Dev nD) (h5 : InRange ((m ((c.tc : Thread nD τ).loc main_arg5)) : IVec S320000 32)) :
    (V5 m ρ c main_v3 : Vec Ideal S320000x3 .f32) = Cert.ReferenceIdeal.ReadP.val_main_v6 (F := Ideal) (m ((c.tc : Thread nD τ).loc main_arg3)) (m ((c.tc : Thread nD τ).loc main_arg5)) := by
  rw [KHost0.W5_v3 m ρ c, KHost0.take3_eq _ _ h5]
  rfl

/-! ## The weights of the source-to-target network -/

theorem v5_s_w1_top (c : Dev nD) : allRows (V5 m ρ c main_v4 : Vec Ideal S128x128 .f32) = topRows (by omega) ((m ((c.tc : Thread nD τ).loc main_arg6)) : Vec Ideal S257x128 .f32) := by
  rw [KHost0.W5_v4 m ρ c]; exact KHost0.slice_top _ _
theorem v5_s_w1_next (c : Dev nD) : allRows (V5 m ρ c main_v5 : Vec Ideal S128x128 .f32) = nextRows (by omega) ((m ((c.tc : Thread nD τ).loc main_arg6)) : Vec Ideal S257x128 .f32) := by
  rw [KHost0.W5_v5 m ρ c]; exact KHost0.slice_next _ _
theorem v5_s_w1_last (c : Dev nD) : rowOf (V5 m ρ c main_v6 : Vec Ideal S1x128 .f32) 0 = lastRow ((m ((c.tc : Thread nD τ).loc main_arg6)) : Vec Ideal S257x128 .f32) := by
  rw [KHost0.W5_v6 m ρ c]; exact KHost0.slice_last _ _
theorem v5_s_b1 (c : Dev nD) : rowOf (V5 m ρ c main_v10 : Vec Ideal S1x128 .f32) 0 = vecRow ((m ((c.tc : Thread nD τ).loc main_arg7)) : Vec Ideal S128 .f32) := by
  rw [KHost0.W5_v10 m ρ c]; exact KHost0.reshape_row _ _
theorem v5_s_w2 (c : Dev nD) : (V5 m ρ c main_arg8 : Vec Ideal S128x128 .f32) = (m ((c.tc : Thread nD τ).loc main_arg8)) := by
  exact KHost0.W5_arg8 m ρ c
theorem v5_s_b2 (c : Dev nD) : rowOf (V5 m ρ c main_v11 : Vec Ideal S1x128 .f32) 0 = vecRow ((m ((c.tc : Thread nD τ).loc main_arg9)) : Vec Ideal S128 .f32) := by
  rw [KHost0.W5_v11 m ρ c]; exact KHost0.reshape_row _ _
theorem v5_s_wg (c : Dev nD) : (V5 m ρ c main_arg14 : Vec Ideal S128x1 .f32) = (m ((c.tc : Thread nD τ).loc main_arg14)) := by
  exact KHost0.W5_arg14 m ρ c
theorem v5_s_bg (c : Dev nD) : (V5 m ρ c main_v14 : Vec Ideal S1x1 .f32) (ix2 0 0) = ((m ((c.tc : Thread nD τ).loc main_arg15)) : Vec Ideal S1 .f32) (ix1 0) := by
  rw [KHost0.W5_v14 m ρ c]; exact KHost0.reshape_one _ _

/-! ## The weights of the target-to-source network -/

theorem v5_t_w1_top (c : Dev nD) : allRows (V5 m ρ c main_v7 : Vec Ideal S128x128 .f32) = topRows (by omega) ((m ((c.tc : Thread nD τ).loc main_arg10)) : Vec Ideal S257x128 .f32) := by
  rw [KHost0.W5_v7 m ρ c]; exact KHost0.slice_top _ _
theorem v5_t_w1_next (c : Dev nD) : allRows (V5 m ρ c main_v8 : Vec Ideal S128x128 .f32) = nextRows (by omega) ((m ((c.tc : Thread nD τ).loc main_arg10)) : Vec Ideal S257x128 .f32) := by
  rw [KHost0.W5_v8 m ρ c]; exact KHost0.slice_next _ _
theorem v5_t_w1_last (c : Dev nD) : rowOf (V5 m ρ c main_v9 : Vec Ideal S1x128 .f32) 0 = lastRow ((m ((c.tc : Thread nD τ).loc main_arg10)) : Vec Ideal S257x128 .f32) := by
  rw [KHost0.W5_v9 m ρ c]; exact KHost0.slice_last _ _
theorem v5_t_b1 (c : Dev nD) : rowOf (V5 m ρ c main_v12 : Vec Ideal S1x128 .f32) 0 = vecRow ((m ((c.tc : Thread nD τ).loc main_arg11)) : Vec Ideal S128 .f32) := by
  rw [KHost0.W5_v12 m ρ c]; exact KHost0.reshape_row _ _
theorem v5_t_w2 (c : Dev nD) : (V5 m ρ c main_arg12 : Vec Ideal S128x128 .f32) = (m ((c.tc : Thread nD τ).loc main_arg12)) := by
  exact KHost0.W5_arg12 m ρ c
theorem v5_t_b2 (c : Dev nD) : rowOf (V5 m ρ c main_v13 : Vec Ideal S1x128 .f32) 0 = vecRow ((m ((c.tc : Thread nD τ).loc main_arg13)) : Vec Ideal S128 .f32) := by
  rw [KHost0.W5_v13 m ρ c]; exact KHost0.reshape_row _ _
theorem v5_t_wg (c : Dev nD) : (V5 m ρ c main_arg16 : Vec Ideal S128x1 .f32) = (m ((c.tc : Thread nD τ).loc main_arg16)) := by
  exact KHost0.W5_arg16 m ρ c
theorem v5_t_bg (c : Dev nD) : (V5 m ρ c main_v15 : Vec Ideal S1x1 .f32) (ix2 0 0) = ((m ((c.tc : Thread nD τ).loc main_arg17)) : Vec Ideal S1 .f32) (ix1 0) := by
  rw [KHost0.W5_v15 m ρ c]; exact KHost0.reshape_one _ _

/-! ## The weights of the coordinate network -/

theorem v5_wc1 (c : Dev nD) : (V5 m ρ c main_arg18 : Vec Ideal S128x128 .f32) = (m ((c.tc : Thread nD τ).loc main_arg18)) := by
  exact KHost0.W5_arg18 m ρ c
theorem v5_bc1 (c : Dev nD) : rowOf (V5 m ρ c main_v16 : Vec Ideal S1x128 .f32) 0 = vecRow ((m ((c.tc : Thread nD τ).loc main_arg19)) : Vec Ideal S128 .f32) := by
  rw [KHost0.W5_v16 m ρ c]; exact KHost0.reshape_row _ _
theorem v5_wc2 (c : Dev nD) : (V5 m ρ c main_arg20 : Vec Ideal S128x1 .f32) = (m ((c.tc : Thread nD τ).loc main_arg20)) := by
  exact KHost0.W5_arg20 m ρ c

end Cert.Bridge

end
-- ==== Proof.KHost1.lean ====
/-
  The arrays the two node launches are entered with, and the coordinate result, as functions of the program's
  arguments and of the three arrays the edge launch left.

  Between the edge launch and the node launches the program sums the two message arrays and the weighted
  translations into node rows (scatter-adds by the edge-index arrays), counts the edges per target node, finishes
  the coordinates, cuts the two 256-row node weights into halves and reshapes the biases. None of these steps is
  opened here: each aggregated array is the reference's own aggregation function applied to what the edge launch
  left, and the coordinate result its coordinate-update function.
-/
import proofs.«426544_j11063835754636_1_alg».proof.Proof.Gen.KernelIdeal.Frame
import proofs.«426544_j11063835754636_1_alg».proof.Proof.RefRun
import proofs.«426544_j11063835754636_1_alg».proof.Proof.RefTail
import proofs.«426544_j11063835754636_1_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Run

set_option maxRecDepth 16384
set_option Elab.async false

noncomputable section

namespace Cert.Bridge

open Idealize.ShloMosaic Idealize.ShloMosaic.TcCoe Idealize.ShloMosaic.ValueIdx Idealize.SL.Sem
open Cert.KernelIdeal Cert.KernelIdeal.Gen
open scoped BigOperators

variable (m : (ℓ : Loc nD τ sig) → Buf (Elt Ideal) ℓ) (ρ : Dev nD → PrngReg)

/-! ## The arguments right after the edge launch

No host operation after the edge launch writes an argument's buffer, and neither node launch does, so what such a
buffer holds right after the edge launch is what it holds at the end of the program: what it was launched with. -/

theorem w6_arg3 (c : Dev nD) : W6 m ρ c (Proc.devRef .tc main_arg3) = m ((c : Thread nD τ).loc main_arg3) :=
  calc W6 m ρ c (Proc.devRef .tc main_arg3)
    _ = W9 m ρ c (Proc.devRef .tc main_arg3) := Eq.symm (by
          show StableHlo.after hostOps1_2 (W8 m ρ c) (Proc.devRef .tc main_arg3) = _
          after_results)
    _ = W10 m ρ c (Proc.devRef .tc main_arg3) := (W10_of_ne m ρ c main_arg3 (by decide)).symm
    _ = W11 m ρ c (Proc.devRef .tc main_arg3) := (W11_of_ne m ρ c main_arg3 (by decide)).symm
    _ = m ((c : Thread nD τ).loc main_arg3) := W11_main_arg3 m ρ c

theorem w6_arg4 (c : Dev nD) : W6 m ρ c (Proc.devRef .tc main_arg4) = m ((c : Thread nD τ).loc main_arg4) :=
  calc W6 m ρ c (Proc.devRef .tc main_arg4)
    _ = W9 m ρ c (Proc.devRef .tc main_arg4) := Eq.symm (by
          show StableHlo.after hostOps1_2 (W8 m ρ c) (Proc.devRef .tc main_arg4) = _
          after_results)
    _ = W10 m ρ c (Proc.devRef .tc main_arg4) := (W10_of_ne m ρ c main_arg4 (by decide)).symm
    _ = W11 m ρ c (Proc.devRef .tc main_arg4) := (W11_of_ne m ρ c main_arg4 (by decide)).symm
    _ = m ((c : Thread nD τ).loc main_arg4) := W11_main_arg4 m ρ c

theorem w6_arg5 (c : Dev nD) : W6 m ρ c (Proc.devRef .tc main_arg5) = m ((c : Thread nD τ).loc main_arg5) :=
  calc W6 m ρ c (Proc.devRef .tc main_arg5)
    _ = W9 m ρ c (Proc.devRef .tc main_arg5) := Eq.symm (by
          show StableHlo.after hostOps1_2 (W8 m ρ c) (Proc.devRef .tc main_arg5) = _
          after_results)
    _ = W10 m ρ c (Proc.devRef .tc main_arg5) := (W10_of_ne m ρ c main_arg5 (by decide)).symm
    _ = W11 m ρ c (Proc.devRef .tc main_arg5) := (W11_of_ne m ρ c main_arg5 (by decide)).symm
    _ = m ((c : Thread nD τ).loc main_arg5) := W11_main_arg5 m ρ c

theorem w6_arg21 (c : Dev nD) : W6 m ρ c (Proc.devRef .tc main_arg21) = m ((c : Thread nD τ).loc main_arg21) :=
  calc W6 m ρ c (Proc.devRef .tc main_arg21)
    _ = W9 m ρ c (Proc.devRef .tc main_arg21) := Eq.symm (by
          show StableHlo.after hostOps1_2 (W8 m ρ c) (Proc.devRef .tc main_arg21) = _
          after_results)
    _ = W10 m ρ c (Proc.devRef .tc main_arg21) := (W10_of_ne m ρ c main_arg21 (by decide)).symm
    _ = W11 m ρ c (Proc.devRef .tc main_arg21) := (W11_of_ne m ρ c main_arg21 (by decide)).symm
    _ = m ((c : Thread nD τ).loc main_arg21) := W11_main_arg21 m ρ c

theorem w6_arg22 (c : Dev nD) : W6 m ρ c (Proc.devRef .tc main_arg22) = m ((c : Thread nD τ).loc main_arg22) :=
  calc W6 m ρ c (Proc.devRef .tc main_arg22)
    _ = W9 m ρ c (Proc.devRef .tc main_arg22) := Eq.symm (by
          show StableHlo.after hostOps1_2 (W8 m ρ c) (Proc.devRef .tc main_arg22) = _
          after_results)
    _ = W10 m ρ c (Proc.devRef .tc main_arg22) := (W10_of_ne m ρ c main_arg22 (by decide)).symm
    _ = W11 m ρ c (Proc.devRef .tc main_arg22) := (W11_of_ne m ρ c main_arg22 (by decide)).symm
    _ = m ((c : Thread nD τ).loc main_arg22) := W11_main_arg22 m ρ c

theorem w6_arg24 (c : Dev nD) : W6 m ρ c (Proc.devRef .tc main_arg24) = m ((c : Thread nD τ).loc main_arg24) :=
  calc W6 m ρ c (Proc.devRef .tc main_arg24)
    _ = W9 m ρ c (Proc.devRef .tc main_arg24) := Eq.symm (by
          show StableHlo.after hostOps1_2 (W8 m ρ c) (Proc.devRef .tc main_arg24) = _
          after_results)
    _ = W10 m ρ c (Proc.devRef .tc main_arg24) := (W10_of_ne m ρ c main_arg24 (by decide)).symm
    _ = W11 m ρ c (Proc.devRef .tc main_arg24) := (W11_of_ne m ρ c main_arg24 (by decide)).symm
    _ = m ((c : Thread nD τ).loc main_arg24) := W11_main_arg24 m ρ c

theorem w6_arg25 (c : Dev nD) : W6 m ρ c (Proc.devRef .tc main_arg25) = m ((c : Thread nD τ).loc main_arg25) :=
  calc W6 m ρ c (Proc.devRef .tc main_arg25)
    _ = W9 m ρ c (Proc.devRef .tc main_arg25) := Eq.symm (by
          show StableHlo.after hostOps1_2 (W8 m ρ c) (Proc.devRef .tc main_arg25) = _
          after_results)
    _ = W10 m ρ c (Proc.devRef .tc main_arg25) := (W10_of_ne m ρ c main_arg25 (by decide)).symm
    _ = W11 m ρ c (Proc.devRef .tc main_arg25) := (W11_of_ne m ρ c main_arg25 (by decide)).symm
    _ = m ((c : Thread nD τ).loc main_arg25) := W11_main_arg25 m ρ c

theorem w6_arg26 (c : Dev nD) : W6 m ρ c (Proc.devRef .tc main_arg26) = m ((c : Thread nD τ).loc main_arg26) :=
  calc W6 m ρ c (Proc.devRef .tc main_arg26)
    _ = W9 m ρ c (Proc.devRef .tc main_arg26) := Eq.symm (by
          show StableHlo.after hostOps1_2 (W8 m ρ c) (Proc.devRef .tc main_arg26) = _
          after_results)
    _ = W10 m ρ c (Proc.devRef .tc main_arg26) := (W10_of_ne m ρ c main_arg26 (by decide)).symm
    _ = W11 m ρ c (Proc.devRef .tc main_arg26) := (W11_of_ne m ρ c main_arg26 (by decide)).symm
    _ = m ((c : Thread nD τ).loc main_arg26) := W11_main_arg26 m ρ c

theorem w6_arg28 (c : Dev nD) : W6 m ρ c (Proc.devRef .tc main_arg28) = m ((c : Thread nD τ).loc main_arg28) :=
  calc W6 m ρ c (Proc.devRef .tc main_arg28)
    _ = W9 m ρ c (Proc.devRef .tc main_arg28) := Eq.symm (by
          show StableHlo.after hostOps1_2 (W8 m ρ c) (Proc.devRef .tc main_arg28) = _
          after_results)
    _ = W10 m ρ c (Proc.devRef .tc main_arg28) := (W10_of_ne m ρ c main_arg28 (by decide)).symm
    _ = W11 m ρ c (Proc.devRef .tc main_arg28) := (W11_of_ne m ρ c main_arg28 (by decide)).symm
    _ = m ((c : Thread nD τ).loc main_arg28) := W11_main_arg28 m ρ c

/-! ## A weight's halves and a bias's row, read at an index -/

/-- Rows 0–127 of a 256-row weight, cut out as an array of their own, are its upper rows. -/
theorem allRows_slice_top (W : Vec Ideal S256x128 .f32) :
    allRows (extractStridedSlice S128x128 ![0, 0] W slices_S256x128_S128x128_0_0) = topRows (by omega) W := by
  funext k q
  exact slice2_axis0_apply 0 _ _ k q _ (by simp)

/-- Rows 128–255 of a 256-row weight, cut out as an array of their own, are its lower rows. -/
theorem allRows_slice_next (W : Vec Ideal S256x128 .f32) :
    allRows (extractStridedSlice S128x128 ![128, 0] W slices_S256x128_S128x128_128_0) = nextRows (by omega) W := by
  funext k q
  exact slice2_axis0_apply 128 _ _ k q _ (by simp)

/-- A 128-vector recast as a one-row array has that vector as its row. -/
theorem rowOf_reshape (b : Vec Ideal S128 .f32) :
    rowOf (shapeCast S1x128 b shapeCasts_S128_S1x128) 0 = vecRow b := by
  funext q
  exact shapeCast_a_1a_apply _ _ 0 q

/-! ## The first node launch (target nodes) -/

theorem v9_feat (c : Dev nD) : (V9 m ρ c main_arg1 : Vec Ideal S20000x128 .f32) = (m ((c.tc : Thread nD τ).loc main_arg1)) :=
  calc W9 m ρ c (Proc.devRef .tc main_arg1)
    _ = W10 m ρ c (Proc.devRef .tc main_arg1) := ((W10_arr m ρ c 0).trans (((dat1 (V9 m ρ) c).arrAt_in 0 rfl _).trans (A_eq1 (V9 m ρ) c 0))).symm
    _ = W11 m ρ c (Proc.devRef .tc main_arg1) := (W11_of_ne m ρ c main_arg1 (by decide)).symm
    _ = m ((c : Thread nD τ).loc main_arg1) := W11_main_arg1 m ρ c
theorem v9_w1_top (c : Dev nD) : allRows (V9 m ρ c main_v38 : Vec Ideal S128x128 .f32) = topRows (by omega) ((m ((c.tc : Thread nD τ).loc main_arg21)) : Vec Ideal S256x128 .f32) := by
  have e : W9 m ρ c (Proc.devRef .tc main_v38)
      = extractStridedSlice S128x128 ![0, 0] ((m ((c.tc : Thread nD τ).loc main_arg21)) : Vec Ideal S256x128 .f32) slices_S256x128_S128x128_0_0 := by
    show StableHlo.after hostOps1_2 (W8 m ρ c) (Proc.devRef .tc main_v38) = _
    after_results
    rw [w6_arg21]
  exact (congrArg allRows e).trans (allRows_slice_top _)
theorem v9_w1_next (c : Dev nD) : allRows (V9 m ρ c main_v39 : Vec Ideal S128x128 .f32) = nextRows (by omega) ((m ((c.tc : Thread nD τ).loc main_arg21)) : Vec Ideal S256x128 .f32) := by
  have e : W9 m ρ c (Proc.devRef .tc main_v39)
      = extractStridedSlice S128x128 ![128, 0] ((m ((c.tc : Thread nD τ).loc main_arg21)) : Vec Ideal S256x128 .f32) slices_S256x128_S128x128_128_0 := by
    show StableHlo.after hostOps1_2 (W8 m ρ c) (Proc.devRef .tc main_v39) = _
    after_results
    rw [w6_arg21]
  exact (congrArg allRows e).trans (allRows_slice_next _)
theorem v9_b1 (c : Dev nD) : rowOf (V9 m ρ c main_v42 : Vec Ideal S1x128 .f32) 0 = vecRow ((m ((c.tc : Thread nD τ).loc main_arg22)) : Vec Ideal S128 .f32) := by
  have e : W9 m ρ c (Proc.devRef .tc main_v42)
      = shapeCast S1x128 ((m ((c.tc : Thread nD τ).loc main_arg22)) : Vec Ideal S128 .f32) shapeCasts_S128_S1x128 := by
    show StableHlo.after hostOps1_2 (W8 m ρ c) (Proc.devRef .tc main_v42) = _
    after_results
    rw [w6_arg22]
    rfl
  exact (congrArg (fun x : Vec Ideal S1x128 .f32 => rowOf x 0) e).trans (rowOf_reshape _)
theorem v9_w2 (c : Dev nD) : (V9 m ρ c main_arg23 : Vec Ideal S128x128 .f32) = (m ((c.tc : Thread nD τ).loc main_arg23)) :=
  calc W9 m ρ c (Proc.devRef .tc main_arg23)
    _ = W10 m ρ c (Proc.devRef .tc main_arg23) := ((W10_arr m ρ c 5).trans (((dat1 (V9 m ρ) c).arrAt_in 5 rfl _).trans (A_eq1 (V9 m ρ) c 5))).symm
    _ = W11 m ρ c (Proc.devRef .tc main_arg23) := (W11_of_ne m ρ c main_arg23 (by decide)).symm
    _ = m ((c : Thread nD τ).loc main_arg23) := W11_main_arg23 m ρ c
theorem v9_b2 (c : Dev nD) : rowOf (V9 m ρ c main_v43 : Vec Ideal S1x128 .f32) 0 = vecRow ((m ((c.tc : Thread nD τ).loc main_arg24)) : Vec Ideal S128 .f32) := by
  have e : W9 m ρ c (Proc.devRef .tc main_v43)
      = shapeCast S1x128 ((m ((c.tc : Thread nD τ).loc main_arg24)) : Vec Ideal S128 .f32) shapeCasts_S128_S1x128 := by
    show StableHlo.after hostOps1_2 (W8 m ρ c) (Proc.devRef .tc main_v43) = _
    after_results
    rw [w6_arg24]
    rfl
  exact (congrArg (fun x : Vec Ideal S1x128 .f32 => rowOf x 0) e).trans (rowOf_reshape _)

theorem v9_agg (c : Dev nD) :
    (V9 m ρ c main_v20 : Vec Ideal S20000x128 .f32) = aggTgt (m ((c.tc : Thread nD τ).loc main_arg5)) (V6 m ρ c main_v17_0 : Vec Ideal S320000x128 .f32) := by
  show StableHlo.after hostOps1_2 (W8 m ρ c) (Proc.devRef .tc main_v20) = _
  after_results
  rw [w6_arg5]
  unfold aggTgt Cert.ReferenceIdeal.ReadP.val_main_v99 Cert.ReferenceIdeal.ReadP.val_main_v100 Cert.ReferenceIdeal.ReadP.val_main_cst_17
  rfl

/-! ## The second node launch (source nodes) -/

theorem v10_feat (c : Dev nD) : (V10 m ρ c main_arg0 : Vec Ideal S20000x128 .f32) = (m ((c.tc : Thread nD τ).loc main_arg0)) :=
  calc W10 m ρ c (Proc.devRef .tc main_arg0)
    _ = W11 m ρ c (Proc.devRef .tc main_arg0) := ((W11_arr m ρ c 0).trans (((dat2 (V10 m ρ) c).arrAt_in 0 rfl _).trans (A_eq2 (V10 m ρ) c 0))).symm
    _ = m ((c : Thread nD τ).loc main_arg0) := W11_main_arg0 m ρ c
theorem v10_w1_top (c : Dev nD) : allRows (V10 m ρ c main_v40 : Vec Ideal S128x128 .f32) = topRows (by omega) ((m ((c.tc : Thread nD τ).loc main_arg25)) : Vec Ideal S256x128 .f32) := by
  have e : W9 m ρ c (Proc.devRef .tc main_v40)
      = extractStridedSlice S128x128 ![0, 0] ((m ((c.tc : Thread nD τ).loc main_arg25)) : Vec Ideal S256x128 .f32) slices_S256x128_S128x128_0_0 := by
    show StableHlo.after hostOps1_2 (W8 m ρ c) (Proc.devRef .tc main_v40) = _
    after_results
    rw [w6_arg25]
  refine (congrArg allRows (W10_of_ne m ρ c main_v40 (by decide))).trans ?_
  exact (congrArg allRows e).trans (allRows_slice_top _)
theorem v10_w1_next (c : Dev nD) : allRows (V10 m ρ c main_v41 : Vec Ideal S128x128 .f32) = nextRows (by omega) ((m ((c.tc : Thread nD τ).loc main_arg25)) : Vec Ideal S256x128 .f32) := by
  have e : W9 m ρ c (Proc.devRef .tc main_v41)
      = extractStridedSlice S128x128 ![128, 0] ((m ((c.tc : Thread nD τ).loc main_arg25)) : Vec Ideal S256x128 .f32) slices_S256x128_S128x128_128_0 := by
    show StableHlo.after hostOps1_2 (W8 m ρ c) (Proc.devRef .tc main_v41) = _
    after_results
    rw [w6_arg25]
  refine (congrArg allRows (W10_of_ne m ρ c main_v41 (by decide))).trans ?_
  exact (congrArg allRows e).trans (allRows_slice_next _)
theorem v10_b1 (c : Dev nD) : rowOf (V10 m ρ c main_v44 : Vec Ideal S1x128 .f32) 0 = vecRow ((m ((c.tc : Thread nD τ).loc main_arg26)) : Vec Ideal S128 .f32) := by
  have e : W9 m ρ c (Proc.devRef .tc main_v44)
      = shapeCast S1x128 ((m ((c.tc : Thread nD τ).loc main_arg26)) : Vec Ideal S128 .f32) shapeCasts_S128_S1x128 := by
    show StableHlo.after hostOps1_2 (W8 m ρ c) (Proc.devRef .tc main_v44) = _
    after_results
    rw [w6_arg26]
    rfl
  refine (congrArg (fun x : Vec Ideal S1x128 .f32 => rowOf x 0) (W10_of_ne m ρ c main_v44 (by decide))).trans ?_
  exact (congrArg (fun x : Vec Ideal S1x128 .f32 => rowOf x 0) e).trans (rowOf_reshape _)
theorem v10_w2 (c : Dev nD) : (V10 m ρ c main_arg27 : Vec Ideal S128x128 .f32) = (m ((c.tc : Thread nD τ).loc main_arg27)) :=
  calc W10 m ρ c (Proc.devRef .tc main_arg27)
    _ = W11 m ρ c (Proc.devRef .tc main_arg27) := ((W11_arr m ρ c 5).trans (((dat2 (V10 m ρ) c).arrAt_in 5 rfl _).trans (A_eq2 (V10 m ρ) c 5))).symm
    _ = m ((c : Thread nD τ).loc main_arg27) := W11_main_arg27 m ρ c
theorem v10_b2 (c : Dev nD) : rowOf (V10 m ρ c main_v45 : Vec Ideal S1x128 .f32) 0 = vecRow ((m ((c.tc : Thread nD τ).loc main_arg28)) : Vec Ideal S128 .f32) := by
  have e : W9 m ρ c (Proc.devRef .tc main_v45)
      = shapeCast S1x128 ((m ((c.tc : Thread nD τ).loc main_arg28)) : Vec Ideal S128 .f32) shapeCasts_S128_S1x128 := by
    show StableHlo.after hostOps1_2 (W8 m ρ c) (Proc.devRef .tc main_v45) = _
    after_results
    rw [w6_arg28]
    rfl
  refine (congrArg (fun x : Vec Ideal S1x128 .f32 => rowOf x 0) (W10_of_ne m ρ c main_v45 (by decide))).trans ?_
  exact (congrArg (fun x : Vec Ideal S1x128 .f32 => rowOf x 0) e).trans (rowOf_reshape _)

theorem v10_agg (c : Dev nD) :
    (V10 m ρ c main_v23 : Vec Ideal S20000x128 .f32) = aggSrc (m ((c.tc : Thread nD τ).loc main_arg4)) (V6 m ρ c main_v17_1 : Vec Ideal S320000x128 .f32) := by
  refine (W10_of_ne m ρ c main_v23 (by decide)).trans ?_
  show StableHlo.after hostOps1_2 (W8 m ρ c) (Proc.devRef .tc main_v23) = _
  after_results
  rw [w6_arg4]
  unfold aggSrc Cert.ReferenceIdeal.ReadP.val_main_v102 Cert.ReferenceIdeal.ReadP.val_main_v103 Cert.ReferenceIdeal.ReadP.val_main_cst_18
  rfl

/-! ## The coordinate result, and the returned argument -/

theorem v11_coord (c : Dev nD) :
    (V11 m ρ c main_v37 : Vec Ideal S20000x3 .f32) = coordTail (m ((c.tc : Thread nD τ).loc main_arg3)) (m ((c.tc : Thread nD τ).loc main_arg5)) (V6 m ρ c main_v17_2 : Vec Ideal S320000x3 .f32) := by
  refine ((W11_of_ne m ρ c main_v37 (by decide)).trans (W10_of_ne m ρ c main_v37 (by decide))).trans ?_
  show StableHlo.after hostOps1_2 (W8 m ρ c) (Proc.devRef .tc main_v37) = _
  after_results_simp
  rw [w6_arg3, w6_arg5]
  unfold coordTail Cert.ReferenceIdeal.ReadP.val_main_call5_v4 Cert.ReferenceIdeal.ReadP.val_main_call5_v3 Cert.ReferenceIdeal.ReadP.val_main_cst_16 Cert.ReferenceIdeal.ReadP.val_main_call5_v1 Cert.ReferenceIdeal.ReadP.val_main_call5_v0
    Cert.ReferenceIdeal.ReadP.val_main_cst_15 Cert.ReferenceIdeal.ReadP.val_main_v85 Cert.ReferenceIdeal.ReadP.val_main_cst_11 Cert.ReferenceIdeal.ReadP.val_main_v86 Cert.ReferenceIdeal.ReadP.val_main_v95 Cert.ReferenceIdeal.ReadP.val_main_v94 Cert.ReferenceIdeal.ReadP.val_main_v93
    Cert.ReferenceIdeal.ReadP.val_main_v91 Cert.ReferenceIdeal.ReadP.val_main_v89 Cert.ReferenceIdeal.ReadP.val_main_cst_13 Cert.ReferenceIdeal.ReadP.val_main_v90 Cert.ReferenceIdeal.ReadP.val_main_v88 Cert.ReferenceIdeal.ReadP.val_main_cst_12 Cert.ReferenceIdeal.ReadP.val_main_v92
    Cert.ReferenceIdeal.ReadP.val_main_cst_14
  rfl

end Cert.Bridge

end
-- ==== Proof.KTop.lean ====
/-
  The kernel program's four results as functions of its arguments: each is the reference's own staged function
  of the same arguments.

  The chain, per result: the run's final contents at a result buffer are what the launch that wrote it left; that
  array is a row function of the arrays the launch was entered with; those are, through the host steps before the
  launch, functions of the arguments and (for the node launches and the coordinates) of the edge launch's three
  arrays; the edge launch's arrays are, row by row, the specification's edge functions of the gathered rows; and
  the reference's staged message arrays are the same row functions of the same gathered rows. The aggregations and
  the coordinate update are carried as the one function both programs apply.
-/
import proofs.«426544_j11063835754636_1_alg».proof.Proof.Gen.KernelIdeal.Frame
import proofs.«426544_j11063835754636_1_alg».proof.Proof.RefRun
import proofs.«426544_j11063835754636_1_alg».proof.Proof.RefTail
import proofs.«426544_j11063835754636_1_alg».proof.Proof.RefS2T
import proofs.«426544_j11063835754636_1_alg».proof.Proof.RefT2S
import proofs.«426544_j11063835754636_1_alg».proof.Proof.RefWT
import proofs.«426544_j11063835754636_1_alg».proof.Proof.RefNode
import proofs.«426544_j11063835754636_1_alg».proof.Proof.EdgeRegion
import proofs.«426544_j11063835754636_1_alg».proof.Proof.NodeRegion
import proofs.«426544_j11063835754636_1_alg».proof.Proof.KHost0
import proofs.«426544_j11063835754636_1_alg».proof.Proof.KHost1
import proofs.«426544_j11063835754636_1_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.Bridge

open Idealize.ShloMosaic Idealize.ShloMosaic.TcCoe Idealize.ShloMosaic.ValueIdx Idealize.SL.Sem
open Cert.KernelIdeal Cert.KernelIdeal.Gen
open scoped BigOperators

variable (m : (ℓ : Loc nD τ sig) → Buf (Elt Ideal) ℓ) (ρ : Dev nD → PrngReg)

/-- The edge launch leaves the reference's gated source-to-target message array: the launch's array is the row
    function of the arrays it was entered with; those are the reference's gathers and the arguments' weight rows;
    and the reference's staged array is the same row function of the same rows. -/
theorem k_s2t (c : Dev nD) (h4 : InRange ((m ((c.tc : Thread nD τ).loc main_arg4)) : IVec S320000 32)) (h5 : InRange ((m ((c.tc : Thread nD τ).loc main_arg5)) : IVec S320000 32)) :
    (V6 m ρ c main_v17_0 : Vec Ideal S320000x128 .f32) = Cert.ReferenceIdeal.ReadP.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) := by
  have hE : (V6 m ρ c main_v17_0 : Vec Ideal S320000x128 .f32) = (dat0 (F := Ideal) (V5 m ρ) c).arrAt 23 cfg0.N :=
    W6_arr m ρ c 23
  rw [hE, edge_s2t_arr (V5 m ρ) c, v5_src_feat m ρ c h4, v5_tgt_feat m ρ c h5, v5_src_coord m ρ c h4, v5_tgt_coord m ρ c h5,
    v5_s_w1_top m ρ c, v5_s_w1_next m ρ c, v5_s_w1_last m ρ c, v5_s_b1 m ρ c, v5_s_w2 m ρ c, v5_s_b2 m ρ c, v5_s_wg m ρ c,
    v5_s_bg m ρ c]
  funext i
  have hr := ref_s2t (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) (i 0) (i 1)
  exact ((congrArg (Cert.ReferenceIdeal.ReadP.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15))) (eq_ix2 i)).trans hr).symm

/-- The edge launch leaves the reference's gated target-to-source message array. -/
theorem k_t2s (c : Dev nD) (h4 : InRange ((m ((c.tc : Thread nD τ).loc main_arg4)) : IVec S320000 32)) (h5 : InRange ((m ((c.tc : Thread nD τ).loc main_arg5)) : IVec S320000 32)) :
    (V6 m ρ c main_v17_1 : Vec Ideal S320000x128 .f32) = Cert.ReferenceIdeal.ReadP.val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg16)) (m ((c.tc : Thread nD τ).loc main_arg17)) := by
  have hE : (V6 m ρ c main_v17_1 : Vec Ideal S320000x128 .f32) = (dat0 (F := Ideal) (V5 m ρ) c).arrAt 24 cfg0.N :=
    W6_arr m ρ c 24
  rw [hE, edge_t2s_arr (V5 m ρ) c, v5_src_feat m ρ c h4, v5_tgt_feat m ρ c h5, v5_src_coord m ρ c h4, v5_tgt_coord m ρ c h5,
    v5_t_w1_top m ρ c, v5_t_w1_next m ρ c, v5_t_w1_last m ρ c, v5_t_b1 m ρ c, v5_t_w2 m ρ c, v5_t_b2 m ρ c, v5_t_wg m ρ c,
    v5_t_bg m ρ c]
  funext i
  have hr := ref_t2s (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg16)) (m ((c.tc : Thread nD τ).loc main_arg17)) (i 0) (i 1)
  exact ((congrArg (Cert.ReferenceIdeal.ReadP.val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg16)) (m ((c.tc : Thread nD τ).loc main_arg17))) (eq_ix2 i)).trans hr).symm

/-- The edge launch leaves the reference's weighted-translation array: the coordinate weight is taken of the same
    gated message row on both sides. -/
theorem k_wt (c : Dev nD) (h4 : InRange ((m ((c.tc : Thread nD τ).loc main_arg4)) : IVec S320000 32)) (h5 : InRange ((m ((c.tc : Thread nD τ).loc main_arg5)) : IVec S320000 32)) :
    (V6 m ρ c main_v17_2 : Vec Ideal S320000x3 .f32) = Cert.ReferenceIdeal.ReadP.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) (m ((c.tc : Thread nD τ).loc main_arg18)) (m ((c.tc : Thread nD τ).loc main_arg19)) (m ((c.tc : Thread nD τ).loc main_arg20)) := by
  have hE : (V6 m ρ c main_v17_2 : Vec Ideal S320000x3 .f32) = (dat0 (F := Ideal) (V5 m ρ) c).arrAt 25 cfg0.N :=
    W6_arr m ρ c 25
  rw [hE, edge_wt_arr (V5 m ρ) c, v5_src_feat m ρ c h4, v5_tgt_feat m ρ c h5, v5_src_coord m ρ c h4, v5_tgt_coord m ρ c h5,
    v5_s_w1_top m ρ c, v5_s_w1_next m ρ c, v5_s_w1_last m ρ c, v5_s_b1 m ρ c, v5_s_w2 m ρ c, v5_s_b2 m ρ c, v5_s_wg m ρ c,
    v5_s_bg m ρ c, v5_wc1 m ρ c, v5_bc1 m ρ c, v5_wc2 m ρ c]
  funext i
  have hrow : rowOf (Cert.ReferenceIdeal.ReadP.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15))) (i 0) = _ :=
    funext fun q => ref_s2t (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) (i 0) q
  have hr := ref_wt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) (m ((c.tc : Thread nD τ).loc main_arg18)) (m ((c.tc : Thread nD τ).loc main_arg19)) (m ((c.tc : Thread nD τ).loc main_arg20)) (i 0) (i 1)
  rw [hrow] at hr
  exact ((congrArg (Cert.ReferenceIdeal.ReadP.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) (m ((c.tc : Thread nD τ).loc main_arg18)) (m ((c.tc : Thread nD τ).loc main_arg19)) (m ((c.tc : Thread nD τ).loc main_arg20))) (eq_ix2 i)).trans hr).symm

/-- The run ends with the source-node result at the reference's source-node update: the second node launch's array
    is the node row function of the source features and of the target-to-source messages summed per source node. -/
theorem k_src_out (c : Dev nD) (h4 : InRange ((m ((c.tc : Thread nD τ).loc main_arg4)) : IVec S320000 32)) (h5 : InRange ((m ((c.tc : Thread nD τ).loc main_arg5)) : IVec S320000 32)) :
    (V11 m ρ c main_v47 : Vec Ideal S20000x128 .f32) = Cert.ReferenceIdeal.ReadP.val_main_v126 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg16)) (m ((c.tc : Thread nD τ).loc main_arg17)) (m ((c.tc : Thread nD τ).loc main_arg25)) (m ((c.tc : Thread nD τ).loc main_arg26)) (m ((c.tc : Thread nD τ).loc main_arg27)) (m ((c.tc : Thread nD τ).loc main_arg28)) := by
  have hE : (V11 m ρ c main_v47 : Vec Ideal S20000x128 .f32) = (dat2 (F := Ideal) (V10 m ρ) c).arrAt 7 cfg2.N :=
    W11_arr m ρ c 7
  rw [hE, node2_arr (V10 m ρ) c, v10_feat m ρ c, v10_agg m ρ c, v10_w1_top m ρ c, v10_w1_next m ρ c, v10_b1 m ρ c, v10_w2 m ρ c,
    v10_b2 m ρ c, k_t2s m ρ c h4 h5]
  funext i
  have hr := ref_node_src (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg16)) (m ((c.tc : Thread nD τ).loc main_arg17)) (m ((c.tc : Thread nD τ).loc main_arg25)) (m ((c.tc : Thread nD τ).loc main_arg26)) (m ((c.tc : Thread nD τ).loc main_arg27)) (m ((c.tc : Thread nD τ).loc main_arg28)) (i 0) (i 1)
  rw [ref_agg_src] at hr
  exact ((congrArg (Cert.ReferenceIdeal.ReadP.val_main_v126 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg16)) (m ((c.tc : Thread nD τ).loc main_arg17)) (m ((c.tc : Thread nD τ).loc main_arg25)) (m ((c.tc : Thread nD τ).loc main_arg26)) (m ((c.tc : Thread nD τ).loc main_arg27)) (m ((c.tc : Thread nD τ).loc main_arg28))) (eq_ix2 i)).trans hr).symm

/-- The run ends with the target-node result at the reference's target-node update; the second node launch leaves
    the first one's output as it was. -/
theorem k_tgt_out (c : Dev nD) (h4 : InRange ((m ((c.tc : Thread nD τ).loc main_arg4)) : IVec S320000 32)) (h5 : InRange ((m ((c.tc : Thread nD τ).loc main_arg5)) : IVec S320000 32)) :
    (V11 m ρ c main_v46 : Vec Ideal S20000x128 .f32) = Cert.ReferenceIdeal.ReadP.val_main_v125 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) (m ((c.tc : Thread nD τ).loc main_arg21)) (m ((c.tc : Thread nD τ).loc main_arg22)) (m ((c.tc : Thread nD τ).loc main_arg23)) (m ((c.tc : Thread nD τ).loc main_arg24)) := by
  have hE : (V11 m ρ c main_v46 : Vec Ideal S20000x128 .f32) = (dat1 (F := Ideal) (V9 m ρ) c).arrAt 7 cfg1.N :=
    (W11_of_ne m ρ c main_v46 (by decide)).trans (W10_arr m ρ c 7)
  rw [hE, node1_arr (V9 m ρ) c, v9_feat m ρ c, v9_agg m ρ c, v9_w1_top m ρ c, v9_w1_next m ρ c, v9_b1 m ρ c, v9_w2 m ρ c,
    v9_b2 m ρ c, k_s2t m ρ c h4 h5]
  funext i
  have hr := ref_node_tgt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) (m ((c.tc : Thread nD τ).loc main_arg21)) (m ((c.tc : Thread nD τ).loc main_arg22)) (m ((c.tc : Thread nD τ).loc main_arg23)) (m ((c.tc : Thread nD τ).loc main_arg24)) (i 0) (i 1)
  rw [ref_agg_tgt] at hr
  exact ((congrArg (Cert.ReferenceIdeal.ReadP.val_main_v125 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) (m ((c.tc : Thread nD τ).loc main_arg21)) (m ((c.tc : Thread nD τ).loc main_arg22)) (m ((c.tc : Thread nD τ).loc main_arg23)) (m ((c.tc : Thread nD τ).loc main_arg24))) (eq_ix2 i)).trans hr).symm

/-- The run ends with the coordinate result at the reference's coordinate update: one function of the weighted
    translations on both sides. -/
theorem k_coord_out (c : Dev nD) (h4 : InRange ((m ((c.tc : Thread nD τ).loc main_arg4)) : IVec S320000 32)) (h5 : InRange ((m ((c.tc : Thread nD τ).loc main_arg5)) : IVec S320000 32)) :
    (V11 m ρ c main_v37 : Vec Ideal S20000x3 .f32) = Cert.ReferenceIdeal.ReadP.val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) (m ((c.tc : Thread nD τ).loc main_arg18)) (m ((c.tc : Thread nD τ).loc main_arg19)) (m ((c.tc : Thread nD τ).loc main_arg20)) := by
  rw [v11_coord m ρ c, k_wt m ρ c h4 h5, ref_coord_tail]

end Cert.Bridge

end
-- ==== Proof.PreIdx.lean ====
/-
  What the precondition says about the two edge-index arrays.

  The precondition is a conjunction, printed as one predicate over the argument arrays; its last two conjuncts say
  that every entry of the source-index array, and every entry of the target-index array, is at least 0 and below
  20000 as a signed word. Such a word is non-negative, so it reads the same signed and unsigned: its value as a
  natural number is below 20000.
-/
import proofs.«426544_j11063835754636_1_alg».proof.Defs
import proofs.«426544_j11063835754636_1_alg».proof.Proof.Gen.Pre_finite_inputs
import proofs.«426544_j11063835754636_1_alg».proof.Proof.Spec
import Idealize.ShloMosaic.Lib.ReduceAll
import Idealize.ShloMosaic.Lib.StableHlo.Predicate
import Idealize.ShloMosaic.Lib.ValueIdx

noncomputable section

namespace Cert.Bridge

open Idealize.ShloMosaic Idealize.ShloMosaic.TcCoe Idealize.ShloMosaic.ValueIdx Idealize.SL.Sem
open Cert.KernelIdeal

/-- A word that is at least 0 as a signed word has its top bit clear. -/
private theorem toNat_lt_of_sge_zero {w : BitVec 32} (h0 : IntOp.cmpi .sge w 0#32 = 1#1) : w.toNat < 2 ^ 31 := by
  unfold IntOp.cmpi at h0
  rw [StableHlo.Predicate.ofBool_eq_one_iff] at h0
  have h1 : (0 : Int) ≤ w.toInt := by simpa [BitVec.sle] using h0
  rw [BitVec.toInt_eq_toNat_cond] at h1
  split at h1 <;> omega

/-- A word in [0, 20000) as a signed word is below 20000 as a natural number. -/
private theorem toNat_lt_of_range {w : BitVec 32} (h0 : IntOp.cmpi .sge w 0#32 = 1#1) (h1 : IntOp.cmpi .slt w 20000#32 = 1#1) :
    w.toNat < 20000 :=
  (StableHlo.Predicate.slt_iff_toNat (toNat_lt_of_sge_zero h0) (by decide)).1 h1

/-- The last stretch of the predicate: its value 1 gives both ranges. -/
private theorem part8_range [Cert.Pre_finite_inputs.Facts] (a4 a5 : IVec Cert.Pre_finite_inputs.S320000 32) (v133 : IVec Cert.Pre_finite_inputs.S_ 1)
    (h : Cert.Pre_finite_inputs.fn_part8 (F := Ideal) a4 a5 v133
          (cmpi .sge a4 (broadcastInDim Cert.Pre_finite_inputs.S320000 ![] Cert.Pre_finite_inputs.Facts.bcast_S_S320000 (constantI Cert.Pre_finite_inputs.S_ 32 0#32)))
          (constantI Cert.Pre_finite_inputs.S_ 32 20000#32) ix0 = 1#1) :
    InRange a4 ∧ InRange a5 := by
  -- the scalar shape has one index
  haveI : Subsingleton Cert.Pre_finite_inputs.S_.Idx := ⟨fun a b => funext fun d => d.elim0⟩
  dsimp only [Cert.Pre_finite_inputs.fn_part8] at h
  obtain ⟨h45, h5⟩ := IntOp.andi_eq_one.1 h
  obtain ⟨-, h4⟩ := IntOp.andi_eq_one.1 h45
  refine ⟨fun e => ?_, fun e => ?_⟩
  · obtain ⟨g0, g1⟩ := IntOp.andi_eq_one.1 (Host.reduce_andi_all _ _ _ _ _ h4 (ix1 e))
    exact toNat_lt_of_range g0 g1
  · obtain ⟨g0, g1⟩ := IntOp.andi_eq_one.1 (Host.reduce_andi_all _ _ _ _ _ h5 (ix1 e))
    exact toNat_lt_of_range g0 g1

/-- Under the precondition both edge-index arrays hold node numbers. -/
theorem idx_in_range [Cert.Pre_finite_inputs.Facts] (m : (ℓ : Loc nD τ sig) → Buf (Elt Ideal) ℓ) (h : Cert.Pre_KernelIdeal m) (c : Dev nD) :
    InRange (m ((c.tc : Thread nD τ).loc main_arg4) : IVec S320000 32) ∧ InRange (m ((c.tc : Thread nD τ).loc main_arg5) : IVec S320000 32) := by
  have e := congrFun (h c) ix0
  dsimp only [Cert.Pre_finite_inputs.fn, Cert.Pre_finite_inputs.fn_part1, Cert.Pre_finite_inputs.fn_part2, Cert.Pre_finite_inputs.fn_part3,
    Cert.Pre_finite_inputs.fn_part4, Cert.Pre_finite_inputs.fn_part5, Cert.Pre_finite_inputs.fn_part6, Cert.Pre_finite_inputs.fn_part7] at e
  exact part8_range _ _ _ e

end Cert.Bridge

end
-- ==== Proof.lean ====
/-
  The message-passing layer: a Pallas program of three launches against its jnp reference, over the extended reals.

  The kernel program gathers the per-edge rows on the host, runs ONE launch over tiles of 2000 edges that computes
  both gated messages and the weighted translations, sums them into node rows and finishes the coordinates on the
  host, and runs two launches over tiles of 4000 nodes for the node updates. The reference does the same with whole
  arrays. The two differ in three places only, none of which changes a value over the extended reals:
  * the kernel contracts the 257-wide (256-wide) joined input of a first layer as the sum of its stretches' products;
  * it narrows the matrix unit's operands, which is the identity here;
  * its row look-up fills a row with a marker when the index is outside the table, where the reference's look-up
    moves the index to the nearest row. The precondition says every edge index is a node number (at least 0 and
    below 20000), which is the range of the tables both programs index and of the segments both sum into; inside
    it the marker is never used and the two look-ups read the same row.
  So each result of the kernel program is the reference's own staged function of the arguments
  (`Cert.Bridge.k_src_out`, `k_tgt_out`, `k_coord_out`), and the two runs end at equal results.

  The three frames are the two generated frame certificates and the reference's run (`Cert.Bridge.ref_run`, read off its
  operation list stretch by stretch) with its results dropped; the idealization changed nothing in the kernel (its
  ledger is empty).
-/
import proofs.«426544_j11063835754636_1_alg».proof.Defs
import proofs.«426544_j11063835754636_1_alg».proof.Proof.Gen.Kernel
import proofs.«426544_j11063835754636_1_alg».proof.Proof.Gen.Kernel.Frame
import proofs.«426544_j11063835754636_1_alg».proof.Proof.Gen.KernelIdeal
import proofs.«426544_j11063835754636_1_alg».proof.Proof.Gen.KernelIdeal.Frame
import proofs.«426544_j11063835754636_1_alg».proof.Proof.Gen.ReferenceIdeal
import proofs.«426544_j11063835754636_1_alg».proof.Proof.Gen.Pre_finite_inputs
import proofs.«426544_j11063835754636_1_alg».proof.Proof.RefRun
import proofs.«426544_j11063835754636_1_alg».proof.Proof.RefRunHand
import proofs.«426544_j11063835754636_1_alg».proof.Proof.KernelRun
import proofs.«426544_j11063835754636_1_alg».proof.Proof.KTop
import proofs.«426544_j11063835754636_1_alg».proof.Proof.PreIdx
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the four results dropped. -/
theorem frame_ri : Cert.frame_ReferenceIdeal := fun m ρ _ =>
  (θ_run Cert.ReferenceIdeal.defs _ _).mono (fun _ h c => (h c).2.2.2.2) (Cert.Bridge.ref_run m ρ)

theorem preserves : Cert.preserves_Kernel_KernelIdeal := trivial

/-- Run from memories that agree on the arguments, the two programs end at the reference's staged functions of
    the kernel's arguments: the kernel program by the chain of `Cert.Bridge`, the reference by its run
    with the arguments' agreement rewritten. -/
theorem algebraic : Cert.algebraic_KernelIdeal_ReferenceIdeal := by
  intro m ρ m' ρ' hpre hagree
  have hidx := fun c => Cert.Bridge.idx_in_range m hpre c
  refine ⟨fun c => Cert.ReferenceIdeal.ReadP.val_main_v126 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)),
    fun c => Cert.ReferenceIdeal.ReadP.val_main_v125 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)),
    fun c => (m ((c.tc : Thread Cert.KernelIdeal.nD Cert.KernelIdeal.τ).loc Cert.KernelIdeal.main_arg2)),
    fun c => Cert.ReferenceIdeal.ReadP.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · exact (θ_run Cert.KernelIdeal.defs _ _).mono (fun _ h c =>
      ⟨(h c).1.trans (Cert.Bridge.k_src_out m ρ c (hidx c).1 (hidx c).2),
       (h c).2.1.trans (Cert.Bridge.k_tgt_out m ρ c (hidx c).1 (hidx c).2),
       (h c).2.2.1.trans (Cert.KernelIdeal.Gen.W11_main_arg2 m ρ c),
       (h c).2.2.2.1.trans (Cert.Bridge.k_coord_out m ρ c (hidx c).1 (hidx c).2),
       (h c).2.2.2.2⟩) (Cert.KernelIdeal.GenRun.run_results (F := Ideal) m ρ)
  · refine (θ_run Cert.ReferenceIdeal.defs _ _).mono (fun _ h c => ⟨?_, ?_, ?_, ?_, (h c).2.2.2.2⟩)
      (Cert.Bridge.ref_run m' ρ')
    · rw [(h c).1, (hagree c).1, (hagree c).2.1, (hagree c).2.2.1, (hagree c).2.2.2.1, (hagree c).2.2.2.2.1, (hagree c).2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2.1, (hagree c).2.2.2.2.2.2.2.2.2.2.2.2.2.2.2.2.2.2.2.2.2.2.2.2.2.2.2.1, (hagree c).2.2.2.2.2.2.2.2.2.2.2.2.2.2.2.2.2.2.2.2.2.2.2.2.2.2.2.2]
    · rw [(h c).2.1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1]
    · rw [(h c).2.2.1, (hagree c).2.2.1]
    · rw [(h c).2.2.2.1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
